-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S4x128x64 : Shape := ⟨3, ![4, 128, 64]⟩
abbrev S4x64 : Shape := ⟨2, ![4, 64]⟩
abbrev S4x64x64 : Shape := ⟨3, ![4, 64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_arg1 : IVec S2x800000 32) (main_v83 : IVec S_ 1) (main_v84 : IVec S2x800000 32) : IVec S_ 1 :=
  let main_v85 : IVec S2x800000 1 := cmpi .sge main_arg1 main_v84
  let main_c_33 : IVec S_ 1 := constantI S_ 1 1#1
  let main_v86 : IVec S_ 1 := (fun x v => Host.reduce IntOp.andi x v reducesTo_S2x800000_S_d0_1 h_S_) main_v85 main_c_33
  let main_v87 : IVec S_ 1 := andi main_v83 main_v86
  let main_c_34 : IVec S_ 32 := constantI S_ 32 50000#32
  let main_v88 : IVec S2x800000 32 := broadcastInDim S2x800000 ![] bcast_S_S2x800000 main_c_34
  let main_v89 : IVec S2x800000 1 := cmpi .slt main_arg1 main_v88
  let main_c_35 : IVec S_ 1 := constantI S_ 1 1#1
  let main_v90 : IVec S_ 1 := (fun x v => Host.reduce IntOp.andi x v reducesTo_S2x800000_S_d0_1 h_S_) main_v89 main_c_35
  let main_v91 : IVec S_ 1 := andi main_v87 main_v90
  main_v91

def fn_part4 {F : FTy → Type} [FloatOps F] (main_arg1 : IVec S2x800000 32) (main_arg15 : FVec F S64 .f32) (main_arg16 : FVec F S64x64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg16
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_c_32 : IVec S_ 32 := constantI S_ 32 0#32
  let main_v84 : IVec S2x800000 32 := broadcastInDim S2x800000 ![] bcast_S_S2x800000 main_c_32
  fn_part5 (F := F) main_arg1 main_v83 main_v84

def fn_part3 {F : FTy → Type} [FloatOps F] (main_arg1 : IVec S2x800000 32) (main_arg12 : FVec F S4x64x64 .f32) (main_arg13 : FVec F S4x64 .f32) (main_arg14 : FVec F S64x64 .f32) (main_arg15 : FVec F S64 .f32) (main_arg16 : FVec F S64x64 .f32) (main_arg17 : FVec F S64 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S4x64x64 .f32 := Host.absf main_arg12
  let main_cst_20 : FVec F S_ .f32 := constant S_ .f32 0x7F800000#32
  let main_v55 : FVec F S4x64x64 .f32 := broadcastInDim S4x64x64 ![] bcast_S_S4x64x64 main_cst_20
  let main_v56 : IVec S4x64x64 1 := cmpf .olt main_v54 main_v55
  let main_c_21 : IVec S_ 1 := constantI S_ 1 1#1
  let main_v57 : IVec S_ 1 := (fun x v => Host.reduce IntOp.andi x v reducesTo_S4x64x64_S_d0_1_2 h_S_) main_v56 main_c_21
  let main_v58 : IVec S_ 1 := andi main_v53 main_v57
  let main_v59 : FVec F S4x64 .f32 := Host.absf main_arg13
  let main_cst_22 : FVec F S_ .f32 := constant S_ .f32 0x7F800000#32
  let main_v60 : FVec F S4x64 .f32 := broadcastInDim S4x64 ![] bcast_S_S4x64 main_cst_22
  let main_v61 : IVec S4x64 1 := cmpf .olt main_v59 main_v60
  let main_c_23 : IVec S_ 1 := constantI S_ 1 1#1
  let main_v62 : IVec S_ 1 := (fun x v => Host.reduce IntOp.andi x v reducesTo_S4x64_S_d0_1 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg1 main_arg15 main_arg16 main_arg17 main_v63 main_v67

def fn_part2 {F : FTy → Type} [FloatOps F] (main_arg1 : IVec S2x800000 32) (main_arg8 : FVec F S4x64x64 .f32) (main_arg9 : FVec F S4x64 .f32) (main_arg10 : FVec F S4x128x64 .f32) (main_arg11 : FVec F S4x64 .f32) (main_arg12 : FVec F S4x64x64 .f32) (main_arg13 : FVec F S4x64 .f32) (main_arg14 : FVec F S64x64 .f32) (main_arg15 : FVec F S64 .f32) (main_arg16 : FVec F S64x64 .f32) (main_arg17 : FVec F S64 .f32) (main_v33 : IVec S_ 1) : IVec S_ 1 :=
  let main_v34 : FVec F S4x64x64 .f32 := Host.absf main_arg8
  let main_cst_12 : FVec F S_ .f32 := constant S_ .f32 0x7F800000#32
  let main_v35 : FVec F S4x64x64 .f32 := broadcastInDim S4x64x64 ![] bcast_S_S4x64x64 main_cst_12
  let main_v36 : IVec S4x64x64 1 := cmpf .olt main_v34 main_v35
  let main_c_13 : IVec S_ 1 := constantI S_ 1 1#1
  let main_v37 : IVec S_ 1 := (fun x v => Host.reduce IntOp.andi x v reducesTo_S4x64x64_S_d0_1_2 h_S_) main_v36 main_c_13
  let main_v38 : IVec S_ 1 := andi main_v33 main_v37
  let main_v39 : FVec F S4x64 .f32 := Host.absf main_arg9
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  let main_v44 : FVec F S4x128x64 .f32 := Host.absf main_arg10
  let main_cst_16 : FVec F S_ .f32 := constant S_ .f32 0x7F800000#32
  let main_v45 : FVec F S4x128x64 .f32 := broadcastInDim S4x128x64 ![] bcast_S_S4x128x64 main_cst_16
  let main_v46 : IVec S4x128x64 1 := cmpf .olt main_v44 main_v45
  let main_c_17 : IVec S_ 1 := constantI S_ 1 1#1
  let main_v47 : IVec S_ 1 := (fun x v => Host.reduce IntOp.andi x v reducesTo_S4x128x64_S_d0_1_2 h_S_) main_v46 main_c_17
  let main_v48 : IVec S_ 1 := andi main_v43 main_v47
  let main_v49 : FVec F S4x64 .f32 := Host.absf main_arg11
  let main_cst_18 : FVec F S_ .f32 := constant S_ .f32 0x7F800000#32
  let main_v50 : FVec F S4x64 .f32 := broadcastInDim S4x64 ![] bcast_S_S4x64 main_cst_18
  fn_part3 (F := F) main_arg1 main_arg12 main_arg13 main_arg14 main_arg15 main_arg16 main_arg17 main_v48 main_v49 main_v50

def fn_part1 {F : FTy → Type} [FloatOps F] (main_arg1 : IVec S2x800000 32) (main_arg5 : FVec F S64 .f32) (main_arg6 : FVec F S4x128x64 .f32) (main_arg7 : FVec F S4x64 .f32) (main_arg8 : FVec F S4x64x64 .f32) (main_arg9 : FVec F S4x64 .f32) (main_arg10 : FVec F S4x128x64 .f32) (main_arg11 : FVec F S4x64 .f32) (main_arg12 : FVec F S4x64x64 .f32) (main_arg13 : FVec F S4x64 .f32) (main_arg14 : FVec F S64x64 .f32) (main_arg15 : FVec F S64 .f32) (main_arg16 : FVec F S64x64 .f32) (main_arg17 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S4x128x64 .f32 := Host.absf main_arg6
  let main_cst_8 : FVec F S_ .f32 := constant S_ .f32 0x7F800000#32
  let main_v25 : FVec F S4x128x64 .f32 := broadcastInDim S4x128x64 ![] bcast_S_S4x128x64 main_cst_8
  let main_v26 : IVec S4x128x64 1 := cmpf .olt main_v24 main_v25
  let main_c_9 : IVec S_ 1 := constantI S_ 1 1#1
  let main_v27 : IVec S_ 1 := (fun x v => Host.reduce IntOp.andi x v reducesTo_S4x128x64_S_d0_1_2 h_S_) main_v26 main_c_9
  let main_v28 : IVec S_ 1 := andi main_v23 main_v27
  let main_v29 : FVec F S4x64 .f32 := Host.absf main_arg7
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S4x128x64 .f32) (main_arg7 : FVec F S4x64 .f32) (main_arg8 : FVec F S4x64x64 .f32) (main_arg9 : FVec F S4x64 .f32) (main_arg10 : FVec F S4x128x64 .f32) (main_arg11 : FVec F S4x64 .f32) (main_arg12 : FVec F S4x64x64 .f32) (main_arg13 : FVec F S4x64 .f32) (main_arg14 : FVec F S64x64 .f32) (main_arg15 : FVec F S64 .f32) (main_arg16 : FVec F S64x64 .f32) (main_arg17 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_arg10 main_arg11 main_arg12 main_arg13 main_arg14 main_arg15 main_arg16 main_arg17 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S4x128x64 : Shape := ⟨3, ![4, 128, 64]⟩
abbrev S4x64 : Shape := ⟨2, ![4, 64]⟩
abbrev S4x64x64 : Shape := ⟨3, ![4, 64, 64]⟩
abbrev S1x800000 : Shape := ⟨2, ![1, 800000]⟩
abbrev S800000 : Shape := ⟨1, ![800000]⟩
abbrev S1x64 : Shape := ⟨2, ![1, 64]⟩
abbrev S10000x64 : Shape := ⟨2, ![10000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S800000x128 : Shape := ⟨2, ![800000, 128]⟩
abbrev S1x128x64 : Shape := ⟨3, ![1, 128, 64]⟩
abbrev S128x64 : Shape := ⟨2, ![128, 64]⟩
abbrev S1x64x64 : Shape := ⟨3, ![1, 64, 64]⟩
abbrev S32000x128 : Shape := ⟨2, ![32000, 128]⟩
abbrev S32000x64 : Shape := ⟨2, ![32000, 64]⟩
abbrev S50000x128 : Shape := ⟨2, ![50000, 128]⟩
abbrev S10000x128 : Shape := ⟨2, ![10000, 128]⟩

abbrev nBuf : Space → Nat
  | .hbm => 328
  | .vmem => 80
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S4x128x64, .f32⟩
  | 7 => ⟨S4x64, .f32⟩
  | 8 => ⟨S4x64x64, .f32⟩
  | 9 => ⟨S4x64, .f32⟩
  | 10 => ⟨S4x128x64, .f32⟩
  | 11 => ⟨S4x64, .f32⟩
  | 12 => ⟨S4x64x64, .f32⟩
  | 13 => ⟨S4x64, .f32⟩
  | 14 => ⟨S64x64, .f32⟩
  | 15 => ⟨S64, .f32⟩
  | 16 => ⟨S64x64, .f32⟩
  | 17 => ⟨S64, .f32⟩
  | 18 => ⟨S1x800000, .i32⟩
  | 19 => ⟨S800000, .i32⟩
  | 20 => ⟨S1x800000, .i32⟩
  | 21 => ⟨S800000, .i32⟩
  | 22 => ⟨S1x64, .f32⟩
  | 23 => ⟨S1x64, .f32⟩
  | 24 => ⟨S50000x64, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S1, .i32⟩
  | 34 => ⟨S_, .i32⟩
  | 35 => ⟨S800000x1, .i32⟩
  | 36 => ⟨S800000x1, .i1⟩
  | 37 => ⟨S1x1, .i32⟩
  | 38 => ⟨S800000x1, .i32⟩
  | 39 => ⟨S800000x1, .i1⟩
  | 40 => ⟨S800000x1, .i1⟩
  | 41 => ⟨S_, .i1⟩
  | 42 => ⟨S800000, .i1⟩
  | 43 => ⟨S800000x64, .f32⟩
  | 44 => ⟨S800000x64, .i1⟩
  | 45 => ⟨S_, .f32⟩
  | 46 => ⟨S800000x64, .f32⟩
  | 47 => ⟨S800000x64, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S1, .i32⟩
  | 57 => ⟨S_, .i32⟩
  | 58 => ⟨S800000x1, .i32⟩
  | 59 => ⟨S800000x1, .i1⟩
  | 60 => ⟨S1x1, .i32⟩
  | 61 => ⟨S800000x1, .i32⟩
  | 62 => ⟨S800000x1, .i1⟩
  | 63 => ⟨S800000x1, .i1⟩
  | 64 => ⟨S_, .i1⟩
  | 65 => ⟨S800000, .i1⟩
  | 66 => ⟨S800000x64, .f32⟩
  | 67 => ⟨S800000x64, .i1⟩
  | 68 => ⟨S_, .f32⟩
  | 69 => ⟨S800000x64, .f32⟩
  | 70 => ⟨S800000x64, .f32⟩
  | 71 => ⟨S800000x128, .f32⟩
  | 72 => ⟨S1x128x64, .f32⟩
  | 73 => ⟨S128x64, .f32⟩
  | 74 => ⟨S1x64, .f32⟩
  | 75 => ⟨S64, .f32⟩
  | 76 => ⟨S1x64x64, .f32⟩
  | 77 => ⟨S64x64, .f32⟩
  | 78 => ⟨S1x64, .f32⟩
  | 79 => ⟨S64, .f32⟩
  | 80 => ⟨S1x64, .f32⟩
  | 81 => ⟨S1x64, .f32⟩
  | 82 => ⟨S800000x128, .bf16⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S50000x128, .f32⟩
  | 89 => ⟨S1x128x64, .f32⟩
  | 90 => ⟨S128x64, .f32⟩
  | 91 => ⟨S1x64, .f32⟩
  | 92 => ⟨S64, .f32⟩
  | 93 => ⟨S1x64x64, .f32⟩
  | 94 => ⟨S64x64, .f32⟩
  | 95 => ⟨S1x64, .f32⟩
  | 96 => ⟨S64, .f32⟩
  | 97 => ⟨S1x64, .f32⟩
  | 98 => ⟨S1x64, .f32⟩
  | 99 => ⟨S50000x64, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S1, .i32⟩
  | 109 => ⟨S_, .i32⟩
  | 110 => ⟨S800000x1, .i32⟩
  | 111 => ⟨S800000x1, .i1⟩
  | 112 => ⟨S1x1, .i32⟩
  | 113 => ⟨S800000x1, .i32⟩
  | 114 => ⟨S800000x1, .i1⟩
  | 115 => ⟨S800000x1, .i1⟩
  | 116 => ⟨S_, .i1⟩
  | 117 => ⟨S800000, .i1⟩
  | 118 => ⟨S800000x64, .f32⟩
  | 119 => ⟨S800000x64, .i1⟩
  | 120 => ⟨S_, .f32⟩
  | 121 => ⟨S800000x64, .f32⟩
  | 122 => ⟨S800000x64, .f32⟩
  | 123 => ⟨S_, .i32⟩
  | 124 => ⟨S800000, .i32⟩
  | 125 => ⟨S800000, .i1⟩
  | 126 => ⟨S_, .i32⟩
  | 127 => ⟨S800000, .i32⟩
  | _ => ⟨S50000x64, .f32⟩

abbrev hbmTy0_1 (i : Nat) : BufTy := match i % 128 with
  | 0 => ⟨S800000, .i32⟩
  | 1 => ⟨S800000, .i32⟩
  | 2 => ⟨S800000x1, .i32⟩
  | 3 => ⟨S1, .i32⟩
  | 4 => ⟨S_, .i32⟩
  | 5 => ⟨S800000x1, .i32⟩
  | 6 => ⟨S800000x1, .i1⟩
  | 7 => ⟨S1x1, .i32⟩
  | 8 => ⟨S800000x1, .i32⟩
  | 9 => ⟨S800000x1, .i1⟩
  | 10 => ⟨S800000x1, .i1⟩
  | 11 => ⟨S_, .i1⟩
  | 12 => ⟨S800000, .i1⟩
  | 13 => ⟨S800000x64, .f32⟩
  | 14 => ⟨S800000x64, .i1⟩
  | 15 => ⟨S_, .f32⟩
  | 16 => ⟨S800000x64, .f32⟩
  | 17 => ⟨S800000x64, .f32⟩
  | 18 => ⟨S800000x128, .f32⟩
  | 19 => ⟨S1x128x64, .f32⟩
  | 20 => ⟨S128x64, .f32⟩
  | 21 => ⟨S1x64, .f32⟩
  | 22 => ⟨S64, .f32⟩
  | 23 => ⟨S1x64x64, .f32⟩
  | 24 => ⟨S64x64, .f32⟩
  | 25 => ⟨S1x64, .f32⟩
  | 26 => ⟨S64, .f32⟩
  | 27 => ⟨S1x64, .f32⟩
  | 28 => ⟨S1x64, .f32⟩
  | 29 => ⟨S800000x128, .bf16⟩
  | 30 => ⟨S800000x64, .f32⟩
  | 31 => ⟨S_, .f32⟩
  | 32 => ⟨S50000x64, .f32⟩
  | 33 => ⟨S800000x1, .i32⟩
  | 34 => ⟨S50000x64, .f32⟩
  | 35 => ⟨S50000x128, .f32⟩
  | 36 => ⟨S1x128x64, .f32⟩
  | 37 => ⟨S128x64, .f32⟩
  | 38 => ⟨S1x64, .f32⟩
  | 39 => ⟨S64, .f32⟩
  | 40 => ⟨S1x64x64, .f32⟩
  | 41 => ⟨S64x64, .f32⟩
  | 42 => ⟨S1x64, .f32⟩
  | 43 => ⟨S64, .f32⟩
  | 44 => ⟨S1x64, .f32⟩
  | 45 => ⟨S1x64, .f32⟩
  | 46 => ⟨S50000x64, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S1, .i32⟩
  | 56 => ⟨S_, .i32⟩
  | 57 => ⟨S800000x1, .i32⟩
  | 58 => ⟨S800000x1, .i1⟩
  | 59 => ⟨S1x1, .i32⟩
  | 60 => ⟨S800000x1, .i32⟩
  | 61 => ⟨S800000x1, .i1⟩
  | 62 => ⟨S800000x1, .i1⟩
  | 63 => ⟨S_, .i1⟩
  | 64 => ⟨S800000, .i1⟩
  | 65 => ⟨S800000x64, .f32⟩
  | 66 => ⟨S800000x64, .i1⟩
  | 67 => ⟨S_, .f32⟩
  | 68 => ⟨S800000x64, .f32⟩
  | 69 => ⟨S800000x64, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S1, .i32⟩
  | 79 => ⟨S_, .i32⟩
  | 80 => ⟨S800000x1, .i32⟩
  | 81 => ⟨S800000x1, .i1⟩
  | 82 => ⟨S1x1, .i32⟩
  | 83 => ⟨S800000x1, .i32⟩
  | 84 => ⟨S800000x1, .i1⟩
  | 85 => ⟨S800000x1, .i1⟩
  | 86 => ⟨S_, .i1⟩
  | 87 => ⟨S800000, .i1⟩
  | 88 => ⟨S800000x64, .f32⟩
  | 89 => ⟨S800000x64, .i1⟩
  | 90 => ⟨S_, .f32⟩
  | 91 => ⟨S800000x64, .f32⟩
  | 92 => ⟨S800000x64, .f32⟩
  | 93 => ⟨S800000x128, .f32⟩
  | 94 => ⟨S1x128x64, .f32⟩
  | 95 => ⟨S128x64, .f32⟩
  | 96 => ⟨S1x64, .f32⟩
  | 97 => ⟨S64, .f32⟩
  | 98 => ⟨S1x64x64, .f32⟩
  | 99 => ⟨S64x64, .f32⟩
  | 100 => ⟨S1x64, .f32⟩
  | 101 => ⟨S64, .f32⟩
  | 102 => ⟨S1x64, .f32⟩
  | 103 => ⟨S1x64, .f32⟩
  | 104 => ⟨S800000x128, .bf16⟩
  | 105 => ⟨S800000x64, .f32⟩
  | 106 => ⟨S_, .f32⟩
  | 107 => ⟨S50000x64, .f32⟩
  | 108 => ⟨S800000x1, .i32⟩
  | 109 => ⟨S50000x64, .f32⟩
  | 110 => ⟨S50000x128, .f32⟩
  | 111 => ⟨S1x128x64, .f32⟩
  | 112 => ⟨S128x64, .f32⟩
  | 113 => ⟨S1x64, .f32⟩
  | 114 => ⟨S64, .f32⟩
  | 115 => ⟨S1x64x64, .f32⟩
  | 116 => ⟨S64x64, .f32⟩
  | 117 => ⟨S1x64, .f32⟩
  | 118 => ⟨S64, .f32⟩
  | 119 => ⟨S1x64, .f32⟩
  | 120 => ⟨S1x64, .f32⟩
  | 121 => ⟨S50000x64, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x64, .f32⟩

abbrev hbmTy0_2 (i : Nat) : BufTy := match i % 128 with
  | 0 => ⟨S800000, .i32⟩
  | 1 => ⟨S800000x1, .i32⟩
  | 2 => ⟨S1, .i32⟩
  | 3 => ⟨S_, .i32⟩
  | 4 => ⟨S800000x1, .i32⟩
  | 5 => ⟨S800000x1, .i1⟩
  | 6 => ⟨S1x1, .i32⟩
  | 7 => ⟨S800000x1, .i32⟩
  | 8 => ⟨S800000x1, .i1⟩
  | 9 => ⟨S800000x1, .i1⟩
  | 10 => ⟨S_, .i1⟩
  | 11 => ⟨S800000, .i1⟩
  | 12 => ⟨S800000x64, .f32⟩
  | 13 => ⟨S800000x64, .i1⟩
  | 14 => ⟨S_, .f32⟩
  | 15 => ⟨S800000x64, .f32⟩
  | 16 => ⟨S800000x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S1, .i32⟩
  | 26 => ⟨S_, .i32⟩
  | 27 => ⟨S800000x1, .i32⟩
  | 28 => ⟨S800000x1, .i1⟩
  | 29 => ⟨S1x1, .i32⟩
  | 30 => ⟨S800000x1, .i32⟩
  | 31 => ⟨S800000x1, .i1⟩
  | 32 => ⟨S800000x1, .i1⟩
  | 33 => ⟨S_, .i1⟩
  | 34 => ⟨S800000, .i1⟩
  | 35 => ⟨S800000x64, .f32⟩
  | 36 => ⟨S800000x64, .i1⟩
  | 37 => ⟨S_, .f32⟩
  | 38 => ⟨S800000x64, .f32⟩
  | 39 => ⟨S800000x64, .f32⟩
  | 40 => ⟨S800000x128, .f32⟩
  | 41 => ⟨S1x128x64, .f32⟩
  | 42 => ⟨S128x64, .f32⟩
  | 43 => ⟨S1x64, .f32⟩
  | 44 => ⟨S64, .f32⟩
  | 45 => ⟨S1x64x64, .f32⟩
  | 46 => ⟨S64x64, .f32⟩
  | 47 => ⟨S1x64, .f32⟩
  | 48 => ⟨S64, .f32⟩
  | 49 => ⟨S1x64, .f32⟩
  | 50 => ⟨S1x64, .f32⟩
  | 51 => ⟨S800000x128, .bf16⟩
  | 52 => ⟨S800000x64, .f32⟩
  | 53 => ⟨S_, .f32⟩
  | 54 => ⟨S50000x64, .f32⟩
  | 55 => ⟨S800000x1, .i32⟩
  | 56 => ⟨S50000x64, .f32⟩
  | 57 => ⟨S50000x128, .f32⟩
  | 58 => ⟨S1x128x64, .f32⟩
  | 59 => ⟨S128x64, .f32⟩
  | 60 => ⟨S1x64, .f32⟩
  | 61 => ⟨S64, .f32⟩
  | 62 => ⟨S1x64x64, .f32⟩
  | 63 => ⟨S64x64, .f32⟩
  | 64 => ⟨S1x64, .f32⟩
  | 65 => ⟨S64, .f32⟩
  | 66 => ⟨S1x64, .f32⟩
  | 67 => ⟨S1x64, .f32⟩
  | 68 => ⟨S50000x64, .f32⟩
  | 69 => ⟨S1x64, .f32⟩
  | 70 => ⟨S1x64, .f32⟩
  | 71 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S32000x128, .bf16⟩
  | .local _ .vmem, ⟨9, _⟩ => ⟨S32000x128, .bf16⟩
  | .local _ .vmem, ⟨10, _⟩ => ⟨S128x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S32000x64, .f32⟩
  | .local _ .vmem, ⟨15, _⟩ => ⟨S32000x64, .f32⟩
  | .local _ .vmem, ⟨16, _⟩ => ⟨S10000x128, .f32⟩
  | .local _ .vmem, ⟨17, _⟩ => ⟨S10000x128, .f32⟩
  | .local _ .vmem, ⟨18, _⟩ => ⟨S128x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S32000x128, .bf16⟩
  | .local _ .vmem, ⟨25, _⟩ => ⟨S32000x128, .bf16⟩
  | .local _ .vmem, ⟨26, _⟩ => ⟨S128x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S32000x64, .f32⟩
  | .local _ .vmem, ⟨31, _⟩ => ⟨S32000x64, .f32⟩
  | .local _ .vmem, ⟨32, _⟩ => ⟨S10000x128, .f32⟩
  | .local _ .vmem, ⟨33, _⟩ => ⟨S10000x128, .f32⟩
  | .local _ .vmem, ⟨34, _⟩ => ⟨S128x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S32000x128, .bf16⟩
  | .local _ .vmem, ⟨41, _⟩ => ⟨S32000x128, .bf16⟩
  | .local _ .vmem, ⟨42, _⟩ => ⟨S128x64, .f32⟩
  | .local _ .vmem, ⟨43, _⟩ => ⟨S1x64, .f32⟩
  | .local _ .vmem, ⟨44, _⟩ => ⟨S64x64, .f32⟩
  | .local _ .vmem, ⟨45, _⟩ => ⟨S1x64, .f32⟩
  | .local _ .vmem, ⟨46, _⟩ => ⟨S32000x64, .f32⟩
  | .local _ .vmem, ⟨47, _⟩ => ⟨S32000x64, .f32⟩
  | .local _ .vmem, ⟨48, _⟩ => ⟨S10000x128, .f32⟩
  | .local _ .vmem, ⟨49, _⟩ => ⟨S10000x128, .f32⟩
  | .local _ .vmem, ⟨50, _⟩ => ⟨S128x64, .f32⟩
  | .local _ .vmem, ⟨51, _⟩ => ⟨S1x64, .f32⟩
  | .local _ .vmem, ⟨52, _⟩ => ⟨S64x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S32000x128, .bf16⟩
  | .local _ .vmem, ⟨57, _⟩ => ⟨S32000x128, .bf16⟩
  | .local _ .vmem, ⟨58, _⟩ => ⟨S128x64, .f32⟩
  | .local _ .vmem, ⟨59, _⟩ => ⟨S1x64, .f32⟩
  | .local _ .vmem, ⟨60, _⟩ => ⟨S64x64, .f32⟩
  | .local _ .vmem, ⟨61, _⟩ => ⟨S1x64, .f32⟩
  | .local _ .vmem, ⟨62, _⟩ => ⟨S32000x64, .f32⟩
  | .local _ .vmem, ⟨63, _⟩ => ⟨S32000x64, .f32⟩
  | .local _ .vmem, ⟨64, _⟩ => ⟨S10000x128, .f32⟩
  | .local _ .vmem, ⟨65, _⟩ => ⟨S10000x128, .f32⟩
  | .local _ .vmem, ⟨66, _⟩ => ⟨S128x64, .f32⟩
  | .local _ .vmem, ⟨67, _⟩ => ⟨S1x64, .f32⟩
  | .local _ .vmem, ⟨68, _⟩ => ⟨S64x64, .f32⟩
  | .local _ .vmem, ⟨69, _⟩ => ⟨S1x64, .f32⟩
  | .local _ .vmem, ⟨70, _⟩ => ⟨S10000x64, .f32⟩
  | .local _ .vmem, ⟨71, _⟩ => ⟨S10000x64, .f32⟩
  | .local _ .vmem, ⟨72, _⟩ => ⟨S10000x64, .f32⟩
  | .local _ .vmem, ⟨73, _⟩ => ⟨S10000x64, .f32⟩
  | .local _ .vmem, ⟨74, _⟩ => ⟨S64x64, .f32⟩
  | .local _ .vmem, ⟨75, _⟩ => ⟨S1x64, .f32⟩
  | .local _ .vmem, ⟨76, _⟩ => ⟨S64x64, .f32⟩
  | .local _ .vmem, ⟨77, _⟩ => ⟨S1x64, .f32⟩
  | .local _ .vmem, ⟨78, _⟩ => ⟨S10000x64, .f32⟩
  | .local _ .vmem, ⟨79, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v7 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v8 : Ref sig .tc := ⟨.hbm, 70, rfl⟩
abbrev main_v9 : Ref sig .tc := ⟨.hbm, 71, rfl⟩
abbrev main_v10 : Ref sig .tc := ⟨.hbm, 72, rfl⟩
abbrev main_v11 : Ref sig .tc := ⟨.hbm, 73, rfl⟩
abbrev main_v12 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_cst : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_call2_c : Ref sig .tc := ⟨.hbm, 100, rfl⟩
abbrev main_call2_v0 : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_c_1 : Ref sig .tc := ⟨.hbm, 108, rfl⟩
abbrev main_call2_c_2 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_3 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_call2_cst : Ref sig .tc := ⟨.hbm, 120, rfl⟩
abbrev main_call2_v15 : Ref sig .tc := ⟨.hbm, 121, rfl⟩
abbrev main_v37 : Ref sig .tc := ⟨.hbm, 122, rfl⟩
abbrev main_call3_c : Ref sig .tc := ⟨.hbm, 123, rfl⟩
abbrev main_call3_v0 : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_c_1 : Ref sig .tc := ⟨.hbm, 131, rfl⟩
abbrev main_call3_c_2 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_c_3 : Ref sig .tc := ⟨.hbm, 139, rfl⟩
abbrev main_call3_v12 : Ref sig .tc := ⟨.hbm, 140, rfl⟩
abbrev main_call3_v13 : Ref sig .tc := ⟨.hbm, 141, rfl⟩
abbrev main_call3_v14 : Ref sig .tc := ⟨.hbm, 142, rfl⟩
abbrev main_call3_cst : Ref sig .tc := ⟨.hbm, 143, rfl⟩
abbrev main_call3_v15 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_v49 : Ref sig .tc := ⟨.hbm, 156, rfl⟩
abbrev main_v50 : Ref sig .tc := ⟨.hbm, 157, rfl⟩
abbrev main_v51 : Ref sig .tc := ⟨.hbm, 158, rfl⟩
abbrev main_cst_0 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_call4_c : Ref sig .tc := ⟨.hbm, 175, rfl⟩
abbrev main_call4_v0 : Ref sig .tc := ⟨.hbm, 176, rfl⟩
abbrev main_call4_v1 : Ref sig .tc := ⟨.hbm, 177, rfl⟩
abbrev main_call4_c_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_c_1 : Ref sig .tc := ⟨.hbm, 183, rfl⟩
abbrev main_call4_c_2 : Ref sig .tc := ⟨.hbm, 184, rfl⟩
abbrev main_call4_v6 : Ref sig .tc := ⟨.hbm, 185, rfl⟩
abbrev main_call4_v7 : Ref sig .tc := ⟨.hbm, 186, rfl⟩
abbrev main_call4_v8 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_c_3 : Ref sig .tc := ⟨.hbm, 191, rfl⟩
abbrev main_call4_v12 : Ref sig .tc := ⟨.hbm, 192, rfl⟩
abbrev main_call4_v13 : Ref sig .tc := ⟨.hbm, 193, rfl⟩
abbrev main_call4_v14 : Ref sig .tc := ⟨.hbm, 194, rfl⟩
abbrev main_call4_cst : Ref sig .tc := ⟨.hbm, 195, rfl⟩
abbrev main_call4_v15 : Ref sig .tc := ⟨.hbm, 196, rfl⟩
abbrev main_v67 : Ref sig .tc := ⟨.hbm, 197, rfl⟩
abbrev main_call5_c : Ref sig .tc := ⟨.hbm, 198, rfl⟩
abbrev main_call5_v0 : Ref sig .tc := ⟨.hbm, 199, rfl⟩
abbrev main_call5_v1 : Ref sig .tc := ⟨.hbm, 200, rfl⟩
abbrev main_call5_c_0 : Ref sig .tc := ⟨.hbm, 201, rfl⟩
abbrev main_call5_v2 : Ref sig .tc := ⟨.hbm, 202, rfl⟩
abbrev main_call5_v3 : Ref sig .tc := ⟨.hbm, 203, rfl⟩
abbrev main_call5_v4 : Ref sig .tc := ⟨.hbm, 204, rfl⟩
abbrev main_call5_v5 : Ref sig .tc := ⟨.hbm, 205, rfl⟩
abbrev main_call5_c_1 : Ref sig .tc := ⟨.hbm, 206, rfl⟩
abbrev main_call5_c_2 : Ref sig .tc := ⟨.hbm, 207, rfl⟩
abbrev main_call5_v6 : Ref sig .tc := ⟨.hbm, 208, rfl⟩
abbrev main_call5_v7 : Ref sig .tc := ⟨.hbm, 209, rfl⟩
abbrev main_call5_v8 : Ref sig .tc := ⟨.hbm, 210, rfl⟩
abbrev main_call5_v9 : Ref sig .tc := ⟨.hbm, 211, rfl⟩
abbrev main_call5_v10 : Ref sig .tc := ⟨.hbm, 212, rfl⟩
abbrev main_call5_v11 : Ref sig .tc := ⟨.hbm, 213, rfl⟩
abbrev main_call5_c_3 : Ref sig .tc := ⟨.hbm, 214, rfl⟩
abbrev main_call5_v12 : Ref sig .tc := ⟨.hbm, 215, rfl⟩
abbrev main_call5_v13 : Ref sig .tc := ⟨.hbm, 216, rfl⟩
abbrev main_call5_v14 : Ref sig .tc := ⟨.hbm, 217, rfl⟩
abbrev main_call5_cst : Ref sig .tc := ⟨.hbm, 218, rfl⟩
abbrev main_call5_v15 : Ref sig .tc := ⟨.hbm, 219, rfl⟩
abbrev main_v68 : Ref sig .tc := ⟨.hbm, 220, rfl⟩
abbrev main_v69 : Ref sig .tc := ⟨.hbm, 221, rfl⟩
abbrev main_v70 : Ref sig .tc := ⟨.hbm, 222, rfl⟩
abbrev main_v71 : Ref sig .tc := ⟨.hbm, 223, rfl⟩
abbrev main_v72 : Ref sig .tc := ⟨.hbm, 224, rfl⟩
abbrev main_v73 : Ref sig .tc := ⟨.hbm, 225, rfl⟩
abbrev main_v74 : Ref sig .tc := ⟨.hbm, 226, rfl⟩
abbrev main_v75 : Ref sig .tc := ⟨.hbm, 227, rfl⟩
abbrev main_v76 : Ref sig .tc := ⟨.hbm, 228, rfl⟩
abbrev main_v77 : Ref sig .tc := ⟨.hbm, 229, rfl⟩
abbrev main_v78 : Ref sig .tc := ⟨.hbm, 230, rfl⟩
abbrev main_v79 : Ref sig .tc := ⟨.hbm, 231, rfl⟩
abbrev main_v80 : Ref sig .tc := ⟨.hbm, 232, rfl⟩
abbrev main_v81 : Ref sig .tc := ⟨.hbm, 233, rfl⟩
abbrev main_cst_1 : Ref sig .tc := ⟨.hbm, 234, rfl⟩
abbrev main_v82 : Ref sig .tc := ⟨.hbm, 235, rfl⟩
abbrev main_v83 : Ref sig .tc := ⟨.hbm, 236, rfl⟩
abbrev main_v84 : Ref sig .tc := ⟨.hbm, 237, rfl⟩
abbrev main_v85 : Ref sig .tc := ⟨.hbm, 238, rfl⟩
abbrev main_v86 : Ref sig .tc := ⟨.hbm, 239, rfl⟩
abbrev main_v87 : Ref sig .tc := ⟨.hbm, 240, rfl⟩
abbrev main_v88 : Ref sig .tc := ⟨.hbm, 241, rfl⟩
abbrev main_v89 : Ref sig .tc := ⟨.hbm, 242, rfl⟩
abbrev main_v90 : Ref sig .tc := ⟨.hbm, 243, rfl⟩
abbrev main_v91 : Ref sig .tc := ⟨.hbm, 244, rfl⟩
abbrev main_v92 : Ref sig .tc := ⟨.hbm, 245, rfl⟩
abbrev main_v93 : Ref sig .tc := ⟨.hbm, 246, rfl⟩
abbrev main_v94 : Ref sig .tc := ⟨.hbm, 247, rfl⟩
abbrev main_v95 : Ref sig .tc := ⟨.hbm, 248, rfl⟩
abbrev main_v96 : Ref sig .tc := ⟨.hbm, 249, rfl⟩
abbrev main_call6_c : Ref sig .tc := ⟨.hbm, 250, rfl⟩
abbrev main_call6_v0 : Ref sig .tc := ⟨.hbm, 251, rfl⟩
abbrev main_call6_v1 : Ref sig .tc := ⟨.hbm, 252, rfl⟩
abbrev main_call6_c_0 : Ref sig .tc := ⟨.hbm, 253, rfl⟩
abbrev main_call6_v2 : Ref sig .tc := ⟨.hbm, 254, rfl⟩
abbrev main_call6_v3 : Ref sig .tc := ⟨.hbm, 255, rfl⟩
abbrev main_call6_v4 : Ref sig .tc := ⟨.hbm, 256, rfl⟩
abbrev main_call6_v5 : Ref sig .tc := ⟨.hbm, 257, rfl⟩
abbrev main_call6_c_1 : Ref sig .tc := ⟨.hbm, 258, rfl⟩
abbrev main_call6_c_2 : Ref sig .tc := ⟨.hbm, 259, rfl⟩
abbrev main_call6_v6 : Ref sig .tc := ⟨.hbm, 260, rfl⟩
abbrev main_call6_v7 : Ref sig .tc := ⟨.hbm, 261, rfl⟩
abbrev main_call6_v8 : Ref sig .tc := ⟨.hbm, 262, rfl⟩
abbrev main_call6_v9 : Ref sig .tc := ⟨.hbm, 263, rfl⟩
abbrev main_call6_v10 : Ref sig .tc := ⟨.hbm, 264, rfl⟩
abbrev main_call6_v11 : Ref sig .tc := ⟨.hbm, 265, rfl⟩
abbrev main_call6_c_3 : Ref sig .tc := ⟨.hbm, 266, rfl⟩
abbrev main_call6_v12 : Ref sig .tc := ⟨.hbm, 267, rfl⟩
abbrev main_call6_v13 : Ref sig .tc := ⟨.hbm, 268, rfl⟩
abbrev main_call6_v14 : Ref sig .tc := ⟨.hbm, 269, rfl⟩
abbrev main_call6_cst : Ref sig .tc := ⟨.hbm, 270, rfl⟩
abbrev main_call6_v15 : Ref sig .tc := ⟨.hbm, 271, rfl⟩
abbrev main_v97 : Ref sig .tc := ⟨.hbm, 272, rfl⟩
abbrev main_call7_c : Ref sig .tc := ⟨.hbm, 273, rfl⟩
abbrev main_call7_v0 : Ref sig .tc := ⟨.hbm, 274, rfl⟩
abbrev main_call7_v1 : Ref sig .tc := ⟨.hbm, 275, rfl⟩
abbrev main_call7_c_0 : Ref sig .tc := ⟨.hbm, 276, rfl⟩
abbrev main_call7_v2 : Ref sig .tc := ⟨.hbm, 277, rfl⟩
abbrev main_call7_v3 : Ref sig .tc := ⟨.hbm, 278, rfl⟩
abbrev main_call7_v4 : Ref sig .tc := ⟨.hbm, 279, rfl⟩
abbrev main_call7_v5 : Ref sig .tc := ⟨.hbm, 280, rfl⟩
abbrev main_call7_c_1 : Ref sig .tc := ⟨.hbm, 281, rfl⟩
abbrev main_call7_c_2 : Ref sig .tc := ⟨.hbm, 282, rfl⟩
abbrev main_call7_v6 : Ref sig .tc := ⟨.hbm, 283, rfl⟩
abbrev main_call7_v7 : Ref sig .tc := ⟨.hbm, 284, rfl⟩
abbrev main_call7_v8 : Ref sig .tc := ⟨.hbm, 285, rfl⟩
abbrev main_call7_v9 : Ref sig .tc := ⟨.hbm, 286, rfl⟩
abbrev main_call7_v10 : Ref sig .tc := ⟨.hbm, 287, rfl⟩
abbrev main_call7_v11 : Ref sig .tc := ⟨.hbm, 288, rfl⟩
abbrev main_call7_c_3 : Ref sig .tc := ⟨.hbm, 289, rfl⟩
abbrev main_call7_v12 : Ref sig .tc := ⟨.hbm, 290, rfl⟩
abbrev main_call7_v13 : Ref sig .tc := ⟨.hbm, 291, rfl⟩
abbrev main_call7_v14 : Ref sig .tc := ⟨.hbm, 292, rfl⟩
abbrev main_call7_cst : Ref sig .tc := ⟨.hbm, 293, rfl⟩
abbrev main_call7_v15 : Ref sig .tc := ⟨.hbm, 294, rfl⟩
abbrev main_v98 : Ref sig .tc := ⟨.hbm, 295, rfl⟩
abbrev main_v99 : Ref sig .tc := ⟨.hbm, 296, rfl⟩
abbrev main_v100 : Ref sig .tc := ⟨.hbm, 297, rfl⟩
abbrev main_v101 : Ref sig .tc := ⟨.hbm, 298, rfl⟩
abbrev main_v102 : Ref sig .tc := ⟨.hbm, 299, rfl⟩
abbrev main_v103 : Ref sig .tc := ⟨.hbm, 300, rfl⟩
abbrev main_v104 : Ref sig .tc := ⟨.hbm, 301, rfl⟩
abbrev main_v105 : Ref sig .tc := ⟨.hbm, 302, rfl⟩
abbrev main_v106 : Ref sig .tc := ⟨.hbm, 303, rfl⟩
abbrev main_v107 : Ref sig .tc := ⟨.hbm, 304, rfl⟩
abbrev main_v108 : Ref sig .tc := ⟨.hbm, 305, rfl⟩
abbrev main_v109 : Ref sig .tc := ⟨.hbm, 306, rfl⟩
abbrev main_v110 : Ref sig .tc := ⟨.hbm, 307, rfl⟩
abbrev main_v111 : Ref sig .tc := ⟨.hbm, 308, rfl⟩
abbrev main_cst_2 : Ref sig .tc := ⟨.hbm, 309, rfl⟩
abbrev main_v112 : Ref sig .tc := ⟨.hbm, 310, rfl⟩
abbrev main_v113 : Ref sig .tc := ⟨.hbm, 311, rfl⟩
abbrev main_v114 : Ref sig .tc := ⟨.hbm, 312, rfl⟩
abbrev main_v115 : Ref sig .tc := ⟨.hbm, 313, rfl⟩
abbrev main_v116 : Ref sig .tc := ⟨.hbm, 314, rfl⟩
abbrev main_v117 : Ref sig .tc := ⟨.hbm, 315, rfl⟩
abbrev main_v118 : Ref sig .tc := ⟨.hbm, 316, rfl⟩
abbrev main_v119 : Ref sig .tc := ⟨.hbm, 317, rfl⟩
abbrev main_v120 : Ref sig .tc := ⟨.hbm, 318, rfl⟩
abbrev main_v121 : Ref sig .tc := ⟨.hbm, 319, rfl⟩
abbrev main_v122 : Ref sig .tc := ⟨.hbm, 320, rfl⟩
abbrev main_v123 : Ref sig .tc := ⟨.hbm, 321, rfl⟩
abbrev main_v124 : Ref sig .tc := ⟨.hbm, 322, rfl⟩
abbrev main_v125 : Ref sig .tc := ⟨.hbm, 323, rfl⟩
abbrev main_v126 : Ref sig .tc := ⟨.hbm, 324, rfl⟩
abbrev main_v127 : Ref sig .tc := ⟨.hbm, 325, rfl⟩
abbrev main_v128 : Ref sig .tc := ⟨.hbm, 326, rfl⟩
abbrev main_v129 : Ref sig .tc := ⟨.hbm, 327, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg4_0 : Ref sig .tc := ⟨.vmem, 53, rfl⟩
abbrev cc6_stg5_0 : Ref sig .tc := ⟨.vmem, 54, rfl⟩
abbrev cc6_stg5_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg2_0 : Ref sig .tc := ⟨.vmem, 59, rfl⟩
abbrev cc7_stg3_0 : Ref sig .tc := ⟨.vmem, 60, rfl⟩
abbrev cc7_stg4_0 : Ref sig .tc := ⟨.vmem, 61, rfl⟩
abbrev cc7_stg5_0 : Ref sig .tc := ⟨.vmem, 62, rfl⟩
abbrev cc7_stg5_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg2_0 : Ref sig .tc := ⟨.vmem, 75, rfl⟩
abbrev cc9_stg3_0 : Ref sig .tc := ⟨.vmem, 76, rfl⟩
abbrev cc9_stg4_0 : Ref sig .tc := ⟨.vmem, 77, rfl⟩
abbrev cc9_stg5_0 : Ref sig .tc := ⟨.vmem, 78, rfl⟩
abbrev cc9_stg5_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem4_0 : DmaSem sig := 53
abbrev cc6_sem5_0 : DmaSem sig := 54
abbrev cc6_sem5_1 : DmaSem sig := 55
abbrev cc7_sem0_0 : DmaSem sig := 56
abbrev cc7_sem0_1 : DmaSem sig := 57
abbrev cc7_sem1_0 : DmaSem sig := 58
abbrev cc7_sem2_0 : DmaSem sig := 59
abbrev cc7_sem3_0 : DmaSem sig := 60
abbrev cc7_sem4_0 : DmaSem sig := 61
abbrev cc7_sem5_0 : DmaSem sig := 62
abbrev cc7_sem5_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem2_0 : DmaSem sig := 75
abbrev cc9_sem3_0 : DmaSem sig := 76
abbrev cc9_sem4_0 : DmaSem sig := 77
abbrev cc9_sem5_0 : DmaSem sig := 78
abbrev cc9_sem5_1 : DmaSem sig := 79

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S32000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S32000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S32000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S32000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S32000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S32000x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S32000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  concatenates_S800000x64_S800000x64_S800000x128_d1 : Shape.Concatenates [S800000x64, S800000x64] S800000x128 1
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  bitsLt_bf16_f32 : FTy.bits .bf16 < FTy.bits .f32
  inb_S32000x128_S32000x128_0_0 : ∀ a, (![0, 0] : Fin 2 → Nat) a + S32000x128.size a ≤ S32000x128.size a
  h_S32000x128 : 0 < S32000x128.numel
  shapeCasts_S32000x128_S32000x128 : S32000x128.ShapeCasts S32000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S64x64_S64x64 : S64x64.ShapeCasts S64x64
  broadcasts_S1x64_S32000x64 : S1x64.Broadcasts S32000x64
  inb_S32000x64_S32000x64_0_0 : ∀ a, (![0, 0] : Fin 2 → Nat) a + S32000x64.size a ≤ S32000x64.size a
  h_S32000x64 : 0 < S32000x64.numel
  bcast_S_S50000x64 : S_.BroadcastsInDim S50000x64 (![] : Fin 0 → Fin S50000x64.rank)
  concatenates_S50000x64_S50000x64_S50000x128_d1 : Shape.Concatenates [S50000x64, S50000x64] S50000x128 1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  slices_S4x128x64_S1x128x64_1_0_0 : S4x128x64.Slices ![1, 0, 0] S1x128x64
  slices_S4x64_S1x64_1_0 : S4x64.Slices ![1, 0] S1x64
  slices_S4x64x64_S1x64x64_1_0_0 : S4x64x64.Slices ![1, 0, 0] S1x64x64
  slices_S4x128x64_S1x128x64_2_0_0 : S4x128x64.Slices ![2, 0, 0] S1x128x64
  slices_S4x64_S1x64_2_0 : S4x64.Slices ![2, 0] S1x64
  slices_S4x64x64_S1x64x64_2_0_0 : S4x64x64.Slices ![2, 0, 0] S1x64x64
  slices_S4x128x64_S1x128x64_3_0_0 : S4x128x64.Slices ![3, 0, 0] S1x128x64
  slices_S4x64_S1x64_3_0 : S4x64.Slices ![3, 0] S1x64
  slices_S4x64x64_S1x64x64_3_0_0 : S4x64x64.Slices ![3, 0, 0] S1x64x64
  shapeCasts_S10000x64_S10000x64 : S10000x64.ShapeCasts S10000x64
  dot_S10000x64_S64x64_S10000x64_1_0_0_1_n_n_wf : DotDims.WF S10000x64 S64x64 S10000x64 [1] [0] [0] [1] [] []
  gather_S50000x64_S800000x1_S800000x64_1_0_n_n_0_1_164_wf : GatherDims.WF S50000x64 S800000x1 S800000x64 [1] [0] [] [0] [] 1 ![1, 64]
  dot_S32000x128_S128x64_S32000x64_1_0_0_1_n_n_wf : DotDims.WF S32000x128 S128x64 S32000x64 [1] [0] [0] [1] [] []
  dot_S32000x64_S64x64_S32000x64_1_0_0_1_n_n_wf : DotDims.WF S32000x64 S64x64 S32000x64 [1] [0] [0] [1] [] []
  scatter_S50000x64_S800000x1_S800000x64_1_0_0_1_wf : ScatterDims.WF S50000x64 S800000x1 S800000x64 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32000x128.size a ≤ S800000x128.size a
  hwx1_0 : ∀ i : grid1.Coords, EltTy.bits .bf16 = 32 ∨ (Rect.block (s := S800000x128) S32000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S32000x64.size a ≤ S800000x64.size a
  hwx1_5 : ∀ i : grid1.Coords, EltTy.bits .f32 = 32 ∨ (Rect.block (s := S800000x64) S32000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S32000x128.size a ≤ S800000x128.size a
  hwx3_0 : ∀ i : grid3.Coords, EltTy.bits .bf16 = 32 ∨ (Rect.block (s := S800000x128) S32000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S32000x64.size a ≤ S800000x64.size a
  hwx3_5 : ∀ i : grid3.Coords, EltTy.bits .f32 = 32 ∨ (Rect.block (s := S800000x64) S32000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S50000x64.size a
  hwx4_5 : ∀ i : grid4.Coords, EltTy.bits .f32 = 32 ∨ (Rect.block (s := S50000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S32000x128.size a ≤ S800000x128.size a
  hwx5_0 : ∀ i : grid5.Coords, EltTy.bits .bf16 = 32 ∨ (Rect.block (s := S800000x128) S32000x128.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S32000x64.size a ≤ S800000x64.size a
  hwx5_5 : ∀ i : grid5.Coords, EltTy.bits .f32 = 32 ∨ (Rect.block (s := S800000x64) S32000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S50000x64.size a
  hwx6_5 : ∀ i : grid6.Coords, EltTy.bits .f32 = 32 ∨ (Rect.block (s := S50000x64) S10000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S32000x128.size a ≤ S800000x128.size a
  hwx7_0 : ∀ i : grid7.Coords, EltTy.bits .bf16 = 32 ∨ (Rect.block (s := S800000x128) S32000x128.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S32000x64.size a ≤ S800000x64.size a
  hwx7_5 : ∀ i : grid7.Coords, EltTy.bits .f32 = 32 ∨ (Rect.block (s := S800000x64) S32000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S50000x128.size a
  hwx8_0 : ∀ i : grid8.Coords, EltTy.bits .f32 = 32 ∨ (Rect.block (s := S50000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x64.size a ≤ S128x64.size a
  hwx8_1 : ∀ i : grid8.Coords, EltTy.bits .f32 = 32 ∨ (Rect.block (s := S128x64) S128x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S50000x64.size a
  hwx8_5 : ∀ i : grid8.Coords, EltTy.bits .f32 = 32 ∨ (Rect.block (s := S50000x64) S10000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S50000x64.size a
  hwx9_0 : ∀ i : grid9.Coords, EltTy.bits .f32 = 32 ∨ (Rect.block (s := S50000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x64.size a ≤ S50000x64.size a
  hwx9_5 : ∀ i : grid9.Coords, EltTy.bits .f32 = 32 ∨ (Rect.block (s := S50000x64) S10000x64.size (cc9_transform_5 i) (hinb9_5 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S32000x128_S128x64_S32000x64_1_0_0_1_n_n : DotDims S32000x128 S128x64 S32000x64 where
  lhsContracting := [1]
  rhsContracting := [0]
  lhsNonContracting := [0]
  rhsNonContracting := [1]
  lhsBatch := []
  rhsBatch := []
  wf := dot_S32000x128_S128x64_S32000x64_1_0_0_1_n_n_wf
def dot_S32000x64_S64x64_S32000x64_1_0_0_1_n_n : DotDims S32000x64 S64x64 S32000x64 where
  lhsContracting := [1]
  rhsContracting := [0]
  lhsNonContracting := [0]
  rhsNonContracting := [1]
  lhsBatch := []
  rhsBatch := []
  wf := dot_S32000x64_S64x64_S32000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S32000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S32000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S32000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S32000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v55) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v66) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v80) S32000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v79) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v81) S32000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v85) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v94) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v95) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v96) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v110) S32000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v108) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v105) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v109) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v111) S32000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v115) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v117) S128x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v124) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v121) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v125) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v126) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v126) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg14) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v127) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg16) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v128) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v129) S10000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S4x128x64 : Shape := ⟨3, ![4, 128, 64]⟩
abbrev S4x64 : Shape := ⟨2, ![4, 64]⟩
abbrev S4x64x64 : Shape := ⟨3, ![4, 64, 64]⟩
abbrev S1x800000 : Shape := ⟨2, ![1, 800000]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128x64 : Shape := ⟨3, ![1, 128, 64]⟩
abbrev S128x64 : Shape := ⟨2, ![128, 64]⟩
abbrev S1x64x64 : Shape := ⟨3, ![1, 64, 64]⟩
abbrev S50000x128 : Shape := ⟨2, ![50000, 128]⟩

abbrev nBuf : Space → Nat
  | .hbm => 292
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S4x128x64, .f32⟩
  | 7 => ⟨S4x64, .f32⟩
  | 8 => ⟨S4x64x64, .f32⟩
  | 9 => ⟨S4x64, .f32⟩
  | 10 => ⟨S4x128x64, .f32⟩
  | 11 => ⟨S4x64, .f32⟩
  | 12 => ⟨S4x64x64, .f32⟩
  | 13 => ⟨S4x64, .f32⟩
  | 14 => ⟨S64x64, .f32⟩
  | 15 => ⟨S64, .f32⟩
  | 16 => ⟨S64x64, .f32⟩
  | 17 => ⟨S64, .f32⟩
  | 18 => ⟨S1x800000, .i32⟩
  | 19 => ⟨S800000, .i32⟩
  | 20 => ⟨S1x800000, .i32⟩
  | 21 => ⟨S800000, .i32⟩
  | 22 => ⟨S50000x64, .f32⟩
  | 23 => ⟨S1x64, .f32⟩
  | 24 => ⟨S50000x64, .f32⟩
  | 25 => ⟨S50000x64, .f32⟩
  | 26 => ⟨S_, .f32⟩
  | 27 => ⟨S50000x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S800000x128, .f32⟩
  | 52 => ⟨S1x128x64, .f32⟩
  | 53 => ⟨S128x64, .f32⟩
  | 54 => ⟨S1x64, .f32⟩
  | 55 => ⟨S64, .f32⟩
  | 56 => ⟨S1x64x64, .f32⟩
  | 57 => ⟨S64x64, .f32⟩
  | 58 => ⟨S1x64, .f32⟩
  | 59 => ⟨S64, .f32⟩
  | 60 => ⟨S800000x64, .f32⟩
  | 61 => ⟨S1x64, .f32⟩
  | 62 => ⟨S800000x64, .f32⟩
  | 63 => ⟨S800000x64, .f32⟩
  | 64 => ⟨S_, .f32⟩
  | 65 => ⟨S800000x64, .f32⟩
  | 66 => ⟨S800000x64, .f32⟩
  | 67 => ⟨S800000x64, .f32⟩
  | 68 => ⟨S1x64, .f32⟩
  | 69 => ⟨S800000x64, .f32⟩
  | 70 => ⟨S800000x64, .f32⟩
  | 71 => ⟨S_, .f32⟩
  | 72 => ⟨S50000x64, .f32⟩
  | 73 => ⟨S800000x1, .i32⟩
  | 74 => ⟨S50000x64, .f32⟩
  | 75 => ⟨S50000x128, .f32⟩
  | 76 => ⟨S1x128x64, .f32⟩
  | 77 => ⟨S128x64, .f32⟩
  | 78 => ⟨S1x64, .f32⟩
  | 79 => ⟨S64, .f32⟩
  | 80 => ⟨S1x64x64, .f32⟩
  | 81 => ⟨S64x64, .f32⟩
  | 82 => ⟨S1x64, .f32⟩
  | 83 => ⟨S64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S1x64, .f32⟩
  | 93 => ⟨S50000x64, .f32⟩
  | 94 => ⟨S50000x64, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x64, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x128, .f32⟩
  | 114 => ⟨S1x128x64, .f32⟩
  | 115 => ⟨S128x64, .f32⟩
  | 116 => ⟨S1x64, .f32⟩
  | 117 => ⟨S64, .f32⟩
  | 118 => ⟨S1x64x64, .f32⟩
  | 119 => ⟨S64x64, .f32⟩
  | 120 => ⟨S1x64, .f32⟩
  | 121 => ⟨S64, .f32⟩
  | 122 => ⟨S800000x64, .f32⟩
  | 123 => ⟨S1x64, .f32⟩
  | 124 => ⟨S800000x64, .f32⟩
  | 125 => ⟨S800000x64, .f32⟩
  | 126 => ⟨S_, .f32⟩
  | 127 => ⟨S800000x64, .f32⟩
  | _ => ⟨S50000x64, .f32⟩

abbrev hbmTy0_1 (i : Nat) : BufTy := match i % 128 with
  | 0 => ⟨S800000x64, .f32⟩
  | 1 => ⟨S800000x64, .f32⟩
  | 2 => ⟨S1x64, .f32⟩
  | 3 => ⟨S800000x64, .f32⟩
  | 4 => ⟨S800000x64, .f32⟩
  | 5 => ⟨S_, .f32⟩
  | 6 => ⟨S50000x64, .f32⟩
  | 7 => ⟨S800000x1, .i32⟩
  | 8 => ⟨S50000x64, .f32⟩
  | 9 => ⟨S50000x128, .f32⟩
  | 10 => ⟨S1x128x64, .f32⟩
  | 11 => ⟨S128x64, .f32⟩
  | 12 => ⟨S1x64, .f32⟩
  | 13 => ⟨S64, .f32⟩
  | 14 => ⟨S1x64x64, .f32⟩
  | 15 => ⟨S64x64, .f32⟩
  | 16 => ⟨S1x64, .f32⟩
  | 17 => ⟨S64, .f32⟩
  | 18 => ⟨S50000x64, .f32⟩
  | 19 => ⟨S1x64, .f32⟩
  | 20 => ⟨S50000x64, .f32⟩
  | 21 => ⟨S50000x64, .f32⟩
  | 22 => ⟨S_, .f32⟩
  | 23 => ⟨S50000x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S800000x128, .f32⟩
  | 48 => ⟨S1x128x64, .f32⟩
  | 49 => ⟨S128x64, .f32⟩
  | 50 => ⟨S1x64, .f32⟩
  | 51 => ⟨S64, .f32⟩
  | 52 => ⟨S1x64x64, .f32⟩
  | 53 => ⟨S64x64, .f32⟩
  | 54 => ⟨S1x64, .f32⟩
  | 55 => ⟨S64, .f32⟩
  | 56 => ⟨S800000x64, .f32⟩
  | 57 => ⟨S1x64, .f32⟩
  | 58 => ⟨S800000x64, .f32⟩
  | 59 => ⟨S800000x64, .f32⟩
  | 60 => ⟨S_, .f32⟩
  | 61 => ⟨S800000x64, .f32⟩
  | 62 => ⟨S800000x64, .f32⟩
  | 63 => ⟨S800000x64, .f32⟩
  | 64 => ⟨S1x64, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S50000x128, .f32⟩
  | 72 => ⟨S1x128x64, .f32⟩
  | 73 => ⟨S128x64, .f32⟩
  | 74 => ⟨S1x64, .f32⟩
  | 75 => ⟨S64, .f32⟩
  | 76 => ⟨S1x64x64, .f32⟩
  | 77 => ⟨S64x64, .f32⟩
  | 78 => ⟨S1x64, .f32⟩
  | 79 => ⟨S64, .f32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S50000x64, .f32⟩
  | 88 => ⟨S1x64, .f32⟩
  | 89 => ⟨S50000x64, .f32⟩
  | 90 => ⟨S50000x64, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x64, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x64, .f32⟩
  | 109 => ⟨S800000x128, .f32⟩
  | 110 => ⟨S1x128x64, .f32⟩
  | 111 => ⟨S128x64, .f32⟩
  | 112 => ⟨S1x64, .f32⟩
  | 113 => ⟨S64, .f32⟩
  | 114 => ⟨S1x64x64, .f32⟩
  | 115 => ⟨S64x64, .f32⟩
  | 116 => ⟨S1x64, .f32⟩
  | 117 => ⟨S64, .f32⟩
  | 118 => ⟨S800000x64, .f32⟩
  | 119 => ⟨S1x64, .f32⟩
  | 120 => ⟨S800000x64, .f32⟩
  | 121 => ⟨S800000x64, .f32⟩
  | 122 => ⟨S_, .f32⟩
  | 123 => ⟨S800000x64, .f32⟩
  | 124 => ⟨S800000x64, .f32⟩
  | 125 => ⟨S800000x64, .f32⟩
  | 126 => ⟨S1x64, .f32⟩
  | 127 => ⟨S800000x64, .f32⟩
  | _ => ⟨S50000x64, .f32⟩

abbrev hbmTy0_2 (i : Nat) : BufTy := match i % 128 with
  | 0 => ⟨S800000x64, .f32⟩
  | 1 => ⟨S_, .f32⟩
  | 2 => ⟨S50000x64, .f32⟩
  | 3 => ⟨S800000x1, .i32⟩
  | 4 => ⟨S50000x64, .f32⟩
  | 5 => ⟨S50000x128, .f32⟩
  | 6 => ⟨S1x128x64, .f32⟩
  | 7 => ⟨S128x64, .f32⟩
  | 8 => ⟨S1x64, .f32⟩
  | 9 => ⟨S64, .f32⟩
  | 10 => ⟨S1x64x64, .f32⟩
  | 11 => ⟨S64x64, .f32⟩
  | 12 => ⟨S1x64, .f32⟩
  | 13 => ⟨S64, .f32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x64, .f32⟩
  | 22 => ⟨S1x64, .f32⟩
  | 23 => ⟨S50000x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x64, .f32⟩
  | 33 => ⟨S1x64, .f32⟩
  | 34 => ⟨S50000x64, .f32⟩
  | 35 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call0_cst : Ref sig .tc := ⟨.hbm, 26, rfl⟩
abbrev main_call0_v0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_1 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call1_cst : Ref sig .tc := ⟨.hbm, 64, rfl⟩
abbrev main_call1_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call2_cst : Ref sig .tc := ⟨.hbm, 88, rfl⟩
abbrev main_call2_v0 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_3 : Ref sig .tc := ⟨.hbm, 95, rfl⟩
abbrev main_v66 : Ref sig .tc := ⟨.hbm, 96, rfl⟩
abbrev main_v67 : Ref sig .tc := ⟨.hbm, 97, rfl⟩
abbrev main_c_4 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_5 : Ref sig .tc := ⟨.hbm, 104, rfl⟩
abbrev main_v73 : Ref sig .tc := ⟨.hbm, 105, rfl⟩
abbrev main_v74 : Ref sig .tc := ⟨.hbm, 106, rfl⟩
abbrev main_c_6 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call3_cst : Ref sig .tc := ⟨.hbm, 126, rfl⟩
abbrev main_call3_v0 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_7 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_call4_cst : Ref sig .tc := ⟨.hbm, 150, rfl⟩
abbrev main_call4_v0 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_c_8 : Ref sig .tc := ⟨.hbm, 157, rfl⟩
abbrev main_v119 : Ref sig .tc := ⟨.hbm, 158, rfl⟩
abbrev main_v120 : Ref sig .tc := ⟨.hbm, 159, rfl⟩
abbrev main_c_9 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_c_10 : Ref sig .tc := ⟨.hbm, 166, rfl⟩
abbrev main_v126 : Ref sig .tc := ⟨.hbm, 167, rfl⟩
abbrev main_v127 : Ref sig .tc := ⟨.hbm, 168, rfl⟩
abbrev main_c_11 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_call5_cst : Ref sig .tc := ⟨.hbm, 188, rfl⟩
abbrev main_call5_v0 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_cst_12 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_call6_cst : Ref sig .tc := ⟨.hbm, 212, rfl⟩
abbrev main_call6_v0 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_c_13 : Ref sig .tc := ⟨.hbm, 219, rfl⟩
abbrev main_v172 : Ref sig .tc := ⟨.hbm, 220, rfl⟩
abbrev main_v173 : Ref sig .tc := ⟨.hbm, 221, rfl⟩
abbrev main_c_14 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_c_15 : Ref sig .tc := ⟨.hbm, 228, rfl⟩
abbrev main_v179 : Ref sig .tc := ⟨.hbm, 229, rfl⟩
abbrev main_v180 : Ref sig .tc := ⟨.hbm, 230, rfl⟩
abbrev main_c_16 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_call7_cst : Ref sig .tc := ⟨.hbm, 250, rfl⟩
abbrev main_call7_v0 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_cst_17 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_call8_cst : Ref sig .tc := ⟨.hbm, 274, rfl⟩
abbrev main_call8_v0 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_call9_cst : Ref sig .tc := ⟨.hbm, 285, rfl⟩
abbrev main_call9_v0 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  slices_S4x128x64_S1x128x64_0_0_0 : S4x128x64.Slices ![0, 0, 0] S1x128x64
  shapeCasts_S1x128x64_S128x64 : S1x128x64.ShapeCasts S128x64
  slices_S4x64_S1x64_0_0 : S4x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  concatenates_S50000x64_S50000x64_S50000x128_d1 : Shape.Concatenates [S50000x64, S50000x64] S50000x128 1
  slices_S4x128x64_S1x128x64_1_0_0 : S4x128x64.Slices ![1, 0, 0] S1x128x64
  slices_S4x64_S1x64_1_0 : S4x64.Slices ![1, 0] S1x64
  slices_S4x64x64_S1x64x64_1_0_0 : S4x64x64.Slices ![1, 0, 0] S1x64x64
  slices_S4x128x64_S1x128x64_2_0_0 : S4x128x64.Slices ![2, 0, 0] S1x128x64
  slices_S4x64_S1x64_2_0 : S4x64.Slices ![2, 0] S1x64
  slices_S4x64x64_S1x64x64_2_0_0 : S4x64x64.Slices ![2, 0, 0] S1x64x64
  slices_S4x128x64_S1x128x64_3_0_0 : S4x128x64.Slices ![3, 0, 0] S1x128x64
  slices_S4x64_S1x64_3_0 : S4x64.Slices ![3, 0] S1x64
  slices_S4x64x64_S1x64x64_3_0_0 : S4x64x64.Slices ![3, 0, 0] S1x64x64
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Keep.lean ====
/- Which buffers each stretch of the kernel's program leaves alone. Every host stretch writes a short list of result
   buffers and every region only its own six arrays, so a buffer outside those lists holds, at any boundary, what it held
   when the embedding region was entered; the arguments, the two rows of the edge list and each layer's node array are read
   far from where they are written, and this is how their contents are carried there. -/
import proofs.«419785_j6528350289988_1_alg».proof.Proof.Gen.KernelIdeal.Frame

set_option maxRecDepth 16384

noncomputable section

namespace Cert.KernelIdeal.Chain

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- One result buffer, a member of a list, is a written set inside the list's image. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## What each stretch writes -/

abbrev wr0 : List (Ref sig .tc) := [main_v0, main_v1, main_v2, main_v3, main_v4, main_v5]
abbrev wr1 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v7]
abbrev wr1_1 : List (Ref sig .tc) :=
  [main_call1_c, main_call1_v0, main_call1_v1, main_call1_c_0, main_call1_v2, main_call1_v3, main_call1_v4, main_call1_v5,
   main_call1_c_1, main_call1_c_2, main_call1_v6, main_call1_v7, main_call1_v8, main_call1_v9, main_call1_v10, main_call1_v11,
   main_call1_c_3, main_call1_v12, main_call1_v13, main_call1_v14, main_call1_cst, main_call1_v15, main_v8]
abbrev wr1_2 : List (Ref sig .tc) :=
  [main_v9, main_v10, main_v11, main_v12, main_v13, main_v14, main_v15, main_v16, main_v17, main_v18, main_v19, main_v20]
abbrev wr2 : List (Ref sig .tc) :=
  [main_cst, main_v22, main_v23, main_v24, main_v25, main_v26, main_v27, main_v28, main_v29, main_v30, main_v31, main_v32,
   main_v33, main_v34, main_v35]
abbrev wr3 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v37]
abbrev wr3_1 : List (Ref sig .tc) :=
  [main_call3_c, main_call3_v0, main_call3_v1, main_call3_c_0, main_call3_v2, main_call3_v3, main_call3_v4, main_call3_v5,
   main_call3_c_1, main_call3_c_2, main_call3_v6, main_call3_v7, main_call3_v8, main_call3_v9, main_call3_v10, main_call3_v11,
   main_call3_c_3, main_call3_v12, main_call3_v13, main_call3_v14, main_call3_cst, main_call3_v15, main_v38]
abbrev wr3_2 : List (Ref sig .tc) :=
  [main_v39, main_v40, main_v41, main_v42, main_v43, main_v44, main_v45, main_v46, main_v47, main_v48, main_v49, main_v50]
abbrev wr4 : List (Ref sig .tc) :=
  [main_cst_0, main_v52, main_v53, main_v54, main_v55, main_v56, main_v57, main_v58, main_v59, main_v60, main_v61, main_v62,
   main_v63, main_v64, main_v65]
abbrev wr5 : List (Ref sig .tc) :=
  [main_call4_c, main_call4_v0, main_call4_v1, main_call4_c_0, main_call4_v2, main_call4_v3, main_call4_v4, main_call4_v5,
   main_call4_c_1, main_call4_c_2, main_call4_v6, main_call4_v7, main_call4_v8, main_call4_v9, main_call4_v10, main_call4_v11,
   main_call4_c_3, main_call4_v12, main_call4_v13, main_call4_v14, main_call4_cst, main_call4_v15, main_v67]
abbrev wr5_1 : List (Ref sig .tc) :=
  [main_call5_c, main_call5_v0, main_call5_v1, main_call5_c_0, main_call5_v2, main_call5_v3, main_call5_v4, main_call5_v5,
   main_call5_c_1, main_call5_c_2, main_call5_v6, main_call5_v7, main_call5_v8, main_call5_v9, main_call5_v10, main_call5_v11,
   main_call5_c_3, main_call5_v12, main_call5_v13, main_call5_v14, main_call5_cst, main_call5_v15, main_v68]
abbrev wr5_2 : List (Ref sig .tc) :=
  [main_v69, main_v70, main_v71, main_v72, main_v73, main_v74, main_v75, main_v76, main_v77, main_v78, main_v79, main_v80]
abbrev wr6 : List (Ref sig .tc) :=
  [main_cst_1, main_v82, main_v83, main_v84, main_v85, main_v86, main_v87, main_v88, main_v89, main_v90, main_v91, main_v92,
   main_v93, main_v94, main_v95]
abbrev wr7 : List (Ref sig .tc) :=
  [main_call6_c, main_call6_v0, main_call6_v1, main_call6_c_0, main_call6_v2, main_call6_v3, main_call6_v4, main_call6_v5,
   main_call6_c_1, main_call6_c_2, main_call6_v6, main_call6_v7, main_call6_v8, main_call6_v9, main_call6_v10, main_call6_v11,
   main_call6_c_3, main_call6_v12, main_call6_v13, main_call6_v14, main_call6_cst, main_call6_v15, main_v97]
abbrev wr7_1 : List (Ref sig .tc) :=
  [main_call7_c, main_call7_v0, main_call7_v1, main_call7_c_0, main_call7_v2, main_call7_v3, main_call7_v4, main_call7_v5,
   main_call7_c_1, main_call7_c_2, main_call7_v6, main_call7_v7, main_call7_v8, main_call7_v9, main_call7_v10, main_call7_v11,
   main_call7_c_3, main_call7_v12, main_call7_v13, main_call7_v14, main_call7_cst, main_call7_v15, main_v98]
abbrev wr7_2 : List (Ref sig .tc) :=
  [main_v99, main_v100, main_v101, main_v102, main_v103, main_v104, main_v105, main_v106, main_v107, main_v108, main_v109, main_v110]
abbrev wr8 : List (Ref sig .tc) :=
  [main_cst_2, main_v112, main_v113, main_v114, main_v115, main_v116, main_v117, main_v118, main_v119, main_v120, main_v121,
   main_v122, main_v123, main_v124, main_v125]
abbrev wr9 : List (Ref sig .tc) := [main_v127, main_v128]

/-! ## What each region's pipeline holds: its five inputs and its output -/

abbrev arr0 : List (Ref sig .tc) := [main_arg0, main_arg2, main_v4, main_arg4, main_v5, main_v6]
abbrev arr1 : List (Ref sig .tc) := [main_v20, main_v11, main_v18, main_v15, main_v19, main_v21]
abbrev arr2 : List (Ref sig .tc) := [main_v25, main_v27, main_v34, main_v31, main_v35, main_v36]
abbrev arr3 : List (Ref sig .tc) := [main_v50, main_v41, main_v48, main_v45, main_v49, main_v51]
abbrev arr4 : List (Ref sig .tc) := [main_v55, main_v57, main_v64, main_v61, main_v65, main_v66]
abbrev arr5 : List (Ref sig .tc) := [main_v80, main_v71, main_v78, main_v75, main_v79, main_v81]
abbrev arr6 : List (Ref sig .tc) := [main_v85, main_v87, main_v94, main_v91, main_v95, main_v96]
abbrev arr7 : List (Ref sig .tc) := [main_v110, main_v101, main_v108, main_v105, main_v109, main_v111]
abbrev arr8 : List (Ref sig .tc) := [main_v115, main_v117, main_v124, main_v121, main_v125, main_v126]
abbrev arr9 : List (Ref sig .tc) := [main_v126, main_arg14, main_v127, main_arg16, main_v128, main_v129]

theorem arr0_mem : ∀ w, Pipeline.arrRef spec0 w ∈ arr0 := by decide
theorem arr1_mem : ∀ w, Pipeline.arrRef spec1 w ∈ arr1 := by decide
theorem arr2_mem : ∀ w, Pipeline.arrRef spec2 w ∈ arr2 := by decide
theorem arr3_mem : ∀ w, Pipeline.arrRef spec3 w ∈ arr3 := by decide
theorem arr4_mem : ∀ w, Pipeline.arrRef spec4 w ∈ arr4 := by decide
theorem arr5_mem : ∀ w, Pipeline.arrRef spec5 w ∈ arr5 := by decide
theorem arr6_mem : ∀ w, Pipeline.arrRef spec6 w ∈ arr6 := by decide
theorem arr7_mem : ∀ w, Pipeline.arrRef spec7 w ∈ arr7 := by decide
theorem arr8_mem : ∀ w, Pipeline.arrRef spec8 w ∈ arr8 := by decide
theorem arr9_mem : ∀ w, Pipeline.arrRef spec9 w ∈ arr9 := by decide

/-! ## Each stretch writes inside its list -/

theorem wr0_sub : (hostOps0 (F := F)).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact sub_of_mem (by decide)
theorem wr1_sub : (hostOps1 (F := F)).Forall fun op => op.writes ⊆ (wr1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact sub_of_mem (by decide)
theorem wr1_1_sub : (hostOps1_1 (F := F)).Forall fun op => op.writes ⊆ (wr1_1.map (Proc.devRef (τ := τ) .tc)).toFinset := by
  simp only [hostOps1_1, List.Forall, StableHlo.nullary_writes, StableHlo.unary_writes, StableHlo.binary_writes, StableHlo.ternary_writes, StableHlo.reshape_writes]
  repeat' apply And.intro
  all_goals exact sub_of_mem (by decide)
theorem wr1_2_sub : (hostOps1_2 (F := F)).Forall fun op => op.writes ⊆ (wr1_2.map (Proc.devRef (τ := τ) .tc)).toFinset := by
  simp only [hostOps1_2, List.Forall, StableHlo.nullary_writes, StableHlo.unary_writes, StableHlo.binary_writes, StableHlo.ternary_writes, StableHlo.reshape_writes]
  repeat' apply And.intro
  all_goals exact sub_of_mem (by decide)
theorem wr2_sub : (hostOps2 (F := F)).Forall fun op => op.writes ⊆ (wr2.map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact sub_of_mem (by decide)
theorem wr3_sub : (hostOps3 (F := F)).Forall fun op => op.writes ⊆ (wr3.map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact sub_of_mem (by decide)
theorem wr3_1_sub : (hostOps3_1 (F := F)).Forall fun op => op.writes ⊆ (wr3_1.map (Proc.devRef (τ := τ) .tc)).toFinset := by
  simp only [hostOps3_1, List.Forall, StableHlo.nullary_writes, StableHlo.unary_writes, StableHlo.binary_writes, StableHlo.ternary_writes, StableHlo.reshape_writes]
  repeat' apply And.intro
  all_goals exact sub_of_mem (by decide)
theorem wr3_2_sub : (hostOps3_2 (F := F)).Forall fun op => op.writes ⊆ (wr3_2.map (Proc.devRef (τ := τ) .tc)).toFinset := by
  simp only [hostOps3_2, List.Forall, StableHlo.nullary_writes, StableHlo.unary_writes, StableHlo.binary_writes, StableHlo.ternary_writes, StableHlo.reshape_writes]
  repeat' apply And.intro
  all_goals exact sub_of_mem (by decide)
theorem wr4_sub : (hostOps4 (F := F)).Forall fun op => op.writes ⊆ (wr4.map (Proc.devRef (τ := τ) .tc)).toFinset := by
  simp only [hostOps4, List.Forall, StableHlo.nullary_writes, StableHlo.unary_writes, StableHlo.binary_writes, StableHlo.ternary_writes, StableHlo.reshape_writes]
  repeat' apply And.intro
  all_goals exact sub_of_mem (by decide)
theorem wr5_sub : (hostOps5 (F := F)).Forall fun op => op.writes ⊆ (wr5.map (Proc.devRef (τ := τ) .tc)).toFinset := by
  simp only [hostOps5, List.Forall, StableHlo.nullary_writes, StableHlo.unary_writes, StableHlo.binary_writes, StableHlo.ternary_writes, StableHlo.reshape_writes]
  repeat' apply And.intro
  all_goals exact sub_of_mem (by decide)
theorem wr5_1_sub : (hostOps5_1 (F := F)).Forall fun op => op.writes ⊆ (wr5_1.map (Proc.devRef (τ := τ) .tc)).toFinset := by
  simp only [hostOps5_1, List.Forall, StableHlo.nullary_writes, StableHlo.unary_writes, StableHlo.binary_writes, StableHlo.ternary_writes, StableHlo.reshape_writes]
  repeat' apply And.intro
  all_goals exact sub_of_mem (by decide)
theorem wr5_2_sub : (hostOps5_2 (F := F)).Forall fun op => op.writes ⊆ (wr5_2.map (Proc.devRef (τ := τ) .tc)).toFinset := by
  simp only [hostOps5_2, List.Forall, StableHlo.nullary_writes, StableHlo.unary_writes, StableHlo.binary_writes, StableHlo.ternary_writes, StableHlo.reshape_writes]
  repeat' apply And.intro
  all_goals exact sub_of_mem (by decide)
theorem wr6_sub : (hostOps6 (F := F)).Forall fun op => op.writes ⊆ (wr6.map (Proc.devRef (τ := τ) .tc)).toFinset := by
  simp only [hostOps6, List.Forall, StableHlo.nullary_writes, StableHlo.unary_writes, StableHlo.binary_writes, StableHlo.ternary_writes, StableHlo.reshape_writes]
  repeat' apply And.intro
  all_goals exact sub_of_mem (by decide)
theorem wr7_sub : (hostOps7 (F := F)).Forall fun op => op.writes ⊆ (wr7.map (Proc.devRef (τ := τ) .tc)).toFinset := by
  simp only [hostOps7, List.Forall, StableHlo.nullary_writes, StableHlo.unary_writes, StableHlo.binary_writes, StableHlo.ternary_writes, StableHlo.reshape_writes]
  repeat' apply And.intro
  all_goals exact sub_of_mem (by decide)
theorem wr7_1_sub : (hostOps7_1 (F := F)).Forall fun op => op.writes ⊆ (wr7_1.map (Proc.devRef (τ := τ) .tc)).toFinset := by
  simp only [hostOps7_1, List.Forall, StableHlo.nullary_writes, StableHlo.unary_writes, StableHlo.binary_writes, StableHlo.ternary_writes, StableHlo.reshape_writes]
  repeat' apply And.intro
  all_goals exact sub_of_mem (by decide)
theorem wr7_2_sub : (hostOps7_2 (F := F)).Forall fun op => op.writes ⊆ (wr7_2.map (Proc.devRef (τ := τ) .tc)).toFinset := by
  simp only [hostOps7_2, List.Forall, StableHlo.nullary_writes, StableHlo.unary_writes, StableHlo.binary_writes, StableHlo.ternary_writes, StableHlo.reshape_writes]
  repeat' apply And.intro
  all_goals exact sub_of_mem (by decide)
theorem wr8_sub : (hostOps8 (F := F)).Forall fun op => op.writes ⊆ (wr8.map (Proc.devRef (τ := τ) .tc)).toFinset := by
  simp only [hostOps8, List.Forall, StableHlo.nullary_writes, StableHlo.unary_writes, StableHlo.binary_writes, StableHlo.ternary_writes, StableHlo.reshape_writes]
  repeat' apply And.intro
  all_goals exact sub_of_mem (by decide)
theorem wr9_sub : (hostOps9 (F := F)).Forall fun op => op.writes ⊆ (wr9.map (Proc.devRef (τ := τ) .tc)).toFinset := by
  simp only [hostOps9, List.Forall, StableHlo.nullary_writes, StableHlo.unary_writes, StableHlo.binary_writes, StableHlo.ternary_writes, StableHlo.reshape_writes]
  repeat' apply And.intro
  all_goals exact sub_of_mem (by decide)

/-! ## One boundary back: a buffer outside the level's list holds what it held at the boundary before -/

section Step
variable (c : Dev nD) (r : Ref sig .tc)

theorem step1 (hr : r ∉ wr0) : W1 m ρ c (Proc.devRef .tc r) = m ((c : Thread nD τ).loc r) :=
  StableHlo.after_of_writes_sub _ _ wr0_sub hr
theorem step2 (hr : r ∉ arr0) : W2 m ρ c (Proc.devRef .tc r) = W1 m ρ c (Proc.devRef .tc r) :=
  W2_of_ne m ρ c r fun w e => hr (e ▸ arr0_mem w)
theorem step3 (hr : r ∉ wr1) : W3 m ρ c (Proc.devRef .tc r) = W2 m ρ c (Proc.devRef .tc r) :=
  StableHlo.after_of_writes_sub _ _ wr1_sub hr
theorem step4 (hr : r ∉ wr1_1) : W4 m ρ c (Proc.devRef .tc r) = W3 m ρ c (Proc.devRef .tc r) :=
  StableHlo.after_of_writes_sub _ _ wr1_1_sub hr
theorem step5 (hr : r ∉ wr1_2) : W5 m ρ c (Proc.devRef .tc r) = W4 m ρ c (Proc.devRef .tc r) :=
  StableHlo.after_of_writes_sub _ _ wr1_2_sub hr
theorem step6 (hr : r ∉ arr1) : W6 m ρ c (Proc.devRef .tc r) = W5 m ρ c (Proc.devRef .tc r) :=
  W6_of_ne m ρ c r fun w e => hr (e ▸ arr1_mem w)
theorem step7 (hr : r ∉ wr2) : W7 m ρ c (Proc.devRef .tc r) = W6 m ρ c (Proc.devRef .tc r) :=
  StableHlo.after_of_writes_sub _ _ wr2_sub hr
theorem step8 (hr : r ∉ arr2) : W8 m ρ c (Proc.devRef .tc r) = W7 m ρ c (Proc.devRef .tc r) :=
  W8_of_ne m ρ c r fun w e => hr (e ▸ arr2_mem w)
theorem step9 (hr : r ∉ wr3) : W9 m ρ c (Proc.devRef .tc r) = W8 m ρ c (Proc.devRef .tc r) :=
  StableHlo.after_of_writes_sub _ _ wr3_sub hr
theorem step10 (hr : r ∉ wr3_1) : W10 m ρ c (Proc.devRef .tc r) = W9 m ρ c (Proc.devRef .tc r) :=
  StableHlo.after_of_writes_sub _ _ wr3_1_sub hr
theorem step11 (hr : r ∉ wr3_2) : W11 m ρ c (Proc.devRef .tc r) = W10 m ρ c (Proc.devRef .tc r) :=
  StableHlo.after_of_writes_sub _ _ wr3_2_sub hr
theorem step12 (hr : r ∉ arr3) : W12 m ρ c (Proc.devRef .tc r) = W11 m ρ c (Proc.devRef .tc r) :=
  W12_of_ne m ρ c r fun w e => hr (e ▸ arr3_mem w)
theorem step13 (hr : r ∉ wr4) : W13 m ρ c (Proc.devRef .tc r) = W12 m ρ c (Proc.devRef .tc r) :=
  StableHlo.after_of_writes_sub _ _ wr4_sub hr
theorem step14 (hr : r ∉ arr4) : W14 m ρ c (Proc.devRef .tc r) = W13 m ρ c (Proc.devRef .tc r) :=
  W14_of_ne m ρ c r fun w e => hr (e ▸ arr4_mem w)
theorem step15 (hr : r ∉ wr5) : W15 m ρ c (Proc.devRef .tc r) = W14 m ρ c (Proc.devRef .tc r) :=
  StableHlo.after_of_writes_sub _ _ wr5_sub hr
theorem step16 (hr : r ∉ wr5_1) : W16 m ρ c (Proc.devRef .tc r) = W15 m ρ c (Proc.devRef .tc r) :=
  StableHlo.after_of_writes_sub _ _ wr5_1_sub hr
theorem step17 (hr : r ∉ wr5_2) : W17 m ρ c (Proc.devRef .tc r) = W16 m ρ c (Proc.devRef .tc r) :=
  StableHlo.after_of_writes_sub _ _ wr5_2_sub hr
theorem step18 (hr : r ∉ arr5) : W18 m ρ c (Proc.devRef .tc r) = W17 m ρ c (Proc.devRef .tc r) :=
  W18_of_ne m ρ c r fun w e => hr (e ▸ arr5_mem w)
theorem step19 (hr : r ∉ wr6) : W19 m ρ c (Proc.devRef .tc r) = W18 m ρ c (Proc.devRef .tc r) :=
  StableHlo.after_of_writes_sub _ _ wr6_sub hr
theorem step20 (hr : r ∉ arr6) : W20 m ρ c (Proc.devRef .tc r) = W19 m ρ c (Proc.devRef .tc r) :=
  W20_of_ne m ρ c r fun w e => hr (e ▸ arr6_mem w)
theorem step21 (hr : r ∉ wr7) : W21 m ρ c (Proc.devRef .tc r) = W20 m ρ c (Proc.devRef .tc r) :=
  StableHlo.after_of_writes_sub _ _ wr7_sub hr
theorem step22 (hr : r ∉ wr7_1) : W22 m ρ c (Proc.devRef .tc r) = W21 m ρ c (Proc.devRef .tc r) :=
  StableHlo.after_of_writes_sub _ _ wr7_1_sub hr
theorem step23 (hr : r ∉ wr7_2) : W23 m ρ c (Proc.devRef .tc r) = W22 m ρ c (Proc.devRef .tc r) :=
  StableHlo.after_of_writes_sub _ _ wr7_2_sub hr
theorem step24 (hr : r ∉ arr7) : W24 m ρ c (Proc.devRef .tc r) = W23 m ρ c (Proc.devRef .tc r) :=
  W24_of_ne m ρ c r fun w e => hr (e ▸ arr7_mem w)
theorem step25 (hr : r ∉ wr8) : W25 m ρ c (Proc.devRef .tc r) = W24 m ρ c (Proc.devRef .tc r) :=
  StableHlo.after_of_writes_sub _ _ wr8_sub hr
theorem step26 (hr : r ∉ arr8) : W26 m ρ c (Proc.devRef .tc r) = W25 m ρ c (Proc.devRef .tc r) :=
  W26_of_ne m ρ c r fun w e => hr (e ▸ arr8_mem w)
theorem step27 (hr : r ∉ wr9) : W27 m ρ c (Proc.devRef .tc r) = W26 m ρ c (Proc.devRef .tc r) :=
  StableHlo.after_of_writes_sub _ _ wr9_sub hr
theorem step28 (hr : r ∉ arr9) : W28 m ρ c (Proc.devRef .tc r) = W27 m ρ c (Proc.devRef .tc r) :=
  W28_of_ne m ρ c r fun w e => hr (e ▸ arr9_mem w)

end Step

/-! ## All the way back: everything written from the embedding region on, boundary by boundary, and a buffer outside it
    holding at that boundary what it held when the embedding region was entered -/

abbrev cum2 : List (Ref sig .tc) := arr0
abbrev cum3 : List (Ref sig .tc) := cum2 ++ wr1
abbrev cum4 : List (Ref sig .tc) := cum3 ++ wr1_1
abbrev cum5 : List (Ref sig .tc) := cum4 ++ wr1_2
abbrev cum6 : List (Ref sig .tc) := cum5 ++ arr1
abbrev cum7 : List (Ref sig .tc) := cum6 ++ wr2
abbrev cum8 : List (Ref sig .tc) := cum7 ++ arr2
abbrev cum9 : List (Ref sig .tc) := cum8 ++ wr3
abbrev cum10 : List (Ref sig .tc) := cum9 ++ wr3_1
abbrev cum11 : List (Ref sig .tc) := cum10 ++ wr3_2
abbrev cum12 : List (Ref sig .tc) := cum11 ++ arr3
abbrev cum13 : List (Ref sig .tc) := cum12 ++ wr4
abbrev cum14 : List (Ref sig .tc) := cum13 ++ arr4
abbrev cum15 : List (Ref sig .tc) := cum14 ++ wr5
abbrev cum16 : List (Ref sig .tc) := cum15 ++ wr5_1
abbrev cum17 : List (Ref sig .tc) := cum16 ++ wr5_2
abbrev cum18 : List (Ref sig .tc) := cum17 ++ arr5
abbrev cum19 : List (Ref sig .tc) := cum18 ++ wr6
abbrev cum20 : List (Ref sig .tc) := cum19 ++ arr6
abbrev cum21 : List (Ref sig .tc) := cum20 ++ wr7
abbrev cum22 : List (Ref sig .tc) := cum21 ++ wr7_1
abbrev cum23 : List (Ref sig .tc) := cum22 ++ wr7_2
abbrev cum24 : List (Ref sig .tc) := cum23 ++ arr7
abbrev cum25 : List (Ref sig .tc) := cum24 ++ wr8
abbrev cum26 : List (Ref sig .tc) := cum25 ++ arr8
abbrev cum27 : List (Ref sig .tc) := cum26 ++ wr9

section Keep
variable (c : Dev nD) (r : Ref sig .tc)

theorem keep2 (hr : r ∉ cum2) : W2 m ρ c (Proc.devRef .tc r) = W1 m ρ c (Proc.devRef .tc r) := step2 m ρ c r hr
theorem keep3 (hr : r ∉ cum3) : W3 m ρ c (Proc.devRef .tc r) = W1 m ρ c (Proc.devRef .tc r) :=
  (step3 m ρ c r fun h => hr (List.mem_append_right _ h)).trans (keep2 m ρ c r fun h => hr (List.mem_append_left _ h))
theorem keep4 (hr : r ∉ cum4) : W4 m ρ c (Proc.devRef .tc r) = W1 m ρ c (Proc.devRef .tc r) :=
  (step4 m ρ c r fun h => hr (List.mem_append_right _ h)).trans (keep3 m ρ c r fun h => hr (List.mem_append_left _ h))
theorem keep5 (hr : r ∉ cum5) : W5 m ρ c (Proc.devRef .tc r) = W1 m ρ c (Proc.devRef .tc r) :=
  (step5 m ρ c r fun h => hr (List.mem_append_right _ h)).trans (keep4 m ρ c r fun h => hr (List.mem_append_left _ h))
theorem keep6 (hr : r ∉ cum6) : W6 m ρ c (Proc.devRef .tc r) = W1 m ρ c (Proc.devRef .tc r) :=
  (step6 m ρ c r fun h => hr (List.mem_append_right _ h)).trans (keep5 m ρ c r fun h => hr (List.mem_append_left _ h))
theorem keep7 (hr : r ∉ cum7) : W7 m ρ c (Proc.devRef .tc r) = W1 m ρ c (Proc.devRef .tc r) :=
  (step7 m ρ c r fun h => hr (List.mem_append_right _ h)).trans (keep6 m ρ c r fun h => hr (List.mem_append_left _ h))
theorem keep8 (hr : r ∉ cum8) : W8 m ρ c (Proc.devRef .tc r) = W1 m ρ c (Proc.devRef .tc r) :=
  (step8 m ρ c r fun h => hr (List.mem_append_right _ h)).trans (keep7 m ρ c r fun h => hr (List.mem_append_left _ h))
theorem keep9 (hr : r ∉ cum9) : W9 m ρ c (Proc.devRef .tc r) = W1 m ρ c (Proc.devRef .tc r) :=
  (step9 m ρ c r fun h => hr (List.mem_append_right _ h)).trans (keep8 m ρ c r fun h => hr (List.mem_append_left _ h))
theorem keep10 (hr : r ∉ cum10) : W10 m ρ c (Proc.devRef .tc r) = W1 m ρ c (Proc.devRef .tc r) :=
  (step10 m ρ c r fun h => hr (List.mem_append_right _ h)).trans (keep9 m ρ c r fun h => hr (List.mem_append_left _ h))
theorem keep11 (hr : r ∉ cum11) : W11 m ρ c (Proc.devRef .tc r) = W1 m ρ c (Proc.devRef .tc r) :=
  (step11 m ρ c r fun h => hr (List.mem_append_right _ h)).trans (keep10 m ρ c r fun h => hr (List.mem_append_left _ h))
theorem keep12 (hr : r ∉ cum12) : W12 m ρ c (Proc.devRef .tc r) = W1 m ρ c (Proc.devRef .tc r) :=
  (step12 m ρ c r fun h => hr (List.mem_append_right _ h)).trans (keep11 m ρ c r fun h => hr (List.mem_append_left _ h))
theorem keep13 (hr : r ∉ cum13) : W13 m ρ c (Proc.devRef .tc r) = W1 m ρ c (Proc.devRef .tc r) :=
  (step13 m ρ c r fun h => hr (List.mem_append_right _ h)).trans (keep12 m ρ c r fun h => hr (List.mem_append_left _ h))
theorem keep14 (hr : r ∉ cum14) : W14 m ρ c (Proc.devRef .tc r) = W1 m ρ c (Proc.devRef .tc r) :=
  (step14 m ρ c r fun h => hr (List.mem_append_right _ h)).trans (keep13 m ρ c r fun h => hr (List.mem_append_left _ h))
theorem keep15 (hr : r ∉ cum15) : W15 m ρ c (Proc.devRef .tc r) = W1 m ρ c (Proc.devRef .tc r) :=
  (step15 m ρ c r fun h => hr (List.mem_append_right _ h)).trans (keep14 m ρ c r fun h => hr (List.mem_append_left _ h))
theorem keep16 (hr : r ∉ cum16) : W16 m ρ c (Proc.devRef .tc r) = W1 m ρ c (Proc.devRef .tc r) :=
  (step16 m ρ c r fun h => hr (List.mem_append_right _ h)).trans (keep15 m ρ c r fun h => hr (List.mem_append_left _ h))
theorem keep17 (hr : r ∉ cum17) : W17 m ρ c (Proc.devRef .tc r) = W1 m ρ c (Proc.devRef .tc r) :=
  (step17 m ρ c r fun h => hr (List.mem_append_right _ h)).trans (keep16 m ρ c r fun h => hr (List.mem_append_left _ h))
theorem keep18 (hr : r ∉ cum18) : W18 m ρ c (Proc.devRef .tc r) = W1 m ρ c (Proc.devRef .tc r) :=
  (step18 m ρ c r fun h => hr (List.mem_append_right _ h)).trans (keep17 m ρ c r fun h => hr (List.mem_append_left _ h))
theorem keep19 (hr : r ∉ cum19) : W19 m ρ c (Proc.devRef .tc r) = W1 m ρ c (Proc.devRef .tc r) :=
  (step19 m ρ c r fun h => hr (List.mem_append_right _ h)).trans (keep18 m ρ c r fun h => hr (List.mem_append_left _ h))
theorem keep20 (hr : r ∉ cum20) : W20 m ρ c (Proc.devRef .tc r) = W1 m ρ c (Proc.devRef .tc r) :=
  (step20 m ρ c r fun h => hr (List.mem_append_right _ h)).trans (keep19 m ρ c r fun h => hr (List.mem_append_left _ h))
theorem keep21 (hr : r ∉ cum21) : W21 m ρ c (Proc.devRef .tc r) = W1 m ρ c (Proc.devRef .tc r) :=
  (step21 m ρ c r fun h => hr (List.mem_append_right _ h)).trans (keep20 m ρ c r fun h => hr (List.mem_append_left _ h))
theorem keep22 (hr : r ∉ cum22) : W22 m ρ c (Proc.devRef .tc r) = W1 m ρ c (Proc.devRef .tc r) :=
  (step22 m ρ c r fun h => hr (List.mem_append_right _ h)).trans (keep21 m ρ c r fun h => hr (List.mem_append_left _ h))
theorem keep23 (hr : r ∉ cum23) : W23 m ρ c (Proc.devRef .tc r) = W1 m ρ c (Proc.devRef .tc r) :=
  (step23 m ρ c r fun h => hr (List.mem_append_right _ h)).trans (keep22 m ρ c r fun h => hr (List.mem_append_left _ h))
theorem keep24 (hr : r ∉ cum24) : W24 m ρ c (Proc.devRef .tc r) = W1 m ρ c (Proc.devRef .tc r) :=
  (step24 m ρ c r fun h => hr (List.mem_append_right _ h)).trans (keep23 m ρ c r fun h => hr (List.mem_append_left _ h))
theorem keep25 (hr : r ∉ cum25) : W25 m ρ c (Proc.devRef .tc r) = W1 m ρ c (Proc.devRef .tc r) :=
  (step25 m ρ c r fun h => hr (List.mem_append_right _ h)).trans (keep24 m ρ c r fun h => hr (List.mem_append_left _ h))
theorem keep26 (hr : r ∉ cum26) : W26 m ρ c (Proc.devRef .tc r) = W1 m ρ c (Proc.devRef .tc r) :=
  (step26 m ρ c r fun h => hr (List.mem_append_right _ h)).trans (keep25 m ρ c r fun h => hr (List.mem_append_left _ h))
theorem keep27 (hr : r ∉ cum27) : W27 m ρ c (Proc.devRef .tc r) = W1 m ρ c (Proc.devRef .tc r) :=
  (step27 m ρ c r fun h => hr (List.mem_append_right _ h)).trans (keep26 m ρ c r fun h => hr (List.mem_append_left _ h))

end Keep

end Cert.KernelIdeal.Chain

end
-- ==== Proof.Spec.lean ====
/- The two-layer perceptron that every kernel region and every stage of the reference computes, read one row at a
   time on the extended reals: a row of the input is multiplied into the first weight matrix, the first bias is
   added, negative entries are cut to zero, the result is multiplied into the second weight matrix and the second
   bias is added. Rows do not interact, so a block of rows of the result depends on the same block of rows of the
   input only. Also here: a plain two-dimensional matrix product (rows by columns, one contracted axis) read at an
   index as a sum over the contracted coordinate, for the kernel's product into a zero accumulator and for the
   host's product alike. -/
import Idealize.ShloMosaic.Lib.ValueIdx
import Idealize.ShloMosaic.PureOps.Ideal.Laws

noncomputable section

namespace Cert.Net

open Idealize.ShloMosaic Idealize.ShloMosaic.ValueIdx

/-- One row through the perceptron: `(max (x·W₁ + b₁) 0)·W₂ + b₂` at column `q`. -/
def rowMlp {D : ℕ} (xr : Fin D → EReal) (w1 : Fin D → Fin 64 → EReal) (b1 : Fin 64 → EReal)
    (w2 : Fin 64 → Fin 64 → EReal) (b2 : Fin 64 → EReal) (q : Fin 64) : EReal :=
  (∑ k : Fin 64, max ((∑ i : Fin D, xr i * w1 i k) + b1 k) 0 * w2 k q) + b2 q

/-- The perceptron applied to every row of an `R × D` array. -/
def mlp {R D : ℕ} (x : (⟨2, ![R, D]⟩ : Shape).Idx → EReal) (w1 : (⟨2, ![D, 64]⟩ : Shape).Idx → EReal) (b1 : Fin 64 → EReal)
    (w2 : (⟨2, ![64, 64]⟩ : Shape).Idx → EReal) (b2 : Fin 64 → EReal) : (⟨2, ![R, 64]⟩ : Shape).Idx → EReal :=
  fun j => rowMlp (fun i => x (ix2 (j 0) i)) (fun i k => w1 (ix2 i k)) b1 (fun k q => w2 (ix2 k q)) b2 (j 1)

/-- A [1,64] row as a function of its column: how a kernel region holds a bias. -/
def rowBias (b : (⟨2, ![1, 64]⟩ : Shape).Idx → EReal) : Fin 64 → EReal := fun q => b (ix2 0 q)

/-- A length-64 vector as a function of its coordinate: how the reference holds a bias. -/
def bias (b : (⟨1, ![64]⟩ : Shape).Idx → EReal) : Fin 64 → EReal := fun q => b (ix1 q)

theorem mlp_apply {R D : ℕ} (x : (⟨2, ![R, D]⟩ : Shape).Idx → EReal) (w1 : (⟨2, ![D, 64]⟩ : Shape).Idx → EReal) (b1 : Fin 64 → EReal)
    (w2 : (⟨2, ![64, 64]⟩ : Shape).Idx → EReal) (b2 : Fin 64 → EReal) (p : Fin R) (q : Fin 64) :
    mlp x w1 b1 w2 b2 (ix2 p q)
      = (∑ k : Fin 64, max ((∑ i : Fin D, x (ix2 p i) * w1 (ix2 i k)) + b1 k) 0 * w2 (ix2 k q)) + b2 q := rfl

/-- The operand indices of a plain product at output index (p, q) and contraction coordinate i are (p, i) and (i, q). -/
theorem plain_lhsIdx {M K N : ℕ} (p : Fin M) (q : Fin N) (i : Fin K) :
    (DotDims.plain M K N).lhsIdx (ix2 p q) ((contrEquiv1 (DotDims.plain M K N) K rfl rfl).symm i) = ix2 p i := by
  funext a
  match a with
  | ⟨0, _⟩ => rfl
  | ⟨1, _⟩ => rfl

theorem plain_rhsIdx {M K N : ℕ} (p : Fin M) (q : Fin N) (i : Fin K) :
    (DotDims.plain M K N).rhsIdx (ix2 p q) ((contrEquiv1 (DotDims.plain M K N) K rfl rfl).symm i) = ix2 i q := by
  funext a
  match a with
  | ⟨0, _⟩ => rfl
  | ⟨1, _⟩ => rfl

/-- A kernel's plain product into a zero accumulator, at an index: the sum over the contracted coordinate. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ i : Fin K, lhs (ix2 p i) * rhs (ix2 i q) := by
  rw [Ideal.matmul_constant_zero_apply, ← Equiv.sum_comp (contrEquiv1 (DotDims.plain M K N) K rfl rfl).symm]
  exact Finset.sum_congr rfl fun i _ => by rw [plain_lhsIdx, plain_rhsIdx]

/-- The host's plain product at an index: the same sum. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ i : Fin K, lhs (ix2 p i) * rhs (ix2 i q) := by
  rw [Ideal.dotGeneral_apply, ← Equiv.sum_comp (contrEquiv1 (DotDims.plain M K N) K rfl rfl).symm]
  exact Finset.sum_congr rfl fun i _ => by rw [plain_lhsIdx, plain_rhsIdx]

end Cert.Net

end
-- ==== Proof.KNet.lean ====
/- The graph network as the kernel's program spells it, over the extended reals: the same embedding, four
   message-passing layers and head as the reference, with three differences of spelling. The kernel gathers an edge's
   end point through `jnp.take`, which puts a fill value where the (wrapped) index is outside [0, 49999]; it narrows
   the edge features to bf16 before the message perceptron (no change on the extended reals); and it hands each bias
   to its perceptron as a [1,64] row. The perceptrons are the row-wise function of the specification. -/
import proofs.«419785_j6528350289988_1_alg».proof.KernelIdeal
import proofs.«419785_j6528350289988_1_alg».proof.Proof.Spec

noncomputable section

namespace Cert.KNet

open Idealize.ShloMosaic Idealize.ShloMosaic.ValueIdx Cert.KernelIdeal Cert.Net

variable [Cert.KernelIdeal.Facts]
open Cert.KernelIdeal.Facts₀ Cert.KernelIdeal.Facts

/-- A length-64 bias as the [1,64] row the kernel's perceptron reads, as a function of its column. -/
def biasRow (b : FVec Ideal S64 .f32) : Fin 64 → EReal := rowBias (shapeCast S1x64 b shapeCasts_S64_S1x64)

/-- An edge's end point as a gather index: a negative index counts from the end. -/
def wrapIdx (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- Per edge, whether the wrapped index lies in [0, 49999]. -/
def inBounds (i : IVec S800000 32) : IVec S800000 1 :=
  Host.reduce IntOp.andi
    (andi (cmpi .sge (wrapIdx i) (broadcastInDim S800000x1 ![] bcast_S_S800000x1 (constantI S_ 32 0#32)))
          (cmpi .sle (wrapIdx i) (broadcastInDim S800000x1 ![0, 1] bcast_S1x1_S800000x1_0_1
            (broadcastInDim S1x1 ![1] bcast_S1_S1x1_1 (constantI S1 32 49999#32)))))
    (constantI S_ 1 1#1) reducesTo_S800000x1_S800000_d1 h_S_

/-- `jnp.take` of the node array's rows: the gathered row where the index is in bounds, the fill pattern elsewhere. -/
def take (h : FVec Ideal S50000x64 .f32) (i : IVec S800000 32) : FVec Ideal S800000x64 .f32 :=
  select (broadcastInDim S800000x64 ![0] bcast_S800000_S800000x64_0 (inBounds i))
    (Host.gather gather_S50000x64_S800000x1_S800000x64_1_0_n_n_0_1_164 h (wrapIdx i))
    (broadcastInDim S800000x64 ![] bcast_S_S800000x64 (constant S_ .f32 0x7FC00000#32))

/-- Per edge: the target's row beside the source's, narrowed to bf16. -/
def edgeIn (h : FVec Ideal S50000x64 .f32) (dst src : IVec S800000 32) : FVec Ideal S800000x128 .bf16 :=
  truncf .bf16 (concatenate S800000x128 1 [⟨S800000x64, take h dst⟩, ⟨S800000x64, take h src⟩] concatenates_S800000x64_S800000x64_S800000x128_d1) bitsLt_bf16_f32

/-- The messages summed into their target nodes. -/
def aggregate (msg : FVec Ideal S800000x64 .f32) (dst : IVec S800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst) msg

/-- Per node: its row beside the sum of its incoming messages. -/
def nodeIn (h agg : FVec Ideal S50000x64 .f32) : FVec Ideal S50000x128 .f32 :=
  concatenate S50000x128 1 [⟨S50000x64, h⟩, ⟨S50000x64, agg⟩] concatenates_S50000x64_S50000x64_S50000x128_d1

/-- One message-passing layer over given weights. -/
def layer (h : FVec Ideal S50000x64 .f32) (dst src : IVec S800000 32)
    (mw1 : FVec Ideal S128x64 .f32) (mb1 : FVec Ideal S64 .f32) (mw2 : FVec Ideal S64x64 .f32) (mb2 : FVec Ideal S64 .f32)
    (uw1 : FVec Ideal S128x64 .f32) (ub1 : FVec Ideal S64 .f32) (uw2 : FVec Ideal S64x64 .f32) (ub2 : FVec Ideal S64 .f32) :
    FVec Ideal S50000x64 .f32 :=
  mlp (nodeIn h (aggregate (mlp (edgeIn h dst src) mw1 (biasRow mb1) mw2 (biasRow mb2)) dst)) uw1 (biasRow ub1) uw2 (biasRow ub2)

/-- Layer 0's first weight matrix: slab 0 of the stacked [4,128,64] array, as a [128,64] matrix. -/
def w1At0 (w : FVec Ideal S4x128x64 .f32) : FVec Ideal S128x64 .f32 :=
  shapeCast S128x64 (extractStridedSlice S1x128x64 ![0, 0, 0] w slices_S4x128x64_S1x128x64_0_0_0) shapeCasts_S1x128x64_S128x64
/-- Layer 0's second weight matrix: slab 0 of the stacked [4,64,64] array. -/
def w2At0 (w : FVec Ideal S4x64x64 .f32) : FVec Ideal S64x64 .f32 :=
  shapeCast S64x64 (extractStridedSlice S1x64x64 ![0, 0, 0] w slices_S4x64x64_S1x64x64_0_0_0) shapeCasts_S1x64x64_S64x64
/-- Layer 0's bias: row 0 of the stacked [4,64] array. -/
def bAt0 (b : FVec Ideal S4x64 .f32) : FVec Ideal S64 .f32 :=
  shapeCast S64 (extractStridedSlice S1x64 ![0, 0] b slices_S4x64_S1x64_0_0) shapeCasts_S1x64_S64
/-- Message-passing layer 0 with its weights cut out of the stacked arrays. -/
def layer0 (h : FVec Ideal S50000x64 .f32) (dst src : IVec S800000 32)
    (mw1 : FVec Ideal S4x128x64 .f32) (mb1 : FVec Ideal S4x64 .f32) (mw2 : FVec Ideal S4x64x64 .f32) (mb2 : FVec Ideal S4x64 .f32)
    (uw1 : FVec Ideal S4x128x64 .f32) (ub1 : FVec Ideal S4x64 .f32) (uw2 : FVec Ideal S4x64x64 .f32) (ub2 : FVec Ideal S4x64 .f32) :
    FVec Ideal S50000x64 .f32 :=
  layer h dst src (w1At0 mw1) (bAt0 mb1) (w2At0 mw2) (bAt0 mb2) (w1At0 uw1) (bAt0 ub1) (w2At0 uw2) (bAt0 ub2)

/-- Layer 1's first weight matrix: slab 1 of the stacked [4,128,64] array, as a [128,64] matrix. -/
def w1At1 (w : FVec Ideal S4x128x64 .f32) : FVec Ideal S128x64 .f32 :=
  shapeCast S128x64 (extractStridedSlice S1x128x64 ![1, 0, 0] w slices_S4x128x64_S1x128x64_1_0_0) shapeCasts_S1x128x64_S128x64
/-- Layer 1's second weight matrix: slab 1 of the stacked [4,64,64] array. -/
def w2At1 (w : FVec Ideal S4x64x64 .f32) : FVec Ideal S64x64 .f32 :=
  shapeCast S64x64 (extractStridedSlice S1x64x64 ![1, 0, 0] w slices_S4x64x64_S1x64x64_1_0_0) shapeCasts_S1x64x64_S64x64
/-- Layer 1's bias: row 1 of the stacked [4,64] array. -/
def bAt1 (b : FVec Ideal S4x64 .f32) : FVec Ideal S64 .f32 :=
  shapeCast S64 (extractStridedSlice S1x64 ![1, 0] b slices_S4x64_S1x64_1_0) shapeCasts_S1x64_S64
/-- Message-passing layer 1 with its weights cut out of the stacked arrays. -/
def layer1 (h : FVec Ideal S50000x64 .f32) (dst src : IVec S800000 32)
    (mw1 : FVec Ideal S4x128x64 .f32) (mb1 : FVec Ideal S4x64 .f32) (mw2 : FVec Ideal S4x64x64 .f32) (mb2 : FVec Ideal S4x64 .f32)
    (uw1 : FVec Ideal S4x128x64 .f32) (ub1 : FVec Ideal S4x64 .f32) (uw2 : FVec Ideal S4x64x64 .f32) (ub2 : FVec Ideal S4x64 .f32) :
    FVec Ideal S50000x64 .f32 :=
  layer h dst src (w1At1 mw1) (bAt1 mb1) (w2At1 mw2) (bAt1 mb2) (w1At1 uw1) (bAt1 ub1) (w2At1 uw2) (bAt1 ub2)

/-- Layer 2's first weight matrix: slab 2 of the stacked [4,128,64] array, as a [128,64] matrix. -/
def w1At2 (w : FVec Ideal S4x128x64 .f32) : FVec Ideal S128x64 .f32 :=
  shapeCast S128x64 (extractStridedSlice S1x128x64 ![2, 0, 0] w slices_S4x128x64_S1x128x64_2_0_0) shapeCasts_S1x128x64_S128x64
/-- Layer 2's second weight matrix: slab 2 of the stacked [4,64,64] array. -/
def w2At2 (w : FVec Ideal S4x64x64 .f32) : FVec Ideal S64x64 .f32 :=
  shapeCast S64x64 (extractStridedSlice S1x64x64 ![2, 0, 0] w slices_S4x64x64_S1x64x64_2_0_0) shapeCasts_S1x64x64_S64x64
/-- Layer 2's bias: row 2 of the stacked [4,64] array. -/
def bAt2 (b : FVec Ideal S4x64 .f32) : FVec Ideal S64 .f32 :=
  shapeCast S64 (extractStridedSlice S1x64 ![2, 0] b slices_S4x64_S1x64_2_0) shapeCasts_S1x64_S64
/-- Message-passing layer 2 with its weights cut out of the stacked arrays. -/
def layer2 (h : FVec Ideal S50000x64 .f32) (dst src : IVec S800000 32)
    (mw1 : FVec Ideal S4x128x64 .f32) (mb1 : FVec Ideal S4x64 .f32) (mw2 : FVec Ideal S4x64x64 .f32) (mb2 : FVec Ideal S4x64 .f32)
    (uw1 : FVec Ideal S4x128x64 .f32) (ub1 : FVec Ideal S4x64 .f32) (uw2 : FVec Ideal S4x64x64 .f32) (ub2 : FVec Ideal S4x64 .f32) :
    FVec Ideal S50000x64 .f32 :=
  layer h dst src (w1At2 mw1) (bAt2 mb1) (w2At2 mw2) (bAt2 mb2) (w1At2 uw1) (bAt2 ub1) (w2At2 uw2) (bAt2 ub2)

/-- Layer 3's first weight matrix: slab 3 of the stacked [4,128,64] array, as a [128,64] matrix. -/
def w1At3 (w : FVec Ideal S4x128x64 .f32) : FVec Ideal S128x64 .f32 :=
  shapeCast S128x64 (extractStridedSlice S1x128x64 ![3, 0, 0] w slices_S4x128x64_S1x128x64_3_0_0) shapeCasts_S1x128x64_S128x64
/-- Layer 3's second weight matrix: slab 3 of the stacked [4,64,64] array. -/
def w2At3 (w : FVec Ideal S4x64x64 .f32) : FVec Ideal S64x64 .f32 :=
  shapeCast S64x64 (extractStridedSlice S1x64x64 ![3, 0, 0] w slices_S4x64x64_S1x64x64_3_0_0) shapeCasts_S1x64x64_S64x64
/-- Layer 3's bias: row 3 of the stacked [4,64] array. -/
def bAt3 (b : FVec Ideal S4x64 .f32) : FVec Ideal S64 .f32 :=
  shapeCast S64 (extractStridedSlice S1x64 ![3, 0] b slices_S4x64_S1x64_3_0) shapeCasts_S1x64_S64
/-- Message-passing layer 3 with its weights cut out of the stacked arrays. -/
def layer3 (h : FVec Ideal S50000x64 .f32) (dst src : IVec S800000 32)
    (mw1 : FVec Ideal S4x128x64 .f32) (mb1 : FVec Ideal S4x64 .f32) (mw2 : FVec Ideal S4x64x64 .f32) (mb2 : FVec Ideal S4x64 .f32)
    (uw1 : FVec Ideal S4x128x64 .f32) (ub1 : FVec Ideal S4x64 .f32) (uw2 : FVec Ideal S4x64x64 .f32) (ub2 : FVec Ideal S4x64 .f32) :
    FVec Ideal S50000x64 .f32 :=
  layer h dst src (w1At3 mw1) (bAt3 mb1) (w2At3 mw2) (bAt3 mb2) (w1At3 uw1) (bAt3 ub1) (w2At3 uw2) (bAt3 ub2)

/-- Row 0 of the edge list: the sources. -/
def srcOf (ei : IVec S2x800000 32) : IVec S800000 32 :=
  shapeCast S800000 (extractStridedSlice S1x800000 ![0, 0] ei slices_S2x800000_S1x800000_0_0) shapeCasts_S1x800000_S800000
/-- Row 1 of the edge list: the targets. -/
def dstOf (ei : IVec S2x800000 32) : IVec S800000 32 :=
  shapeCast S800000 (extractStridedSlice S1x800000 ![1, 0] ei slices_S2x800000_S1x800000_1_0) shapeCasts_S1x800000_S800000

/-- The whole network, in the kernel's spelling, as a function of the eighteen arguments. -/
def net (x : FVec Ideal S50000x64 .f32) (ei : IVec S2x800000 32)
    (ew1 : FVec Ideal S64x64 .f32) (eb1 : FVec Ideal S64 .f32) (ew2 : FVec Ideal S64x64 .f32) (eb2 : FVec Ideal S64 .f32)
    (mw1 : FVec Ideal S4x128x64 .f32) (mb1 : FVec Ideal S4x64 .f32) (mw2 : FVec Ideal S4x64x64 .f32) (mb2 : FVec Ideal S4x64 .f32)
    (uw1 : FVec Ideal S4x128x64 .f32) (ub1 : FVec Ideal S4x64 .f32) (uw2 : FVec Ideal S4x64x64 .f32) (ub2 : FVec Ideal S4x64 .f32)
    (hw1 : FVec Ideal S64x64 .f32) (hb1 : FVec Ideal S64 .f32) (hw2 : FVec Ideal S64x64 .f32) (hb2 : FVec Ideal S64 .f32) :
    FVec Ideal S50000x64 .f32 :=
  mlp
    (layer3 (layer2 (layer1 (layer0 (mlp x ew1 (biasRow eb1) ew2 (biasRow eb2))
      (dstOf ei) (srcOf ei) mw1 mb1 mw2 mb2 uw1 ub1 uw2 ub2)
      (dstOf ei) (srcOf ei) mw1 mb1 mw2 mb2 uw1 ub1 uw2 ub2)
      (dstOf ei) (srcOf ei) mw1 mb1 mw2 mb2 uw1 ub1 uw2 ub2)
      (dstOf ei) (srcOf ei) mw1 mb1 mw2 mb2 uw1 ub1 uw2 ub2)
    hw1 (biasRow hb1) hw2 (biasRow hb2)

end Cert.KNet

end
-- ==== Proof.Pay.lean ====
/- What one grid point of each kernel region computes: the body's one stored value, a function of the five loaded
   blocks, is the row-wise perceptron of the specification applied to the block of input rows (the biases held as
   [1,64] rows). Narrowing a weight or an activation to bf16 changes nothing on the extended reals. -/
import proofs.«419785_j6528350289988_1_alg».proof.Proof.Gen.KernelIdeal.Skeleton
import proofs.«419785_j6528350289988_1_alg».proof.Proof.Spec
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen Cert.Net

/-- A [1,64] row broadcast down the rows, read at (p, q): the row's entry at column q. -/
theorem bcastRow_apply {R : ℕ} (b : (⟨2, ![1, 64]⟩ : Shape).Idx → EReal) (h : (⟨2, ![1, 64]⟩ : Shape).Broadcasts ⟨2, ![R, 64]⟩)
    (p : Fin R) (q : Fin 64) : broadcastTo ⟨2, ![R, 64]⟩ b h (ix2 p q) = rowBias b q := by
  refine broadcastTo_apply b h (ix2 p q) (ix2 0 q) fun a => ?_
  match a with
  | ⟨0, _⟩ => rfl
  | ⟨1, _⟩ => rfl

/-- Region 0's stored value is the perceptron on its block of rows: both products are sums over the contracted
    coordinate, the biases are read off their rows, and the cut at zero is the maximum with the zero word. -/
theorem pay0 (x : Vec Ideal S10000x64 .f32) (w1 : Vec Ideal S64x64 .f32) (w2 : Vec Ideal S64x64 .f32) (b1 b2 : Vec Ideal S1x64 .f32) :
    k0_pay1 x w1 w2 b1 b2 = mlp x w1 (rowBias b1) w2 (rowBias b2) := by
  funext j
  obtain ⟨p, q, rfl⟩ : ∃ (p : Fin 10000) (q : Fin 64), j = ix2 p q := ⟨j 0, j 1, eq_ix2 j⟩
  rw [mlp_apply]
  unfold k0_pay1
  simp only [shapeCast_self]
  rw [addf_apply, bcastRow_apply]
  congr 1
  simp only [matmul]
  rw [show dot_S10000x64_S64x64_S10000x64_1_0_0_1_n_n = DotDims.plain 10000 64 64 from rfl, matmul_plain_apply]
  refine Finset.sum_congr rfl fun k _ => ?_
  congr 1
  rw [maximumf_apply, addf_apply, bcastRow_apply, broadcast_apply, matmul_plain_apply]
  congr 1
  exact Ideal.ofBits_zero_f32

/-- Region 1's stored value is the perceptron on its block of rows: both products are sums over the contracted
    coordinate, the biases are read off their rows, and the cut at zero is the maximum with the zero word. -/
theorem pay1 (x : Vec Ideal S32000x128 .bf16) (w1 : Vec Ideal S128x64 .f32) (w2 : Vec Ideal S64x64 .f32) (b1 b2 : Vec Ideal S1x64 .f32) :
    k1_pay1 x w1 w2 b1 b2 = mlp x w1 (rowBias b1) w2 (rowBias b2) := by
  funext j
  obtain ⟨p, q, rfl⟩ : ∃ (p : Fin 32000) (q : Fin 64), j = ix2 p q := ⟨j 0, j 1, eq_ix2 j⟩
  rw [mlp_apply]
  unfold k1_pay1
  simp only [shapeCast_self]
  rw [addf_apply, bcastRow_apply]
  congr 1
  simp only [matmul]
  rw [show dot_S32000x64_S64x64_S32000x64_1_0_0_1_n_n = DotDims.plain 32000 64 64 from rfl, matmul_plain_apply]
  refine Finset.sum_congr rfl fun k _ => ?_
  simp only [truncf_apply]
  congr 1
  rw [maximumf_apply, addf_apply, bcastRow_apply, broadcast_apply,
    show dot_S32000x128_S128x64_S32000x64_1_0_0_1_n_n = DotDims.plain 32000 128 64 from rfl, matmul_plain_apply]
  simp only [truncf_apply]
  congr 1
  exact Ideal.ofBits_zero_f32

/-- Region 2's stored value is the perceptron on its block of rows: both products are sums over the contracted
    coordinate, the biases are read off their rows, and the cut at zero is the maximum with the zero word. -/
theorem pay2 (x : Vec Ideal S10000x128 .f32) (w1 : Vec Ideal S128x64 .f32) (w2 : Vec Ideal S64x64 .f32) (b1 b2 : Vec Ideal S1x64 .f32) :
    k2_pay1 x w1 w2 b1 b2 = mlp x w1 (rowBias b1) w2 (rowBias b2) := by
  funext j
  obtain ⟨p, q, rfl⟩ : ∃ (p : Fin 10000) (q : Fin 64), j = ix2 p q := ⟨j 0, j 1, eq_ix2 j⟩
  rw [mlp_apply]
  unfold k2_pay1
  simp only [shapeCast_self]
  rw [addf_apply, bcastRow_apply]
  congr 1
  simp only [matmul]
  rw [show dot_S10000x64_S64x64_S10000x64_1_0_0_1_n_n = DotDims.plain 10000 64 64 from rfl, matmul_plain_apply]
  refine Finset.sum_congr rfl fun k _ => ?_
  congr 1
  rw [maximumf_apply, addf_apply, bcastRow_apply, broadcast_apply,
    show dot_S10000x128_S128x64_S10000x64_1_0_0_1_n_n = DotDims.plain 10000 128 64 from rfl, matmul_plain_apply]
  congr 1
  exact Ideal.ofBits_zero_f32

/-- Region 3's body is region 1's, operation for operation. -/
theorem pay3 (x : Vec Ideal S32000x128 .bf16) (w1 : Vec Ideal S128x64 .f32) (w2 : Vec Ideal S64x64 .f32) (b1 b2 : Vec Ideal S1x64 .f32) :
    k3_pay1 x w1 w2 b1 b2 = mlp x w1 (rowBias b1) w2 (rowBias b2) := pay1 x w1 w2 b1 b2

/-- Region 4's body is region 2's, operation for operation. -/
theorem pay4 (x : Vec Ideal S10000x128 .f32) (w1 : Vec Ideal S128x64 .f32) (w2 : Vec Ideal S64x64 .f32) (b1 b2 : Vec Ideal S1x64 .f32) :
    k4_pay1 x w1 w2 b1 b2 = mlp x w1 (rowBias b1) w2 (rowBias b2) := pay2 x w1 w2 b1 b2

/-- Region 5's body is region 1's, operation for operation. -/
theorem pay5 (x : Vec Ideal S32000x128 .bf16) (w1 : Vec Ideal S128x64 .f32) (w2 : Vec Ideal S64x64 .f32) (b1 b2 : Vec Ideal S1x64 .f32) :
    k5_pay1 x w1 w2 b1 b2 = mlp x w1 (rowBias b1) w2 (rowBias b2) := pay1 x w1 w2 b1 b2

/-- Region 6's body is region 2's, operation for operation. -/
theorem pay6 (x : Vec Ideal S10000x128 .f32) (w1 : Vec Ideal S128x64 .f32) (w2 : Vec Ideal S64x64 .f32) (b1 b2 : Vec Ideal S1x64 .f32) :
    k6_pay1 x w1 w2 b1 b2 = mlp x w1 (rowBias b1) w2 (rowBias b2) := pay2 x w1 w2 b1 b2

/-- Region 7's body is region 1's, operation for operation. -/
theorem pay7 (x : Vec Ideal S32000x128 .bf16) (w1 : Vec Ideal S128x64 .f32) (w2 : Vec Ideal S64x64 .f32) (b1 b2 : Vec Ideal S1x64 .f32) :
    k7_pay1 x w1 w2 b1 b2 = mlp x w1 (rowBias b1) w2 (rowBias b2) := pay1 x w1 w2 b1 b2

/-- Region 8's body is region 2's, operation for operation. -/
theorem pay8 (x : Vec Ideal S10000x128 .f32) (w1 : Vec Ideal S128x64 .f32) (w2 : Vec Ideal S64x64 .f32) (b1 b2 : Vec Ideal S1x64 .f32) :
    k8_pay1 x w1 w2 b1 b2 = mlp x w1 (rowBias b1) w2 (rowBias b2) := pay2 x w1 w2 b1 b2

/-- Region 9's stored value is the perceptron on its block of rows: both products are sums over the contracted
    coordinate, the biases are read off their rows, and the cut at zero is the maximum with the zero word. -/
theorem pay9 (x : Vec Ideal S10000x64 .f32) (w1 : Vec Ideal S64x64 .f32) (w2 : Vec Ideal S64x64 .f32) (b1 b2 : Vec Ideal S1x64 .f32) :
    k9_pay1 x w1 w2 b1 b2 = mlp x w1 (rowBias b1) w2 (rowBias b2) := by
  funext j
  obtain ⟨p, q, rfl⟩ : ∃ (p : Fin 10000) (q : Fin 64), j = ix2 p q := ⟨j 0, j 1, eq_ix2 j⟩
  rw [mlp_apply]
  unfold k9_pay1
  simp only [shapeCast_self]
  rw [addf_apply, bcastRow_apply]
  congr 1
  simp only [matmul]
  rw [show dot_S10000x64_S64x64_S10000x64_1_0_0_1_n_n = DotDims.plain 10000 64 64 from rfl, matmul_plain_apply]
  refine Finset.sum_congr rfl fun k _ => ?_
  congr 1
  rw [maximumf_apply, addf_apply, bcastRow_apply, broadcast_apply, matmul_plain_apply]
  congr 1
  exact Ideal.ofBits_zero_f32

end Cert.KernelIdeal.Pay

end
-- ==== Proof.Region0.lean ====
/- Region 0 of the kernel's program, read as a value: whatever the arrays hold when the region is entered, its output
   array ends holding the row-wise perceptron of the input array (every block of 10000 rows is written by one grid
   point, from the same block of rows of the input and the whole weight and bias arrays; the blocks tile the array). -/
import proofs.«419785_j6528350289988_1_alg».proof.Proof.Gen.KernelIdeal.Frame
import proofs.«419785_j6528350289988_1_alg».proof.Proof.Pay

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input's block and the output's block at point t are both block t of rows;
    every weight and bias window is its whole array at every point. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A row of the perceptron's result depends on the same row of its input only (and on the weights and biases). -/
theorem mlp_row {R T D : ℕ} (x : (⟨2, ![R, D]⟩ : Shape).Idx → EReal) (xb : (⟨2, ![T, D]⟩ : Shape).Idx → EReal)
    (w1 w1' : (⟨2, ![D, 64]⟩ : Shape).Idx → EReal) (b1 b1' : (⟨2, ![1, 64]⟩ : Shape).Idx → EReal)
    (w2 w2' : (⟨2, ![64, 64]⟩ : Shape).Idx → EReal) (b2 b2' : (⟨2, ![1, 64]⟩ : Shape).Idx → EReal)
    (p : Fin T) (r : Fin R) (q : Fin 64) (h : ∀ i : Fin D, xb (ix2 p i) = x (ix2 r i))
    (hw1 : w1' = w1) (hb1 : b1' = b1) (hw2 : w2' = w2) (hb2 : b2' = b2) :
    mlp xb w1' (rowBias b1') w2' (rowBias b2') (ix2 p q) = mlp x w1 (rowBias b1) w2 (rowBias b2) (ix2 r q) := by
  subst hw1 hb1 hw2 hb2
  rw [mlp_apply, mlp_apply]
  simp only [h]

/-- Row p of the input's block at point t is row 10000 t + p of the input array. -/
theorem input_block (c : Dev nD) (t : Fin cfg0.N) (p : Fin 10000) (i : Fin 64) (r : Fin 50000) (hr : r.val = t.val * 10000 + p.val) :
    (iblk0 V c 0 t : Vec Ideal S10000x64 .f32) (ix2 p i) = V c (Pipeline.arrRef spec0 0) (ix2 r i) := by
  obtain ⟨e0, e1, -⟩ := index_maps t
  show V c (Pipeline.arrRef spec0 0) (((cfg0.win 0).blk t).view.emb (ix2 p i)) = _
  congr 1
  funext a; apply Fin.ext
  match a with
  | ⟨0, _⟩ => show win0_0.index t (0 : Fin 2) * 10000 + 1 * p.val = r.val; omega
  | ⟨1, _⟩ => show win0_0.index t (1 : Fin 2) * 64 + 1 * i.val = i.val; omega

/-- The first weight matrix's block at every point is the whole array. -/
theorem w1_block (c : Dev nD) (t : Fin cfg0.N) : (iblk0 V c 1 t : Vec Ideal S64x64 .f32) = V c (Pipeline.arrRef spec0 1) := by
  obtain ⟨-, -, e0, e1, -⟩ := index_maps t
  funext y
  show V c (Pipeline.arrRef spec0 1) (((cfg0.win 1).blk t).view.emb y) = V c (Pipeline.arrRef spec0 1) y
  congr 1
  funext a; apply Fin.ext
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- The first bias row's block at every point is the whole array. -/
theorem b1_block (c : Dev nD) (t : Fin cfg0.N) : (iblk0 V c 2 t : Vec Ideal S1x64 .f32) = V c (Pipeline.arrRef spec0 2) := by
  obtain ⟨-, -, -, -, e0, e1, -⟩ := index_maps t
  funext y
  show V c (Pipeline.arrRef spec0 2) (((cfg0.win 2).blk t).view.emb y) = V c (Pipeline.arrRef spec0 2) y
  congr 1
  funext a; apply Fin.ext
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The second weight matrix's block at every point is the whole array. -/
theorem w2_block (c : Dev nD) (t : Fin cfg0.N) : (iblk0 V c 3 t : Vec Ideal S64x64 .f32) = V c (Pipeline.arrRef spec0 3) := by
  obtain ⟨-, -, -, -, -, -, e0, e1, -⟩ := index_maps t
  funext y
  show V c (Pipeline.arrRef spec0 3) (((cfg0.win 3).blk t).view.emb y) = V c (Pipeline.arrRef spec0 3) y
  congr 1
  funext a; apply Fin.ext
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The second bias row's block at every point is the whole array. -/
theorem b2_block (c : Dev nD) (t : Fin cfg0.N) : (iblk0 V c 4 t : Vec Ideal S1x64 .f32) = V c (Pipeline.arrRef spec0 4) := by
  obtain ⟨-, -, -, -, -, -, -, -, e0, e1, -⟩ := index_maps t
  funext y
  show V c (Pipeline.arrRef spec0 4) (((cfg0.win 4).blk t).view.emb y) = V c (Pipeline.arrRef spec0 4) y
  congr 1
  funext a; apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

set_option maxHeartbeats 1000000 in
/-- What point t writes back is block t of the perceptron of the arrays as the region finds them. -/
theorem flushed_eq (c : Dev nD) (t : Fin cfg0.N) :
    (dat0 (F := Ideal) V c).flushed 5 t = ((cfg0.win 5).blk t).view.read (Elt Ideal)
      (mlp (V c (Pipeline.arrRef spec0 0)) (V c (Pipeline.arrRef spec0 1)) (rowBias (V c (Pipeline.arrRef spec0 2)))
          (V c (Pipeline.arrRef spec0 3)) (rowBias (V c (Pipeline.arrRef spec0 4)))) := by
  show (cfg0.win 5).cut (grid0.coords t) ((dat0 V c).after 5 t) = _
  rw [after0_5]
  unfold out0_5
  rw [View.canon_unit_zero zero_offsets]
  simp only [View.ld_unit_zero (S := S10000x64) zero_offsets, View.ld_unit_zero (S := S64x64) zero_offsets, View.ld_unit_zero (S := S1x64) zero_offsets]
  rw [Pay.pay0]
  funext j
  obtain ⟨p, q, rfl⟩ : ∃ (p : Fin 10000) (q : Fin 64), j = ix2 p q := ⟨j 0, j 1, eq_ix2 j⟩
  have hN : cfg0.N = 5 := N_0
  have ht : t.val < cfg0.N := t.isLt
  obtain ⟨-, -, -, -, -, -, -, -, -, -, e0, e1⟩ := index_maps t
  have hemb : ((cfg0.win 5).blk t).view.emb (ix2 p q) = ix2 (⟨t.val * 10000 + p.val, by omega⟩ : Fin 50000) q := by
    funext a; apply Fin.ext
    match a with
    | ⟨0, _⟩ => show win0_5.index t (0 : Fin 2) * 10000 + 1 * p.val = t.val * 10000 + p.val; omega
    | ⟨1, _⟩ => show win0_5.index t (1 : Fin 2) * 64 + 1 * q.val = q.val; omega
  show mlp (iblk0 V c 0 t) _ _ _ _ (ix2 p q) = mlp _ _ _ _ _ (((cfg0.win 5).blk t).view.emb (ix2 p q))
  rw [hemb]
  exact mlp_row _ _ _ _ _ _ _ _ _ _ p _ q (fun i => input_block V c t p i _ rfl) (w1_block V c t) (b1_block V c t) (w2_block V c t) (b2_block V c t)

/-- An index of the output array is in point t's block iff each coordinate is in the block's range on its axis. -/
theorem mem_blk (t : Fin cfg0.N) (i : S50000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole (Pipeline.arrRef spec0 5)).slice (win0_5.rect t)).set ↔ _
  rw [View.set_slice_whole, Rect.mem_set_unit]
  exact Iff.rfl

/-- Row r of the output array is in the block of point r / 10000. -/
theorem cover (i : S50000x64.Idx) : ∃ t : Fin cfg0.N, (cfg0.win 5).flush t = true ∧ i ∈ ((cfg0.win 5).blk t).view.set := by
  have hN : cfg0.N = 5 := N_0
  have hi0 : (i 0).val < 50000 := (i 0).isLt
  have hi1 : (i 1).val < 64 := (i 1).isLt
  refine ⟨⟨(i 0).val / 10000, by omega⟩, flush0_5 _, ?_⟩
  rw [mem_blk]
  obtain ⟨-, -, -, -, -, -, -, -, -, -, e0, e1⟩ := index_maps ⟨(i 0).val / 10000, by omega⟩
  intro a
  match a with
  | ⟨0, _⟩ => show win0_5.index _ (0 : Fin 2) * 10000 ≤ (i 0).val ∧ (i 0).val < win0_5.index _ (0 : Fin 2) * 10000 + 10000; rw [e0]; show (i 0).val / 10000 * 10000 ≤ _ ∧ _ < (i 0).val / 10000 * 10000 + 10000; omega
  | ⟨1, _⟩ => show win0_5.index _ (1 : Fin 2) * 64 ≤ (i 1).val ∧ (i 1).val < win0_5.index _ (1 : Fin 2) * 64 + 64; rw [e1]; omega

/-- The output array after region 0's last grid point. -/
theorem value (c : Dev nD) :
    (dat0 (F := Ideal) V c).arrAt 5 cfg0.N
      = mlp (V c (Pipeline.arrRef spec0 0)) (V c (Pipeline.arrRef spec0 1)) (rowBias (V c (Pipeline.arrRef spec0 2)))
          (V c (Pipeline.arrRef spec0 3)) (rowBias (V c (Pipeline.arrRef spec0 4))) :=
  (dat0 (F := Ideal) V c).arrAt_eq_of_cover 5 _ (fun t _ => flushed_eq V c t) cover

end Cert.KernelIdeal.Region0

end
-- ==== Proof.ChainEmb.lean ====
/- The embedding: what the first host stretch leaves (the two rows of the edge list, the embedding biases as rows) and,
   from it, the node array region 0 writes: the row-wise perceptron of the input features with the embedding weights. -/
import proofs.«419785_j6528350289988_1_alg».proof.Proof.Keep
import proofs.«419785_j6528350289988_1_alg».proof.Proof.KNet
import proofs.«419785_j6528350289988_1_alg».proof.Proof.Region0
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen Cert.Net

variable [Cert.KernelIdeal.Facts]

/-! ## The first stretch, from any contents -/

section Ops
variable (V : Valuation τ sig (Elt Ideal))

theorem ops0_src :
    StableHlo.after (hostOps0 (F := Ideal)) V (Proc.devRef .tc main_v1) = KNet.srcOf (V (Proc.devRef .tc main_arg1)) := by
  dsimp only [hostOps0]
  after_results
  rfl

theorem ops0_dst :
    StableHlo.after (hostOps0 (F := Ideal)) V (Proc.devRef .tc main_v3) = KNet.dstOf (V (Proc.devRef .tc main_arg1)) := by
  dsimp only [hostOps0]
  after_results
  rfl

theorem ops0_b1 :
    rowBias (StableHlo.after (hostOps0 (F := Ideal)) V (Proc.devRef .tc main_v4)) = KNet.biasRow (V (Proc.devRef .tc main_arg3)) := by
  dsimp only [hostOps0]
  after_results
  rfl

theorem ops0_b2 :
    rowBias (StableHlo.after (hostOps0 (F := Ideal)) V (Proc.devRef .tc main_v5)) = KNet.biasRow (V (Proc.devRef .tc main_arg5)) := by
  dsimp only [hostOps0]
  after_results
  rfl

end Ops

variable (m : (ℓ : Loc nD τ sig) → Buf (Elt Ideal) ℓ) (ρ : Dev nD → PrngReg) (c : Dev nD)

/-! ## At the embedding region's entry -/

/-- The edges' sources, as the first stretch leaves them. -/
theorem src_at1 : W1 m ρ c (Proc.devRef .tc main_v1) = KNet.srcOf (m ((c : Thread nD τ).loc main_arg1)) :=
  ops0_src (W0 m ρ c)

/-- The edges' targets, as the first stretch leaves them. -/
theorem dst_at1 : W1 m ρ c (Proc.devRef .tc main_v3) = KNet.dstOf (m ((c : Thread nD τ).loc main_arg1)) :=
  ops0_dst (W0 m ρ c)

theorem b1_at1 : rowBias (W1 m ρ c (Proc.devRef .tc main_v4)) = KNet.biasRow (m ((c : Thread nD τ).loc main_arg3)) :=
  ops0_b1 (W0 m ρ c)

theorem b2_at1 : rowBias (W1 m ρ c (Proc.devRef .tc main_v5)) = KNet.biasRow (m ((c : Thread nD τ).loc main_arg5)) :=
  ops0_b2 (W0 m ρ c)

/-! ## The embedded node array -/

/-- Region 0's output: the perceptron of the input features with the embedding weights, row by row. -/
theorem emb :
    W2 m ρ c (Proc.devRef .tc main_v6)
      = mlp (m ((c : Thread nD τ).loc main_arg0)) (m ((c : Thread nD τ).loc main_arg2))
          (KNet.biasRow (m ((c : Thread nD τ).loc main_arg3))) (m ((c : Thread nD τ).loc main_arg4))
          (KNet.biasRow (m ((c : Thread nD τ).loc main_arg5))) :=
  calc W2 m ρ c (Proc.devRef .tc main_v6)
    _ = (dat0 (V1 m ρ) c).arrAt 5 cfg0.N := W2_arr m ρ c 5
    _ = mlp (W1 m ρ c (Proc.devRef .tc main_arg0)) (W1 m ρ c (Proc.devRef .tc main_arg2))
          (rowBias (W1 m ρ c (Proc.devRef .tc main_v4))) (W1 m ρ c (Proc.devRef .tc main_arg4))
          (rowBias (W1 m ρ c (Proc.devRef .tc main_v5))) := Region0.value (V1 m ρ) c
    _ = _ := by
      rw [step1 m ρ c main_arg0 (by decide), step1 m ρ c main_arg2 (by decide), step1 m ρ c main_arg4 (by decide),
        b1_at1, b2_at1]

end Cert.KernelIdeal.Chain

end
-- ==== Proof.ChainRef.lean ====
/- A typed reference built from a literal reference carries that reference's own buffer type, so moving contents to
   the carried type and back changes nothing. -/
import proofs.«419785_j6528350289988_1_alg».proof.KernelIdeal
import Idealize.ShloMosaic.Lib.StableHlo

noncomputable section

namespace Cert.KernelIdeal.Chain

open Idealize.ShloMosaic Idealize.SL.Sem
open Cert.KernelIdeal

variable {Val : EltTy → Type}

/-- Contents moved to a typed reference's buffer type and back are the contents. -/
theorem ofBuf_toBuf {T : BufTy} (x : StableHlo.TRef sig T) (v : T.Contents Val) : x.ofBuf (x.toBuf v) = v := by
  obtain ⟨r, h, _, _⟩ := x
  subst h
  rfl

/-- At a literal reference the carried type is the buffer's own: reading at it is the identity. -/
theorem ofBuf_of (r : Ref sig .tc) (hd hu) (u : r.ty.Contents Val) : (StableHlo.TRef.of r rfl hd hu).ofBuf u = u := rfl

/-- At a literal reference the carried type is the buffer's own: writing at it is the identity. -/
theorem toBuf_of (r : Ref sig .tc) (hd hu) (u : r.ty.Contents Val) : (StableHlo.TRef.of r rfl hd hu).toBuf u = u := rfl

end Cert.KernelIdeal.Chain

end
-- ==== Proof.ChainOps0.lean ====
/- What layer 0's four host stretches leave in the buffers its two regions read, from any contents at the stretch's
   entry: the two gathers of the node array's rows at the edges' end points, the message perceptron's inputs (the
   gathered rows side by side and narrowed, slab 0 of the stacked message weights, the biases as rows) and the update
   perceptron's inputs (the node array beside the summed messages, slab 0 of the stacked update weights, the biases as
   rows). -/
import proofs.«419785_j6528350289988_1_alg».proof.Proof.Gen.KernelIdeal.Launch
import proofs.«419785_j6528350289988_1_alg».proof.Proof.KNet
import proofs.«419785_j6528350289988_1_alg».proof.Proof.ChainRef
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen Cert.Net

variable [Cert.KernelIdeal.Facts]

variable (V : Valuation τ sig (Elt Ideal))

/-! ## The two gathers -/

set_option maxHeartbeats 2000000 in
/-- The first gather stretch leaves the rows of the node array at the edges' targets. -/
theorem take_dst0 :
    StableHlo.after (hostOps1 (F := Ideal)) V (Proc.devRef .tc main_v7)
      = KNet.take (V (Proc.devRef .tc main_v6)) (V (Proc.devRef .tc main_v3)) := by
  dsimp only [hostOps1]
  after_results_simp
  simp only [ofBuf_toBuf]
  rw [toBuf_of]
  repeat rw [ofBuf_of]
  rfl

set_option maxHeartbeats 2000000 in
/-- The second gather stretch leaves the rows of the node array at the edges' sources. -/
theorem take_src0 :
    StableHlo.after (hostOps1_1 (F := Ideal)) V (Proc.devRef .tc main_v8)
      = KNet.take (V (Proc.devRef .tc main_v6)) (V (Proc.devRef .tc main_v1)) := by
  dsimp only [hostOps1_1]
  after_results_simp
  simp only [ofBuf_toBuf]
  rw [toBuf_of]
  repeat rw [ofBuf_of]
  rfl

/-! ## The message perceptron's five inputs -/

/-- The edge input: the two gathered arrays side by side, narrowed. -/
theorem msg_x0 (h : FVec Ideal S50000x64 .f32) (dst src : IVec S800000 32)
    (h7 : V (Proc.devRef .tc main_v7) = KNet.take h dst) (h8 : V (Proc.devRef .tc main_v8) = KNet.take h src) :
    StableHlo.after (hostOps1_2 (F := Ideal)) V (Proc.devRef .tc main_v20) = KNet.edgeIn h dst src := by
  dsimp only [hostOps1_2]
  after_results
  rw [h7, h8]
  rfl

theorem msg_w1_0 :
    StableHlo.after (hostOps1_2 (F := Ideal)) V (Proc.devRef .tc main_v11) = KNet.w1At0 (V (Proc.devRef .tc main_arg6)) := by
  dsimp only [hostOps1_2]
  after_results
  rfl

theorem msg_b1_0 :
    rowBias (StableHlo.after (hostOps1_2 (F := Ideal)) V (Proc.devRef .tc main_v18))
      = KNet.biasRow (KNet.bAt0 (V (Proc.devRef .tc main_arg7))) := by
  dsimp only [hostOps1_2]
  after_results
  rfl

theorem msg_w2_0 :
    StableHlo.after (hostOps1_2 (F := Ideal)) V (Proc.devRef .tc main_v15) = KNet.w2At0 (V (Proc.devRef .tc main_arg8)) := by
  dsimp only [hostOps1_2]
  after_results
  rfl

theorem msg_b2_0 :
    rowBias (StableHlo.after (hostOps1_2 (F := Ideal)) V (Proc.devRef .tc main_v19))
      = KNet.biasRow (KNet.bAt0 (V (Proc.devRef .tc main_arg9))) := by
  dsimp only [hostOps1_2]
  after_results
  rfl

/-! ## The update perceptron's five inputs -/

/-- The node input: the node array beside the messages summed into their targets. -/
theorem upd_x0 :
    StableHlo.after (hostOps2 (F := Ideal)) V (Proc.devRef .tc main_v25)
      = KNet.nodeIn (V (Proc.devRef .tc main_v6)) (KNet.aggregate (V (Proc.devRef .tc main_v21)) (V (Proc.devRef .tc main_v3))) := by
  dsimp only [hostOps2]
  after_results
  rfl

theorem upd_w1_0 :
    StableHlo.after (hostOps2 (F := Ideal)) V (Proc.devRef .tc main_v27) = KNet.w1At0 (V (Proc.devRef .tc main_arg10)) := by
  dsimp only [hostOps2]
  after_results
  rfl

theorem upd_b1_0 :
    rowBias (StableHlo.after (hostOps2 (F := Ideal)) V (Proc.devRef .tc main_v34))
      = KNet.biasRow (KNet.bAt0 (V (Proc.devRef .tc main_arg11))) := by
  dsimp only [hostOps2]
  after_results
  rfl

theorem upd_w2_0 :
    StableHlo.after (hostOps2 (F := Ideal)) V (Proc.devRef .tc main_v31) = KNet.w2At0 (V (Proc.devRef .tc main_arg12)) := by
  dsimp only [hostOps2]
  after_results
  rfl

theorem upd_b2_0 :
    rowBias (StableHlo.after (hostOps2 (F := Ideal)) V (Proc.devRef .tc main_v35))
      = KNet.biasRow (KNet.bAt0 (V (Proc.devRef .tc main_arg13))) := by
  dsimp only [hostOps2]
  after_results
  rfl

end Cert.KernelIdeal.Chain

end
-- ==== Proof.Region1.lean ====
/- Region 1 of the kernel's program, read as a value: whatever the arrays hold when the region is entered, its output
   array ends holding the row-wise perceptron of the input array (every block of 32000 rows is written by one grid
   point, from the same block of rows of the input and the whole weight and bias arrays; the blocks tile the array). -/
import proofs.«419785_j6528350289988_1_alg».proof.Proof.Gen.KernelIdeal.Frame
import proofs.«419785_j6528350289988_1_alg».proof.Proof.Pay

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input's block and the output's block at point t are both block t of rows;
    every weight and bias window is its whole array at every point. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A row of the perceptron's result depends on the same row of its input only (and on the weights and biases). -/
theorem mlp_row {R T D : ℕ} (x : (⟨2, ![R, D]⟩ : Shape).Idx → EReal) (xb : (⟨2, ![T, D]⟩ : Shape).Idx → EReal)
    (w1 w1' : (⟨2, ![D, 64]⟩ : Shape).Idx → EReal) (b1 b1' : (⟨2, ![1, 64]⟩ : Shape).Idx → EReal)
    (w2 w2' : (⟨2, ![64, 64]⟩ : Shape).Idx → EReal) (b2 b2' : (⟨2, ![1, 64]⟩ : Shape).Idx → EReal)
    (p : Fin T) (r : Fin R) (q : Fin 64) (h : ∀ i : Fin D, xb (ix2 p i) = x (ix2 r i))
    (hw1 : w1' = w1) (hb1 : b1' = b1) (hw2 : w2' = w2) (hb2 : b2' = b2) :
    mlp xb w1' (rowBias b1') w2' (rowBias b2') (ix2 p q) = mlp x w1 (rowBias b1) w2 (rowBias b2) (ix2 r q) := by
  subst hw1 hb1 hw2 hb2
  rw [mlp_apply, mlp_apply]
  simp only [h]

/-- Row p of the input's block at point t is row 32000 t + p of the input array. -/
theorem input_block (c : Dev nD) (t : Fin cfg1.N) (p : Fin 32000) (i : Fin 128) (r : Fin 800000) (hr : r.val = t.val * 32000 + p.val) :
    (iblk1 V c 0 t : Vec Ideal S32000x128 .bf16) (ix2 p i) = V c (Pipeline.arrRef spec1 0) (ix2 r i) := by
  obtain ⟨e0, e1, -⟩ := index_maps t
  show V c (Pipeline.arrRef spec1 0) (((cfg1.win 0).blk t).view.emb (ix2 p i)) = _
  congr 1
  funext a; apply Fin.ext
  match a with
  | ⟨0, _⟩ => show win1_0.index t (0 : Fin 2) * 32000 + 1 * p.val = r.val; omega
  | ⟨1, _⟩ => show win1_0.index t (1 : Fin 2) * 128 + 1 * i.val = i.val; omega

/-- The first weight matrix's block at every point is the whole array. -/
theorem w1_block (c : Dev nD) (t : Fin cfg1.N) : (iblk1 V c 1 t : Vec Ideal S128x64 .f32) = V c (Pipeline.arrRef spec1 1) := by
  obtain ⟨-, -, e0, e1, -⟩ := index_maps t
  funext y
  show V c (Pipeline.arrRef spec1 1) (((cfg1.win 1).blk t).view.emb y) = V c (Pipeline.arrRef spec1 1) y
  congr 1
  funext a; apply Fin.ext
  match a with
  | ⟨0, _⟩ => show win1_1.index t (0 : Fin 2) * 128 + 1 * (y 0).val = (y 0).val; omega
  | ⟨1, _⟩ => show win1_1.index t (1 : Fin 2) * 64 + 1 * (y 1).val = (y 1).val; omega

/-- The first bias row's block at every point is the whole array. -/
theorem b1_block (c : Dev nD) (t : Fin cfg1.N) : (iblk1 V c 2 t : Vec Ideal S1x64 .f32) = V c (Pipeline.arrRef spec1 2) := by
  obtain ⟨-, -, -, -, e0, e1, -⟩ := index_maps t
  funext y
  show V c (Pipeline.arrRef spec1 2) (((cfg1.win 2).blk t).view.emb y) = V c (Pipeline.arrRef spec1 2) y
  congr 1
  funext a; apply Fin.ext
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The second weight matrix's block at every point is the whole array. -/
theorem w2_block (c : Dev nD) (t : Fin cfg1.N) : (iblk1 V c 3 t : Vec Ideal S64x64 .f32) = V c (Pipeline.arrRef spec1 3) := by
  obtain ⟨-, -, -, -, -, -, e0, e1, -⟩ := index_maps t
  funext y
  show V c (Pipeline.arrRef spec1 3) (((cfg1.win 3).blk t).view.emb y) = V c (Pipeline.arrRef spec1 3) y
  congr 1
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The second bias row's block at every point is the whole array. -/
theorem b2_block (c : Dev nD) (t : Fin cfg1.N) : (iblk1 V c 4 t : Vec Ideal S1x64 .f32) = V c (Pipeline.arrRef spec1 4) := by
  obtain ⟨-, -, -, -, -, -, -, -, e0, e1, -⟩ := index_maps t
  funext y
  show V c (Pipeline.arrRef spec1 4) (((cfg1.win 4).blk t).view.emb y) = V c (Pipeline.arrRef spec1 4) y
  congr 1
  funext a; apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

set_option maxHeartbeats 1000000 in
/-- What point t writes back is block t of the perceptron of the arrays as the region finds them. -/
theorem flushed_eq (c : Dev nD) (t : Fin cfg1.N) :
    (dat1 (F := Ideal) V c).flushed 5 t = ((cfg1.win 5).blk t).view.read (Elt Ideal)
      (mlp (V c (Pipeline.arrRef spec1 0)) (V c (Pipeline.arrRef spec1 1)) (rowBias (V c (Pipeline.arrRef spec1 2)))
          (V c (Pipeline.arrRef spec1 3)) (rowBias (V c (Pipeline.arrRef spec1 4)))) := by
  show (cfg1.win 5).cut (grid1.coords t) ((dat1 V c).after 5 t) = _
  rw [after1_5]
  unfold out1_5
  rw [View.canon_unit_zero zero_offsets]
  simp only [View.ld_unit_zero (S := S32000x128) zero_offsets, View.ld_unit_zero (S := S128x64) zero_offsets, View.ld_unit_zero (S := S64x64) zero_offsets, View.ld_unit_zero (S := S1x64) zero_offsets]
  rw [Pay.pay1]
  funext j
  obtain ⟨p, q, rfl⟩ : ∃ (p : Fin 32000) (q : Fin 64), j = ix2 p q := ⟨j 0, j 1, eq_ix2 j⟩
  have hN : cfg1.N = 25 := N_1
  have ht : t.val < cfg1.N := t.isLt
  obtain ⟨-, -, -, -, -, -, -, -, -, -, e0, e1⟩ := index_maps t
  have hemb : ((cfg1.win 5).blk t).view.emb (ix2 p q) = ix2 (⟨t.val * 32000 + p.val, by omega⟩ : Fin 800000) q := by
    funext a; apply Fin.ext
    match a with
    | ⟨0, _⟩ => show win1_5.index t (0 : Fin 2) * 32000 + 1 * p.val = t.val * 32000 + p.val; omega
    | ⟨1, _⟩ => show win1_5.index t (1 : Fin 2) * 64 + 1 * q.val = q.val; omega
  show mlp (iblk1 V c 0 t) _ _ _ _ (ix2 p q) = mlp _ _ _ _ _ (((cfg1.win 5).blk t).view.emb (ix2 p q))
  rw [hemb]
  exact mlp_row _ _ _ _ _ _ _ _ _ _ p _ q (fun i => input_block V c t p i _ rfl) (w1_block V c t) (b1_block V c t) (w2_block V c t) (b2_block V c t)

/-- An index of the output array is in point t's block iff each coordinate is in the block's range on its axis. -/
theorem mem_blk (t : Fin cfg1.N) (i : S800000x64.Idx) :
    i ∈ ((cfg1.win 5).blk t).view.set ↔ ∀ a : Fin 2, win1_5.index t a * S32000x64.size a ≤ (i a).val ∧ (i a).val < win1_5.index t a * S32000x64.size a + S32000x64.size a := by
  show i ∈ ((View.whole (Pipeline.arrRef spec1 5)).slice (win1_5.rect t)).set ↔ _
  rw [View.set_slice_whole, Rect.mem_set_unit]
  exact Iff.rfl

/-- Row r of the output array is in the block of point r / 32000. -/
theorem cover (i : S800000x64.Idx) : ∃ t : Fin cfg1.N, (cfg1.win 5).flush t = true ∧ i ∈ ((cfg1.win 5).blk t).view.set := by
  have hN : cfg1.N = 25 := N_1
  have hi0 : (i 0).val < 800000 := (i 0).isLt
  have hi1 : (i 1).val < 64 := (i 1).isLt
  refine ⟨⟨(i 0).val / 32000, by omega⟩, flush1_5 _, ?_⟩
  rw [mem_blk]
  obtain ⟨-, -, -, -, -, -, -, -, -, -, e0, e1⟩ := index_maps ⟨(i 0).val / 32000, by omega⟩
  intro a
  match a with
  | ⟨0, _⟩ => show win1_5.index _ (0 : Fin 2) * 32000 ≤ (i 0).val ∧ (i 0).val < win1_5.index _ (0 : Fin 2) * 32000 + 32000; rw [e0]; show (i 0).val / 32000 * 32000 ≤ _ ∧ _ < (i 0).val / 32000 * 32000 + 32000; omega
  | ⟨1, _⟩ => show win1_5.index _ (1 : Fin 2) * 64 ≤ (i 1).val ∧ (i 1).val < win1_5.index _ (1 : Fin 2) * 64 + 64; rw [e1]; omega

/-- The output array after region 1's last grid point. -/
theorem value (c : Dev nD) :
    (dat1 (F := Ideal) V c).arrAt 5 cfg1.N
      = mlp (V c (Pipeline.arrRef spec1 0)) (V c (Pipeline.arrRef spec1 1)) (rowBias (V c (Pipeline.arrRef spec1 2)))
          (V c (Pipeline.arrRef spec1 3)) (rowBias (V c (Pipeline.arrRef spec1 4))) :=
  (dat1 (F := Ideal) V c).arrAt_eq_of_cover 5 _ (fun t _ => flushed_eq V c t) cover

end Cert.KernelIdeal.Region1

end
-- ==== Proof.Region2.lean ====
/- Region 2 of the kernel's program, read as a value: whatever the arrays hold when the region is entered, its output
   array ends holding the row-wise perceptron of the input array (every block of 10000 rows is written by one grid
   point, from the same block of rows of the input and the whole weight and bias arrays; the blocks tile the array). -/
import proofs.«419785_j6528350289988_1_alg».proof.Proof.Gen.KernelIdeal.Frame
import proofs.«419785_j6528350289988_1_alg».proof.Proof.Pay

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input's block and the output's block at point t are both block t of rows;
    every weight and bias window is its whole array at every point. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- A row of the perceptron's result depends on the same row of its input only (and on the weights and biases). -/
theorem mlp_row {R T D : ℕ} (x : (⟨2, ![R, D]⟩ : Shape).Idx → EReal) (xb : (⟨2, ![T, D]⟩ : Shape).Idx → EReal)
    (w1 w1' : (⟨2, ![D, 64]⟩ : Shape).Idx → EReal) (b1 b1' : (⟨2, ![1, 64]⟩ : Shape).Idx → EReal)
    (w2 w2' : (⟨2, ![64, 64]⟩ : Shape).Idx → EReal) (b2 b2' : (⟨2, ![1, 64]⟩ : Shape).Idx → EReal)
    (p : Fin T) (r : Fin R) (q : Fin 64) (h : ∀ i : Fin D, xb (ix2 p i) = x (ix2 r i))
    (hw1 : w1' = w1) (hb1 : b1' = b1) (hw2 : w2' = w2) (hb2 : b2' = b2) :
    mlp xb w1' (rowBias b1') w2' (rowBias b2') (ix2 p q) = mlp x w1 (rowBias b1) w2 (rowBias b2) (ix2 r q) := by
  subst hw1 hb1 hw2 hb2
  rw [mlp_apply, mlp_apply]
  simp only [h]

/-- Row p of the input's block at point t is row 10000 t + p of the input array. -/
theorem input_block (c : Dev nD) (t : Fin cfg2.N) (p : Fin 10000) (i : Fin 128) (r : Fin 50000) (hr : r.val = t.val * 10000 + p.val) :
    (iblk2 V c 0 t : Vec Ideal S10000x128 .f32) (ix2 p i) = V c (Pipeline.arrRef spec2 0) (ix2 r i) := by
  obtain ⟨e0, e1, -⟩ := index_maps t
  show V c (Pipeline.arrRef spec2 0) (((cfg2.win 0).blk t).view.emb (ix2 p i)) = _
  congr 1
  funext a; apply Fin.ext
  match a with
  | ⟨0, _⟩ => show win2_0.index t (0 : Fin 2) * 10000 + 1 * p.val = r.val; omega
  | ⟨1, _⟩ => show win2_0.index t (1 : Fin 2) * 128 + 1 * i.val = i.val; omega

/-- The first weight matrix's block at every point is the whole array. -/
theorem w1_block (c : Dev nD) (t : Fin cfg2.N) : (iblk2 V c 1 t : Vec Ideal S128x64 .f32) = V c (Pipeline.arrRef spec2 1) := by
  obtain ⟨-, -, e0, e1, -⟩ := index_maps t
  funext y
  show V c (Pipeline.arrRef spec2 1) (((cfg2.win 1).blk t).view.emb y) = V c (Pipeline.arrRef spec2 1) y
  congr 1
  funext a; apply Fin.ext
  match a with
  | ⟨0, _⟩ => show win2_1.index t (0 : Fin 2) * 128 + 1 * (y 0).val = (y 0).val; omega
  | ⟨1, _⟩ => show win2_1.index t (1 : Fin 2) * 64 + 1 * (y 1).val = (y 1).val; omega

/-- The first bias row's block at every point is the whole array. -/
theorem b1_block (c : Dev nD) (t : Fin cfg2.N) : (iblk2 V c 2 t : Vec Ideal S1x64 .f32) = V c (Pipeline.arrRef spec2 2) := by
  obtain ⟨-, -, -, -, e0, e1, -⟩ := index_maps t
  funext y
  show V c (Pipeline.arrRef spec2 2) (((cfg2.win 2).blk t).view.emb y) = V c (Pipeline.arrRef spec2 2) y
  congr 1
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- The second weight matrix's block at every point is the whole array. -/
theorem w2_block (c : Dev nD) (t : Fin cfg2.N) : (iblk2 V c 3 t : Vec Ideal S64x64 .f32) = V c (Pipeline.arrRef spec2 3) := by
  obtain ⟨-, -, -, -, -, -, e0, e1, -⟩ := index_maps t
  funext y
  show V c (Pipeline.arrRef spec2 3) (((cfg2.win 3).blk t).view.emb y) = V c (Pipeline.arrRef spec2 3) y
  congr 1
  funext a; apply Fin.ext
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- The second bias row's block at every point is the whole array. -/
theorem b2_block (c : Dev nD) (t : Fin cfg2.N) : (iblk2 V c 4 t : Vec Ideal S1x64 .f32) = V c (Pipeline.arrRef spec2 4) := by
  obtain ⟨-, -, -, -, -, -, -, -, e0, e1, -⟩ := index_maps t
  funext y
  show V c (Pipeline.arrRef spec2 4) (((cfg2.win 4).blk t).view.emb y) = V c (Pipeline.arrRef spec2 4) y
  congr 1
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

set_option maxHeartbeats 1000000 in
/-- What point t writes back is block t of the perceptron of the arrays as the region finds them. -/
theorem flushed_eq (c : Dev nD) (t : Fin cfg2.N) :
    (dat2 (F := Ideal) V c).flushed 5 t = ((cfg2.win 5).blk t).view.read (Elt Ideal)
      (mlp (V c (Pipeline.arrRef spec2 0)) (V c (Pipeline.arrRef spec2 1)) (rowBias (V c (Pipeline.arrRef spec2 2)))
          (V c (Pipeline.arrRef spec2 3)) (rowBias (V c (Pipeline.arrRef spec2 4)))) := by
  show (cfg2.win 5).cut (grid2.coords t) ((dat2 V c).after 5 t) = _
  rw [after2_5]
  unfold out2_5
  rw [View.canon_unit_zero zero_offsets]
  simp only [View.ld_unit_zero (S := S10000x128) zero_offsets, View.ld_unit_zero (S := S128x64) zero_offsets, View.ld_unit_zero (S := S64x64) zero_offsets, View.ld_unit_zero (S := S1x64) zero_offsets]
  rw [Pay.pay2]
  funext j
  obtain ⟨p, q, rfl⟩ : ∃ (p : Fin 10000) (q : Fin 64), j = ix2 p q := ⟨j 0, j 1, eq_ix2 j⟩
  have hN : cfg2.N = 5 := N_2
  have ht : t.val < cfg2.N := t.isLt
  obtain ⟨-, -, -, -, -, -, -, -, -, -, e0, e1⟩ := index_maps t
  have hemb : ((cfg2.win 5).blk t).view.emb (ix2 p q) = ix2 (⟨t.val * 10000 + p.val, by omega⟩ : Fin 50000) q := by
    funext a; apply Fin.ext
    match a with
    | ⟨0, _⟩ => show win2_5.index t (0 : Fin 2) * 10000 + 1 * p.val = t.val * 10000 + p.val; omega
    | ⟨1, _⟩ => show win2_5.index t (1 : Fin 2) * 64 + 1 * q.val = q.val; omega
  show mlp (iblk2 V c 0 t) _ _ _ _ (ix2 p q) = mlp _ _ _ _ _ (((cfg2.win 5).blk t).view.emb (ix2 p q))
  rw [hemb]
  exact mlp_row _ _ _ _ _ _ _ _ _ _ p _ q (fun i => input_block V c t p i _ rfl) (w1_block V c t) (b1_block V c t) (w2_block V c t) (b2_block V c t)

/-- An index of the output array is in point t's block iff each coordinate is in the block's range on its axis. -/
theorem mem_blk (t : Fin cfg2.N) (i : S50000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole (Pipeline.arrRef spec2 5)).slice (win2_5.rect t)).set ↔ _
  rw [View.set_slice_whole, Rect.mem_set_unit]
  exact Iff.rfl

/-- Row r of the output array is in the block of point r / 10000. -/
theorem cover (i : S50000x64.Idx) : ∃ t : Fin cfg2.N, (cfg2.win 5).flush t = true ∧ i ∈ ((cfg2.win 5).blk t).view.set := by
  have hN : cfg2.N = 5 := N_2
  have hi0 : (i 0).val < 50000 := (i 0).isLt
  have hi1 : (i 1).val < 64 := (i 1).isLt
  refine ⟨⟨(i 0).val / 10000, by omega⟩, flush2_5 _, ?_⟩
  rw [mem_blk]
  obtain ⟨-, -, -, -, -, -, -, -, -, -, e0, e1⟩ := index_maps ⟨(i 0).val / 10000, by omega⟩
  intro a
  match a with
  | ⟨0, _⟩ => show win2_5.index _ (0 : Fin 2) * 10000 ≤ (i 0).val ∧ (i 0).val < win2_5.index _ (0 : Fin 2) * 10000 + 10000; rw [e0]; show (i 0).val / 10000 * 10000 ≤ _ ∧ _ < (i 0).val / 10000 * 10000 + 10000; omega
  | ⟨1, _⟩ => show win2_5.index _ (1 : Fin 2) * 64 ≤ (i 1).val ∧ (i 1).val < win2_5.index _ (1 : Fin 2) * 64 + 64; rw [e1]; omega

/-- The output array after region 2's last grid point. -/
theorem value (c : Dev nD) :
    (dat2 (F := Ideal) V c).arrAt 5 cfg2.N
      = mlp (V c (Pipeline.arrRef spec2 0)) (V c (Pipeline.arrRef spec2 1)) (rowBias (V c (Pipeline.arrRef spec2 2)))
          (V c (Pipeline.arrRef spec2 3)) (rowBias (V c (Pipeline.arrRef spec2 4))) :=
  (dat2 (F := Ideal) V c).arrAt_eq_of_cover 5 _ (fun t _ => flushed_eq V c t) cover

end Cert.KernelIdeal.Region2

end
-- ==== Proof.ChainLayer0.lean ====
/- Message-passing layer 0 of the kernel's program, read off the boundary contents: from the node array region 0 left,
   the two gathers, the message perceptron (region 1) on the edge inputs, the sum of the messages into their targets,
   and the update perceptron (region 2) on the node inputs: the node array region 2 writes is layer 0 of the network on
   the node array it started from, with the edge list's two rows and slab 0 of the eight stacked weight arrays. -/
import proofs.«419785_j6528350289988_1_alg».proof.Proof.Keep
import proofs.«419785_j6528350289988_1_alg».proof.Proof.ChainOps0
import proofs.«419785_j6528350289988_1_alg».proof.Proof.ChainEmb
import proofs.«419785_j6528350289988_1_alg».proof.Proof.Region1
import proofs.«419785_j6528350289988_1_alg».proof.Proof.Region2

set_option maxRecDepth 16384

noncomputable section

namespace Cert.KernelIdeal.Chain

open Idealize.ShloMosaic Idealize.ShloMosaic.TcCoe Idealize.SL.Sem
open Cert.KernelIdeal Cert.KernelIdeal.Gen Cert.Net

variable [Cert.KernelIdeal.Facts]

variable (m : (ℓ : Loc nD τ sig) → Buf (Elt Ideal) ℓ) (ρ : Dev nD → PrngReg) (c : Dev nD)

/-- The messages of layer 0: region 1's output. -/
theorem msg0 :
    W6 m ρ c (Proc.devRef .tc main_v21)
      = mlp (KNet.edgeIn (W2 m ρ c (Proc.devRef .tc main_v6)) (KNet.dstOf (m ((c : Thread nD τ).loc main_arg1))) (KNet.srcOf (m ((c : Thread nD τ).loc main_arg1))))
          (KNet.w1At0 (m ((c : Thread nD τ).loc main_arg6))) (KNet.biasRow (KNet.bAt0 (m ((c : Thread nD τ).loc main_arg7))))
          (KNet.w2At0 (m ((c : Thread nD τ).loc main_arg8))) (KNet.biasRow (KNet.bAt0 (m ((c : Thread nD τ).loc main_arg9)))) := by
  -- the edge list's rows and the node array where the gathers read them
  have d2 : W2 m ρ c (Proc.devRef .tc main_v3) = KNet.dstOf (m ((c : Thread nD τ).loc main_arg1)) :=
    (keep2 m ρ c main_v3 (by decide)).trans (dst_at1 m ρ c)
  have s3 : W3 m ρ c (Proc.devRef .tc main_v1) = KNet.srcOf (m ((c : Thread nD τ).loc main_arg1)) :=
    (keep3 m ρ c main_v1 (by decide)).trans (src_at1 m ρ c)
  have h3 : W3 m ρ c (Proc.devRef .tc main_v6) = W2 m ρ c (Proc.devRef .tc main_v6) := step3 m ρ c main_v6 (by decide)
  -- the two gathers
  have t7 : W4 m ρ c (Proc.devRef .tc main_v7)
      = KNet.take (W2 m ρ c (Proc.devRef .tc main_v6)) (KNet.dstOf (m ((c : Thread nD τ).loc main_arg1))) :=
    (step4 m ρ c main_v7 (by decide)).trans ((take_dst0 (W2 m ρ c)).trans (by rw [d2]))
  have t8 : W4 m ρ c (Proc.devRef .tc main_v8)
      = KNet.take (W2 m ρ c (Proc.devRef .tc main_v6)) (KNet.srcOf (m ((c : Thread nD τ).loc main_arg1))) :=
    (take_src0 (W3 m ρ c)).trans (by rw [h3, s3])
  -- the stacked message weights where the third stretch reads them
  have a6 : W4 m ρ c (Proc.devRef .tc main_arg6) = (m ((c : Thread nD τ).loc main_arg6)) :=
    (keep4 m ρ c main_arg6 (by decide)).trans (step1 m ρ c main_arg6 (by decide))
  have a7 : W4 m ρ c (Proc.devRef .tc main_arg7) = (m ((c : Thread nD τ).loc main_arg7)) :=
    (keep4 m ρ c main_arg7 (by decide)).trans (step1 m ρ c main_arg7 (by decide))
  have a8 : W4 m ρ c (Proc.devRef .tc main_arg8) = (m ((c : Thread nD τ).loc main_arg8)) :=
    (keep4 m ρ c main_arg8 (by decide)).trans (step1 m ρ c main_arg8 (by decide))
  have a9 : W4 m ρ c (Proc.devRef .tc main_arg9) = (m ((c : Thread nD τ).loc main_arg9)) :=
    (keep4 m ρ c main_arg9 (by decide)).trans (step1 m ρ c main_arg9 (by decide))
  -- region 1's five inputs
  have x : W5 m ρ c (Proc.devRef .tc main_v20)
      = KNet.edgeIn (W2 m ρ c (Proc.devRef .tc main_v6)) (KNet.dstOf (m ((c : Thread nD τ).loc main_arg1))) (KNet.srcOf (m ((c : Thread nD τ).loc main_arg1))) :=
    msg_x0 (W4 m ρ c) _ _ _ t7 t8
  have w1 : W5 m ρ c (Proc.devRef .tc main_v11) = KNet.w1At0 (m ((c : Thread nD τ).loc main_arg6)) :=
    (msg_w1_0 (W4 m ρ c)).trans (by rw [a6])
  have b1 : rowBias (W5 m ρ c (Proc.devRef .tc main_v18)) = KNet.biasRow (KNet.bAt0 (m ((c : Thread nD τ).loc main_arg7))) :=
    (msg_b1_0 (W4 m ρ c)).trans (by rw [a7])
  have w2 : W5 m ρ c (Proc.devRef .tc main_v15) = KNet.w2At0 (m ((c : Thread nD τ).loc main_arg8)) :=
    (msg_w2_0 (W4 m ρ c)).trans (by rw [a8])
  have b2 : rowBias (W5 m ρ c (Proc.devRef .tc main_v19)) = KNet.biasRow (KNet.bAt0 (m ((c : Thread nD τ).loc main_arg9))) :=
    (msg_b2_0 (W4 m ρ c)).trans (by rw [a9])
  calc W6 m ρ c (Proc.devRef .tc main_v21)
    _ = (dat1 (V5 m ρ) c).arrAt 5 cfg1.N := W6_arr m ρ c 5
    _ = mlp (W5 m ρ c (Proc.devRef .tc main_v20)) (W5 m ρ c (Proc.devRef .tc main_v11))
          (rowBias (W5 m ρ c (Proc.devRef .tc main_v18))) (W5 m ρ c (Proc.devRef .tc main_v15))
          (rowBias (W5 m ρ c (Proc.devRef .tc main_v19))) := Region1.value (V5 m ρ) c
    _ = _ := by rw [x, w1, b1, w2, b2]

/-- Layer 0: region 2's output is the layer on region 0's. -/
theorem layer0 :
    W8 m ρ c (Proc.devRef .tc main_v36)
      = KNet.layer0 (W2 m ρ c (Proc.devRef .tc main_v6)) (KNet.dstOf (m ((c : Thread nD τ).loc main_arg1))) (KNet.srcOf (m ((c : Thread nD τ).loc main_arg1)))
          (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13)) := by
  -- the targets and the node array where the fourth stretch reads them
  have d6 : W6 m ρ c (Proc.devRef .tc main_v3) = KNet.dstOf (m ((c : Thread nD τ).loc main_arg1)) :=
    (keep6 m ρ c main_v3 (by decide)).trans (dst_at1 m ρ c)
  have h6 : W6 m ρ c (Proc.devRef .tc main_v6) = W2 m ρ c (Proc.devRef .tc main_v6) :=
    (step6 m ρ c main_v6 (by decide)).trans ((step5 m ρ c main_v6 (by decide)).trans
      ((step4 m ρ c main_v6 (by decide)).trans (step3 m ρ c main_v6 (by decide))))
  -- the stacked update weights where the fourth stretch reads them
  have a10 : W6 m ρ c (Proc.devRef .tc main_arg10) = (m ((c : Thread nD τ).loc main_arg10)) :=
    (keep6 m ρ c main_arg10 (by decide)).trans (step1 m ρ c main_arg10 (by decide))
  have a11 : W6 m ρ c (Proc.devRef .tc main_arg11) = (m ((c : Thread nD τ).loc main_arg11)) :=
    (keep6 m ρ c main_arg11 (by decide)).trans (step1 m ρ c main_arg11 (by decide))
  have a12 : W6 m ρ c (Proc.devRef .tc main_arg12) = (m ((c : Thread nD τ).loc main_arg12)) :=
    (keep6 m ρ c main_arg12 (by decide)).trans (step1 m ρ c main_arg12 (by decide))
  have a13 : W6 m ρ c (Proc.devRef .tc main_arg13) = (m ((c : Thread nD τ).loc main_arg13)) :=
    (keep6 m ρ c main_arg13 (by decide)).trans (step1 m ρ c main_arg13 (by decide))
  -- region 2's five inputs
  have x : W7 m ρ c (Proc.devRef .tc main_v25)
      = KNet.nodeIn (W2 m ρ c (Proc.devRef .tc main_v6))
          (KNet.aggregate
            (mlp (KNet.edgeIn (W2 m ρ c (Proc.devRef .tc main_v6)) (KNet.dstOf (m ((c : Thread nD τ).loc main_arg1))) (KNet.srcOf (m ((c : Thread nD τ).loc main_arg1))))
              (KNet.w1At0 (m ((c : Thread nD τ).loc main_arg6))) (KNet.biasRow (KNet.bAt0 (m ((c : Thread nD τ).loc main_arg7))))
              (KNet.w2At0 (m ((c : Thread nD τ).loc main_arg8))) (KNet.biasRow (KNet.bAt0 (m ((c : Thread nD τ).loc main_arg9)))))
            (KNet.dstOf (m ((c : Thread nD τ).loc main_arg1)))) :=
    (upd_x0 (W6 m ρ c)).trans (by rw [h6, msg0 m ρ c, d6])
  have w1 : W7 m ρ c (Proc.devRef .tc main_v27) = KNet.w1At0 (m ((c : Thread nD τ).loc main_arg10)) :=
    (upd_w1_0 (W6 m ρ c)).trans (by rw [a10])
  have b1 : rowBias (W7 m ρ c (Proc.devRef .tc main_v34)) = KNet.biasRow (KNet.bAt0 (m ((c : Thread nD τ).loc main_arg11))) :=
    (upd_b1_0 (W6 m ρ c)).trans (by rw [a11])
  have w2 : W7 m ρ c (Proc.devRef .tc main_v31) = KNet.w2At0 (m ((c : Thread nD τ).loc main_arg12)) :=
    (upd_w2_0 (W6 m ρ c)).trans (by rw [a12])
  have b2 : rowBias (W7 m ρ c (Proc.devRef .tc main_v35)) = KNet.biasRow (KNet.bAt0 (m ((c : Thread nD τ).loc main_arg13))) :=
    (upd_b2_0 (W6 m ρ c)).trans (by rw [a13])
  calc W8 m ρ c (Proc.devRef .tc main_v36)
    _ = (dat2 (V7 m ρ) c).arrAt 5 cfg2.N := W8_arr m ρ c 5
    _ = mlp (W7 m ρ c (Proc.devRef .tc main_v25)) (W7 m ρ c (Proc.devRef .tc main_v27))
          (rowBias (W7 m ρ c (Proc.devRef .tc main_v34))) (W7 m ρ c (Proc.devRef .tc main_v31))
          (rowBias (W7 m ρ c (Proc.devRef .tc main_v35))) := Region2.value (V7 m ρ) c
    _ = _ := by
      rw [x, w1, b1, w2, b2]
      rfl

end Cert.KernelIdeal.Chain

end
-- ==== Proof.ChainOps1.lean ====
/- What layer 1's four host stretches leave in the buffers its two regions read, from any contents at the stretch's
   entry: the two gathers of the node array's rows at the edges' end points, the message perceptron's inputs (the
   gathered rows side by side and narrowed, slab 1 of the stacked message weights, the biases as rows) and the update
   perceptron's inputs (the node array beside the summed messages, slab 1 of the stacked update weights, the biases as
   rows). -/
import proofs.«419785_j6528350289988_1_alg».proof.Proof.Gen.KernelIdeal.Launch
import proofs.«419785_j6528350289988_1_alg».proof.Proof.KNet
import proofs.«419785_j6528350289988_1_alg».proof.Proof.ChainRef
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen Cert.Net

variable [Cert.KernelIdeal.Facts]

variable (V : Valuation τ sig (Elt Ideal))

/-! ## The two gathers -/

set_option maxHeartbeats 2000000 in
/-- The first gather stretch leaves the rows of the node array at the edges' targets. -/
theorem take_dst1 :
    StableHlo.after (hostOps3 (F := Ideal)) V (Proc.devRef .tc main_v37)
      = KNet.take (V (Proc.devRef .tc main_v36)) (V (Proc.devRef .tc main_v3)) := by
  dsimp only [hostOps3]
  after_results_simp
  simp only [ofBuf_toBuf]
  rw [toBuf_of]
  repeat rw [ofBuf_of]
  rfl

set_option maxHeartbeats 2000000 in
/-- The second gather stretch leaves the rows of the node array at the edges' sources. -/
theorem take_src1 :
    StableHlo.after (hostOps3_1 (F := Ideal)) V (Proc.devRef .tc main_v38)
      = KNet.take (V (Proc.devRef .tc main_v36)) (V (Proc.devRef .tc main_v1)) := by
  dsimp only [hostOps3_1]
  after_results_simp
  simp only [ofBuf_toBuf]
  rw [toBuf_of]
  repeat rw [ofBuf_of]
  rfl

/-! ## The message perceptron's five inputs -/

/-- The edge input: the two gathered arrays side by side, narrowed. -/
theorem msg_x1 (h : FVec Ideal S50000x64 .f32) (dst src : IVec S800000 32)
    (h7 : V (Proc.devRef .tc main_v37) = KNet.take h dst) (h8 : V (Proc.devRef .tc main_v38) = KNet.take h src) :
    StableHlo.after (hostOps3_2 (F := Ideal)) V (Proc.devRef .tc main_v50) = KNet.edgeIn h dst src := by
  dsimp only [hostOps3_2]
  after_results
  rw [h7, h8]
  rfl

theorem msg_w1_1 :
    StableHlo.after (hostOps3_2 (F := Ideal)) V (Proc.devRef .tc main_v41) = KNet.w1At1 (V (Proc.devRef .tc main_arg6)) := by
  dsimp only [hostOps3_2]
  after_results
  rfl

theorem msg_b1_1 :
    rowBias (StableHlo.after (hostOps3_2 (F := Ideal)) V (Proc.devRef .tc main_v48))
      = KNet.biasRow (KNet.bAt1 (V (Proc.devRef .tc main_arg7))) := by
  dsimp only [hostOps3_2]
  after_results
  rfl

theorem msg_w2_1 :
    StableHlo.after (hostOps3_2 (F := Ideal)) V (Proc.devRef .tc main_v45) = KNet.w2At1 (V (Proc.devRef .tc main_arg8)) := by
  dsimp only [hostOps3_2]
  after_results
  rfl

theorem msg_b2_1 :
    rowBias (StableHlo.after (hostOps3_2 (F := Ideal)) V (Proc.devRef .tc main_v49))
      = KNet.biasRow (KNet.bAt1 (V (Proc.devRef .tc main_arg9))) := by
  dsimp only [hostOps3_2]
  after_results
  rfl

/-! ## The update perceptron's five inputs -/

/-- The node input: the node array beside the messages summed into their targets. -/
theorem upd_x1 :
    StableHlo.after (hostOps4 (F := Ideal)) V (Proc.devRef .tc main_v55)
      = KNet.nodeIn (V (Proc.devRef .tc main_v36)) (KNet.aggregate (V (Proc.devRef .tc main_v51)) (V (Proc.devRef .tc main_v3))) := by
  dsimp only [hostOps4]
  after_results
  rfl

theorem upd_w1_1 :
    StableHlo.after (hostOps4 (F := Ideal)) V (Proc.devRef .tc main_v57) = KNet.w1At1 (V (Proc.devRef .tc main_arg10)) := by
  dsimp only [hostOps4]
  after_results
  rfl

theorem upd_b1_1 :
    rowBias (StableHlo.after (hostOps4 (F := Ideal)) V (Proc.devRef .tc main_v64))
      = KNet.biasRow (KNet.bAt1 (V (Proc.devRef .tc main_arg11))) := by
  dsimp only [hostOps4]
  after_results
  rfl

theorem upd_w2_1 :
    StableHlo.after (hostOps4 (F := Ideal)) V (Proc.devRef .tc main_v61) = KNet.w2At1 (V (Proc.devRef .tc main_arg12)) := by
  dsimp only [hostOps4]
  after_results
  rfl

theorem upd_b2_1 :
    rowBias (StableHlo.after (hostOps4 (F := Ideal)) V (Proc.devRef .tc main_v65))
      = KNet.biasRow (KNet.bAt1 (V (Proc.devRef .tc main_arg13))) := by
  dsimp only [hostOps4]
  after_results
  rfl

end Cert.KernelIdeal.Chain

end
-- ==== Proof.Region3.lean ====
/- Region 3 of the kernel's program, read as a value: whatever the arrays hold when the region is entered, its output
   array ends holding the row-wise perceptron of the input array (every block of 32000 rows is written by one grid
   point, from the same block of rows of the input and the whole weight and bias arrays; the blocks tile the array). -/
import proofs.«419785_j6528350289988_1_alg».proof.Proof.Gen.KernelIdeal.Frame
import proofs.«419785_j6528350289988_1_alg».proof.Proof.Pay

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input's block and the output's block at point t are both block t of rows;
    every weight and bias window is its whole array at every point. -/
theorem index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- A row of the perceptron's result depends on the same row of its input only (and on the weights and biases). -/
theorem mlp_row {R T D : ℕ} (x : (⟨2, ![R, D]⟩ : Shape).Idx → EReal) (xb : (⟨2, ![T, D]⟩ : Shape).Idx → EReal)
    (w1 w1' : (⟨2, ![D, 64]⟩ : Shape).Idx → EReal) (b1 b1' : (⟨2, ![1, 64]⟩ : Shape).Idx → EReal)
    (w2 w2' : (⟨2, ![64, 64]⟩ : Shape).Idx → EReal) (b2 b2' : (⟨2, ![1, 64]⟩ : Shape).Idx → EReal)
    (p : Fin T) (r : Fin R) (q : Fin 64) (h : ∀ i : Fin D, xb (ix2 p i) = x (ix2 r i))
    (hw1 : w1' = w1) (hb1 : b1' = b1) (hw2 : w2' = w2) (hb2 : b2' = b2) :
    mlp xb w1' (rowBias b1') w2' (rowBias b2') (ix2 p q) = mlp x w1 (rowBias b1) w2 (rowBias b2) (ix2 r q) := by
  subst hw1 hb1 hw2 hb2
  rw [mlp_apply, mlp_apply]
  simp only [h]

/-- Row p of the input's block at point t is row 32000 t + p of the input array. -/
theorem input_block (c : Dev nD) (t : Fin cfg3.N) (p : Fin 32000) (i : Fin 128) (r : Fin 800000) (hr : r.val = t.val * 32000 + p.val) :
    (iblk3 V c 0 t : Vec Ideal S32000x128 .bf16) (ix2 p i) = V c (Pipeline.arrRef spec3 0) (ix2 r i) := by
  obtain ⟨e0, e1, -⟩ := index_maps t
  show V c (Pipeline.arrRef spec3 0) (((cfg3.win 0).blk t).view.emb (ix2 p i)) = _
  congr 1
  funext a; apply Fin.ext
  match a with
  | ⟨0, _⟩ => show win3_0.index t (0 : Fin 2) * 32000 + 1 * p.val = r.val; omega
  | ⟨1, _⟩ => show win3_0.index t (1 : Fin 2) * 128 + 1 * i.val = i.val; omega

/-- The first weight matrix's block at every point is the whole array. -/
theorem w1_block (c : Dev nD) (t : Fin cfg3.N) : (iblk3 V c 1 t : Vec Ideal S128x64 .f32) = V c (Pipeline.arrRef spec3 1) := by
  obtain ⟨-, -, e0, e1, -⟩ := index_maps t
  funext y
  show V c (Pipeline.arrRef spec3 1) (((cfg3.win 1).blk t).view.emb y) = V c (Pipeline.arrRef spec3 1) y
  congr 1
  funext a; apply Fin.ext
  match a with
  | ⟨0, _⟩ => show win3_1.index t (0 : Fin 2) * 128 + 1 * (y 0).val = (y 0).val; omega
  | ⟨1, _⟩ => show win3_1.index t (1 : Fin 2) * 64 + 1 * (y 1).val = (y 1).val; omega

/-- The first bias row's block at every point is the whole array. -/
theorem b1_block (c : Dev nD) (t : Fin cfg3.N) : (iblk3 V c 2 t : Vec Ideal S1x64 .f32) = V c (Pipeline.arrRef spec3 2) := by
  obtain ⟨-, -, -, -, e0, e1, -⟩ := index_maps t
  funext y
  show V c (Pipeline.arrRef spec3 2) (((cfg3.win 2).blk t).view.emb y) = V c (Pipeline.arrRef spec3 2) y
  congr 1
  funext a; apply Fin.ext
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- The second weight matrix's block at every point is the whole array. -/
theorem w2_block (c : Dev nD) (t : Fin cfg3.N) : (iblk3 V c 3 t : Vec Ideal S64x64 .f32) = V c (Pipeline.arrRef spec3 3) := by
  obtain ⟨-, -, -, -, -, -, e0, e1, -⟩ := index_maps t
  funext y
  show V c (Pipeline.arrRef spec3 3) (((cfg3.win 3).blk t).view.emb y) = V c (Pipeline.arrRef spec3 3) y
  congr 1
  funext a; apply Fin.ext
  match a with
  | ⟨0, _⟩ => show win3_3.index t (0 : Fin 2) * 64 + 1 * (y 0).val = (y 0).val; omega
  | ⟨1, _⟩ => show win3_3.index t (1 : Fin 2) * 64 + 1 * (y 1).val = (y 1).val; omega

/-- The second bias row's block at every point is the whole array. -/
theorem b2_block (c : Dev nD) (t : Fin cfg3.N) : (iblk3 V c 4 t : Vec Ideal S1x64 .f32) = V c (Pipeline.arrRef spec3 4) := by
  obtain ⟨-, -, -, -, -, -, -, -, e0, e1, -⟩ := index_maps t
  funext y
  show V c (Pipeline.arrRef spec3 4) (((cfg3.win 4).blk t).view.emb y) = V c (Pipeline.arrRef spec3 4) y
  congr 1
  funext a; apply Fin.ext
  match a with
  | ⟨0, _⟩ => show win3_4.index t (0 : Fin 2) * 1 + 1 * (y 0).val = (y 0).val; omega
  | ⟨1, _⟩ => show win3_4.index t (1 : Fin 2) * 64 + 1 * (y 1).val = (y 1).val; omega

set_option maxHeartbeats 1000000 in
/-- What point t writes back is block t of the perceptron of the arrays as the region finds them. -/
theorem flushed_eq (c : Dev nD) (t : Fin cfg3.N) :
    (dat3 (F := Ideal) V c).flushed 5 t = ((cfg3.win 5).blk t).view.read (Elt Ideal)
      (mlp (V c (Pipeline.arrRef spec3 0)) (V c (Pipeline.arrRef spec3 1)) (rowBias (V c (Pipeline.arrRef spec3 2)))
          (V c (Pipeline.arrRef spec3 3)) (rowBias (V c (Pipeline.arrRef spec3 4)))) := by
  show (cfg3.win 5).cut (grid3.coords t) ((dat3 V c).after 5 t) = _
  rw [after3_5]
  unfold out3_5
  rw [View.canon_unit_zero zero_offsets]
  simp only [View.ld_unit_zero (S := S32000x128) zero_offsets, View.ld_unit_zero (S := S128x64) zero_offsets, View.ld_unit_zero (S := S64x64) zero_offsets, View.ld_unit_zero (S := S1x64) zero_offsets]
  rw [Pay.pay3]
  funext j
  obtain ⟨p, q, rfl⟩ : ∃ (p : Fin 32000) (q : Fin 64), j = ix2 p q := ⟨j 0, j 1, eq_ix2 j⟩
  have hN : cfg3.N = 25 := N_3
  have ht : t.val < cfg3.N := t.isLt
  obtain ⟨-, -, -, -, -, -, -, -, -, -, e0, e1⟩ := index_maps t
  have hemb : ((cfg3.win 5).blk t).view.emb (ix2 p q) = ix2 (⟨t.val * 32000 + p.val, by omega⟩ : Fin 800000) q := by
    funext a; apply Fin.ext
    match a with
    | ⟨0, _⟩ => show win3_5.index t (0 : Fin 2) * 32000 + 1 * p.val = t.val * 32000 + p.val; omega
    | ⟨1, _⟩ => show win3_5.index t (1 : Fin 2) * 64 + 1 * q.val = q.val; omega
  show mlp (iblk3 V c 0 t) _ _ _ _ (ix2 p q) = mlp _ _ _ _ _ (((cfg3.win 5).blk t).view.emb (ix2 p q))
  rw [hemb]
  exact mlp_row _ _ _ _ _ _ _ _ _ _ p _ q (fun i => input_block V c t p i _ rfl) (w1_block V c t) (b1_block V c t) (w2_block V c t) (b2_block V c t)

/-- An index of the output array is in point t's block iff each coordinate is in the block's range on its axis. -/
theorem mem_blk (t : Fin cfg3.N) (i : S800000x64.Idx) :
    i ∈ ((cfg3.win 5).blk t).view.set ↔ ∀ a : Fin 2, win3_5.index t a * S32000x64.size a ≤ (i a).val ∧ (i a).val < win3_5.index t a * S32000x64.size a + S32000x64.size a := by
  show i ∈ ((View.whole (Pipeline.arrRef spec3 5)).slice (win3_5.rect t)).set ↔ _
  rw [View.set_slice_whole, Rect.mem_set_unit]
  exact Iff.rfl

/-- Row r of the output array is in the block of point r / 32000. -/
theorem cover (i : S800000x64.Idx) : ∃ t : Fin cfg3.N, (cfg3.win 5).flush t = true ∧ i ∈ ((cfg3.win 5).blk t).view.set := by
  have hN : cfg3.N = 25 := N_3
  have hi0 : (i 0).val < 800000 := (i 0).isLt
  have hi1 : (i 1).val < 64 := (i 1).isLt
  refine ⟨⟨(i 0).val / 32000, by omega⟩, flush3_5 _, ?_⟩
  rw [mem_blk]
  obtain ⟨-, -, -, -, -, -, -, -, -, -, e0, e1⟩ := index_maps ⟨(i 0).val / 32000, by omega⟩
  intro a
  match a with
  | ⟨0, _⟩ => show win3_5.index _ (0 : Fin 2) * 32000 ≤ (i 0).val ∧ (i 0).val < win3_5.index _ (0 : Fin 2) * 32000 + 32000; rw [e0]; show (i 0).val / 32000 * 32000 ≤ _ ∧ _ < (i 0).val / 32000 * 32000 + 32000; omega
  | ⟨1, _⟩ => show win3_5.index _ (1 : Fin 2) * 64 ≤ (i 1).val ∧ (i 1).val < win3_5.index _ (1 : Fin 2) * 64 + 64; rw [e1]; omega

/-- The output array after region 3's last grid point. -/
theorem value (c : Dev nD) :
    (dat3 (F := Ideal) V c).arrAt 5 cfg3.N
      = mlp (V c (Pipeline.arrRef spec3 0)) (V c (Pipeline.arrRef spec3 1)) (rowBias (V c (Pipeline.arrRef spec3 2)))
          (V c (Pipeline.arrRef spec3 3)) (rowBias (V c (Pipeline.arrRef spec3 4))) :=
  (dat3 (F := Ideal) V c).arrAt_eq_of_cover 5 _ (fun t _ => flushed_eq V c t) cover

end Cert.KernelIdeal.Region3

end
-- ==== Proof.Region4.lean ====
/- Region 4 of the kernel's program, read as a value: whatever the arrays hold when the region is entered, its output
   array ends holding the row-wise perceptron of the input array (every block of 10000 rows is written by one grid
   point, from the same block of rows of the input and the whole weight and bias arrays; the blocks tile the array). -/
import proofs.«419785_j6528350289988_1_alg».proof.Proof.Gen.KernelIdeal.Frame
import proofs.«419785_j6528350289988_1_alg».proof.Proof.Pay

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input's block and the output's block at point t are both block t of rows;
    every weight and bias window is its whole array at every point. -/
theorem index_maps : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- A row of the perceptron's result depends on the same row of its input only (and on the weights and biases). -/
theorem mlp_row {R T D : ℕ} (x : (⟨2, ![R, D]⟩ : Shape).Idx → EReal) (xb : (⟨2, ![T, D]⟩ : Shape).Idx → EReal)
    (w1 w1' : (⟨2, ![D, 64]⟩ : Shape).Idx → EReal) (b1 b1' : (⟨2, ![1, 64]⟩ : Shape).Idx → EReal)
    (w2 w2' : (⟨2, ![64, 64]⟩ : Shape).Idx → EReal) (b2 b2' : (⟨2, ![1, 64]⟩ : Shape).Idx → EReal)
    (p : Fin T) (r : Fin R) (q : Fin 64) (h : ∀ i : Fin D, xb (ix2 p i) = x (ix2 r i))
    (hw1 : w1' = w1) (hb1 : b1' = b1) (hw2 : w2' = w2) (hb2 : b2' = b2) :
    mlp xb w1' (rowBias b1') w2' (rowBias b2') (ix2 p q) = mlp x w1 (rowBias b1) w2 (rowBias b2) (ix2 r q) := by
  subst hw1 hb1 hw2 hb2
  rw [mlp_apply, mlp_apply]
  simp only [h]

/-- Row p of the input's block at point t is row 10000 t + p of the input array. -/
theorem input_block (c : Dev nD) (t : Fin cfg4.N) (p : Fin 10000) (i : Fin 128) (r : Fin 50000) (hr : r.val = t.val * 10000 + p.val) :
    (iblk4 V c 0 t : Vec Ideal S10000x128 .f32) (ix2 p i) = V c (Pipeline.arrRef spec4 0) (ix2 r i) := by
  obtain ⟨e0, e1, -⟩ := index_maps t
  show V c (Pipeline.arrRef spec4 0) (((cfg4.win 0).blk t).view.emb (ix2 p i)) = _
  congr 1
  funext a; apply Fin.ext
  match a with
  | ⟨0, _⟩ => show win4_0.index t (0 : Fin 2) * 10000 + 1 * p.val = r.val; omega
  | ⟨1, _⟩ => show win4_0.index t (1 : Fin 2) * 128 + 1 * i.val = i.val; omega

/-- The first weight matrix's block at every point is the whole array. -/
theorem w1_block (c : Dev nD) (t : Fin cfg4.N) : (iblk4 V c 1 t : Vec Ideal S128x64 .f32) = V c (Pipeline.arrRef spec4 1) := by
  obtain ⟨-, -, e0, e1, -⟩ := index_maps t
  funext y
  show V c (Pipeline.arrRef spec4 1) (((cfg4.win 1).blk t).view.emb y) = V c (Pipeline.arrRef spec4 1) y
  congr 1
  funext a; apply Fin.ext
  match a with
  | ⟨0, _⟩ => show win4_1.index t (0 : Fin 2) * 128 + 1 * (y 0).val = (y 0).val; omega
  | ⟨1, _⟩ => show win4_1.index t (1 : Fin 2) * 64 + 1 * (y 1).val = (y 1).val; omega

/-- The first bias row's block at every point is the whole array. -/
theorem b1_block (c : Dev nD) (t : Fin cfg4.N) : (iblk4 V c 2 t : Vec Ideal S1x64 .f32) = V c (Pipeline.arrRef spec4 2) := by
  obtain ⟨-, -, -, -, e0, e1, -⟩ := index_maps t
  funext y
  show V c (Pipeline.arrRef spec4 2) (((cfg4.win 2).blk t).view.emb y) = V c (Pipeline.arrRef spec4 2) y
  congr 1
  funext a; apply Fin.ext
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- The second weight matrix's block at every point is the whole array. -/
theorem w2_block (c : Dev nD) (t : Fin cfg4.N) : (iblk4 V c 3 t : Vec Ideal S64x64 .f32) = V c (Pipeline.arrRef spec4 3) := by
  obtain ⟨-, -, -, -, -, -, e0, e1, -⟩ := index_maps t
  funext y
  show V c (Pipeline.arrRef spec4 3) (((cfg4.win 3).blk t).view.emb y) = V c (Pipeline.arrRef spec4 3) y
  congr 1
  funext a; apply Fin.ext
  match a with
  | ⟨0, _⟩ => show win4_3.index t (0 : Fin 2) * 64 + 1 * (y 0).val = (y 0).val; omega
  | ⟨1, _⟩ => show win4_3.index t (1 : Fin 2) * 64 + 1 * (y 1).val = (y 1).val; omega

/-- The second bias row's block at every point is the whole array. -/
theorem b2_block (c : Dev nD) (t : Fin cfg4.N) : (iblk4 V c 4 t : Vec Ideal S1x64 .f32) = V c (Pipeline.arrRef spec4 4) := by
  obtain ⟨-, -, -, -, -, -, -, -, e0, e1, -⟩ := index_maps t
  funext y
  show V c (Pipeline.arrRef spec4 4) (((cfg4.win 4).blk t).view.emb y) = V c (Pipeline.arrRef spec4 4) y
  congr 1
  funext a; apply Fin.ext
  match a with
  | ⟨0, _⟩ => show win4_4.index t (0 : Fin 2) * 1 + 1 * (y 0).val = (y 0).val; omega
  | ⟨1, _⟩ => show win4_4.index t (1 : Fin 2) * 64 + 1 * (y 1).val = (y 1).val; omega

set_option maxHeartbeats 1000000 in
/-- What point t writes back is block t of the perceptron of the arrays as the region finds them. -/
theorem flushed_eq (c : Dev nD) (t : Fin cfg4.N) :
    (dat4 (F := Ideal) V c).flushed 5 t = ((cfg4.win 5).blk t).view.read (Elt Ideal)
      (mlp (V c (Pipeline.arrRef spec4 0)) (V c (Pipeline.arrRef spec4 1)) (rowBias (V c (Pipeline.arrRef spec4 2)))
          (V c (Pipeline.arrRef spec4 3)) (rowBias (V c (Pipeline.arrRef spec4 4)))) := by
  show (cfg4.win 5).cut (grid4.coords t) ((dat4 V c).after 5 t) = _
  rw [after4_5]
  unfold out4_5
  rw [View.canon_unit_zero zero_offsets]
  simp only [View.ld_unit_zero (S := S10000x128) zero_offsets, View.ld_unit_zero (S := S128x64) zero_offsets, View.ld_unit_zero (S := S64x64) zero_offsets, View.ld_unit_zero (S := S1x64) zero_offsets]
  rw [Pay.pay4]
  funext j
  obtain ⟨p, q, rfl⟩ : ∃ (p : Fin 10000) (q : Fin 64), j = ix2 p q := ⟨j 0, j 1, eq_ix2 j⟩
  have hN : cfg4.N = 5 := N_4
  have ht : t.val < cfg4.N := t.isLt
  obtain ⟨-, -, -, -, -, -, -, -, -, -, e0, e1⟩ := index_maps t
  have hemb : ((cfg4.win 5).blk t).view.emb (ix2 p q) = ix2 (⟨t.val * 10000 + p.val, by omega⟩ : Fin 50000) q := by
    funext a; apply Fin.ext
    match a with
    | ⟨0, _⟩ => show win4_5.index t (0 : Fin 2) * 10000 + 1 * p.val = t.val * 10000 + p.val; omega
    | ⟨1, _⟩ => show win4_5.index t (1 : Fin 2) * 64 + 1 * q.val = q.val; omega
  show mlp (iblk4 V c 0 t) _ _ _ _ (ix2 p q) = mlp _ _ _ _ _ (((cfg4.win 5).blk t).view.emb (ix2 p q))
  rw [hemb]
  exact mlp_row _ _ _ _ _ _ _ _ _ _ p _ q (fun i => input_block V c t p i _ rfl) (w1_block V c t) (b1_block V c t) (w2_block V c t) (b2_block V c t)

/-- An index of the output array is in point t's block iff each coordinate is in the block's range on its axis. -/
theorem mem_blk (t : Fin cfg4.N) (i : S50000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole (Pipeline.arrRef spec4 5)).slice (win4_5.rect t)).set ↔ _
  rw [View.set_slice_whole, Rect.mem_set_unit]
  exact Iff.rfl

/-- Row r of the output array is in the block of point r / 10000. -/
theorem cover (i : S50000x64.Idx) : ∃ t : Fin cfg4.N, (cfg4.win 5).flush t = true ∧ i ∈ ((cfg4.win 5).blk t).view.set := by
  have hN : cfg4.N = 5 := N_4
  have hi0 : (i 0).val < 50000 := (i 0).isLt
  have hi1 : (i 1).val < 64 := (i 1).isLt
  refine ⟨⟨(i 0).val / 10000, by omega⟩, flush4_5 _, ?_⟩
  rw [mem_blk]
  obtain ⟨-, -, -, -, -, -, -, -, -, -, e0, e1⟩ := index_maps ⟨(i 0).val / 10000, by omega⟩
  intro a
  match a with
  | ⟨0, _⟩ => show win4_5.index _ (0 : Fin 2) * 10000 ≤ (i 0).val ∧ (i 0).val < win4_5.index _ (0 : Fin 2) * 10000 + 10000; rw [e0]; show (i 0).val / 10000 * 10000 ≤ _ ∧ _ < (i 0).val / 10000 * 10000 + 10000; omega
  | ⟨1, _⟩ => show win4_5.index _ (1 : Fin 2) * 64 ≤ (i 1).val ∧ (i 1).val < win4_5.index _ (1 : Fin 2) * 64 + 64; rw [e1]; omega

/-- The output array after region 4's last grid point. -/
theorem value (c : Dev nD) :
    (dat4 (F := Ideal) V c).arrAt 5 cfg4.N
      = mlp (V c (Pipeline.arrRef spec4 0)) (V c (Pipeline.arrRef spec4 1)) (rowBias (V c (Pipeline.arrRef spec4 2)))
          (V c (Pipeline.arrRef spec4 3)) (rowBias (V c (Pipeline.arrRef spec4 4))) :=
  (dat4 (F := Ideal) V c).arrAt_eq_of_cover 5 _ (fun t _ => flushed_eq V c t) cover

end Cert.KernelIdeal.Region4

end
-- ==== Proof.ChainLayer1.lean ====
/- Message-passing layer 1 of the kernel's program, read off the boundary contents: from the node array region 2 left,
   the two gathers, the message perceptron (region 3) on the edge inputs, the sum of the messages into their targets,
   and the update perceptron (region 4) on the node inputs: the node array region 4 writes is layer 1 of the network on
   the node array it started from, with the edge list's two rows and slab 1 of the eight stacked weight arrays. -/
import proofs.«419785_j6528350289988_1_alg».proof.Proof.Keep
import proofs.«419785_j6528350289988_1_alg».proof.Proof.ChainOps1
import proofs.«419785_j6528350289988_1_alg».proof.Proof.ChainEmb
import proofs.«419785_j6528350289988_1_alg».proof.Proof.Region3
import proofs.«419785_j6528350289988_1_alg».proof.Proof.Region4

set_option maxRecDepth 16384

noncomputable section

namespace Cert.KernelIdeal.Chain

open Idealize.ShloMosaic Idealize.ShloMosaic.TcCoe Idealize.SL.Sem
open Cert.KernelIdeal Cert.KernelIdeal.Gen Cert.Net

variable [Cert.KernelIdeal.Facts]

variable (m : (ℓ : Loc nD τ sig) → Buf (Elt Ideal) ℓ) (ρ : Dev nD → PrngReg) (c : Dev nD)

/-- The messages of layer 1: region 3's output. -/
theorem msg1 :
    W12 m ρ c (Proc.devRef .tc main_v51)
      = mlp (KNet.edgeIn (W8 m ρ c (Proc.devRef .tc main_v36)) (KNet.dstOf (m ((c : Thread nD τ).loc main_arg1))) (KNet.srcOf (m ((c : Thread nD τ).loc main_arg1))))
          (KNet.w1At1 (m ((c : Thread nD τ).loc main_arg6))) (KNet.biasRow (KNet.bAt1 (m ((c : Thread nD τ).loc main_arg7))))
          (KNet.w2At1 (m ((c : Thread nD τ).loc main_arg8))) (KNet.biasRow (KNet.bAt1 (m ((c : Thread nD τ).loc main_arg9)))) := by
  -- the edge list's rows and the node array where the gathers read them
  have d2 : W8 m ρ c (Proc.devRef .tc main_v3) = KNet.dstOf (m ((c : Thread nD τ).loc main_arg1)) :=
    (keep8 m ρ c main_v3 (by decide)).trans (dst_at1 m ρ c)
  have s3 : W9 m ρ c (Proc.devRef .tc main_v1) = KNet.srcOf (m ((c : Thread nD τ).loc main_arg1)) :=
    (keep9 m ρ c main_v1 (by decide)).trans (src_at1 m ρ c)
  have h3 : W9 m ρ c (Proc.devRef .tc main_v36) = W8 m ρ c (Proc.devRef .tc main_v36) := step9 m ρ c main_v36 (by decide)
  -- the two gathers
  have t7 : W10 m ρ c (Proc.devRef .tc main_v37)
      = KNet.take (W8 m ρ c (Proc.devRef .tc main_v36)) (KNet.dstOf (m ((c : Thread nD τ).loc main_arg1))) :=
    (step10 m ρ c main_v37 (by decide)).trans ((take_dst1 (W8 m ρ c)).trans (by rw [d2]))
  have t8 : W10 m ρ c (Proc.devRef .tc main_v38)
      = KNet.take (W8 m ρ c (Proc.devRef .tc main_v36)) (KNet.srcOf (m ((c : Thread nD τ).loc main_arg1))) :=
    (take_src1 (W9 m ρ c)).trans (by rw [h3, s3])
  -- the stacked message weights where the third stretch reads them
  have a6 : W10 m ρ c (Proc.devRef .tc main_arg6) = (m ((c : Thread nD τ).loc main_arg6)) :=
    (keep10 m ρ c main_arg6 (by decide)).trans (step1 m ρ c main_arg6 (by decide))
  have a7 : W10 m ρ c (Proc.devRef .tc main_arg7) = (m ((c : Thread nD τ).loc main_arg7)) :=
    (keep10 m ρ c main_arg7 (by decide)).trans (step1 m ρ c main_arg7 (by decide))
  have a8 : W10 m ρ c (Proc.devRef .tc main_arg8) = (m ((c : Thread nD τ).loc main_arg8)) :=
    (keep10 m ρ c main_arg8 (by decide)).trans (step1 m ρ c main_arg8 (by decide))
  have a9 : W10 m ρ c (Proc.devRef .tc main_arg9) = (m ((c : Thread nD τ).loc main_arg9)) :=
    (keep10 m ρ c main_arg9 (by decide)).trans (step1 m ρ c main_arg9 (by decide))
  -- region 3's five inputs
  have x : W11 m ρ c (Proc.devRef .tc main_v50)
      = KNet.edgeIn (W8 m ρ c (Proc.devRef .tc main_v36)) (KNet.dstOf (m ((c : Thread nD τ).loc main_arg1))) (KNet.srcOf (m ((c : Thread nD τ).loc main_arg1))) :=
    msg_x1 (W10 m ρ c) _ _ _ t7 t8
  have w1 : W11 m ρ c (Proc.devRef .tc main_v41) = KNet.w1At1 (m ((c : Thread nD τ).loc main_arg6)) :=
    (msg_w1_1 (W10 m ρ c)).trans (by rw [a6])
  have b1 : rowBias (W11 m ρ c (Proc.devRef .tc main_v48)) = KNet.biasRow (KNet.bAt1 (m ((c : Thread nD τ).loc main_arg7))) :=
    (msg_b1_1 (W10 m ρ c)).trans (by rw [a7])
  have w2 : W11 m ρ c (Proc.devRef .tc main_v45) = KNet.w2At1 (m ((c : Thread nD τ).loc main_arg8)) :=
    (msg_w2_1 (W10 m ρ c)).trans (by rw [a8])
  have b2 : rowBias (W11 m ρ c (Proc.devRef .tc main_v49)) = KNet.biasRow (KNet.bAt1 (m ((c : Thread nD τ).loc main_arg9))) :=
    (msg_b2_1 (W10 m ρ c)).trans (by rw [a9])
  calc W12 m ρ c (Proc.devRef .tc main_v51)
    _ = (dat3 (V11 m ρ) c).arrAt 5 cfg3.N := W12_arr m ρ c 5
    _ = mlp (W11 m ρ c (Proc.devRef .tc main_v50)) (W11 m ρ c (Proc.devRef .tc main_v41))
          (rowBias (W11 m ρ c (Proc.devRef .tc main_v48))) (W11 m ρ c (Proc.devRef .tc main_v45))
          (rowBias (W11 m ρ c (Proc.devRef .tc main_v49))) := Region3.value (V11 m ρ) c
    _ = _ := by rw [x, w1, b1, w2, b2]

/-- Layer 1: region 4's output is the layer on region 2's. -/
theorem layer1 :
    W14 m ρ c (Proc.devRef .tc main_v66)
      = KNet.layer1 (W8 m ρ c (Proc.devRef .tc main_v36)) (KNet.dstOf (m ((c : Thread nD τ).loc main_arg1))) (KNet.srcOf (m ((c : Thread nD τ).loc main_arg1)))
          (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13)) := by
  -- the targets and the node array where the fourth stretch reads them
  have d6 : W12 m ρ c (Proc.devRef .tc main_v3) = KNet.dstOf (m ((c : Thread nD τ).loc main_arg1)) :=
    (keep12 m ρ c main_v3 (by decide)).trans (dst_at1 m ρ c)
  have h6 : W12 m ρ c (Proc.devRef .tc main_v36) = W8 m ρ c (Proc.devRef .tc main_v36) :=
    (step12 m ρ c main_v36 (by decide)).trans ((step11 m ρ c main_v36 (by decide)).trans
      ((step10 m ρ c main_v36 (by decide)).trans (step9 m ρ c main_v36 (by decide))))
  -- the stacked update weights where the fourth stretch reads them
  have a10 : W12 m ρ c (Proc.devRef .tc main_arg10) = (m ((c : Thread nD τ).loc main_arg10)) :=
    (keep12 m ρ c main_arg10 (by decide)).trans (step1 m ρ c main_arg10 (by decide))
  have a11 : W12 m ρ c (Proc.devRef .tc main_arg11) = (m ((c : Thread nD τ).loc main_arg11)) :=
    (keep12 m ρ c main_arg11 (by decide)).trans (step1 m ρ c main_arg11 (by decide))
  have a12 : W12 m ρ c (Proc.devRef .tc main_arg12) = (m ((c : Thread nD τ).loc main_arg12)) :=
    (keep12 m ρ c main_arg12 (by decide)).trans (step1 m ρ c main_arg12 (by decide))
  have a13 : W12 m ρ c (Proc.devRef .tc main_arg13) = (m ((c : Thread nD τ).loc main_arg13)) :=
    (keep12 m ρ c main_arg13 (by decide)).trans (step1 m ρ c main_arg13 (by decide))
  -- region 4's five inputs
  have x : W13 m ρ c (Proc.devRef .tc main_v55)
      = KNet.nodeIn (W8 m ρ c (Proc.devRef .tc main_v36))
          (KNet.aggregate
            (mlp (KNet.edgeIn (W8 m ρ c (Proc.devRef .tc main_v36)) (KNet.dstOf (m ((c : Thread nD τ).loc main_arg1))) (KNet.srcOf (m ((c : Thread nD τ).loc main_arg1))))
              (KNet.w1At1 (m ((c : Thread nD τ).loc main_arg6))) (KNet.biasRow (KNet.bAt1 (m ((c : Thread nD τ).loc main_arg7))))
              (KNet.w2At1 (m ((c : Thread nD τ).loc main_arg8))) (KNet.biasRow (KNet.bAt1 (m ((c : Thread nD τ).loc main_arg9)))))
            (KNet.dstOf (m ((c : Thread nD τ).loc main_arg1)))) :=
    (upd_x1 (W12 m ρ c)).trans (by rw [h6, msg1 m ρ c, d6])
  have w1 : W13 m ρ c (Proc.devRef .tc main_v57) = KNet.w1At1 (m ((c : Thread nD τ).loc main_arg10)) :=
    (upd_w1_1 (W12 m ρ c)).trans (by rw [a10])
  have b1 : rowBias (W13 m ρ c (Proc.devRef .tc main_v64)) = KNet.biasRow (KNet.bAt1 (m ((c : Thread nD τ).loc main_arg11))) :=
    (upd_b1_1 (W12 m ρ c)).trans (by rw [a11])
  have w2 : W13 m ρ c (Proc.devRef .tc main_v61) = KNet.w2At1 (m ((c : Thread nD τ).loc main_arg12)) :=
    (upd_w2_1 (W12 m ρ c)).trans (by rw [a12])
  have b2 : rowBias (W13 m ρ c (Proc.devRef .tc main_v65)) = KNet.biasRow (KNet.bAt1 (m ((c : Thread nD τ).loc main_arg13))) :=
    (upd_b2_1 (W12 m ρ c)).trans (by rw [a13])
  calc W14 m ρ c (Proc.devRef .tc main_v66)
    _ = (dat4 (V13 m ρ) c).arrAt 5 cfg4.N := W14_arr m ρ c 5
    _ = mlp (W13 m ρ c (Proc.devRef .tc main_v55)) (W13 m ρ c (Proc.devRef .tc main_v57))
          (rowBias (W13 m ρ c (Proc.devRef .tc main_v64))) (W13 m ρ c (Proc.devRef .tc main_v61))
          (rowBias (W13 m ρ c (Proc.devRef .tc main_v65))) := Region4.value (V13 m ρ) c
    _ = _ := by
      rw [x, w1, b1, w2, b2]
      rfl

end Cert.KernelIdeal.Chain

end
-- ==== Proof.ChainOps2.lean ====
/- What layer 2's four host stretches leave in the buffers its two regions read, from any contents at the stretch's
   entry: the two gathers of the node array's rows at the edges' end points, the message perceptron's inputs (the
   gathered rows side by side and narrowed, slab 2 of the stacked message weights, the biases as rows) and the update
   perceptron's inputs (the node array beside the summed messages, slab 2 of the stacked update weights, the biases as
   rows). -/
import proofs.«419785_j6528350289988_1_alg».proof.Proof.Gen.KernelIdeal.Launch
import proofs.«419785_j6528350289988_1_alg».proof.Proof.KNet
import proofs.«419785_j6528350289988_1_alg».proof.Proof.ChainRef
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen Cert.Net

variable [Cert.KernelIdeal.Facts]

variable (V : Valuation τ sig (Elt Ideal))

/-! ## The two gathers -/

set_option maxHeartbeats 2000000 in
/-- The first gather stretch leaves the rows of the node array at the edges' targets. -/
theorem take_dst2 :
    StableHlo.after (hostOps5 (F := Ideal)) V (Proc.devRef .tc main_v67)
      = KNet.take (V (Proc.devRef .tc main_v66)) (V (Proc.devRef .tc main_v3)) := by
  dsimp only [hostOps5]
  after_results_simp
  simp only [ofBuf_toBuf]
  rw [toBuf_of]
  repeat rw [ofBuf_of]
  rfl

set_option maxHeartbeats 2000000 in
/-- The second gather stretch leaves the rows of the node array at the edges' sources. -/
theorem take_src2 :
    StableHlo.after (hostOps5_1 (F := Ideal)) V (Proc.devRef .tc main_v68)
      = KNet.take (V (Proc.devRef .tc main_v66)) (V (Proc.devRef .tc main_v1)) := by
  dsimp only [hostOps5_1]
  after_results_simp
  simp only [ofBuf_toBuf]
  rw [toBuf_of]
  repeat rw [ofBuf_of]
  rfl

/-! ## The message perceptron's five inputs -/

/-- The edge input: the two gathered arrays side by side, narrowed. -/
theorem msg_x2 (h : FVec Ideal S50000x64 .f32) (dst src : IVec S800000 32)
    (h7 : V (Proc.devRef .tc main_v67) = KNet.take h dst) (h8 : V (Proc.devRef .tc main_v68) = KNet.take h src) :
    StableHlo.after (hostOps5_2 (F := Ideal)) V (Proc.devRef .tc main_v80) = KNet.edgeIn h dst src := by
  dsimp only [hostOps5_2]
  after_results
  rw [h7, h8]
  rfl

theorem msg_w1_2 :
    StableHlo.after (hostOps5_2 (F := Ideal)) V (Proc.devRef .tc main_v71) = KNet.w1At2 (V (Proc.devRef .tc main_arg6)) := by
  dsimp only [hostOps5_2]
  after_results
  rfl

theorem msg_b1_2 :
    rowBias (StableHlo.after (hostOps5_2 (F := Ideal)) V (Proc.devRef .tc main_v78))
      = KNet.biasRow (KNet.bAt2 (V (Proc.devRef .tc main_arg7))) := by
  dsimp only [hostOps5_2]
  after_results
  rfl

theorem msg_w2_2 :
    StableHlo.after (hostOps5_2 (F := Ideal)) V (Proc.devRef .tc main_v75) = KNet.w2At2 (V (Proc.devRef .tc main_arg8)) := by
  dsimp only [hostOps5_2]
  after_results
  rfl

theorem msg_b2_2 :
    rowBias (StableHlo.after (hostOps5_2 (F := Ideal)) V (Proc.devRef .tc main_v79))
      = KNet.biasRow (KNet.bAt2 (V (Proc.devRef .tc main_arg9))) := by
  dsimp only [hostOps5_2]
  after_results
  rfl

/-! ## The update perceptron's five inputs -/

/-- The node input: the node array beside the messages summed into their targets. -/
theorem upd_x2 :
    StableHlo.after (hostOps6 (F := Ideal)) V (Proc.devRef .tc main_v85)
      = KNet.nodeIn (V (Proc.devRef .tc main_v66)) (KNet.aggregate (V (Proc.devRef .tc main_v81)) (V (Proc.devRef .tc main_v3))) := by
  dsimp only [hostOps6]
  after_results
  rfl

theorem upd_w1_2 :
    StableHlo.after (hostOps6 (F := Ideal)) V (Proc.devRef .tc main_v87) = KNet.w1At2 (V (Proc.devRef .tc main_arg10)) := by
  dsimp only [hostOps6]
  after_results
  rfl

theorem upd_b1_2 :
    rowBias (StableHlo.after (hostOps6 (F := Ideal)) V (Proc.devRef .tc main_v94))
      = KNet.biasRow (KNet.bAt2 (V (Proc.devRef .tc main_arg11))) := by
  dsimp only [hostOps6]
  after_results
  rfl

theorem upd_w2_2 :
    StableHlo.after (hostOps6 (F := Ideal)) V (Proc.devRef .tc main_v91) = KNet.w2At2 (V (Proc.devRef .tc main_arg12)) := by
  dsimp only [hostOps6]
  after_results
  rfl

theorem upd_b2_2 :
    rowBias (StableHlo.after (hostOps6 (F := Ideal)) V (Proc.devRef .tc main_v95))
      = KNet.biasRow (KNet.bAt2 (V (Proc.devRef .tc main_arg13))) := by
  dsimp only [hostOps6]
  after_results
  rfl

end Cert.KernelIdeal.Chain

end
-- ==== Proof.Region5.lean ====
/- Region 5 of the kernel's program, read as a value: whatever the arrays hold when the region is entered, its output
   array ends holding the row-wise perceptron of the input array (every block of 32000 rows is written by one grid
   point, from the same block of rows of the input and the whole weight and bias arrays; the blocks tile the array). -/
import proofs.«419785_j6528350289988_1_alg».proof.Proof.Gen.KernelIdeal.Frame
import proofs.«419785_j6528350289988_1_alg».proof.Proof.Pay

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input's block and the output's block at point t are both block t of rows;
    every weight and bias window is its whole array at every point. -/
theorem index_maps : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- A row of the perceptron's result depends on the same row of its input only (and on the weights and biases). -/
theorem mlp_row {R T D : ℕ} (x : (⟨2, ![R, D]⟩ : Shape).Idx → EReal) (xb : (⟨2, ![T, D]⟩ : Shape).Idx → EReal)
    (w1 w1' : (⟨2, ![D, 64]⟩ : Shape).Idx → EReal) (b1 b1' : (⟨2, ![1, 64]⟩ : Shape).Idx → EReal)
    (w2 w2' : (⟨2, ![64, 64]⟩ : Shape).Idx → EReal) (b2 b2' : (⟨2, ![1, 64]⟩ : Shape).Idx → EReal)
    (p : Fin T) (r : Fin R) (q : Fin 64) (h : ∀ i : Fin D, xb (ix2 p i) = x (ix2 r i))
    (hw1 : w1' = w1) (hb1 : b1' = b1) (hw2 : w2' = w2) (hb2 : b2' = b2) :
    mlp xb w1' (rowBias b1') w2' (rowBias b2') (ix2 p q) = mlp x w1 (rowBias b1) w2 (rowBias b2) (ix2 r q) := by
  subst hw1 hb1 hw2 hb2
  rw [mlp_apply, mlp_apply]
  simp only [h]

/-- Row p of the input's block at point t is row 32000 t + p of the input array. -/
theorem input_block (c : Dev nD) (t : Fin cfg5.N) (p : Fin 32000) (i : Fin 128) (r : Fin 800000) (hr : r.val = t.val * 32000 + p.val) :
    (iblk5 V c 0 t : Vec Ideal S32000x128 .bf16) (ix2 p i) = V c (Pipeline.arrRef spec5 0) (ix2 r i) := by
  obtain ⟨e0, e1, -⟩ := index_maps t
  show V c (Pipeline.arrRef spec5 0) (((cfg5.win 0).blk t).view.emb (ix2 p i)) = _
  congr 1
  funext a; apply Fin.ext
  match a with
  | ⟨0, _⟩ => show win5_0.index t (0 : Fin 2) * 32000 + 1 * p.val = r.val; omega
  | ⟨1, _⟩ => show win5_0.index t (1 : Fin 2) * 128 + 1 * i.val = i.val; omega

/-- The first weight matrix's block at every point is the whole array. -/
theorem w1_block (c : Dev nD) (t : Fin cfg5.N) : (iblk5 V c 1 t : Vec Ideal S128x64 .f32) = V c (Pipeline.arrRef spec5 1) := by
  obtain ⟨-, -, e0, e1, -⟩ := index_maps t
  funext y
  show V c (Pipeline.arrRef spec5 1) (((cfg5.win 1).blk t).view.emb y) = V c (Pipeline.arrRef spec5 1) y
  congr 1
  funext a; apply Fin.ext
  match a with
  | ⟨0, _⟩ => show win5_1.index t (0 : Fin 2) * 128 + 1 * (y 0).val = (y 0).val; omega
  | ⟨1, _⟩ => show win5_1.index t (1 : Fin 2) * 64 + 1 * (y 1).val = (y 1).val; omega

/-- The first bias row's block at every point is the whole array. -/
theorem b1_block (c : Dev nD) (t : Fin cfg5.N) : (iblk5 V c 2 t : Vec Ideal S1x64 .f32) = V c (Pipeline.arrRef spec5 2) := by
  obtain ⟨-, -, -, -, e0, e1, -⟩ := index_maps t
  funext y
  show V c (Pipeline.arrRef spec5 2) (((cfg5.win 2).blk t).view.emb y) = V c (Pipeline.arrRef spec5 2) y
  congr 1
  funext a; apply Fin.ext
  match a with
  | ⟨0, _⟩ => show win5_2.index t (0 : Fin 2) * 1 + 1 * (y 0).val = (y 0).val; omega
  | ⟨1, _⟩ => show win5_2.index t (1 : Fin 2) * 64 + 1 * (y 1).val = (y 1).val; omega

/-- The second weight matrix's block at every point is the whole array. -/
theorem w2_block (c : Dev nD) (t : Fin cfg5.N) : (iblk5 V c 3 t : Vec Ideal S64x64 .f32) = V c (Pipeline.arrRef spec5 3) := by
  obtain ⟨-, -, -, -, -, -, e0, e1, -⟩ := index_maps t
  funext y
  show V c (Pipeline.arrRef spec5 3) (((cfg5.win 3).blk t).view.emb y) = V c (Pipeline.arrRef spec5 3) y
  congr 1
  funext a; apply Fin.ext
  match a with
  | ⟨0, _⟩ => show win5_3.index t (0 : Fin 2) * 64 + 1 * (y 0).val = (y 0).val; omega
  | ⟨1, _⟩ => show win5_3.index t (1 : Fin 2) * 64 + 1 * (y 1).val = (y 1).val; omega

/-- The second bias row's block at every point is the whole array. -/
theorem b2_block (c : Dev nD) (t : Fin cfg5.N) : (iblk5 V c 4 t : Vec Ideal S1x64 .f32) = V c (Pipeline.arrRef spec5 4) := by
  obtain ⟨-, -, -, -, -, -, -, -, e0, e1, -⟩ := index_maps t
  funext y
  show V c (Pipeline.arrRef spec5 4) (((cfg5.win 4).blk t).view.emb y) = V c (Pipeline.arrRef spec5 4) y
  congr 1
  funext a; apply Fin.ext
  match a with
  | ⟨0, _⟩ => show win5_4.index t (0 : Fin 2) * 1 + 1 * (y 0).val = (y 0).val; omega
  | ⟨1, _⟩ => show win5_4.index t (1 : Fin 2) * 64 + 1 * (y 1).val = (y 1).val; omega

set_option maxHeartbeats 1000000 in
/-- What point t writes back is block t of the perceptron of the arrays as the region finds them. -/
theorem flushed_eq (c : Dev nD) (t : Fin cfg5.N) :
    (dat5 (F := Ideal) V c).flushed 5 t = ((cfg5.win 5).blk t).view.read (Elt Ideal)
      (mlp (V c (Pipeline.arrRef spec5 0)) (V c (Pipeline.arrRef spec5 1)) (rowBias (V c (Pipeline.arrRef spec5 2)))
          (V c (Pipeline.arrRef spec5 3)) (rowBias (V c (Pipeline.arrRef spec5 4)))) := by
  show (cfg5.win 5).cut (grid5.coords t) ((dat5 V c).after 5 t) = _
  rw [after5_5]
  unfold out5_5
  rw [View.canon_unit_zero zero_offsets]
  simp only [View.ld_unit_zero (S := S32000x128) zero_offsets, View.ld_unit_zero (S := S128x64) zero_offsets, View.ld_unit_zero (S := S64x64) zero_offsets, View.ld_unit_zero (S := S1x64) zero_offsets]
  rw [Pay.pay5]
  funext j
  obtain ⟨p, q, rfl⟩ : ∃ (p : Fin 32000) (q : Fin 64), j = ix2 p q := ⟨j 0, j 1, eq_ix2 j⟩
  have hN : cfg5.N = 25 := N_5
  have ht : t.val < cfg5.N := t.isLt
  obtain ⟨-, -, -, -, -, -, -, -, -, -, e0, e1⟩ := index_maps t
  have hemb : ((cfg5.win 5).blk t).view.emb (ix2 p q) = ix2 (⟨t.val * 32000 + p.val, by omega⟩ : Fin 800000) q := by
    funext a; apply Fin.ext
    match a with
    | ⟨0, _⟩ => show win5_5.index t (0 : Fin 2) * 32000 + 1 * p.val = t.val * 32000 + p.val; omega
    | ⟨1, _⟩ => show win5_5.index t (1 : Fin 2) * 64 + 1 * q.val = q.val; omega
  show mlp (iblk5 V c 0 t) _ _ _ _ (ix2 p q) = mlp _ _ _ _ _ (((cfg5.win 5).blk t).view.emb (ix2 p q))
  rw [hemb]
  exact mlp_row _ _ _ _ _ _ _ _ _ _ p _ q (fun i => input_block V c t p i _ rfl) (w1_block V c t) (b1_block V c t) (w2_block V c t) (b2_block V c t)

/-- An index of the output array is in point t's block iff each coordinate is in the block's range on its axis. -/
theorem mem_blk (t : Fin cfg5.N) (i : S800000x64.Idx) :
    i ∈ ((cfg5.win 5).blk t).view.set ↔ ∀ a : Fin 2, win5_5.index t a * S32000x64.size a ≤ (i a).val ∧ (i a).val < win5_5.index t a * S32000x64.size a + S32000x64.size a := by
  show i ∈ ((View.whole (Pipeline.arrRef spec5 5)).slice (win5_5.rect t)).set ↔ _
  rw [View.set_slice_whole, Rect.mem_set_unit]
  exact Iff.rfl

/-- Row r of the output array is in the block of point r / 32000. -/
theorem cover (i : S800000x64.Idx) : ∃ t : Fin cfg5.N, (cfg5.win 5).flush t = true ∧ i ∈ ((cfg5.win 5).blk t).view.set := by
  have hN : cfg5.N = 25 := N_5
  have hi0 : (i 0).val < 800000 := (i 0).isLt
  have hi1 : (i 1).val < 64 := (i 1).isLt
  refine ⟨⟨(i 0).val / 32000, by omega⟩, flush5_5 _, ?_⟩
  rw [mem_blk]
  obtain ⟨-, -, -, -, -, -, -, -, -, -, e0, e1⟩ := index_maps ⟨(i 0).val / 32000, by omega⟩
  intro a
  match a with
  | ⟨0, _⟩ => show win5_5.index _ (0 : Fin 2) * 32000 ≤ (i 0).val ∧ (i 0).val < win5_5.index _ (0 : Fin 2) * 32000 + 32000; rw [e0]; show (i 0).val / 32000 * 32000 ≤ _ ∧ _ < (i 0).val / 32000 * 32000 + 32000; omega
  | ⟨1, _⟩ => show win5_5.index _ (1 : Fin 2) * 64 ≤ (i 1).val ∧ (i 1).val < win5_5.index _ (1 : Fin 2) * 64 + 64; rw [e1]; omega

/-- The output array after region 5's last grid point. -/
theorem value (c : Dev nD) :
    (dat5 (F := Ideal) V c).arrAt 5 cfg5.N
      = mlp (V c (Pipeline.arrRef spec5 0)) (V c (Pipeline.arrRef spec5 1)) (rowBias (V c (Pipeline.arrRef spec5 2)))
          (V c (Pipeline.arrRef spec5 3)) (rowBias (V c (Pipeline.arrRef spec5 4))) :=
  (dat5 (F := Ideal) V c).arrAt_eq_of_cover 5 _ (fun t _ => flushed_eq V c t) cover

end Cert.KernelIdeal.Region5

end
-- ==== Proof.Region6.lean ====
/- Region 6 of the kernel's program, read as a value: whatever the arrays hold when the region is entered, its output
   array ends holding the row-wise perceptron of the input array (every block of 10000 rows is written by one grid
   point, from the same block of rows of the input and the whole weight and bias arrays; the blocks tile the array). -/
import proofs.«419785_j6528350289988_1_alg».proof.Proof.Gen.KernelIdeal.Frame
import proofs.«419785_j6528350289988_1_alg».proof.Proof.Pay

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input's block and the output's block at point t are both block t of rows;
    every weight and bias window is its whole array at every point. -/
theorem index_maps : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- A row of the perceptron's result depends on the same row of its input only (and on the weights and biases). -/
theorem mlp_row {R T D : ℕ} (x : (⟨2, ![R, D]⟩ : Shape).Idx → EReal) (xb : (⟨2, ![T, D]⟩ : Shape).Idx → EReal)
    (w1 w1' : (⟨2, ![D, 64]⟩ : Shape).Idx → EReal) (b1 b1' : (⟨2, ![1, 64]⟩ : Shape).Idx → EReal)
    (w2 w2' : (⟨2, ![64, 64]⟩ : Shape).Idx → EReal) (b2 b2' : (⟨2, ![1, 64]⟩ : Shape).Idx → EReal)
    (p : Fin T) (r : Fin R) (q : Fin 64) (h : ∀ i : Fin D, xb (ix2 p i) = x (ix2 r i))
    (hw1 : w1' = w1) (hb1 : b1' = b1) (hw2 : w2' = w2) (hb2 : b2' = b2) :
    mlp xb w1' (rowBias b1') w2' (rowBias b2') (ix2 p q) = mlp x w1 (rowBias b1) w2 (rowBias b2) (ix2 r q) := by
  subst hw1 hb1 hw2 hb2
  rw [mlp_apply, mlp_apply]
  simp only [h]

/-- Row p of the input's block at point t is row 10000 t + p of the input array. -/
theorem input_block (c : Dev nD) (t : Fin cfg6.N) (p : Fin 10000) (i : Fin 128) (r : Fin 50000) (hr : r.val = t.val * 10000 + p.val) :
    (iblk6 V c 0 t : Vec Ideal S10000x128 .f32) (ix2 p i) = V c (Pipeline.arrRef spec6 0) (ix2 r i) := by
  obtain ⟨e0, e1, -⟩ := index_maps t
  show V c (Pipeline.arrRef spec6 0) (((cfg6.win 0).blk t).view.emb (ix2 p i)) = _
  congr 1
  funext a; apply Fin.ext
  match a with
  | ⟨0, _⟩ => show win6_0.index t (0 : Fin 2) * 10000 + 1 * p.val = r.val; omega
  | ⟨1, _⟩ => show win6_0.index t (1 : Fin 2) * 128 + 1 * i.val = i.val; omega

/-- The first weight matrix's block at every point is the whole array. -/
theorem w1_block (c : Dev nD) (t : Fin cfg6.N) : (iblk6 V c 1 t : Vec Ideal S128x64 .f32) = V c (Pipeline.arrRef spec6 1) := by
  obtain ⟨-, -, e0, e1, -⟩ := index_maps t
  funext y
  show V c (Pipeline.arrRef spec6 1) (((cfg6.win 1).blk t).view.emb y) = V c (Pipeline.arrRef spec6 1) y
  congr 1
  funext a; apply Fin.ext
  match a with
  | ⟨0, _⟩ => show win6_1.index t (0 : Fin 2) * 128 + 1 * (y 0).val = (y 0).val; omega
  | ⟨1, _⟩ => show win6_1.index t (1 : Fin 2) * 64 + 1 * (y 1).val = (y 1).val; omega

/-- The first bias row's block at every point is the whole array. -/
theorem b1_block (c : Dev nD) (t : Fin cfg6.N) : (iblk6 V c 2 t : Vec Ideal S1x64 .f32) = V c (Pipeline.arrRef spec6 2) := by
  obtain ⟨-, -, -, -, e0, e1, -⟩ := index_maps t
  funext y
  show V c (Pipeline.arrRef spec6 2) (((cfg6.win 2).blk t).view.emb y) = V c (Pipeline.arrRef spec6 2) y
  congr 1
  funext a; apply Fin.ext
  match a with
  | ⟨0, _⟩ => show win6_2.index t (0 : Fin 2) * 1 + 1 * (y 0).val = (y 0).val; omega
  | ⟨1, _⟩ => show win6_2.index t (1 : Fin 2) * 64 + 1 * (y 1).val = (y 1).val; omega

/-- The second weight matrix's block at every point is the whole array. -/
theorem w2_block (c : Dev nD) (t : Fin cfg6.N) : (iblk6 V c 3 t : Vec Ideal S64x64 .f32) = V c (Pipeline.arrRef spec6 3) := by
  obtain ⟨-, -, -, -, -, -, e0, e1, -⟩ := index_maps t
  funext y
  show V c (Pipeline.arrRef spec6 3) (((cfg6.win 3).blk t).view.emb y) = V c (Pipeline.arrRef spec6 3) y
  congr 1
  funext a; apply Fin.ext
  match a with
  | ⟨0, _⟩ => show win6_3.index t (0 : Fin 2) * 64 + 1 * (y 0).val = (y 0).val; omega
  | ⟨1, _⟩ => show win6_3.index t (1 : Fin 2) * 64 + 1 * (y 1).val = (y 1).val; omega

/-- The second bias row's block at every point is the whole array. -/
theorem b2_block (c : Dev nD) (t : Fin cfg6.N) : (iblk6 V c 4 t : Vec Ideal S1x64 .f32) = V c (Pipeline.arrRef spec6 4) := by
  obtain ⟨-, -, -, -, -, -, -, -, e0, e1, -⟩ := index_maps t
  funext y
  show V c (Pipeline.arrRef spec6 4) (((cfg6.win 4).blk t).view.emb y) = V c (Pipeline.arrRef spec6 4) y
  congr 1
  funext a; apply Fin.ext
  match a with
  | ⟨0, _⟩ => show win6_4.index t (0 : Fin 2) * 1 + 1 * (y 0).val = (y 0).val; omega
  | ⟨1, _⟩ => show win6_4.index t (1 : Fin 2) * 64 + 1 * (y 1).val = (y 1).val; omega

set_option maxHeartbeats 1000000 in
/-- What point t writes back is block t of the perceptron of the arrays as the region finds them. -/
theorem flushed_eq (c : Dev nD) (t : Fin cfg6.N) :
    (dat6 (F := Ideal) V c).flushed 5 t = ((cfg6.win 5).blk t).view.read (Elt Ideal)
      (mlp (V c (Pipeline.arrRef spec6 0)) (V c (Pipeline.arrRef spec6 1)) (rowBias (V c (Pipeline.arrRef spec6 2)))
          (V c (Pipeline.arrRef spec6 3)) (rowBias (V c (Pipeline.arrRef spec6 4)))) := by
  show (cfg6.win 5).cut (grid6.coords t) ((dat6 V c).after 5 t) = _
  rw [after6_5]
  unfold out6_5
  rw [View.canon_unit_zero zero_offsets]
  simp only [View.ld_unit_zero (S := S10000x128) zero_offsets, View.ld_unit_zero (S := S128x64) zero_offsets, View.ld_unit_zero (S := S64x64) zero_offsets, View.ld_unit_zero (S := S1x64) zero_offsets]
  rw [Pay.pay6]
  funext j
  obtain ⟨p, q, rfl⟩ : ∃ (p : Fin 10000) (q : Fin 64), j = ix2 p q := ⟨j 0, j 1, eq_ix2 j⟩
  have hN : cfg6.N = 5 := N_6
  have ht : t.val < cfg6.N := t.isLt
  obtain ⟨-, -, -, -, -, -, -, -, -, -, e0, e1⟩ := index_maps t
  have hemb : ((cfg6.win 5).blk t).view.emb (ix2 p q) = ix2 (⟨t.val * 10000 + p.val, by omega⟩ : Fin 50000) q := by
    funext a; apply Fin.ext
    match a with
    | ⟨0, _⟩ => show win6_5.index t (0 : Fin 2) * 10000 + 1 * p.val = t.val * 10000 + p.val; omega
    | ⟨1, _⟩ => show win6_5.index t (1 : Fin 2) * 64 + 1 * q.val = q.val; omega
  show mlp (iblk6 V c 0 t) _ _ _ _ (ix2 p q) = mlp _ _ _ _ _ (((cfg6.win 5).blk t).view.emb (ix2 p q))
  rw [hemb]
  exact mlp_row _ _ _ _ _ _ _ _ _ _ p _ q (fun i => input_block V c t p i _ rfl) (w1_block V c t) (b1_block V c t) (w2_block V c t) (b2_block V c t)

/-- An index of the output array is in point t's block iff each coordinate is in the block's range on its axis. -/
theorem mem_blk (t : Fin cfg6.N) (i : S50000x64.Idx) :
    i ∈ ((cfg6.win 5).blk t).view.set ↔ ∀ a : Fin 2, win6_5.index t a * S10000x64.size a ≤ (i a).val ∧ (i a).val < win6_5.index t a * S10000x64.size a + S10000x64.size a := by
  show i ∈ ((View.whole (Pipeline.arrRef spec6 5)).slice (win6_5.rect t)).set ↔ _
  rw [View.set_slice_whole, Rect.mem_set_unit]
  exact Iff.rfl

/-- Row r of the output array is in the block of point r / 10000. -/
theorem cover (i : S50000x64.Idx) : ∃ t : Fin cfg6.N, (cfg6.win 5).flush t = true ∧ i ∈ ((cfg6.win 5).blk t).view.set := by
  have hN : cfg6.N = 5 := N_6
  have hi0 : (i 0).val < 50000 := (i 0).isLt
  have hi1 : (i 1).val < 64 := (i 1).isLt
  refine ⟨⟨(i 0).val / 10000, by omega⟩, flush6_5 _, ?_⟩
  rw [mem_blk]
  obtain ⟨-, -, -, -, -, -, -, -, -, -, e0, e1⟩ := index_maps ⟨(i 0).val / 10000, by omega⟩
  intro a
  match a with
  | ⟨0, _⟩ => show win6_5.index _ (0 : Fin 2) * 10000 ≤ (i 0).val ∧ (i 0).val < win6_5.index _ (0 : Fin 2) * 10000 + 10000; rw [e0]; show (i 0).val / 10000 * 10000 ≤ _ ∧ _ < (i 0).val / 10000 * 10000 + 10000; omega
  | ⟨1, _⟩ => show win6_5.index _ (1 : Fin 2) * 64 ≤ (i 1).val ∧ (i 1).val < win6_5.index _ (1 : Fin 2) * 64 + 64; rw [e1]; omega

/-- The output array after region 6's last grid point. -/
theorem value (c : Dev nD) :
    (dat6 (F := Ideal) V c).arrAt 5 cfg6.N
      = mlp (V c (Pipeline.arrRef spec6 0)) (V c (Pipeline.arrRef spec6 1)) (rowBias (V c (Pipeline.arrRef spec6 2)))
          (V c (Pipeline.arrRef spec6 3)) (rowBias (V c (Pipeline.arrRef spec6 4))) :=
  (dat6 (F := Ideal) V c).arrAt_eq_of_cover 5 _ (fun t _ => flushed_eq V c t) cover

end Cert.KernelIdeal.Region6

end
-- ==== Proof.ChainLayer2.lean ====
/- Message-passing layer 2 of the kernel's program, read off the boundary contents: from the node array region 4 left,
   the two gathers, the message perceptron (region 5) on the edge inputs, the sum of the messages into their targets,
   and the update perceptron (region 6) on the node inputs: the node array region 6 writes is layer 2 of the network on
   the node array it started from, with the edge list's two rows and slab 2 of the eight stacked weight arrays. -/
import proofs.«419785_j6528350289988_1_alg».proof.Proof.Keep
import proofs.«419785_j6528350289988_1_alg».proof.Proof.ChainOps2
import proofs.«419785_j6528350289988_1_alg».proof.Proof.ChainEmb
import proofs.«419785_j6528350289988_1_alg».proof.Proof.Region5
import proofs.«419785_j6528350289988_1_alg».proof.Proof.Region6

set_option maxRecDepth 16384

noncomputable section

namespace Cert.KernelIdeal.Chain

open Idealize.ShloMosaic Idealize.ShloMosaic.TcCoe Idealize.SL.Sem
open Cert.KernelIdeal Cert.KernelIdeal.Gen Cert.Net

variable [Cert.KernelIdeal.Facts]

variable (m : (ℓ : Loc nD τ sig) → Buf (Elt Ideal) ℓ) (ρ : Dev nD → PrngReg) (c : Dev nD)

/-- The messages of layer 2: region 5's output. -/
theorem msg2 :
    W18 m ρ c (Proc.devRef .tc main_v81)
      = mlp (KNet.edgeIn (W14 m ρ c (Proc.devRef .tc main_v66)) (KNet.dstOf (m ((c : Thread nD τ).loc main_arg1))) (KNet.srcOf (m ((c : Thread nD τ).loc main_arg1))))
          (KNet.w1At2 (m ((c : Thread nD τ).loc main_arg6))) (KNet.biasRow (KNet.bAt2 (m ((c : Thread nD τ).loc main_arg7))))
          (KNet.w2At2 (m ((c : Thread nD τ).loc main_arg8))) (KNet.biasRow (KNet.bAt2 (m ((c : Thread nD τ).loc main_arg9)))) := by
  -- the edge list's rows and the node array where the gathers read them
  have d2 : W14 m ρ c (Proc.devRef .tc main_v3) = KNet.dstOf (m ((c : Thread nD τ).loc main_arg1)) :=
    (keep14 m ρ c main_v3 (by decide)).trans (dst_at1 m ρ c)
  have s3 : W15 m ρ c (Proc.devRef .tc main_v1) = KNet.srcOf (m ((c : Thread nD τ).loc main_arg1)) :=
    (keep15 m ρ c main_v1 (by decide)).trans (src_at1 m ρ c)
  have h3 : W15 m ρ c (Proc.devRef .tc main_v66) = W14 m ρ c (Proc.devRef .tc main_v66) := step15 m ρ c main_v66 (by decide)
  -- the two gathers
  have t7 : W16 m ρ c (Proc.devRef .tc main_v67)
      = KNet.take (W14 m ρ c (Proc.devRef .tc main_v66)) (KNet.dstOf (m ((c : Thread nD τ).loc main_arg1))) :=
    (step16 m ρ c main_v67 (by decide)).trans ((take_dst2 (W14 m ρ c)).trans (by rw [d2]))
  have t8 : W16 m ρ c (Proc.devRef .tc main_v68)
      = KNet.take (W14 m ρ c (Proc.devRef .tc main_v66)) (KNet.srcOf (m ((c : Thread nD τ).loc main_arg1))) :=
    (take_src2 (W15 m ρ c)).trans (by rw [h3, s3])
  -- the stacked message weights where the third stretch reads them
  have a6 : W16 m ρ c (Proc.devRef .tc main_arg6) = (m ((c : Thread nD τ).loc main_arg6)) :=
    (keep16 m ρ c main_arg6 (by decide)).trans (step1 m ρ c main_arg6 (by decide))
  have a7 : W16 m ρ c (Proc.devRef .tc main_arg7) = (m ((c : Thread nD τ).loc main_arg7)) :=
    (keep16 m ρ c main_arg7 (by decide)).trans (step1 m ρ c main_arg7 (by decide))
  have a8 : W16 m ρ c (Proc.devRef .tc main_arg8) = (m ((c : Thread nD τ).loc main_arg8)) :=
    (keep16 m ρ c main_arg8 (by decide)).trans (step1 m ρ c main_arg8 (by decide))
  have a9 : W16 m ρ c (Proc.devRef .tc main_arg9) = (m ((c : Thread nD τ).loc main_arg9)) :=
    (keep16 m ρ c main_arg9 (by decide)).trans (step1 m ρ c main_arg9 (by decide))
  -- region 5's five inputs
  have x : W17 m ρ c (Proc.devRef .tc main_v80)
      = KNet.edgeIn (W14 m ρ c (Proc.devRef .tc main_v66)) (KNet.dstOf (m ((c : Thread nD τ).loc main_arg1))) (KNet.srcOf (m ((c : Thread nD τ).loc main_arg1))) :=
    msg_x2 (W16 m ρ c) _ _ _ t7 t8
  have w1 : W17 m ρ c (Proc.devRef .tc main_v71) = KNet.w1At2 (m ((c : Thread nD τ).loc main_arg6)) :=
    (msg_w1_2 (W16 m ρ c)).trans (by rw [a6])
  have b1 : rowBias (W17 m ρ c (Proc.devRef .tc main_v78)) = KNet.biasRow (KNet.bAt2 (m ((c : Thread nD τ).loc main_arg7))) :=
    (msg_b1_2 (W16 m ρ c)).trans (by rw [a7])
  have w2 : W17 m ρ c (Proc.devRef .tc main_v75) = KNet.w2At2 (m ((c : Thread nD τ).loc main_arg8)) :=
    (msg_w2_2 (W16 m ρ c)).trans (by rw [a8])
  have b2 : rowBias (W17 m ρ c (Proc.devRef .tc main_v79)) = KNet.biasRow (KNet.bAt2 (m ((c : Thread nD τ).loc main_arg9))) :=
    (msg_b2_2 (W16 m ρ c)).trans (by rw [a9])
  calc W18 m ρ c (Proc.devRef .tc main_v81)
    _ = (dat5 (V17 m ρ) c).arrAt 5 cfg5.N := W18_arr m ρ c 5
    _ = mlp (W17 m ρ c (Proc.devRef .tc main_v80)) (W17 m ρ c (Proc.devRef .tc main_v71))
          (rowBias (W17 m ρ c (Proc.devRef .tc main_v78))) (W17 m ρ c (Proc.devRef .tc main_v75))
          (rowBias (W17 m ρ c (Proc.devRef .tc main_v79))) := Region5.value (V17 m ρ) c
    _ = _ := by rw [x, w1, b1, w2, b2]

/-- Layer 2: region 6's output is the layer on region 4's. -/
theorem layer2 :
    W20 m ρ c (Proc.devRef .tc main_v96)
      = KNet.layer2 (W14 m ρ c (Proc.devRef .tc main_v66)) (KNet.dstOf (m ((c : Thread nD τ).loc main_arg1))) (KNet.srcOf (m ((c : Thread nD τ).loc main_arg1)))
          (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13)) := by
  -- the targets and the node array where the fourth stretch reads them
  have d6 : W18 m ρ c (Proc.devRef .tc main_v3) = KNet.dstOf (m ((c : Thread nD τ).loc main_arg1)) :=
    (keep18 m ρ c main_v3 (by decide)).trans (dst_at1 m ρ c)
  have h6 : W18 m ρ c (Proc.devRef .tc main_v66) = W14 m ρ c (Proc.devRef .tc main_v66) :=
    (step18 m ρ c main_v66 (by decide)).trans ((step17 m ρ c main_v66 (by decide)).trans
      ((step16 m ρ c main_v66 (by decide)).trans (step15 m ρ c main_v66 (by decide))))
  -- the stacked update weights where the fourth stretch reads them
  have a10 : W18 m ρ c (Proc.devRef .tc main_arg10) = (m ((c : Thread nD τ).loc main_arg10)) :=
    (keep18 m ρ c main_arg10 (by decide)).trans (step1 m ρ c main_arg10 (by decide))
  have a11 : W18 m ρ c (Proc.devRef .tc main_arg11) = (m ((c : Thread nD τ).loc main_arg11)) :=
    (keep18 m ρ c main_arg11 (by decide)).trans (step1 m ρ c main_arg11 (by decide))
  have a12 : W18 m ρ c (Proc.devRef .tc main_arg12) = (m ((c : Thread nD τ).loc main_arg12)) :=
    (keep18 m ρ c main_arg12 (by decide)).trans (step1 m ρ c main_arg12 (by decide))
  have a13 : W18 m ρ c (Proc.devRef .tc main_arg13) = (m ((c : Thread nD τ).loc main_arg13)) :=
    (keep18 m ρ c main_arg13 (by decide)).trans (step1 m ρ c main_arg13 (by decide))
  -- region 6's five inputs
  have x : W19 m ρ c (Proc.devRef .tc main_v85)
      = KNet.nodeIn (W14 m ρ c (Proc.devRef .tc main_v66))
          (KNet.aggregate
            (mlp (KNet.edgeIn (W14 m ρ c (Proc.devRef .tc main_v66)) (KNet.dstOf (m ((c : Thread nD τ).loc main_arg1))) (KNet.srcOf (m ((c : Thread nD τ).loc main_arg1))))
              (KNet.w1At2 (m ((c : Thread nD τ).loc main_arg6))) (KNet.biasRow (KNet.bAt2 (m ((c : Thread nD τ).loc main_arg7))))
              (KNet.w2At2 (m ((c : Thread nD τ).loc main_arg8))) (KNet.biasRow (KNet.bAt2 (m ((c : Thread nD τ).loc main_arg9)))))
            (KNet.dstOf (m ((c : Thread nD τ).loc main_arg1)))) :=
    (upd_x2 (W18 m ρ c)).trans (by rw [h6, msg2 m ρ c, d6])
  have w1 : W19 m ρ c (Proc.devRef .tc main_v87) = KNet.w1At2 (m ((c : Thread nD τ).loc main_arg10)) :=
    (upd_w1_2 (W18 m ρ c)).trans (by rw [a10])
  have b1 : rowBias (W19 m ρ c (Proc.devRef .tc main_v94)) = KNet.biasRow (KNet.bAt2 (m ((c : Thread nD τ).loc main_arg11))) :=
    (upd_b1_2 (W18 m ρ c)).trans (by rw [a11])
  have w2 : W19 m ρ c (Proc.devRef .tc main_v91) = KNet.w2At2 (m ((c : Thread nD τ).loc main_arg12)) :=
    (upd_w2_2 (W18 m ρ c)).trans (by rw [a12])
  have b2 : rowBias (W19 m ρ c (Proc.devRef .tc main_v95)) = KNet.biasRow (KNet.bAt2 (m ((c : Thread nD τ).loc main_arg13))) :=
    (upd_b2_2 (W18 m ρ c)).trans (by rw [a13])
  calc W20 m ρ c (Proc.devRef .tc main_v96)
    _ = (dat6 (V19 m ρ) c).arrAt 5 cfg6.N := W20_arr m ρ c 5
    _ = mlp (W19 m ρ c (Proc.devRef .tc main_v85)) (W19 m ρ c (Proc.devRef .tc main_v87))
          (rowBias (W19 m ρ c (Proc.devRef .tc main_v94))) (W19 m ρ c (Proc.devRef .tc main_v91))
          (rowBias (W19 m ρ c (Proc.devRef .tc main_v95))) := Region6.value (V19 m ρ) c
    _ = _ := by
      rw [x, w1, b1, w2, b2]
      rfl

end Cert.KernelIdeal.Chain

end
-- ==== Proof.ChainOps3.lean ====
/- What layer 3's four host stretches leave in the buffers its two regions read, from any contents at the stretch's
   entry: the two gathers of the node array's rows at the edges' end points, the message perceptron's inputs (the
   gathered rows side by side and narrowed, slab 3 of the stacked message weights, the biases as rows) and the update
   perceptron's inputs (the node array beside the summed messages, slab 3 of the stacked update weights, the biases as
   rows). -/
import proofs.«419785_j6528350289988_1_alg».proof.Proof.Gen.KernelIdeal.Launch
import proofs.«419785_j6528350289988_1_alg».proof.Proof.KNet
import proofs.«419785_j6528350289988_1_alg».proof.Proof.ChainRef
import Idealize.ShloMosaic.Lib.StableHlo.Run

set_option maxRecDepth 16384

noncomputable section

namespace Cert.KernelIdeal.Chain

open Idealize.ShloMosaic Idealize.ShloMosaic.TcCoe Idealize.SL.Sem
open Cert.KernelIdeal Cert.KernelIdeal.Gen Cert.Net

variable [Cert.KernelIdeal.Facts]

variable (V : Valuation τ sig (Elt Ideal))

/-! ## The two gathers -/

set_option maxHeartbeats 2000000 in
/-- The first gather stretch leaves the rows of the node array at the edges' targets. -/
theorem take_dst3 :
    StableHlo.after (hostOps7 (F := Ideal)) V (Proc.devRef .tc main_v97)
      = KNet.take (V (Proc.devRef .tc main_v96)) (V (Proc.devRef .tc main_v3)) := by
  dsimp only [hostOps7]
  after_results_simp
  simp only [ofBuf_toBuf]
  rw [toBuf_of]
  repeat rw [ofBuf_of]
  rfl

set_option maxHeartbeats 2000000 in
/-- The second gather stretch leaves the rows of the node array at the edges' sources. -/
theorem take_src3 :
    StableHlo.after (hostOps7_1 (F := Ideal)) V (Proc.devRef .tc main_v98)
      = KNet.take (V (Proc.devRef .tc main_v96)) (V (Proc.devRef .tc main_v1)) := by
  dsimp only [hostOps7_1]
  after_results_simp
  simp only [ofBuf_toBuf]
  rw [toBuf_of]
  repeat rw [ofBuf_of]
  rfl

/-! ## The message perceptron's five inputs -/

/-- The edge input: the two gathered arrays side by side, narrowed. -/
theorem msg_x3 (h : FVec Ideal S50000x64 .f32) (dst src : IVec S800000 32)
    (h7 : V (Proc.devRef .tc main_v97) = KNet.take h dst) (h8 : V (Proc.devRef .tc main_v98) = KNet.take h src) :
    StableHlo.after (hostOps7_2 (F := Ideal)) V (Proc.devRef .tc main_v110) = KNet.edgeIn h dst src := by
  dsimp only [hostOps7_2]
  after_results
  rw [h7, h8]
  rfl

theorem msg_w1_3 :
    StableHlo.after (hostOps7_2 (F := Ideal)) V (Proc.devRef .tc main_v101) = KNet.w1At3 (V (Proc.devRef .tc main_arg6)) := by
  dsimp only [hostOps7_2]
  after_results
  rfl

theorem msg_b1_3 :
    rowBias (StableHlo.after (hostOps7_2 (F := Ideal)) V (Proc.devRef .tc main_v108))
      = KNet.biasRow (KNet.bAt3 (V (Proc.devRef .tc main_arg7))) := by
  dsimp only [hostOps7_2]
  after_results
  rfl

theorem msg_w2_3 :
    StableHlo.after (hostOps7_2 (F := Ideal)) V (Proc.devRef .tc main_v105) = KNet.w2At3 (V (Proc.devRef .tc main_arg8)) := by
  dsimp only [hostOps7_2]
  after_results
  rfl

theorem msg_b2_3 :
    rowBias (StableHlo.after (hostOps7_2 (F := Ideal)) V (Proc.devRef .tc main_v109))
      = KNet.biasRow (KNet.bAt3 (V (Proc.devRef .tc main_arg9))) := by
  dsimp only [hostOps7_2]
  after_results
  rfl

/-! ## The update perceptron's five inputs -/

/-- The node input: the node array beside the messages summed into their targets. -/
theorem upd_x3 :
    StableHlo.after (hostOps8 (F := Ideal)) V (Proc.devRef .tc main_v115)
      = KNet.nodeIn (V (Proc.devRef .tc main_v96)) (KNet.aggregate (V (Proc.devRef .tc main_v111)) (V (Proc.devRef .tc main_v3))) := by
  dsimp only [hostOps8]
  after_results
  rfl

theorem upd_w1_3 :
    StableHlo.after (hostOps8 (F := Ideal)) V (Proc.devRef .tc main_v117) = KNet.w1At3 (V (Proc.devRef .tc main_arg10)) := by
  dsimp only [hostOps8]
  after_results
  rfl

theorem upd_b1_3 :
    rowBias (StableHlo.after (hostOps8 (F := Ideal)) V (Proc.devRef .tc main_v124))
      = KNet.biasRow (KNet.bAt3 (V (Proc.devRef .tc main_arg11))) := by
  dsimp only [hostOps8]
  after_results
  rfl

theorem upd_w2_3 :
    StableHlo.after (hostOps8 (F := Ideal)) V (Proc.devRef .tc main_v121) = KNet.w2At3 (V (Proc.devRef .tc main_arg12)) := by
  dsimp only [hostOps8]
  after_results
  rfl

theorem upd_b2_3 :
    rowBias (StableHlo.after (hostOps8 (F := Ideal)) V (Proc.devRef .tc main_v125))
      = KNet.biasRow (KNet.bAt3 (V (Proc.devRef .tc main_arg13))) := by
  dsimp only [hostOps8]
  after_results
  rfl

end Cert.KernelIdeal.Chain

end
-- ==== Proof.Region7.lean ====
/- Region 7 of the kernel's program, read as a value: whatever the arrays hold when the region is entered, its output
   array ends holding the row-wise perceptron of the input array (every block of 32000 rows is written by one grid
   point, from the same block of rows of the input and the whole weight and bias arrays; the blocks tile the array). -/
import proofs.«419785_j6528350289988_1_alg».proof.Proof.Gen.KernelIdeal.Frame
import proofs.«419785_j6528350289988_1_alg».proof.Proof.Pay

set_option maxRecDepth 16384

noncomputable section

namespace Cert.KernelIdeal.Region7

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input's block and the output's block at point t are both block t of rows;
    every weight and bias window is its whole array at every point. -/
theorem index_maps : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- A row of the perceptron's result depends on the same row of its input only (and on the weights and biases). -/
theorem mlp_row {R T D : ℕ} (x : (⟨2, ![R, D]⟩ : Shape).Idx → EReal) (xb : (⟨2, ![T, D]⟩ : Shape).Idx → EReal)
    (w1 w1' : (⟨2, ![D, 64]⟩ : Shape).Idx → EReal) (b1 b1' : (⟨2, ![1, 64]⟩ : Shape).Idx → EReal)
    (w2 w2' : (⟨2, ![64, 64]⟩ : Shape).Idx → EReal) (b2 b2' : (⟨2, ![1, 64]⟩ : Shape).Idx → EReal)
    (p : Fin T) (r : Fin R) (q : Fin 64) (h : ∀ i : Fin D, xb (ix2 p i) = x (ix2 r i))
    (hw1 : w1' = w1) (hb1 : b1' = b1) (hw2 : w2' = w2) (hb2 : b2' = b2) :
    mlp xb w1' (rowBias b1') w2' (rowBias b2') (ix2 p q) = mlp x w1 (rowBias b1) w2 (rowBias b2) (ix2 r q) := by
  subst hw1 hb1 hw2 hb2
  rw [mlp_apply, mlp_apply]
  simp only [h]

/-- Row p of the input's block at point t is row 32000 t + p of the input array. -/
theorem input_block (c : Dev nD) (t : Fin cfg7.N) (p : Fin 32000) (i : Fin 128) (r : Fin 800000) (hr : r.val = t.val * 32000 + p.val) :
    (iblk7 V c 0 t : Vec Ideal S32000x128 .bf16) (ix2 p i) = V c (Pipeline.arrRef spec7 0) (ix2 r i) := by
  obtain ⟨e0, e1, -⟩ := index_maps t
  show V c (Pipeline.arrRef spec7 0) (((cfg7.win 0).blk t).view.emb (ix2 p i)) = _
  congr 1
  funext a; apply Fin.ext
  match a with
  | ⟨0, _⟩ => show win7_0.index t (0 : Fin 2) * 32000 + 1 * p.val = r.val; omega
  | ⟨1, _⟩ => show win7_0.index t (1 : Fin 2) * 128 + 1 * i.val = i.val; omega

/-- The first weight matrix's block at every point is the whole array. -/
theorem w1_block (c : Dev nD) (t : Fin cfg7.N) : (iblk7 V c 1 t : Vec Ideal S128x64 .f32) = V c (Pipeline.arrRef spec7 1) := by
  obtain ⟨-, -, e0, e1, -⟩ := index_maps t
  funext y
  show V c (Pipeline.arrRef spec7 1) (((cfg7.win 1).blk t).view.emb y) = V c (Pipeline.arrRef spec7 1) y
  congr 1
  funext a; apply Fin.ext
  match a with
  | ⟨0, _⟩ => show win7_1.index t (0 : Fin 2) * 128 + 1 * (y 0).val = (y 0).val; omega
  | ⟨1, _⟩ => show win7_1.index t (1 : Fin 2) * 64 + 1 * (y 1).val = (y 1).val; omega

/-- The first bias row's block at every point is the whole array. -/
theorem b1_block (c : Dev nD) (t : Fin cfg7.N) : (iblk7 V c 2 t : Vec Ideal S1x64 .f32) = V c (Pipeline.arrRef spec7 2) := by
  obtain ⟨-, -, -, -, e0, e1, -⟩ := index_maps t
  funext y
  show V c (Pipeline.arrRef spec7 2) (((cfg7.win 2).blk t).view.emb y) = V c (Pipeline.arrRef spec7 2) y
  congr 1
  funext a; apply Fin.ext
  match a with
  | ⟨0, _⟩ => show win7_2.index t (0 : Fin 2) * 1 + 1 * (y 0).val = (y 0).val; omega
  | ⟨1, _⟩ => show win7_2.index t (1 : Fin 2) * 64 + 1 * (y 1).val = (y 1).val; omega

/-- The second weight matrix's block at every point is the whole array. -/
theorem w2_block (c : Dev nD) (t : Fin cfg7.N) : (iblk7 V c 3 t : Vec Ideal S64x64 .f32) = V c (Pipeline.arrRef spec7 3) := by
  obtain ⟨-, -, -, -, -, -, e0, e1, -⟩ := index_maps t
  funext y
  show V c (Pipeline.arrRef spec7 3) (((cfg7.win 3).blk t).view.emb y) = V c (Pipeline.arrRef spec7 3) y
  congr 1
  funext a; apply Fin.ext
  match a with
  | ⟨0, _⟩ => show win7_3.index t (0 : Fin 2) * 64 + 1 * (y 0).val = (y 0).val; omega
  | ⟨1, _⟩ => show win7_3.index t (1 : Fin 2) * 64 + 1 * (y 1).val = (y 1).val; omega

/-- The second bias row's block at every point is the whole array. -/
theorem b2_block (c : Dev nD) (t : Fin cfg7.N) : (iblk7 V c 4 t : Vec Ideal S1x64 .f32) = V c (Pipeline.arrRef spec7 4) := by
  obtain ⟨-, -, -, -, -, -, -, -, e0, e1, -⟩ := index_maps t
  funext y
  show V c (Pipeline.arrRef spec7 4) (((cfg7.win 4).blk t).view.emb y) = V c (Pipeline.arrRef spec7 4) y
  congr 1
  funext a; apply Fin.ext
  match a with
  | ⟨0, _⟩ => show win7_4.index t (0 : Fin 2) * 1 + 1 * (y 0).val = (y 0).val; omega
  | ⟨1, _⟩ => show win7_4.index t (1 : Fin 2) * 64 + 1 * (y 1).val = (y 1).val; omega

set_option maxHeartbeats 1000000 in
/-- What point t writes back is block t of the perceptron of the arrays as the region finds them. -/
theorem flushed_eq (c : Dev nD) (t : Fin cfg7.N) :
    (dat7 (F := Ideal) V c).flushed 5 t = ((cfg7.win 5).blk t).view.read (Elt Ideal)
      (mlp (V c (Pipeline.arrRef spec7 0)) (V c (Pipeline.arrRef spec7 1)) (rowBias (V c (Pipeline.arrRef spec7 2)))
          (V c (Pipeline.arrRef spec7 3)) (rowBias (V c (Pipeline.arrRef spec7 4)))) := by
  show (cfg7.win 5).cut (grid7.coords t) ((dat7 V c).after 5 t) = _
  rw [after7_5]
  unfold out7_5
  rw [View.canon_unit_zero zero_offsets]
  simp only [View.ld_unit_zero (S := S32000x128) zero_offsets, View.ld_unit_zero (S := S128x64) zero_offsets, View.ld_unit_zero (S := S64x64) zero_offsets, View.ld_unit_zero (S := S1x64) zero_offsets]
  rw [Pay.pay7]
  funext j
  obtain ⟨p, q, rfl⟩ : ∃ (p : Fin 32000) (q : Fin 64), j = ix2 p q := ⟨j 0, j 1, eq_ix2 j⟩
  have hN : cfg7.N = 25 := N_7
  have ht : t.val < cfg7.N := t.isLt
  obtain ⟨-, -, -, -, -, -, -, -, -, -, e0, e1⟩ := index_maps t
  have hemb : ((cfg7.win 5).blk t).view.emb (ix2 p q) = ix2 (⟨t.val * 32000 + p.val, by omega⟩ : Fin 800000) q := by
    funext a; apply Fin.ext
    match a with
    | ⟨0, _⟩ => show win7_5.index t (0 : Fin 2) * 32000 + 1 * p.val = t.val * 32000 + p.val; omega
    | ⟨1, _⟩ => show win7_5.index t (1 : Fin 2) * 64 + 1 * q.val = q.val; omega
  show mlp (iblk7 V c 0 t) _ _ _ _ (ix2 p q) = mlp _ _ _ _ _ (((cfg7.win 5).blk t).view.emb (ix2 p q))
  rw [hemb]
  exact mlp_row _ _ _ _ _ _ _ _ _ _ p _ q (fun i => input_block V c t p i _ rfl) (w1_block V c t) (b1_block V c t) (w2_block V c t) (b2_block V c t)

/-- An index of the output array is in point t's block iff each coordinate is in the block's range on its axis. -/
theorem mem_blk (t : Fin cfg7.N) (i : S800000x64.Idx) :
    i ∈ ((cfg7.win 5).blk t).view.set ↔ ∀ a : Fin 2, win7_5.index t a * S32000x64.size a ≤ (i a).val ∧ (i a).val < win7_5.index t a * S32000x64.size a + S32000x64.size a := by
  show i ∈ ((View.whole (Pipeline.arrRef spec7 5)).slice (win7_5.rect t)).set ↔ _
  rw [View.set_slice_whole, Rect.mem_set_unit]
  exact Iff.rfl

/-- Row r of the output array is in the block of point r / 32000. -/
theorem cover (i : S800000x64.Idx) : ∃ t : Fin cfg7.N, (cfg7.win 5).flush t = true ∧ i ∈ ((cfg7.win 5).blk t).view.set := by
  have hN : cfg7.N = 25 := N_7
  have hi0 : (i 0).val < 800000 := (i 0).isLt
  have hi1 : (i 1).val < 64 := (i 1).isLt
  refine ⟨⟨(i 0).val / 32000, by omega⟩, flush7_5 _, ?_⟩
  rw [mem_blk]
  obtain ⟨-, -, -, -, -, -, -, -, -, -, e0, e1⟩ := index_maps ⟨(i 0).val / 32000, by omega⟩
  intro a
  match a with
  | ⟨0, _⟩ => show win7_5.index _ (0 : Fin 2) * 32000 ≤ (i 0).val ∧ (i 0).val < win7_5.index _ (0 : Fin 2) * 32000 + 32000; rw [e0]; show (i 0).val / 32000 * 32000 ≤ _ ∧ _ < (i 0).val / 32000 * 32000 + 32000; omega
  | ⟨1, _⟩ => show win7_5.index _ (1 : Fin 2) * 64 ≤ (i 1).val ∧ (i 1).val < win7_5.index _ (1 : Fin 2) * 64 + 64; rw [e1]; omega

/-- The output array after region 7's last grid point. -/
theorem value (c : Dev nD) :
    (dat7 (F := Ideal) V c).arrAt 5 cfg7.N
      = mlp (V c (Pipeline.arrRef spec7 0)) (V c (Pipeline.arrRef spec7 1)) (rowBias (V c (Pipeline.arrRef spec7 2)))
          (V c (Pipeline.arrRef spec7 3)) (rowBias (V c (Pipeline.arrRef spec7 4))) :=
  (dat7 (F := Ideal) V c).arrAt_eq_of_cover 5 _ (fun t _ => flushed_eq V c t) cover

end Cert.KernelIdeal.Region7

end
-- ==== Proof.Region8.lean ====
/- Region 8 of the kernel's program, read as a value: whatever the arrays hold when the region is entered, its output
   array ends holding the row-wise perceptron of the input array (every block of 10000 rows is written by one grid
   point, from the same block of rows of the input and the whole weight and bias arrays; the blocks tile the array). -/
import proofs.«419785_j6528350289988_1_alg».proof.Proof.Gen.KernelIdeal.Frame
import proofs.«419785_j6528350289988_1_alg».proof.Proof.Pay

set_option maxRecDepth 16384

noncomputable section

namespace Cert.KernelIdeal.Region8

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input's block and the output's block at point t are both block t of rows;
    every weight and bias window is its whole array at every point. -/
theorem index_maps : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- A row of the perceptron's result depends on the same row of its input only (and on the weights and biases). -/
theorem mlp_row {R T D : ℕ} (x : (⟨2, ![R, D]⟩ : Shape).Idx → EReal) (xb : (⟨2, ![T, D]⟩ : Shape).Idx → EReal)
    (w1 w1' : (⟨2, ![D, 64]⟩ : Shape).Idx → EReal) (b1 b1' : (⟨2, ![1, 64]⟩ : Shape).Idx → EReal)
    (w2 w2' : (⟨2, ![64, 64]⟩ : Shape).Idx → EReal) (b2 b2' : (⟨2, ![1, 64]⟩ : Shape).Idx → EReal)
    (p : Fin T) (r : Fin R) (q : Fin 64) (h : ∀ i : Fin D, xb (ix2 p i) = x (ix2 r i))
    (hw1 : w1' = w1) (hb1 : b1' = b1) (hw2 : w2' = w2) (hb2 : b2' = b2) :
    mlp xb w1' (rowBias b1') w2' (rowBias b2') (ix2 p q) = mlp x w1 (rowBias b1) w2 (rowBias b2) (ix2 r q) := by
  subst hw1 hb1 hw2 hb2
  rw [mlp_apply, mlp_apply]
  simp only [h]

/-- Row p of the input's block at point t is row 10000 t + p of the input array. -/
theorem input_block (c : Dev nD) (t : Fin cfg8.N) (p : Fin 10000) (i : Fin 128) (r : Fin 50000) (hr : r.val = t.val * 10000 + p.val) :
    (iblk8 V c 0 t : Vec Ideal S10000x128 .f32) (ix2 p i) = V c (Pipeline.arrRef spec8 0) (ix2 r i) := by
  obtain ⟨e0, e1, -⟩ := index_maps t
  show V c (Pipeline.arrRef spec8 0) (((cfg8.win 0).blk t).view.emb (ix2 p i)) = _
  congr 1
  funext a; apply Fin.ext
  match a with
  | ⟨0, _⟩ => show win8_0.index t (0 : Fin 2) * 10000 + 1 * p.val = r.val; omega
  | ⟨1, _⟩ => show win8_0.index t (1 : Fin 2) * 128 + 1 * i.val = i.val; omega

/-- The first weight matrix's block at every point is the whole array. -/
theorem w1_block (c : Dev nD) (t : Fin cfg8.N) : (iblk8 V c 1 t : Vec Ideal S128x64 .f32) = V c (Pipeline.arrRef spec8 1) := by
  obtain ⟨-, -, e0, e1, -⟩ := index_maps t
  funext y
  show V c (Pipeline.arrRef spec8 1) (((cfg8.win 1).blk t).view.emb y) = V c (Pipeline.arrRef spec8 1) y
  congr 1
  funext a; apply Fin.ext
  match a with
  | ⟨0, _⟩ => show win8_1.index t (0 : Fin 2) * 128 + 1 * (y 0).val = (y 0).val; omega
  | ⟨1, _⟩ => show win8_1.index t (1 : Fin 2) * 64 + 1 * (y 1).val = (y 1).val; omega

/-- The first bias row's block at every point is the whole array. -/
theorem b1_block (c : Dev nD) (t : Fin cfg8.N) : (iblk8 V c 2 t : Vec Ideal S1x64 .f32) = V c (Pipeline.arrRef spec8 2) := by
  obtain ⟨-, -, -, -, e0, e1, -⟩ := index_maps t
  funext y
  show V c (Pipeline.arrRef spec8 2) (((cfg8.win 2).blk t).view.emb y) = V c (Pipeline.arrRef spec8 2) y
  congr 1
  funext a; apply Fin.ext
  match a with
  | ⟨0, _⟩ => show win8_2.index t (0 : Fin 2) * 1 + 1 * (y 0).val = (y 0).val; omega
  | ⟨1, _⟩ => show win8_2.index t (1 : Fin 2) * 64 + 1 * (y 1).val = (y 1).val; omega

/-- The second weight matrix's block at every point is the whole array. -/
theorem w2_block (c : Dev nD) (t : Fin cfg8.N) : (iblk8 V c 3 t : Vec Ideal S64x64 .f32) = V c (Pipeline.arrRef spec8 3) := by
  obtain ⟨-, -, -, -, -, -, e0, e1, -⟩ := index_maps t
  funext y
  show V c (Pipeline.arrRef spec8 3) (((cfg8.win 3).blk t).view.emb y) = V c (Pipeline.arrRef spec8 3) y
  congr 1
  funext a; apply Fin.ext
  match a with
  | ⟨0, _⟩ => show win8_3.index t (0 : Fin 2) * 64 + 1 * (y 0).val = (y 0).val; omega
  | ⟨1, _⟩ => show win8_3.index t (1 : Fin 2) * 64 + 1 * (y 1).val = (y 1).val; omega

/-- The second bias row's block at every point is the whole array. -/
theorem b2_block (c : Dev nD) (t : Fin cfg8.N) : (iblk8 V c 4 t : Vec Ideal S1x64 .f32) = V c (Pipeline.arrRef spec8 4) := by
  obtain ⟨-, -, -, -, -, -, -, -, e0, e1, -⟩ := index_maps t
  funext y
  show V c (Pipeline.arrRef spec8 4) (((cfg8.win 4).blk t).view.emb y) = V c (Pipeline.arrRef spec8 4) y
  congr 1
  funext a; apply Fin.ext
  match a with
  | ⟨0, _⟩ => show win8_4.index t (0 : Fin 2) * 1 + 1 * (y 0).val = (y 0).val; omega
  | ⟨1, _⟩ => show win8_4.index t (1 : Fin 2) * 64 + 1 * (y 1).val = (y 1).val; omega

set_option maxHeartbeats 1000000 in
/-- What point t writes back is block t of the perceptron of the arrays as the region finds them. -/
theorem flushed_eq (c : Dev nD) (t : Fin cfg8.N) :
    (dat8 (F := Ideal) V c).flushed 5 t = ((cfg8.win 5).blk t).view.read (Elt Ideal)
      (mlp (V c (Pipeline.arrRef spec8 0)) (V c (Pipeline.arrRef spec8 1)) (rowBias (V c (Pipeline.arrRef spec8 2)))
          (V c (Pipeline.arrRef spec8 3)) (rowBias (V c (Pipeline.arrRef spec8 4)))) := by
  show (cfg8.win 5).cut (grid8.coords t) ((dat8 V c).after 5 t) = _
  rw [after8_5]
  unfold out8_5
  rw [View.canon_unit_zero zero_offsets]
  simp only [View.ld_unit_zero (S := S10000x128) zero_offsets, View.ld_unit_zero (S := S128x64) zero_offsets, View.ld_unit_zero (S := S64x64) zero_offsets, View.ld_unit_zero (S := S1x64) zero_offsets]
  rw [Pay.pay8]
  funext j
  obtain ⟨p, q, rfl⟩ : ∃ (p : Fin 10000) (q : Fin 64), j = ix2 p q := ⟨j 0, j 1, eq_ix2 j⟩
  have hN : cfg8.N = 5 := N_8
  have ht : t.val < cfg8.N := t.isLt
  obtain ⟨-, -, -, -, -, -, -, -, -, -, e0, e1⟩ := index_maps t
  have hemb : ((cfg8.win 5).blk t).view.emb (ix2 p q) = ix2 (⟨t.val * 10000 + p.val, by omega⟩ : Fin 50000) q := by
    funext a; apply Fin.ext
    match a with
    | ⟨0, _⟩ => show win8_5.index t (0 : Fin 2) * 10000 + 1 * p.val = t.val * 10000 + p.val; omega
    | ⟨1, _⟩ => show win8_5.index t (1 : Fin 2) * 64 + 1 * q.val = q.val; omega
  show mlp (iblk8 V c 0 t) _ _ _ _ (ix2 p q) = mlp _ _ _ _ _ (((cfg8.win 5).blk t).view.emb (ix2 p q))
  rw [hemb]
  exact mlp_row _ _ _ _ _ _ _ _ _ _ p _ q (fun i => input_block V c t p i _ rfl) (w1_block V c t) (b1_block V c t) (w2_block V c t) (b2_block V c t)

/-- An index of the output array is in point t's block iff each coordinate is in the block's range on its axis. -/
theorem mem_blk (t : Fin cfg8.N) (i : S50000x64.Idx) :
    i ∈ ((cfg8.win 5).blk t).view.set ↔ ∀ a : Fin 2, win8_5.index t a * S10000x64.size a ≤ (i a).val ∧ (i a).val < win8_5.index t a * S10000x64.size a + S10000x64.size a := by
  show i ∈ ((View.whole (Pipeline.arrRef spec8 5)).slice (win8_5.rect t)).set ↔ _
  rw [View.set_slice_whole, Rect.mem_set_unit]
  exact Iff.rfl

/-- Row r of the output array is in the block of point r / 10000. -/
theorem cover (i : S50000x64.Idx) : ∃ t : Fin cfg8.N, (cfg8.win 5).flush t = true ∧ i ∈ ((cfg8.win 5).blk t).view.set := by
  have hN : cfg8.N = 5 := N_8
  have hi0 : (i 0).val < 50000 := (i 0).isLt
  have hi1 : (i 1).val < 64 := (i 1).isLt
  refine ⟨⟨(i 0).val / 10000, by omega⟩, flush8_5 _, ?_⟩
  rw [mem_blk]
  obtain ⟨-, -, -, -, -, -, -, -, -, -, e0, e1⟩ := index_maps ⟨(i 0).val / 10000, by omega⟩
  intro a
  match a with
  | ⟨0, _⟩ => show win8_5.index _ (0 : Fin 2) * 10000 ≤ (i 0).val ∧ (i 0).val < win8_5.index _ (0 : Fin 2) * 10000 + 10000; rw [e0]; show (i 0).val / 10000 * 10000 ≤ _ ∧ _ < (i 0).val / 10000 * 10000 + 10000; omega
  | ⟨1, _⟩ => show win8_5.index _ (1 : Fin 2) * 64 ≤ (i 1).val ∧ (i 1).val < win8_5.index _ (1 : Fin 2) * 64 + 64; rw [e1]; omega

/-- The output array after region 8's last grid point. -/
theorem value (c : Dev nD) :
    (dat8 (F := Ideal) V c).arrAt 5 cfg8.N
      = mlp (V c (Pipeline.arrRef spec8 0)) (V c (Pipeline.arrRef spec8 1)) (rowBias (V c (Pipeline.arrRef spec8 2)))
          (V c (Pipeline.arrRef spec8 3)) (rowBias (V c (Pipeline.arrRef spec8 4))) :=
  (dat8 (F := Ideal) V c).arrAt_eq_of_cover 5 _ (fun t _ => flushed_eq V c t) cover

end Cert.KernelIdeal.Region8

end
-- ==== Proof.ChainLayer3.lean ====
/- Message-passing layer 3 of the kernel's program, read off the boundary contents: from the node array region 6 left,
   the two gathers, the message perceptron (region 7) on the edge inputs, the sum of the messages into their targets,
   and the update perceptron (region 8) on the node inputs: the node array region 8 writes is layer 3 of the network on
   the node array it started from, with the edge list's two rows and slab 3 of the eight stacked weight arrays. -/
import proofs.«419785_j6528350289988_1_alg».proof.Proof.Keep
import proofs.«419785_j6528350289988_1_alg».proof.Proof.ChainOps3
import proofs.«419785_j6528350289988_1_alg».proof.Proof.ChainEmb
import proofs.«419785_j6528350289988_1_alg».proof.Proof.Region7
import proofs.«419785_j6528350289988_1_alg».proof.Proof.Region8

set_option maxRecDepth 16384

noncomputable section

namespace Cert.KernelIdeal.Chain

open Idealize.ShloMosaic Idealize.ShloMosaic.TcCoe Idealize.SL.Sem
open Cert.KernelIdeal Cert.KernelIdeal.Gen Cert.Net

variable [Cert.KernelIdeal.Facts]

variable (m : (ℓ : Loc nD τ sig) → Buf (Elt Ideal) ℓ) (ρ : Dev nD → PrngReg) (c : Dev nD)

/-- The messages of layer 3: region 7's output. -/
theorem msg3 :
    W24 m ρ c (Proc.devRef .tc main_v111)
      = mlp (KNet.edgeIn (W20 m ρ c (Proc.devRef .tc main_v96)) (KNet.dstOf (m ((c : Thread nD τ).loc main_arg1))) (KNet.srcOf (m ((c : Thread nD τ).loc main_arg1))))
          (KNet.w1At3 (m ((c : Thread nD τ).loc main_arg6))) (KNet.biasRow (KNet.bAt3 (m ((c : Thread nD τ).loc main_arg7))))
          (KNet.w2At3 (m ((c : Thread nD τ).loc main_arg8))) (KNet.biasRow (KNet.bAt3 (m ((c : Thread nD τ).loc main_arg9)))) := by
  -- the edge list's rows and the node array where the gathers read them
  have d2 : W20 m ρ c (Proc.devRef .tc main_v3) = KNet.dstOf (m ((c : Thread nD τ).loc main_arg1)) :=
    (keep20 m ρ c main_v3 (by decide)).trans (dst_at1 m ρ c)
  have s3 : W21 m ρ c (Proc.devRef .tc main_v1) = KNet.srcOf (m ((c : Thread nD τ).loc main_arg1)) :=
    (keep21 m ρ c main_v1 (by decide)).trans (src_at1 m ρ c)
  have h3 : W21 m ρ c (Proc.devRef .tc main_v96) = W20 m ρ c (Proc.devRef .tc main_v96) := step21 m ρ c main_v96 (by decide)
  -- the two gathers
  have t7 : W22 m ρ c (Proc.devRef .tc main_v97)
      = KNet.take (W20 m ρ c (Proc.devRef .tc main_v96)) (KNet.dstOf (m ((c : Thread nD τ).loc main_arg1))) :=
    (step22 m ρ c main_v97 (by decide)).trans ((take_dst3 (W20 m ρ c)).trans (by rw [d2]))
  have t8 : W22 m ρ c (Proc.devRef .tc main_v98)
      = KNet.take (W20 m ρ c (Proc.devRef .tc main_v96)) (KNet.srcOf (m ((c : Thread nD τ).loc main_arg1))) :=
    (take_src3 (W21 m ρ c)).trans (by rw [h3, s3])
  -- the stacked message weights where the third stretch reads them
  have a6 : W22 m ρ c (Proc.devRef .tc main_arg6) = (m ((c : Thread nD τ).loc main_arg6)) :=
    (keep22 m ρ c main_arg6 (by decide)).trans (step1 m ρ c main_arg6 (by decide))
  have a7 : W22 m ρ c (Proc.devRef .tc main_arg7) = (m ((c : Thread nD τ).loc main_arg7)) :=
    (keep22 m ρ c main_arg7 (by decide)).trans (step1 m ρ c main_arg7 (by decide))
  have a8 : W22 m ρ c (Proc.devRef .tc main_arg8) = (m ((c : Thread nD τ).loc main_arg8)) :=
    (keep22 m ρ c main_arg8 (by decide)).trans (step1 m ρ c main_arg8 (by decide))
  have a9 : W22 m ρ c (Proc.devRef .tc main_arg9) = (m ((c : Thread nD τ).loc main_arg9)) :=
    (keep22 m ρ c main_arg9 (by decide)).trans (step1 m ρ c main_arg9 (by decide))
  -- region 7's five inputs
  have x : W23 m ρ c (Proc.devRef .tc main_v110)
      = KNet.edgeIn (W20 m ρ c (Proc.devRef .tc main_v96)) (KNet.dstOf (m ((c : Thread nD τ).loc main_arg1))) (KNet.srcOf (m ((c : Thread nD τ).loc main_arg1))) :=
    msg_x3 (W22 m ρ c) _ _ _ t7 t8
  have w1 : W23 m ρ c (Proc.devRef .tc main_v101) = KNet.w1At3 (m ((c : Thread nD τ).loc main_arg6)) :=
    (msg_w1_3 (W22 m ρ c)).trans (by rw [a6])
  have b1 : rowBias (W23 m ρ c (Proc.devRef .tc main_v108)) = KNet.biasRow (KNet.bAt3 (m ((c : Thread nD τ).loc main_arg7))) :=
    (msg_b1_3 (W22 m ρ c)).trans (by rw [a7])
  have w2 : W23 m ρ c (Proc.devRef .tc main_v105) = KNet.w2At3 (m ((c : Thread nD τ).loc main_arg8)) :=
    (msg_w2_3 (W22 m ρ c)).trans (by rw [a8])
  have b2 : rowBias (W23 m ρ c (Proc.devRef .tc main_v109)) = KNet.biasRow (KNet.bAt3 (m ((c : Thread nD τ).loc main_arg9))) :=
    (msg_b2_3 (W22 m ρ c)).trans (by rw [a9])
  calc W24 m ρ c (Proc.devRef .tc main_v111)
    _ = (dat7 (V23 m ρ) c).arrAt 5 cfg7.N := W24_arr m ρ c 5
    _ = mlp (W23 m ρ c (Proc.devRef .tc main_v110)) (W23 m ρ c (Proc.devRef .tc main_v101))
          (rowBias (W23 m ρ c (Proc.devRef .tc main_v108))) (W23 m ρ c (Proc.devRef .tc main_v105))
          (rowBias (W23 m ρ c (Proc.devRef .tc main_v109))) := Region7.value (V23 m ρ) c
    _ = _ := by rw [x, w1, b1, w2, b2]

/-- Layer 3: region 8's output is the layer on region 6's. -/
theorem layer3 :
    W26 m ρ c (Proc.devRef .tc main_v126)
      = KNet.layer3 (W20 m ρ c (Proc.devRef .tc main_v96)) (KNet.dstOf (m ((c : Thread nD τ).loc main_arg1))) (KNet.srcOf (m ((c : Thread nD τ).loc main_arg1)))
          (m ((c : Thread nD τ).loc main_arg6)) (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) (m ((c : Thread nD τ).loc main_arg13)) := by
  -- the targets and the node array where the fourth stretch reads them
  have d6 : W24 m ρ c (Proc.devRef .tc main_v3) = KNet.dstOf (m ((c : Thread nD τ).loc main_arg1)) :=
    (keep24 m ρ c main_v3 (by decide)).trans (dst_at1 m ρ c)
  have h6 : W24 m ρ c (Proc.devRef .tc main_v96) = W20 m ρ c (Proc.devRef .tc main_v96) :=
    (step24 m ρ c main_v96 (by decide)).trans ((step23 m ρ c main_v96 (by decide)).trans
      ((step22 m ρ c main_v96 (by decide)).trans (step21 m ρ c main_v96 (by decide))))
  -- the stacked update weights where the fourth stretch reads them
  have a10 : W24 m ρ c (Proc.devRef .tc main_arg10) = (m ((c : Thread nD τ).loc main_arg10)) :=
    (keep24 m ρ c main_arg10 (by decide)).trans (step1 m ρ c main_arg10 (by decide))
  have a11 : W24 m ρ c (Proc.devRef .tc main_arg11) = (m ((c : Thread nD τ).loc main_arg11)) :=
    (keep24 m ρ c main_arg11 (by decide)).trans (step1 m ρ c main_arg11 (by decide))
  have a12 : W24 m ρ c (Proc.devRef .tc main_arg12) = (m ((c : Thread nD τ).loc main_arg12)) :=
    (keep24 m ρ c main_arg12 (by decide)).trans (step1 m ρ c main_arg12 (by decide))
  have a13 : W24 m ρ c (Proc.devRef .tc main_arg13) = (m ((c : Thread nD τ).loc main_arg13)) :=
    (keep24 m ρ c main_arg13 (by decide)).trans (step1 m ρ c main_arg13 (by decide))
  -- region 8's five inputs
  have x : W25 m ρ c (Proc.devRef .tc main_v115)
      = KNet.nodeIn (W20 m ρ c (Proc.devRef .tc main_v96))
          (KNet.aggregate
            (mlp (KNet.edgeIn (W20 m ρ c (Proc.devRef .tc main_v96)) (KNet.dstOf (m ((c : Thread nD τ).loc main_arg1))) (KNet.srcOf (m ((c : Thread nD τ).loc main_arg1))))
              (KNet.w1At3 (m ((c : Thread nD τ).loc main_arg6))) (KNet.biasRow (KNet.bAt3 (m ((c : Thread nD τ).loc main_arg7))))
              (KNet.w2At3 (m ((c : Thread nD τ).loc main_arg8))) (KNet.biasRow (KNet.bAt3 (m ((c : Thread nD τ).loc main_arg9)))))
            (KNet.dstOf (m ((c : Thread nD τ).loc main_arg1)))) :=
    (upd_x3 (W24 m ρ c)).trans (by rw [h6, msg3 m ρ c, d6])
  have w1 : W25 m ρ c (Proc.devRef .tc main_v117) = KNet.w1At3 (m ((c : Thread nD τ).loc main_arg10)) :=
    (upd_w1_3 (W24 m ρ c)).trans (by rw [a10])
  have b1 : rowBias (W25 m ρ c (Proc.devRef .tc main_v124)) = KNet.biasRow (KNet.bAt3 (m ((c : Thread nD τ).loc main_arg11))) :=
    (upd_b1_3 (W24 m ρ c)).trans (by rw [a11])
  have w2 : W25 m ρ c (Proc.devRef .tc main_v121) = KNet.w2At3 (m ((c : Thread nD τ).loc main_arg12)) :=
    (upd_w2_3 (W24 m ρ c)).trans (by rw [a12])
  have b2 : rowBias (W25 m ρ c (Proc.devRef .tc main_v125)) = KNet.biasRow (KNet.bAt3 (m ((c : Thread nD τ).loc main_arg13))) :=
    (upd_b2_3 (W24 m ρ c)).trans (by rw [a13])
  calc W26 m ρ c (Proc.devRef .tc main_v126)
    _ = (dat8 (V25 m ρ) c).arrAt 5 cfg8.N := W26_arr m ρ c 5
    _ = mlp (W25 m ρ c (Proc.devRef .tc main_v115)) (W25 m ρ c (Proc.devRef .tc main_v117))
          (rowBias (W25 m ρ c (Proc.devRef .tc main_v124))) (W25 m ρ c (Proc.devRef .tc main_v121))
          (rowBias (W25 m ρ c (Proc.devRef .tc main_v125))) := Region8.value (V25 m ρ) c
    _ = _ := by
      rw [x, w1, b1, w2, b2]
      rfl

end Cert.KernelIdeal.Chain

end
-- ==== Proof.Region9.lean ====
/- Region 9 of the kernel's program, read as a value: whatever the arrays hold when the region is entered, its output
   array ends holding the row-wise perceptron of the input array (every block of 10000 rows is written by one grid
   point, from the same block of rows of the input and the whole weight and bias arrays; the blocks tile the array). -/
import proofs.«419785_j6528350289988_1_alg».proof.Proof.Gen.KernelIdeal.Frame
import proofs.«419785_j6528350289988_1_alg».proof.Proof.Pay

set_option maxRecDepth 16384

noncomputable section

namespace Cert.KernelIdeal.Region9

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Net

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the input's block and the output's block at point t are both block t of rows;
    every weight and bias window is its whole array at every point. -/
theorem index_maps : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- A row of the perceptron's result depends on the same row of its input only (and on the weights and biases). -/
theorem mlp_row {R T D : ℕ} (x : (⟨2, ![R, D]⟩ : Shape).Idx → EReal) (xb : (⟨2, ![T, D]⟩ : Shape).Idx → EReal)
    (w1 w1' : (⟨2, ![D, 64]⟩ : Shape).Idx → EReal) (b1 b1' : (⟨2, ![1, 64]⟩ : Shape).Idx → EReal)
    (w2 w2' : (⟨2, ![64, 64]⟩ : Shape).Idx → EReal) (b2 b2' : (⟨2, ![1, 64]⟩ : Shape).Idx → EReal)
    (p : Fin T) (r : Fin R) (q : Fin 64) (h : ∀ i : Fin D, xb (ix2 p i) = x (ix2 r i))
    (hw1 : w1' = w1) (hb1 : b1' = b1) (hw2 : w2' = w2) (hb2 : b2' = b2) :
    mlp xb w1' (rowBias b1') w2' (rowBias b2') (ix2 p q) = mlp x w1 (rowBias b1) w2 (rowBias b2) (ix2 r q) := by
  subst hw1 hb1 hw2 hb2
  rw [mlp_apply, mlp_apply]
  simp only [h]

/-- Row p of the input's block at point t is row 10000 t + p of the input array. -/
theorem input_block (c : Dev nD) (t : Fin cfg9.N) (p : Fin 10000) (i : Fin 64) (r : Fin 50000) (hr : r.val = t.val * 10000 + p.val) :
    (iblk9 V c 0 t : Vec Ideal S10000x64 .f32) (ix2 p i) = V c (Pipeline.arrRef spec9 0) (ix2 r i) := by
  obtain ⟨e0, e1, -⟩ := index_maps t
  show V c (Pipeline.arrRef spec9 0) (((cfg9.win 0).blk t).view.emb (ix2 p i)) = _
  congr 1
  funext a; apply Fin.ext
  match a with
  | ⟨0, _⟩ => show win9_0.index t (0 : Fin 2) * 10000 + 1 * p.val = r.val; omega
  | ⟨1, _⟩ => show win9_0.index t (1 : Fin 2) * 64 + 1 * i.val = i.val; omega

/-- The first weight matrix's block at every point is the whole array. -/
theorem w1_block (c : Dev nD) (t : Fin cfg9.N) : (iblk9 V c 1 t : Vec Ideal S64x64 .f32) = V c (Pipeline.arrRef spec9 1) := by
  obtain ⟨-, -, e0, e1, -⟩ := index_maps t
  funext y
  show V c (Pipeline.arrRef spec9 1) (((cfg9.win 1).blk t).view.emb y) = V c (Pipeline.arrRef spec9 1) y
  congr 1
  funext a; apply Fin.ext
  match a with
  | ⟨0, _⟩ => show win9_1.index t (0 : Fin 2) * 64 + 1 * (y 0).val = (y 0).val; omega
  | ⟨1, _⟩ => show win9_1.index t (1 : Fin 2) * 64 + 1 * (y 1).val = (y 1).val; omega

/-- The first bias row's block at every point is the whole array. -/
theorem b1_block (c : Dev nD) (t : Fin cfg9.N) : (iblk9 V c 2 t : Vec Ideal S1x64 .f32) = V c (Pipeline.arrRef spec9 2) := by
  obtain ⟨-, -, -, -, e0, e1, -⟩ := index_maps t
  funext y
  show V c (Pipeline.arrRef spec9 2) (((cfg9.win 2).blk t).view.emb y) = V c (Pipeline.arrRef spec9 2) y
  congr 1
  funext a; apply Fin.ext
  match a with
  | ⟨0, _⟩ => show win9_2.index t (0 : Fin 2) * 1 + 1 * (y 0).val = (y 0).val; omega
  | ⟨1, _⟩ => show win9_2.index t (1 : Fin 2) * 64 + 1 * (y 1).val = (y 1).val; omega

/-- The second weight matrix's block at every point is the whole array. -/
theorem w2_block (c : Dev nD) (t : Fin cfg9.N) : (iblk9 V c 3 t : Vec Ideal S64x64 .f32) = V c (Pipeline.arrRef spec9 3) := by
  obtain ⟨-, -, -, -, -, -, e0, e1, -⟩ := index_maps t
  funext y
  show V c (Pipeline.arrRef spec9 3) (((cfg9.win 3).blk t).view.emb y) = V c (Pipeline.arrRef spec9 3) y
  congr 1
  funext a; apply Fin.ext
  match a with
  | ⟨0, _⟩ => show win9_3.index t (0 : Fin 2) * 64 + 1 * (y 0).val = (y 0).val; omega
  | ⟨1, _⟩ => show win9_3.index t (1 : Fin 2) * 64 + 1 * (y 1).val = (y 1).val; omega

/-- The second bias row's block at every point is the whole array. -/
theorem b2_block (c : Dev nD) (t : Fin cfg9.N) : (iblk9 V c 4 t : Vec Ideal S1x64 .f32) = V c (Pipeline.arrRef spec9 4) := by
  obtain ⟨-, -, -, -, -, -, -, -, e0, e1, -⟩ := index_maps t
  funext y
  show V c (Pipeline.arrRef spec9 4) (((cfg9.win 4).blk t).view.emb y) = V c (Pipeline.arrRef spec9 4) y
  congr 1
  funext a; apply Fin.ext
  match a with
  | ⟨0, _⟩ => show win9_4.index t (0 : Fin 2) * 1 + 1 * (y 0).val = (y 0).val; omega
  | ⟨1, _⟩ => show win9_4.index t (1 : Fin 2) * 64 + 1 * (y 1).val = (y 1).val; omega

set_option maxHeartbeats 1000000 in
/-- What point t writes back is block t of the perceptron of the arrays as the region finds them. -/
theorem flushed_eq (c : Dev nD) (t : Fin cfg9.N) :
    (dat9 (F := Ideal) V c).flushed 5 t = ((cfg9.win 5).blk t).view.read (Elt Ideal)
      (mlp (V c (Pipeline.arrRef spec9 0)) (V c (Pipeline.arrRef spec9 1)) (rowBias (V c (Pipeline.arrRef spec9 2)))
          (V c (Pipeline.arrRef spec9 3)) (rowBias (V c (Pipeline.arrRef spec9 4)))) := by
  show (cfg9.win 5).cut (grid9.coords t) ((dat9 V c).after 5 t) = _
  rw [after9_5]
  unfold out9_5
  rw [View.canon_unit_zero zero_offsets]
  simp only [View.ld_unit_zero (S := S10000x64) zero_offsets, View.ld_unit_zero (S := S64x64) zero_offsets, View.ld_unit_zero (S := S1x64) zero_offsets]
  rw [Pay.pay9]
  funext j
  obtain ⟨p, q, rfl⟩ : ∃ (p : Fin 10000) (q : Fin 64), j = ix2 p q := ⟨j 0, j 1, eq_ix2 j⟩
  have hN : cfg9.N = 5 := N_9
  have ht : t.val < cfg9.N := t.isLt
  obtain ⟨-, -, -, -, -, -, -, -, -, -, e0, e1⟩ := index_maps t
  have hemb : ((cfg9.win 5).blk t).view.emb (ix2 p q) = ix2 (⟨t.val * 10000 + p.val, by omega⟩ : Fin 50000) q := by
    funext a; apply Fin.ext
    match a with
    | ⟨0, _⟩ => show win9_5.index t (0 : Fin 2) * 10000 + 1 * p.val = t.val * 10000 + p.val; omega
    | ⟨1, _⟩ => show win9_5.index t (1 : Fin 2) * 64 + 1 * q.val = q.val; omega
  show mlp (iblk9 V c 0 t) _ _ _ _ (ix2 p q) = mlp _ _ _ _ _ (((cfg9.win 5).blk t).view.emb (ix2 p q))
  rw [hemb]
  exact mlp_row _ _ _ _ _ _ _ _ _ _ p _ q (fun i => input_block V c t p i _ rfl) (w1_block V c t) (b1_block V c t) (w2_block V c t) (b2_block V c t)

/-- An index of the output array is in point t's block iff each coordinate is in the block's range on its axis. -/
theorem mem_blk (t : Fin cfg9.N) (i : S50000x64.Idx) :
    i ∈ ((cfg9.win 5).blk t).view.set ↔ ∀ a : Fin 2, win9_5.index t a * S10000x64.size a ≤ (i a).val ∧ (i a).val < win9_5.index t a * S10000x64.size a + S10000x64.size a := by
  show i ∈ ((View.whole (Pipeline.arrRef spec9 5)).slice (win9_5.rect t)).set ↔ _
  rw [View.set_slice_whole, Rect.mem_set_unit]
  exact Iff.rfl

/-- Row r of the output array is in the block of point r / 10000. -/
theorem cover (i : S50000x64.Idx) : ∃ t : Fin cfg9.N, (cfg9.win 5).flush t = true ∧ i ∈ ((cfg9.win 5).blk t).view.set := by
  have hN : cfg9.N = 5 := N_9
  have hi0 : (i 0).val < 50000 := (i 0).isLt
  have hi1 : (i 1).val < 64 := (i 1).isLt
  refine ⟨⟨(i 0).val / 10000, by omega⟩, flush9_5 _, ?_⟩
  rw [mem_blk]
  obtain ⟨-, -, -, -, -, -, -, -, -, -, e0, e1⟩ := index_maps ⟨(i 0).val / 10000, by omega⟩
  intro a
  match a with
  | ⟨0, _⟩ => show win9_5.index _ (0 : Fin 2) * 10000 ≤ (i 0).val ∧ (i 0).val < win9_5.index _ (0 : Fin 2) * 10000 + 10000; rw [e0]; show (i 0).val / 10000 * 10000 ≤ _ ∧ _ < (i 0).val / 10000 * 10000 + 10000; omega
  | ⟨1, _⟩ => show win9_5.index _ (1 : Fin 2) * 64 ≤ (i 1).val ∧ (i 1).val < win9_5.index _ (1 : Fin 2) * 64 + 64; rw [e1]; omega

/-- The output array after region 9's last grid point. -/
theorem value (c : Dev nD) :
    (dat9 (F := Ideal) V c).arrAt 5 cfg9.N
      = mlp (V c (Pipeline.arrRef spec9 0)) (V c (Pipeline.arrRef spec9 1)) (rowBias (V c (Pipeline.arrRef spec9 2)))
          (V c (Pipeline.arrRef spec9 3)) (rowBias (V c (Pipeline.arrRef spec9 4))) :=
  (dat9 (F := Ideal) V c).arrAt_eq_of_cover 5 _ (fun t _ => flushed_eq V c t) cover

end Cert.KernelIdeal.Region9

end
-- ==== Proof.ChainHead.lean ====
/- The kernel's result read off the last two segments of its run: region 9 (the head perceptron) writes the result
   array from the node array as region 8 left it, the head's two weight matrices, and its two biases as the [1,64]
   rows the host stretch before the region reshaped them into; the stretch writes nothing else, and no segment writes
   an argument, so the weights and biases are the launch memory's. -/
import proofs.«419785_j6528350289988_1_alg».proof.Proof.Gen.KernelIdeal.Frame
import proofs.«419785_j6528350289988_1_alg».proof.Proof.KNet
import proofs.«419785_j6528350289988_1_alg».proof.Proof.Region9
import Idealize.ShloMosaic.Lib.StableHlo.Run

set_option maxRecDepth 16384

noncomputable section

namespace Cert.KernelIdeal.Chain

open Idealize.ShloMosaic Idealize.ShloMosaic.TcCoe Cert.KernelIdeal Cert.KernelIdeal.Gen Cert.Net
open Idealize.ShloMosaic.StableHlo (after_cons after_nil)

variable (m : (ℓ : Loc nD τ sig) → Buf (Elt Ideal) ℓ) (ρ : Dev nD → PrngReg) (c : Dev nD)

/-- The two reshapes before region 9 leave the node array as region 8 left it. -/
theorem w27_v126 :
    W27 (F := Ideal) m ρ c (Proc.devRef .tc main_v126) = W26 (F := Ideal) m ρ c (Proc.devRef .tc main_v126) := by
  show StableHlo.after hostOps9 (W26 (F := Ideal) m ρ c) (Proc.devRef .tc main_v126) = _
  dsimp only [hostOps9]
  after_results

/-- A buffer the two reshapes do not write is, after them, what it was before: the head's two biases. -/
theorem w27_arg15 :
    W27 (F := Ideal) m ρ c (Proc.devRef .tc main_arg15) = W26 (F := Ideal) m ρ c (Proc.devRef .tc main_arg15) := by
  show StableHlo.after hostOps9 (W26 (F := Ideal) m ρ c) (Proc.devRef .tc main_arg15) = _
  dsimp only [hostOps9]
  after_results
theorem w27_arg17 :
    W27 (F := Ideal) m ρ c (Proc.devRef .tc main_arg17) = W26 (F := Ideal) m ρ c (Proc.devRef .tc main_arg17) := by
  show StableHlo.after hostOps9 (W26 (F := Ideal) m ρ c) (Proc.devRef .tc main_arg17) = _
  dsimp only [hostOps9]
  after_results

/-- No segment writes an argument (region 9 only reads its two weight matrices, through input windows): at region 9's
    entry the head's arguments are the launch memory's. -/
theorem w27_arg14_m : W27 (F := Ideal) m ρ c (Proc.devRef .tc main_arg14) = m ((c : Thread nD τ).loc main_arg14) :=
  ((W28_arr m ρ c 1).trans (((dat9 (V27 m ρ) c).arrAt_in 1 rfl _).trans (A_eq9 (V27 m ρ) c 1))).symm.trans
    (W28_main_arg14 m ρ c)
theorem w27_arg15_m : W27 (F := Ideal) m ρ c (Proc.devRef .tc main_arg15) = m ((c : Thread nD τ).loc main_arg15) :=
  (W28_of_ne m ρ c main_arg15 (by decide)).symm.trans (W28_main_arg15 m ρ c)
theorem w27_arg16_m : W27 (F := Ideal) m ρ c (Proc.devRef .tc main_arg16) = m ((c : Thread nD τ).loc main_arg16) :=
  ((W28_arr m ρ c 3).trans (((dat9 (V27 m ρ) c).arrAt_in 3 rfl _).trans (A_eq9 (V27 m ρ) c 3))).symm.trans
    (W28_main_arg16 m ρ c)
theorem w27_arg17_m : W27 (F := Ideal) m ρ c (Proc.devRef .tc main_arg17) = m ((c : Thread nD τ).loc main_arg17) :=
  (W28_of_ne m ρ c main_arg17 (by decide)).symm.trans (W28_main_arg17 m ρ c)

/-- The first bias row region 9 reads is the reshape of the launch memory's bias. -/
theorem w27_v127 :
    W27 (F := Ideal) m ρ c (Proc.devRef .tc main_v127)
      = shapeCast S1x64 (m ((c : Thread nD τ).loc main_arg15)) shapeCasts_S64_S1x64 := by
  rw [← w27_arg15_m m ρ c, w27_arg15 m ρ c]
  show StableHlo.after hostOps9 (W26 (F := Ideal) m ρ c) (Proc.devRef .tc main_v127) = _
  dsimp only [hostOps9]
  after_results
  rfl

/-- The second bias row region 9 reads is the reshape of the launch memory's bias. -/
theorem w27_v128 :
    W27 (F := Ideal) m ρ c (Proc.devRef .tc main_v128)
      = shapeCast S1x64 (m ((c : Thread nD τ).loc main_arg17)) shapeCasts_S64_S1x64 := by
  rw [← w27_arg17_m m ρ c, w27_arg17 m ρ c]
  show StableHlo.after hostOps9 (W26 (F := Ideal) m ρ c) (Proc.devRef .tc main_v128) = _
  dsimp only [hostOps9]
  after_results
  rfl

/-- The kernel's result array: the head perceptron of the node array after layer 3, at the launch memory's weights. -/
theorem head :
    W28 (F := Ideal) m ρ c (Proc.devRef .tc main_v129)
      = mlp (W26 (F := Ideal) m ρ c (Proc.devRef .tc main_v126)) (m ((c : Thread nD τ).loc main_arg14))
          (Cert.KNet.biasRow (m ((c : Thread nD τ).loc main_arg15))) (m ((c : Thread nD τ).loc main_arg16))
          (Cert.KNet.biasRow (m ((c : Thread nD τ).loc main_arg17))) := by
  refine (W28_arr (F := Ideal) m ρ c 5).trans ?_
  rw [Region9.value]
  show mlp (W27 (F := Ideal) m ρ c (Proc.devRef .tc main_v126)) (W27 (F := Ideal) m ρ c (Proc.devRef .tc main_arg14))
      (rowBias (W27 (F := Ideal) m ρ c (Proc.devRef .tc main_v127))) (W27 (F := Ideal) m ρ c (Proc.devRef .tc main_arg16))
      (rowBias (W27 (F := Ideal) m ρ c (Proc.devRef .tc main_v128))) = _
  rw [w27_v126, w27_arg14_m, w27_v127, w27_arg16_m, w27_v128]
  rfl

end Cert.KernelIdeal.Chain

end
-- ==== Proof.Chain.lean ====
/- The kernel's result array, read off the boundary contents of its whole run: the head perceptron (region 9) on the
   node array after four message-passing layers on the embedded features (region 0), every weight the launch memory's:
   the network in the kernel's spelling, as one function of the eighteen arguments. -/
import proofs.«419785_j6528350289988_1_alg».proof.Proof.ChainEmb
import proofs.«419785_j6528350289988_1_alg».proof.Proof.ChainLayer0
import proofs.«419785_j6528350289988_1_alg».proof.Proof.ChainLayer1
import proofs.«419785_j6528350289988_1_alg».proof.Proof.ChainLayer2
import proofs.«419785_j6528350289988_1_alg».proof.Proof.ChainLayer3
import proofs.«419785_j6528350289988_1_alg».proof.Proof.ChainHead

set_option maxRecDepth 16384

noncomputable section

namespace Cert.KernelIdeal.Chain

open Idealize.ShloMosaic Idealize.ShloMosaic.TcCoe Idealize.SL.Sem
open Cert.KernelIdeal Cert.KernelIdeal.Gen Cert.Net

/-- The result array at the end of the run is the network of the launch memory's eighteen arguments. -/
theorem kernel_value (m : (ℓ : Loc nD τ sig) → Buf (Elt Ideal) ℓ) (ρ : Dev nD → PrngReg) (c : Dev nD) :
    Gen.W28 (F := Ideal) m ρ c (Proc.devRef .tc main_v129)
      = Cert.KNet.net (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17)) := by
  rw [head m ρ c, layer3 m ρ c, layer2 m ρ c, layer1 m ρ c, layer0 m ρ c, emb m ρ c]
  rfl

end Cert.KernelIdeal.Chain

end
-- ==== Proof.Net.lean ====
/- The graph network both programs compute, written once over the extended reals: an embedding perceptron on the node
   features; four message-passing layers, each gathering the two end points' rows for every edge, running the message
   perceptron on their concatenation, summing the messages into their target nodes and running the update perceptron
   on the node's row beside its sum; and a head perceptron. The gather, the concatenations and the scatter-sum are
   the host operations as the reference spells them; the perceptrons are the row-wise function of the specification. -/
import proofs.«419785_j6528350289988_1_alg».proof.ReferenceIdeal
import proofs.«419785_j6528350289988_1_alg».proof.Proof.Spec

noncomputable section

namespace Cert.Net

open Idealize.ShloMosaic Idealize.ShloMosaic.ValueIdx Cert.ReferenceIdeal

variable [Cert.ReferenceIdeal.Facts]
open Cert.ReferenceIdeal.Facts₀ Cert.ReferenceIdeal.Facts

/-- An edge's end point as a gather index: a negative index counts from the end, as numpy's does. -/
def wrapIdx (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- The rows of the node array at the edges' end points. -/
def gatherRows (h : FVec Ideal S50000x64 .f32) (i : IVec S800000 32) : FVec Ideal S800000x64 .f32 :=
  Host.gather gather_S50000x64_S800000x1_S800000x64_1_0_n_n_0_1_164 h (wrapIdx i)

/-- Per edge: the target's row beside the source's. -/
def edgeIn (h : FVec Ideal S50000x64 .f32) (dst src : IVec S800000 32) : FVec Ideal S800000x128 .f32 :=
  concatenate S800000x128 1 [⟨S800000x64, gatherRows h dst⟩, ⟨S800000x64, gatherRows h src⟩] concatenates_S800000x64_S800000x64_S800000x128_d1

/-- The messages summed into their target nodes. -/
def aggregate (msg : FVec Ideal S800000x64 .f32) (dst : IVec S800000 32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst) msg

/-- Per node: its row beside the sum of its incoming messages. -/
def nodeIn (h agg : FVec Ideal S50000x64 .f32) : FVec Ideal S50000x128 .f32 :=
  concatenate S50000x128 1 [⟨S50000x64, h⟩, ⟨S50000x64, agg⟩] concatenates_S50000x64_S50000x64_S50000x128_d1

/-- One message-passing layer over given weights. -/
def layer (h : FVec Ideal S50000x64 .f32) (dst src : IVec S800000 32)
    (mw1 : FVec Ideal S128x64 .f32) (mb1 : FVec Ideal S64 .f32) (mw2 : FVec Ideal S64x64 .f32) (mb2 : FVec Ideal S64 .f32)
    (uw1 : FVec Ideal S128x64 .f32) (ub1 : FVec Ideal S64 .f32) (uw2 : FVec Ideal S64x64 .f32) (ub2 : FVec Ideal S64 .f32) :
    FVec Ideal S50000x64 .f32 :=
  mlp (nodeIn h (aggregate (mlp (edgeIn h dst src) mw1 (bias mb1) mw2 (bias mb2)) dst)) uw1 (bias ub1) uw2 (bias ub2)

/-- Layer 0's first weight matrix: slab 0 of the stacked [4,128,64] array, as a [128,64] matrix. -/
def w1At0 (w : FVec Ideal S4x128x64 .f32) : FVec Ideal S128x64 .f32 :=
  shapeCast S128x64 (extractStridedSlice S1x128x64 ![0, 0, 0] w slices_S4x128x64_S1x128x64_0_0_0) shapeCasts_S1x128x64_S128x64
/-- Layer 0's second weight matrix: slab 0 of the stacked [4,64,64] array. -/
def w2At0 (w : FVec Ideal S4x64x64 .f32) : FVec Ideal S64x64 .f32 :=
  shapeCast S64x64 (extractStridedSlice S1x64x64 ![0, 0, 0] w slices_S4x64x64_S1x64x64_0_0_0) shapeCasts_S1x64x64_S64x64
/-- Layer 0's bias: row 0 of the stacked [4,64] array. -/
def bAt0 (b : FVec Ideal S4x64 .f32) : FVec Ideal S64 .f32 :=
  shapeCast S64 (extractStridedSlice S1x64 ![0, 0] b slices_S4x64_S1x64_0_0) shapeCasts_S1x64_S64
/-- Message-passing layer 0 with its weights cut out of the stacked arrays. -/
def layer0 (h : FVec Ideal S50000x64 .f32) (dst src : IVec S800000 32)
    (mw1 : FVec Ideal S4x128x64 .f32) (mb1 : FVec Ideal S4x64 .f32) (mw2 : FVec Ideal S4x64x64 .f32) (mb2 : FVec Ideal S4x64 .f32)
    (uw1 : FVec Ideal S4x128x64 .f32) (ub1 : FVec Ideal S4x64 .f32) (uw2 : FVec Ideal S4x64x64 .f32) (ub2 : FVec Ideal S4x64 .f32) :
    FVec Ideal S50000x64 .f32 :=
  layer h dst src (w1At0 mw1) (bAt0 mb1) (w2At0 mw2) (bAt0 mb2) (w1At0 uw1) (bAt0 ub1) (w2At0 uw2) (bAt0 ub2)

/-- Layer 1's first weight matrix: slab 1 of the stacked [4,128,64] array, as a [128,64] matrix. -/
def w1At1 (w : FVec Ideal S4x128x64 .f32) : FVec Ideal S128x64 .f32 :=
  shapeCast S128x64 (extractStridedSlice S1x128x64 ![1, 0, 0] w slices_S4x128x64_S1x128x64_1_0_0) shapeCasts_S1x128x64_S128x64
/-- Layer 1's second weight matrix: slab 1 of the stacked [4,64,64] array. -/
def w2At1 (w : FVec Ideal S4x64x64 .f32) : FVec Ideal S64x64 .f32 :=
  shapeCast S64x64 (extractStridedSlice S1x64x64 ![1, 0, 0] w slices_S4x64x64_S1x64x64_1_0_0) shapeCasts_S1x64x64_S64x64
/-- Layer 1's bias: row 1 of the stacked [4,64] array. -/
def bAt1 (b : FVec Ideal S4x64 .f32) : FVec Ideal S64 .f32 :=
  shapeCast S64 (extractStridedSlice S1x64 ![1, 0] b slices_S4x64_S1x64_1_0) shapeCasts_S1x64_S64
/-- Message-passing layer 1 with its weights cut out of the stacked arrays. -/
def layer1 (h : FVec Ideal S50000x64 .f32) (dst src : IVec S800000 32)
    (mw1 : FVec Ideal S4x128x64 .f32) (mb1 : FVec Ideal S4x64 .f32) (mw2 : FVec Ideal S4x64x64 .f32) (mb2 : FVec Ideal S4x64 .f32)
    (uw1 : FVec Ideal S4x128x64 .f32) (ub1 : FVec Ideal S4x64 .f32) (uw2 : FVec Ideal S4x64x64 .f32) (ub2 : FVec Ideal S4x64 .f32) :
    FVec Ideal S50000x64 .f32 :=
  layer h dst src (w1At1 mw1) (bAt1 mb1) (w2At1 mw2) (bAt1 mb2) (w1At1 uw1) (bAt1 ub1) (w2At1 uw2) (bAt1 ub2)

/-- Layer 2's first weight matrix: slab 2 of the stacked [4,128,64] array, as a [128,64] matrix. -/
def w1At2 (w : FVec Ideal S4x128x64 .f32) : FVec Ideal S128x64 .f32 :=
  shapeCast S128x64 (extractStridedSlice S1x128x64 ![2, 0, 0] w slices_S4x128x64_S1x128x64_2_0_0) shapeCasts_S1x128x64_S128x64
/-- Layer 2's second weight matrix: slab 2 of the stacked [4,64,64] array. -/
def w2At2 (w : FVec Ideal S4x64x64 .f32) : FVec Ideal S64x64 .f32 :=
  shapeCast S64x64 (extractStridedSlice S1x64x64 ![2, 0, 0] w slices_S4x64x64_S1x64x64_2_0_0) shapeCasts_S1x64x64_S64x64
/-- Layer 2's bias: row 2 of the stacked [4,64] array. -/
def bAt2 (b : FVec Ideal S4x64 .f32) : FVec Ideal S64 .f32 :=
  shapeCast S64 (extractStridedSlice S1x64 ![2, 0] b slices_S4x64_S1x64_2_0) shapeCasts_S1x64_S64
/-- Message-passing layer 2 with its weights cut out of the stacked arrays. -/
def layer2 (h : FVec Ideal S50000x64 .f32) (dst src : IVec S800000 32)
    (mw1 : FVec Ideal S4x128x64 .f32) (mb1 : FVec Ideal S4x64 .f32) (mw2 : FVec Ideal S4x64x64 .f32) (mb2 : FVec Ideal S4x64 .f32)
    (uw1 : FVec Ideal S4x128x64 .f32) (ub1 : FVec Ideal S4x64 .f32) (uw2 : FVec Ideal S4x64x64 .f32) (ub2 : FVec Ideal S4x64 .f32) :
    FVec Ideal S50000x64 .f32 :=
  layer h dst src (w1At2 mw1) (bAt2 mb1) (w2At2 mw2) (bAt2 mb2) (w1At2 uw1) (bAt2 ub1) (w2At2 uw2) (bAt2 ub2)

/-- Layer 3's first weight matrix: slab 3 of the stacked [4,128,64] array, as a [128,64] matrix. -/
def w1At3 (w : FVec Ideal S4x128x64 .f32) : FVec Ideal S128x64 .f32 :=
  shapeCast S128x64 (extractStridedSlice S1x128x64 ![3, 0, 0] w slices_S4x128x64_S1x128x64_3_0_0) shapeCasts_S1x128x64_S128x64
/-- Layer 3's second weight matrix: slab 3 of the stacked [4,64,64] array. -/
def w2At3 (w : FVec Ideal S4x64x64 .f32) : FVec Ideal S64x64 .f32 :=
  shapeCast S64x64 (extractStridedSlice S1x64x64 ![3, 0, 0] w slices_S4x64x64_S1x64x64_3_0_0) shapeCasts_S1x64x64_S64x64
/-- Layer 3's bias: row 3 of the stacked [4,64] array. -/
def bAt3 (b : FVec Ideal S4x64 .f32) : FVec Ideal S64 .f32 :=
  shapeCast S64 (extractStridedSlice S1x64 ![3, 0] b slices_S4x64_S1x64_3_0) shapeCasts_S1x64_S64
/-- Message-passing layer 3 with its weights cut out of the stacked arrays. -/
def layer3 (h : FVec Ideal S50000x64 .f32) (dst src : IVec S800000 32)
    (mw1 : FVec Ideal S4x128x64 .f32) (mb1 : FVec Ideal S4x64 .f32) (mw2 : FVec Ideal S4x64x64 .f32) (mb2 : FVec Ideal S4x64 .f32)
    (uw1 : FVec Ideal S4x128x64 .f32) (ub1 : FVec Ideal S4x64 .f32) (uw2 : FVec Ideal S4x64x64 .f32) (ub2 : FVec Ideal S4x64 .f32) :
    FVec Ideal S50000x64 .f32 :=
  layer h dst src (w1At3 mw1) (bAt3 mb1) (w2At3 mw2) (bAt3 mb2) (w1At3 uw1) (bAt3 ub1) (w2At3 uw2) (bAt3 ub2)

/-- Row 0 of the edge list: the sources. -/
def srcOf (ei : IVec S2x800000 32) : IVec S800000 32 :=
  shapeCast S800000 (extractStridedSlice S1x800000 ![0, 0] ei slices_S2x800000_S1x800000_0_0) shapeCasts_S1x800000_S800000
/-- Row 1 of the edge list: the targets. -/
def dstOf (ei : IVec S2x800000 32) : IVec S800000 32 :=
  shapeCast S800000 (extractStridedSlice S1x800000 ![1, 0] ei slices_S2x800000_S1x800000_1_0) shapeCasts_S1x800000_S800000

/-- The whole network as a function of the eighteen arguments. -/
def net (x : FVec Ideal S50000x64 .f32) (ei : IVec S2x800000 32)
    (ew1 : FVec Ideal S64x64 .f32) (eb1 : FVec Ideal S64 .f32) (ew2 : FVec Ideal S64x64 .f32) (eb2 : FVec Ideal S64 .f32)
    (mw1 : FVec Ideal S4x128x64 .f32) (mb1 : FVec Ideal S4x64 .f32) (mw2 : FVec Ideal S4x64x64 .f32) (mb2 : FVec Ideal S4x64 .f32)
    (uw1 : FVec Ideal S4x128x64 .f32) (ub1 : FVec Ideal S4x64 .f32) (uw2 : FVec Ideal S4x64x64 .f32) (ub2 : FVec Ideal S4x64 .f32)
    (hw1 : FVec Ideal S64x64 .f32) (hb1 : FVec Ideal S64 .f32) (hw2 : FVec Ideal S64x64 .f32) (hb2 : FVec Ideal S64 .f32) :
    FVec Ideal S50000x64 .f32 :=
  mlp
    (layer3 (layer2 (layer1 (layer0 (mlp x ew1 (bias eb1) ew2 (bias eb2))
      (dstOf ei) (srcOf ei) mw1 mb1 mw2 mb2 uw1 ub1 uw2 ub2)
      (dstOf ei) (srcOf ei) mw1 mb1 mw2 mb2 uw1 ub1 uw2 ub2)
      (dstOf ei) (srcOf ei) mw1 mb1 mw2 mb2 uw1 ub1 uw2 ub2)
      (dstOf ei) (srcOf ei) mw1 mb1 mw2 mb2 uw1 ub1 uw2 ub2)
    hw1 (bias hb1) hw2 (bias hb2)

end Cert.Net

end
-- ==== Proof.TakeEq.lean ====
/- The kernel's gather through jnp.take and the reference's plain indexed gather agree when every edge index lies in
   [0, 50000): a non-negative index is not wrapped, the wrapped index then lies in [0, 49999], so take's in-bounds
   mask is all ones and the select keeps the gathered row everywhere. With the gathers equal, the network in the
   kernel's spelling and the network in the reference's spelling are one function: the narrowing of the edge
   features is the identity on the extended reals, and a bias read as a [1,64] row is the bias read as a vector. -/
import proofs.«419785_j6528350289988_1_alg».proof.Proof.KNet
import proofs.«419785_j6528350289988_1_alg».proof.Proof.Net
import Idealize.ShloMosaic.Lib.ReduceAll
import Idealize.ShloMosaic.Lib.Pipeline.Value

noncomputable section

namespace Cert.TakeEq

open Idealize.ShloMosaic Idealize.ShloMosaic.ValueIdx

/-- A left fold by `and` from 1 over one-bit words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi 1#1 1#1 = 1#1 from by decide]
    exact ih fun n hn => h n (List.mem_cons_of_mem _ hn)

/-- A reduction by `and` from 1 of an array that is 1 everywhere is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun i _ => hx i

/-- A non-negative index is not wrapped. -/
theorem wrap_word (w : BitVec 32) (h0 : 0 ≤ w.toInt) :
    Scalar.select (IntOp.cmpi .slt w 0#32) (IntOp.addi w 50000#32) w = w := by
  have hc : ¬ IntOp.cmpi .slt w 0#32 = 1#1 := by
    rw [IntOp.cmpi_slt]
    have : (0#32 : BitVec 32).toInt = 0 := by decide
    omega
  exact if_neg hc

variable [Cert.KernelIdeal.Facts] [Cert.ReferenceIdeal.Facts]

/-- The wrapped index column, read at a row, is the index itself when that is not negative. -/
theorem wrapIdx_apply (i : IVec ⟨1, ![800000]⟩ 32) (hi : ∀ e, 0 ≤ (i e).toInt ∧ (i e).toInt < 50000)
    (p : Fin 800000) (z : Fin 1) : Cert.KNet.wrapIdx i (ix2 p z) = i (ix1 p) := by
  unfold Cert.KNet.wrapIdx
  rw [broadcastInDim_apply _ _ _ (ix2 p z) (ix1 p) (fun a => match a with | ⟨0, _⟩ => rfl)]
  exact wrap_word _ (hi _).1

/-- Under the range hypothesis take's in-bounds mask is 1 at every edge. -/
theorem inBounds_one (i : IVec ⟨1, ![800000]⟩ 32) (hi : ∀ e, 0 ≤ (i e).toInt ∧ (i e).toInt < 50000)
    (k : (⟨1, ![800000]⟩ : Shape).Idx) : Cert.KNet.inBounds i k = 1#1 := by
  unfold Cert.KNet.inBounds
  refine reduce_andi_of_all _ _ _ _ k rfl fun j => ?_
  obtain ⟨p, z, rfl⟩ : ∃ (p : Fin 800000) (z : Fin 1), j = ix2 p z := ⟨j 0, j 1, eq_ix2 j⟩
  show IntOp.andi (IntOp.cmpi .sge (Cert.KNet.wrapIdx i (ix2 p z)) 0#32)
    (IntOp.cmpi .sle (Cert.KNet.wrapIdx i (ix2 p z)) 49999#32) = 1#1
  rw [wrapIdx_apply i hi, IntOp.andi_eq_one, IntOp.cmpi_sge, IntOp.cmpi_sle]
  have h0 : (0#32 : BitVec 32).toInt = 0 := by decide
  have h1 : (49999#32 : BitVec 32).toInt = 49999 := by decide
  have := hi (ix1 p)
  omega

/-- `jnp.take` of the node rows is the plain gather when every index is in range. -/
theorem take_eq (h : FVec Ideal ⟨2, ![50000, 64]⟩ .f32) (i : IVec ⟨1, ![800000]⟩ 32)
    (hi : ∀ e, 0 ≤ (i e).toInt ∧ (i e).toInt < 50000) : Cert.KNet.take h i = Cert.Net.gatherRows h i := by
  funext j
  obtain ⟨p, q, rfl⟩ : ∃ (p : Fin 800000) (q : Fin 64), j = ix2 p q := ⟨j 0, j 1, eq_ix2 j⟩
  unfold Cert.KNet.take
  rw [select_apply, broadcastInDim_apply _ _ _ (ix2 p q) (ix1 p) (fun a => match a with | ⟨0, _⟩ => rfl),
    inBounds_one i hi, select_one]
  rfl

/-- A bias held as a [1,64] row is the bias held as a vector. -/
theorem biasRow_eq (b : FVec Ideal ⟨1, ![64]⟩ .f32) : Cert.KNet.biasRow b = Cert.Net.bias b := by
  funext q
  unfold Cert.KNet.biasRow Cert.Net.rowBias Cert.Net.bias
  rw [shapeCast_addUnit_apply]
  exact congrArg b (funext fun a => match a with | ⟨0, _⟩ => rfl)

/-- The edge features agree: the narrowing is the identity on the extended reals and the two gathers are equal. -/
theorem edgeIn_eq (h : FVec Ideal ⟨2, ![50000, 64]⟩ .f32) (dst src : IVec ⟨1, ![800000]⟩ 32)
    (hd : ∀ e, 0 ≤ (dst e).toInt ∧ (dst e).toInt < 50000) (hs : ∀ e, 0 ≤ (src e).toInt ∧ (src e).toInt < 50000) :
    (Cert.KNet.edgeIn h dst src : (⟨2, ![800000, 128]⟩ : Shape).Idx → EReal) = Cert.Net.edgeIn h dst src := by
  unfold Cert.KNet.edgeIn Cert.Net.edgeIn
  rw [take_eq h dst hd, take_eq h src hs]
  rfl

theorem aggregate_eq (msg : FVec Ideal ⟨2, ![800000, 64]⟩ .f32) (dst : IVec ⟨1, ![800000]⟩ 32) :
    Cert.KNet.aggregate msg dst = Cert.Net.aggregate msg dst := rfl

theorem nodeIn_eq (h agg : FVec Ideal ⟨2, ![50000, 64]⟩ .f32) : Cert.KNet.nodeIn h agg = Cert.Net.nodeIn h agg := rfl

/-- One message-passing layer is the same function in both spellings when the edge indices are in range. -/
theorem layer_eq (h : FVec Ideal ⟨2, ![50000, 64]⟩ .f32) (dst src : IVec ⟨1, ![800000]⟩ 32)
    (hd : ∀ e, 0 ≤ (dst e).toInt ∧ (dst e).toInt < 50000) (hs : ∀ e, 0 ≤ (src e).toInt ∧ (src e).toInt < 50000)
    (mw1 : FVec Ideal ⟨2, ![128, 64]⟩ .f32) (mb1 : FVec Ideal ⟨1, ![64]⟩ .f32) (mw2 : FVec Ideal ⟨2, ![64, 64]⟩ .f32)
    (mb2 : FVec Ideal ⟨1, ![64]⟩ .f32) (uw1 : FVec Ideal ⟨2, ![128, 64]⟩ .f32) (ub1 : FVec Ideal ⟨1, ![64]⟩ .f32)
    (uw2 : FVec Ideal ⟨2, ![64, 64]⟩ .f32) (ub2 : FVec Ideal ⟨1, ![64]⟩ .f32) :
    Cert.KNet.layer h dst src mw1 mb1 mw2 mb2 uw1 ub1 uw2 ub2 = Cert.Net.layer h dst src mw1 mb1 mw2 mb2 uw1 ub1 uw2 ub2 := by
  unfold Cert.KNet.layer Cert.Net.layer
  rw [biasRow_eq mb1, biasRow_eq mb2, biasRow_eq ub1, biasRow_eq ub2, edgeIn_eq h dst src hd hs, aggregate_eq, nodeIn_eq]

section Layers
variable (h : FVec Ideal ⟨2, ![50000, 64]⟩ .f32) (dst src : IVec ⟨1, ![800000]⟩ 32)
  (hd : ∀ e, 0 ≤ (dst e).toInt ∧ (dst e).toInt < 50000) (hs : ∀ e, 0 ≤ (src e).toInt ∧ (src e).toInt < 50000)
  (mw1 : FVec Ideal ⟨3, ![4, 128, 64]⟩ .f32) (mb1 : FVec Ideal ⟨2, ![4, 64]⟩ .f32) (mw2 : FVec Ideal ⟨3, ![4, 64, 64]⟩ .f32)
  (mb2 : FVec Ideal ⟨2, ![4, 64]⟩ .f32) (uw1 : FVec Ideal ⟨3, ![4, 128, 64]⟩ .f32) (ub1 : FVec Ideal ⟨2, ![4, 64]⟩ .f32)
  (uw2 : FVec Ideal ⟨3, ![4, 64, 64]⟩ .f32) (ub2 : FVec Ideal ⟨2, ![4, 64]⟩ .f32)
include hd hs

theorem layer0_eq : Cert.KNet.layer0 h dst src mw1 mb1 mw2 mb2 uw1 ub1 uw2 ub2
    = Cert.Net.layer0 h dst src mw1 mb1 mw2 mb2 uw1 ub1 uw2 ub2 :=
  layer_eq h dst src hd hs _ _ _ _ _ _ _ _
theorem layer1_eq : Cert.KNet.layer1 h dst src mw1 mb1 mw2 mb2 uw1 ub1 uw2 ub2
    = Cert.Net.layer1 h dst src mw1 mb1 mw2 mb2 uw1 ub1 uw2 ub2 :=
  layer_eq h dst src hd hs _ _ _ _ _ _ _ _
theorem layer2_eq : Cert.KNet.layer2 h dst src mw1 mb1 mw2 mb2 uw1 ub1 uw2 ub2
    = Cert.Net.layer2 h dst src mw1 mb1 mw2 mb2 uw1 ub1 uw2 ub2 :=
  layer_eq h dst src hd hs _ _ _ _ _ _ _ _
theorem layer3_eq : Cert.KNet.layer3 h dst src mw1 mb1 mw2 mb2 uw1 ub1 uw2 ub2
    = Cert.Net.layer3 h dst src mw1 mb1 mw2 mb2 uw1 ub1 uw2 ub2 :=
  layer_eq h dst src hd hs _ _ _ _ _ _ _ _

end Layers

theorem srcOf_eq (ei : IVec ⟨2, ![2, 800000]⟩ 32) : Cert.KNet.srcOf ei = Cert.Net.srcOf ei := rfl
theorem dstOf_eq (ei : IVec ⟨2, ![2, 800000]⟩ 32) : Cert.KNet.dstOf ei = Cert.Net.dstOf ei := rfl

/-- The network in the kernel's spelling is the network in the reference's spelling when every edge index is in
    [0, 50000). -/
theorem net_eq (x : FVec Ideal ⟨2, ![50000, 64]⟩ .f32) (ei : IVec ⟨2, ![2, 800000]⟩ 32)
    (ew1 : FVec Ideal ⟨2, ![64, 64]⟩ .f32) (eb1 : FVec Ideal ⟨1, ![64]⟩ .f32) (ew2 : FVec Ideal ⟨2, ![64, 64]⟩ .f32) (eb2 : FVec Ideal ⟨1, ![64]⟩ .f32)
    (mw1 : FVec Ideal ⟨3, ![4, 128, 64]⟩ .f32) (mb1 : FVec Ideal ⟨2, ![4, 64]⟩ .f32) (mw2 : FVec Ideal ⟨3, ![4, 64, 64]⟩ .f32) (mb2 : FVec Ideal ⟨2, ![4, 64]⟩ .f32)
    (uw1 : FVec Ideal ⟨3, ![4, 128, 64]⟩ .f32) (ub1 : FVec Ideal ⟨2, ![4, 64]⟩ .f32) (uw2 : FVec Ideal ⟨3, ![4, 64, 64]⟩ .f32) (ub2 : FVec Ideal ⟨2, ![4, 64]⟩ .f32)
    (hw1 : FVec Ideal ⟨2, ![64, 64]⟩ .f32) (hb1 : FVec Ideal ⟨1, ![64]⟩ .f32) (hw2 : FVec Ideal ⟨2, ![64, 64]⟩ .f32) (hb2 : FVec Ideal ⟨1, ![64]⟩ .f32)
    (hr : ∀ j : (⟨2, ![2, 800000]⟩ : Shape).Idx, 0 ≤ (ei j).toInt ∧ (ei j).toInt < 50000) :
    Cert.KNet.net x ei ew1 eb1 ew2 eb2 mw1 mb1 mw2 mb2 uw1 ub1 uw2 ub2 hw1 hb1 hw2 hb2
      = Cert.Net.net x ei ew1 eb1 ew2 eb2 mw1 mb1 mw2 mb2 uw1 ub1 uw2 ub2 hw1 hb1 hw2 hb2 := by
  have hd : ∀ e, 0 ≤ (Cert.Net.dstOf ei e).toInt ∧ (Cert.Net.dstOf ei e).toInt < 50000 := fun e => hr _
  have hs : ∀ e, 0 ≤ (Cert.Net.srcOf ei e).toInt ∧ (Cert.Net.srcOf ei e).toInt < 50000 := fun e => hr _
  unfold Cert.KNet.net Cert.Net.net
  rw [biasRow_eq eb1, biasRow_eq eb2, biasRow_eq hb1, biasRow_eq hb2, srcOf_eq, dstOf_eq,
    layer0_eq _ _ _ hd hs, layer1_eq _ _ _ hd hs, layer2_eq _ _ _ hd hs, layer3_eq _ _ _ hd hs]

end Cert.TakeEq

end
-- ==== Proof.PreRange.lean ====
/- The precondition's last two conjuncts, read back: every word of the edge list is at least 0 and below 50000, signed.
   The printed predicate is a conjunction, by `and` on one-bit words, of one `jnp.all` per argument; an `and` that
   is 1 has both operands 1, a reduction by `and` into the one scalar index that is 1 had a 1 at every index, and a
   signed comparison that is 1 orders the signed readings of its operands. -/
import proofs.«419785_j6528350289988_1_alg».proof.Defs
import proofs.«419785_j6528350289988_1_alg».proof.Proof.Gen.Pre_finite_inputs
import Idealize.ShloMosaic.Lib.ReduceAll
import Idealize.ShloMosaic.Lib.ValueIdx

noncomputable section

namespace Cert.PreRange

open Idealize.ShloMosaic Idealize.ShloMosaic.ValueIdx Idealize.SL.Sem

/-- The scalar shape has one index. -/
instance : Subsingleton (Cert.Pre_finite_inputs.S_).Idx := ⟨fun _ _ => funext fun d => d.elim0⟩

/-- Every edge index the launch memory holds lies in [0, 50000). -/
theorem idx_range [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (j : (⟨2, ![2, 800000]⟩ : Shape).Idx) :
    0 ≤ (m ((c.tc : Thread Cert.KernelIdeal.nD Cert.KernelIdeal.τ).loc Cert.KernelIdeal.main_arg1) j).toInt
      ∧ (m ((c.tc : Thread Cert.KernelIdeal.nD Cert.KernelIdeal.τ).loc Cert.KernelIdeal.main_arg1) j).toInt < 50000 := by
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e
  obtain ⟨e1, hlt⟩ := IntOp.andi_eq_one.1 e
  obtain ⟨-, hge⟩ := IntOp.andi_eq_one.1 e1
  have h0 := IntOp.cmpi_sge.1 (Host.reduce_andi_all _ _ _ _ ix0 hge j)
  have h1 := IntOp.cmpi_slt.1 (Host.reduce_andi_all _ _ _ _ ix0 hlt j)
  have z0 : (0#32 : BitVec 32).toInt = 0 := by decide
  have z1 : (50000#32 : BitVec 32).toInt = 50000 := by decide
  exact ⟨z0 ▸ h0, z1 ▸ h1⟩

end Cert.PreRange

end
-- ==== Proof.RefOps.lean ====
/- The reference's @main as six lists of host operations, one a stage of the network, in program order, and their append.
   A called function's operations stand at its call. Lists only. -/
import proofs.«419785_j6528350289988_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The two rows of the edge list and the embedding perceptron: operations %0 to %12, the inlined @relu's three among them. (15 operations.) -/
abbrev opsEmb : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg3 main_v5 (broadcastInDim S1x64 ![1] bcast_S64_S1x64_1 : (⟨S64, .f32⟩ : BufTy).Contents (Elt F) → (⟨S1x64, .f32⟩ : BufTy).Contents (Elt F)),
    unary main_v5 main_v6 (broadcastInDim S50000x64 ![0, 1] bcast_S1x64_S50000x64_0_1 : (⟨S1x64, .f32⟩ : BufTy).Contents (Elt F) → (⟨S50000x64, .f32⟩ : BufTy).Contents (Elt F)),
    binary main_v4 main_v6 main_v7 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v7) (TRef.of (T := ⟨S50000x64, .f32⟩) main_call0_v0) (TRef.of (T := ⟨S50000x64, .f32⟩) main_v8) maximumf,
    binary main_v8 main_arg4 main_v9 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg5 main_v10 (broadcastInDim S1x64 ![1] bcast_S64_S1x64_1 : (⟨S64, .f32⟩ : BufTy).Contents (Elt F) → (⟨S1x64, .f32⟩ : BufTy).Contents (Elt F)),
    unary main_v10 main_v11 (broadcastInDim S50000x64 ![0, 1] bcast_S1x64_S50000x64_0_1 : (⟨S1x64, .f32⟩ : BufTy).Contents (Elt F) → (⟨S50000x64, .f32⟩ : BufTy).Contents (Elt F)),
    binary main_v9 main_v11 main_v12 (addf : (⟨S50000x64, .f32⟩ : BufTy).Contents (Elt F) → (⟨S50000x64, .f32⟩ : BufTy).Contents (Elt F) → (⟨S50000x64, .f32⟩ : BufTy).Contents (Elt F)) ]

set_option maxHeartbeats 4000000 in
/-- Message-passing layer 0: operations %13 to %65 with their constants and the two inlined @relu calls. (62 operations.) -/
abbrev opsL0 : List (HloOp τ sig (Elt F)) :=
  [ nullary main_c (constantI S_ 32 0#32),
    unary main_c main_v13 (broadcastInDim S800000 ![] bcast_S_S800000 : (⟨S_, .i32⟩ : BufTy).Contents (Elt F) → (⟨S800000, .i32⟩ : BufTy).Contents (Elt F)),
    binary main_v3 main_v13 main_v14 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v15 (broadcastInDim S800000 ![] bcast_S_S800000 : (⟨S_, .i32⟩ : BufTy).Contents (Elt F) → (⟨S800000, .i32⟩ : BufTy).Contents (Elt F)),
    binary main_v3 main_v15 main_v16 (addi : (⟨S800000, .i32⟩ : BufTy).Contents (Elt F) → (⟨S800000, .i32⟩ : BufTy).Contents (Elt F) → (⟨S800000, .i32⟩ : BufTy).Contents (Elt F)),
    ternary main_v14 main_v16 main_v3 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v17 main_v18 (broadcastInDim S800000x1 ![0] bcast_S800000_S800000x1_0 : (⟨S800000, .i32⟩ : BufTy).Contents (Elt F) → (⟨S800000x1, .i32⟩ : BufTy).Contents (Elt F)),
    binary main_v12 main_v18 main_v19 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v20 (broadcastInDim S800000 ![] bcast_S_S800000 : (⟨S_, .i32⟩ : BufTy).Contents (Elt F) → (⟨S800000, .i32⟩ : BufTy).Contents (Elt F)),
    binary main_v1 main_v20 main_v21 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v22 (broadcastInDim S800000 ![] bcast_S_S800000 : (⟨S_, .i32⟩ : BufTy).Contents (Elt F) → (⟨S800000, .i32⟩ : BufTy).Contents (Elt F)),
    binary main_v1 main_v22 main_v23 (addi : (⟨S800000, .i32⟩ : BufTy).Contents (Elt F) → (⟨S800000, .i32⟩ : BufTy).Contents (Elt F) → (⟨S800000, .i32⟩ : BufTy).Contents (Elt F)),
    ternary main_v21 main_v23 main_v1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v24 main_v25 (broadcastInDim S800000x1 ![0] bcast_S800000_S800000x1_0 : (⟨S800000, .i32⟩ : BufTy).Contents (Elt F) → (⟨S800000x1, .i32⟩ : BufTy).Contents (Elt F)),
    binary main_v12 main_v25 main_v26 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v19 main_v26 main_v27 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg6 main_v28 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v28 main_v29 rfl shapeCasts_S1x128x64_S128x64,
    unary main_arg7 main_v30 ((extractStridedSlice S1x64 ![0, 0] · slices_S4x64_S1x64_0_0) : (⟨S4x64, .f32⟩ : BufTy).Contents (Elt F) → (⟨S1x64, .f32⟩ : BufTy).Contents (Elt F)),
    reshape main_v30 main_v31 rfl shapeCasts_S1x64_S64,
    unary main_arg8 main_v32 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v32 main_v33 rfl shapeCasts_S1x64x64_S64x64,
    unary main_arg9 main_v34 ((extractStridedSlice S1x64 ![0, 0] · slices_S4x64_S1x64_0_0) : (⟨S4x64, .f32⟩ : BufTy).Contents (Elt F) → (⟨S1x64, .f32⟩ : BufTy).Contents (Elt F)),
    reshape main_v34 main_v35 rfl shapeCasts_S1x64_S64,
    binary main_v27 main_v29 main_v36 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_v31 main_v37 (broadcastInDim S1x64 ![1] bcast_S64_S1x64_1 : (⟨S64, .f32⟩ : BufTy).Contents (Elt F) → (⟨S1x64, .f32⟩ : BufTy).Contents (Elt F)),
    unary main_v37 main_v38 (broadcastInDim S800000x64 ![0, 1] bcast_S1x64_S800000x64_0_1 : (⟨S1x64, .f32⟩ : BufTy).Contents (Elt F) → (⟨S800000x64, .f32⟩ : BufTy).Contents (Elt F)),
    binary main_v36 main_v38 main_v39 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x64, .f32⟩) main_call1_v0) (broadcastInDim S800000x64 ![] bcast_S_S800000x64),
    TRef.binary (TRef.of (T := ⟨S800000x64, .f32⟩) main_v39) (TRef.of (T := ⟨S800000x64, .f32⟩) main_call1_v0) (TRef.of (T := ⟨S800000x64, .f32⟩) main_v40) maximumf,
    binary main_v40 main_v33 main_v41 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_v35 main_v42 (broadcastInDim S1x64 ![1] bcast_S64_S1x64_1 : (⟨S64, .f32⟩ : BufTy).Contents (Elt F) → (⟨S1x64, .f32⟩ : BufTy).Contents (Elt F)),
    unary main_v42 main_v43 (broadcastInDim S800000x64 ![0, 1] bcast_S1x64_S800000x64_0_1 : (⟨S1x64, .f32⟩ : BufTy).Contents (Elt F) → (⟨S800000x64, .f32⟩ : BufTy).Contents (Elt F)),
    binary main_v41 main_v43 main_v44 (addf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v45 (broadcastInDim S50000x64 ![] bcast_S_S50000x64 : (⟨S_, .f32⟩ : BufTy).Contents (Elt F) → (⟨S50000x64, .f32⟩ : BufTy).Contents (Elt F)),
    unary main_v3 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v12 main_v47 main_v48 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg10 main_v49 ((extractStridedSlice S1x128x64 ![0, 0, 0] · slices_S4x128x64_S1x128x64_0_0_0) : (⟨S4x128x64, .f32⟩ : BufTy).Contents (Elt F) → (⟨S1x128x64, .f32⟩ : BufTy).Contents (Elt F)),
    reshape main_v49 main_v50 rfl shapeCasts_S1x128x64_S128x64,
    unary main_arg11 main_v51 ((extractStridedSlice S1x64 ![0, 0] · slices_S4x64_S1x64_0_0) : (⟨S4x64, .f32⟩ : BufTy).Contents (Elt F) → (⟨S1x64, .f32⟩ : BufTy).Contents (Elt F)),
    reshape main_v51 main_v52 rfl shapeCasts_S1x64_S64,
    unary main_arg12 main_v53 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v53 main_v54 rfl shapeCasts_S1x64x64_S64x64,
    unary main_arg13 main_v55 ((extractStridedSlice S1x64 ![0, 0] · slices_S4x64_S1x64_0_0) : (⟨S4x64, .f32⟩ : BufTy).Contents (Elt F) → (⟨S1x64, .f32⟩ : BufTy).Contents (Elt F)),
    reshape main_v55 main_v56 rfl shapeCasts_S1x64_S64,
    binary main_v48 main_v50 main_v57 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v52 main_v58 (broadcastInDim S1x64 ![1] bcast_S64_S1x64_1 : (⟨S64, .f32⟩ : BufTy).Contents (Elt F) → (⟨S1x64, .f32⟩ : BufTy).Contents (Elt F)),
    unary main_v58 main_v59 (broadcastInDim S50000x64 ![0, 1] bcast_S1x64_S50000x64_0_1 : (⟨S1x64, .f32⟩ : BufTy).Contents (Elt F) → (⟨S50000x64, .f32⟩ : BufTy).Contents (Elt F)),
    binary main_v57 main_v59 main_v60 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v60) (TRef.of (T := ⟨S50000x64, .f32⟩) main_call2_v0) (TRef.of (T := ⟨S50000x64, .f32⟩) main_v61) maximumf,
    binary main_v61 main_v54 main_v62 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v56 main_v63 (broadcastInDim S1x64 ![1] bcast_S64_S1x64_1 : (⟨S64, .f32⟩ : BufTy).Contents (Elt F) → (⟨S1x64, .f32⟩ : BufTy).Contents (Elt F)),
    unary main_v63 main_v64 (broadcastInDim S50000x64 ![0, 1] bcast_S1x64_S50000x64_0_1 : (⟨S1x64, .f32⟩ : BufTy).Contents (Elt F) → (⟨S50000x64, .f32⟩ : BufTy).Contents (Elt F)),
    binary main_v62 main_v64 main_v65 (addf : (⟨S50000x64, .f32⟩ : BufTy).Contents (Elt F) → (⟨S50000x64, .f32⟩ : BufTy).Contents (Elt F) → (⟨S50000x64, .f32⟩ : BufTy).Contents (Elt F)) ]

set_option maxHeartbeats 4000000 in
/-- Message-passing layer 1: operations %66 to %118 with their constants and the two inlined @relu calls. (62 operations.) -/
abbrev opsL1 : List (HloOp τ sig (Elt F)) :=
  [ nullary main_c_3 (constantI S_ 32 0#32),
    unary main_c_3 main_v66 (broadcastInDim S800000 ![] bcast_S_S800000 : (⟨S_, .i32⟩ : BufTy).Contents (Elt F) → (⟨S800000, .i32⟩ : BufTy).Contents (Elt F)),
    binary main_v3 main_v66 main_v67 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v68 (broadcastInDim S800000 ![] bcast_S_S800000 : (⟨S_, .i32⟩ : BufTy).Contents (Elt F) → (⟨S800000, .i32⟩ : BufTy).Contents (Elt F)),
    binary main_v3 main_v68 main_v69 (addi : (⟨S800000, .i32⟩ : BufTy).Contents (Elt F) → (⟨S800000, .i32⟩ : BufTy).Contents (Elt F) → (⟨S800000, .i32⟩ : BufTy).Contents (Elt F)),
    ternary main_v67 main_v69 main_v3 main_v70 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v70 main_v71 (broadcastInDim S800000x1 ![0] bcast_S800000_S800000x1_0 : (⟨S800000, .i32⟩ : BufTy).Contents (Elt F) → (⟨S800000x1, .i32⟩ : BufTy).Contents (Elt F)),
    binary main_v65 main_v71 main_v72 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_5 (constantI S_ 32 0#32),
    unary main_c_5 main_v73 (broadcastInDim S800000 ![] bcast_S_S800000 : (⟨S_, .i32⟩ : BufTy).Contents (Elt F) → (⟨S800000, .i32⟩ : BufTy).Contents (Elt F)),
    binary main_v1 main_v73 main_v74 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v75 (broadcastInDim S800000 ![] bcast_S_S800000 : (⟨S_, .i32⟩ : BufTy).Contents (Elt F) → (⟨S800000, .i32⟩ : BufTy).Contents (Elt F)),
    binary main_v1 main_v75 main_v76 (addi : (⟨S800000, .i32⟩ : BufTy).Contents (Elt F) → (⟨S800000, .i32⟩ : BufTy).Contents (Elt F) → (⟨S800000, .i32⟩ : BufTy).Contents (Elt F)),
    ternary main_v74 main_v76 main_v1 main_v77 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v77 main_v78 (broadcastInDim S800000x1 ![0] bcast_S800000_S800000x1_0 : (⟨S800000, .i32⟩ : BufTy).Contents (Elt F) → (⟨S800000x1, .i32⟩ : BufTy).Contents (Elt F)),
    binary main_v65 main_v78 main_v79 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v72 main_v79 main_v80 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg6 main_v81 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v81 main_v82 rfl shapeCasts_S1x128x64_S128x64,
    unary main_arg7 main_v83 ((extractStridedSlice S1x64 ![1, 0] · slices_S4x64_S1x64_1_0) : (⟨S4x64, .f32⟩ : BufTy).Contents (Elt F) → (⟨S1x64, .f32⟩ : BufTy).Contents (Elt F)),
    reshape main_v83 main_v84 rfl shapeCasts_S1x64_S64,
    unary main_arg8 main_v85 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v85 main_v86 rfl shapeCasts_S1x64x64_S64x64,
    unary main_arg9 main_v87 ((extractStridedSlice S1x64 ![1, 0] · slices_S4x64_S1x64_1_0) : (⟨S4x64, .f32⟩ : BufTy).Contents (Elt F) → (⟨S1x64, .f32⟩ : BufTy).Contents (Elt F)),
    reshape main_v87 main_v88 rfl shapeCasts_S1x64_S64,
    binary main_v80 main_v82 main_v89 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_v84 main_v90 (broadcastInDim S1x64 ![1] bcast_S64_S1x64_1 : (⟨S64, .f32⟩ : BufTy).Contents (Elt F) → (⟨S1x64, .f32⟩ : BufTy).Contents (Elt F)),
    unary main_v90 main_v91 (broadcastInDim S800000x64 ![0, 1] bcast_S1x64_S800000x64_0_1 : (⟨S1x64, .f32⟩ : BufTy).Contents (Elt F) → (⟨S800000x64, .f32⟩ : BufTy).Contents (Elt F)),
    binary main_v89 main_v91 main_v92 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S800000x64, .f32⟩) main_call3_v0) (broadcastInDim S800000x64 ![] bcast_S_S800000x64),
    TRef.binary (TRef.of (T := ⟨S800000x64, .f32⟩) main_v92) (TRef.of (T := ⟨S800000x64, .f32⟩) main_call3_v0) (TRef.of (T := ⟨S800000x64, .f32⟩) main_v93) maximumf,
    binary main_v93 main_v86 main_v94 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_v88 main_v95 (broadcastInDim S1x64 ![1] bcast_S64_S1x64_1 : (⟨S64, .f32⟩ : BufTy).Contents (Elt F) → (⟨S1x64, .f32⟩ : BufTy).Contents (Elt F)),
    unary main_v95 main_v96 (broadcastInDim S800000x64 ![0, 1] bcast_S1x64_S800000x64_0_1 : (⟨S1x64, .f32⟩ : BufTy).Contents (Elt F) → (⟨S800000x64, .f32⟩ : BufTy).Contents (Elt F)),
    binary main_v94 main_v96 main_v97 (addf : (⟨S800000x64, .f32⟩ : BufTy).Contents (Elt F) → (⟨S800000x64, .f32⟩ : BufTy).Contents (Elt F) → (⟨S800000x64, .f32⟩ : BufTy).Contents (Elt F)),
    nullary main_cst_7 (constant S_ .f32 0x00000000#32),
    unary main_cst_7 main_v98 (broadcastInDim S50000x64 ![] bcast_S_S50000x64 : (⟨S_, .f32⟩ : BufTy).Contents (Elt F) → (⟨S50000x64, .f32⟩ : BufTy).Contents (Elt F)),
    unary main_v3 main_v99 (broadcastInDim S800000x1 ![0] bcast_S800000_S800000x1_0 : (⟨S800000, .i32⟩ : BufTy).Contents (Elt F) → (⟨S800000x1, .i32⟩ : BufTy).Contents (Elt F)),
    ternary main_v98 main_v99 main_v97 main_v100 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v65 main_v100 main_v101 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg10 main_v102 ((extractStridedSlice S1x128x64 ![1, 0, 0] · slices_S4x128x64_S1x128x64_1_0_0) : (⟨S4x128x64, .f32⟩ : BufTy).Contents (Elt F) → (⟨S1x128x64, .f32⟩ : BufTy).Contents (Elt F)),
    reshape main_v102 main_v103 rfl shapeCasts_S1x128x64_S128x64,
    unary main_arg11 main_v104 ((extractStridedSlice S1x64 ![1, 0] · slices_S4x64_S1x64_1_0) : (⟨S4x64, .f32⟩ : BufTy).Contents (Elt F) → (⟨S1x64, .f32⟩ : BufTy).Contents (Elt F)),
    reshape main_v104 main_v105 rfl shapeCasts_S1x64_S64,
    unary main_arg12 main_v106 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v106 main_v107 rfl shapeCasts_S1x64x64_S64x64,
    unary main_arg13 main_v108 ((extractStridedSlice S1x64 ![1, 0] · slices_S4x64_S1x64_1_0) : (⟨S4x64, .f32⟩ : BufTy).Contents (Elt F) → (⟨S1x64, .f32⟩ : BufTy).Contents (Elt F)),
    reshape main_v108 main_v109 rfl shapeCasts_S1x64_S64,
    binary main_v101 main_v103 main_v110 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v105 main_v111 (broadcastInDim S1x64 ![1] bcast_S64_S1x64_1 : (⟨S64, .f32⟩ : BufTy).Contents (Elt F) → (⟨S1x64, .f32⟩ : BufTy).Contents (Elt F)),
    unary main_v111 main_v112 (broadcastInDim S50000x64 ![0, 1] bcast_S1x64_S50000x64_0_1 : (⟨S1x64, .f32⟩ : BufTy).Contents (Elt F) → (⟨S50000x64, .f32⟩ : BufTy).Contents (Elt F)),
    binary main_v110 main_v112 main_v113 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x64, .f32⟩) main_call4_v0) (broadcastInDim S50000x64 ![] bcast_S_S50000x64),
    TRef.binary (TRef.of (T := ⟨S50000x64, .f32⟩) main_v113) (TRef.of (T := ⟨S50000x64, .f32⟩) main_call4_v0) (TRef.of (T := ⟨S50000x64, .f32⟩) main_v114) maximumf,
    binary main_v114 main_v107 main_v115 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v109 main_v116 (broadcastInDim S1x64 ![1] bcast_S64_S1x64_1 : (⟨S64, .f32⟩ : BufTy).Contents (Elt F) → (⟨S1x64, .f32⟩ : BufTy).Contents (Elt F)),
    unary main_v116 main_v117 (broadcastInDim S50000x64 ![0, 1] bcast_S1x64_S50000x64_0_1 : (⟨S1x64, .f32⟩ : BufTy).Contents (Elt F) → (⟨S50000x64, .f32⟩ : BufTy).Contents (Elt F)),
    binary main_v115 main_v117 main_v118 (addf : (⟨S50000x64, .f32⟩ : BufTy).Contents (Elt F) → (⟨S50000x64, .f32⟩ : BufTy).Contents (Elt F) → (⟨S50000x64, .f32⟩ : BufTy).Contents (Elt F)) ]

set_option maxHeartbeats 4000000 in
/-- Message-passing layer 2: operations %119 to %171 with their constants and the two inlined @relu calls. (62 operations.) -/
abbrev opsL2 : List (HloOp τ sig (Elt F)) :=
  [ nullary main_c_8 (constantI S_ 32 0#32),
    unary main_c_8 main_v119 (broadcastInDim S800000 ![] bcast_S_S800000 : (⟨S_, .i32⟩ : BufTy).Contents (Elt F) → (⟨S800000, .i32⟩ : BufTy).Contents (Elt F)),
    binary main_v3 main_v119 main_v120 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v121 (broadcastInDim S800000 ![] bcast_S_S800000 : (⟨S_, .i32⟩ : BufTy).Contents (Elt F) → (⟨S800000, .i32⟩ : BufTy).Contents (Elt F)),
    binary main_v3 main_v121 main_v122 (addi : (⟨S800000, .i32⟩ : BufTy).Contents (Elt F) → (⟨S800000, .i32⟩ : BufTy).Contents (Elt F) → (⟨S800000, .i32⟩ : BufTy).Contents (Elt F)),
    ternary main_v120 main_v122 main_v3 main_v123 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v123 main_v124 (broadcastInDim S800000x1 ![0] bcast_S800000_S800000x1_0 : (⟨S800000, .i32⟩ : BufTy).Contents (Elt F) → (⟨S800000x1, .i32⟩ : BufTy).Contents (Elt F)),
    binary main_v118 main_v124 main_v125 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_10 (constantI S_ 32 0#32),
    unary main_c_10 main_v126 (broadcastInDim S800000 ![] bcast_S_S800000 : (⟨S_, .i32⟩ : BufTy).Contents (Elt F) → (⟨S800000, .i32⟩ : BufTy).Contents (Elt F)),
    binary main_v1 main_v126 main_v127 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v128 (broadcastInDim S800000 ![] bcast_S_S800000 : (⟨S_, .i32⟩ : BufTy).Contents (Elt F) → (⟨S800000, .i32⟩ : BufTy).Contents (Elt F)),
    binary main_v1 main_v128 main_v129 (addi : (⟨S800000, .i32⟩ : BufTy).Contents (Elt F) → (⟨S800000, .i32⟩ : BufTy).Contents (Elt F) → (⟨S800000, .i32⟩ : BufTy).Contents (Elt F)),
    ternary main_v127 main_v129 main_v1 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v130 main_v131 (broadcastInDim S800000x1 ![0] bcast_S800000_S800000x1_0 : (⟨S800000, .i32⟩ : BufTy).Contents (Elt F) → (⟨S800000x1, .i32⟩ : BufTy).Contents (Elt F)),
    binary main_v118 main_v131 main_v132 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v125 main_v132 main_v133 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg6 main_v134 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v134 main_v135 rfl shapeCasts_S1x128x64_S128x64,
    unary main_arg7 main_v136 ((extractStridedSlice S1x64 ![2, 0] · slices_S4x64_S1x64_2_0) : (⟨S4x64, .f32⟩ : BufTy).Contents (Elt F) → (⟨S1x64, .f32⟩ : BufTy).Contents (Elt F)),
    reshape main_v136 main_v137 rfl shapeCasts_S1x64_S64,
    unary main_arg8 main_v138 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v138 main_v139 rfl shapeCasts_S1x64x64_S64x64,
    unary main_arg9 main_v140 ((extractStridedSlice S1x64 ![2, 0] · slices_S4x64_S1x64_2_0) : (⟨S4x64, .f32⟩ : BufTy).Contents (Elt F) → (⟨S1x64, .f32⟩ : BufTy).Contents (Elt F)),
    reshape main_v140 main_v141 rfl shapeCasts_S1x64_S64,
    binary main_v133 main_v135 main_v142 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_v137 main_v143 (broadcastInDim S1x64 ![1] bcast_S64_S1x64_1 : (⟨S64, .f32⟩ : BufTy).Contents (Elt F) → (⟨S1x64, .f32⟩ : BufTy).Contents (Elt F)),
    unary main_v143 main_v144 (broadcastInDim S800000x64 ![0, 1] bcast_S1x64_S800000x64_0_1 : (⟨S1x64, .f32⟩ : BufTy).Contents (Elt F) → (⟨S800000x64, .f32⟩ : BufTy).Contents (Elt F)),
    binary main_v142 main_v144 main_v145 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S800000x64, .f32⟩) main_call5_v0) (broadcastInDim S800000x64 ![] bcast_S_S800000x64),
    TRef.binary (TRef.of (T := ⟨S800000x64, .f32⟩) main_v145) (TRef.of (T := ⟨S800000x64, .f32⟩) main_call5_v0) (TRef.of (T := ⟨S800000x64, .f32⟩) main_v146) maximumf,
    binary main_v146 main_v139 main_v147 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_v141 main_v148 (broadcastInDim S1x64 ![1] bcast_S64_S1x64_1 : (⟨S64, .f32⟩ : BufTy).Contents (Elt F) → (⟨S1x64, .f32⟩ : BufTy).Contents (Elt F)),
    unary main_v148 main_v149 (broadcastInDim S800000x64 ![0, 1] bcast_S1x64_S800000x64_0_1 : (⟨S1x64, .f32⟩ : BufTy).Contents (Elt F) → (⟨S800000x64, .f32⟩ : BufTy).Contents (Elt F)),
    binary main_v147 main_v149 main_v150 (addf : (⟨S800000x64, .f32⟩ : BufTy).Contents (Elt F) → (⟨S800000x64, .f32⟩ : BufTy).Contents (Elt F) → (⟨S800000x64, .f32⟩ : BufTy).Contents (Elt F)),
    nullary main_cst_12 (constant S_ .f32 0x00000000#32),
    unary main_cst_12 main_v151 (broadcastInDim S50000x64 ![] bcast_S_S50000x64 : (⟨S_, .f32⟩ : BufTy).Contents (Elt F) → (⟨S50000x64, .f32⟩ : BufTy).Contents (Elt F)),
    unary main_v3 main_v152 (broadcastInDim S800000x1 ![0] bcast_S800000_S800000x1_0 : (⟨S800000, .i32⟩ : BufTy).Contents (Elt F) → (⟨S800000x1, .i32⟩ : BufTy).Contents (Elt F)),
    ternary main_v151 main_v152 main_v150 main_v153 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v118 main_v153 main_v154 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg10 main_v155 ((extractStridedSlice S1x128x64 ![2, 0, 0] · slices_S4x128x64_S1x128x64_2_0_0) : (⟨S4x128x64, .f32⟩ : BufTy).Contents (Elt F) → (⟨S1x128x64, .f32⟩ : BufTy).Contents (Elt F)),
    reshape main_v155 main_v156 rfl shapeCasts_S1x128x64_S128x64,
    unary main_arg11 main_v157 ((extractStridedSlice S1x64 ![2, 0] · slices_S4x64_S1x64_2_0) : (⟨S4x64, .f32⟩ : BufTy).Contents (Elt F) → (⟨S1x64, .f32⟩ : BufTy).Contents (Elt F)),
    reshape main_v157 main_v158 rfl shapeCasts_S1x64_S64,
    unary main_arg12 main_v159 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v159 main_v160 rfl shapeCasts_S1x64x64_S64x64,
    unary main_arg13 main_v161 ((extractStridedSlice S1x64 ![2, 0] · slices_S4x64_S1x64_2_0) : (⟨S4x64, .f32⟩ : BufTy).Contents (Elt F) → (⟨S1x64, .f32⟩ : BufTy).Contents (Elt F)),
    reshape main_v161 main_v162 rfl shapeCasts_S1x64_S64,
    binary main_v154 main_v156 main_v163 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v158 main_v164 (broadcastInDim S1x64 ![1] bcast_S64_S1x64_1 : (⟨S64, .f32⟩ : BufTy).Contents (Elt F) → (⟨S1x64, .f32⟩ : BufTy).Contents (Elt F)),
    unary main_v164 main_v165 (broadcastInDim S50000x64 ![0, 1] bcast_S1x64_S50000x64_0_1 : (⟨S1x64, .f32⟩ : BufTy).Contents (Elt F) → (⟨S50000x64, .f32⟩ : BufTy).Contents (Elt F)),
    binary main_v163 main_v165 main_v166 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x64, .f32⟩) main_call6_v0) (broadcastInDim S50000x64 ![] bcast_S_S50000x64),
    TRef.binary (TRef.of (T := ⟨S50000x64, .f32⟩) main_v166) (TRef.of (T := ⟨S50000x64, .f32⟩) main_call6_v0) (TRef.of (T := ⟨S50000x64, .f32⟩) main_v167) maximumf,
    binary main_v167 main_v160 main_v168 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v162 main_v169 (broadcastInDim S1x64 ![1] bcast_S64_S1x64_1 : (⟨S64, .f32⟩ : BufTy).Contents (Elt F) → (⟨S1x64, .f32⟩ : BufTy).Contents (Elt F)),
    unary main_v169 main_v170 (broadcastInDim S50000x64 ![0, 1] bcast_S1x64_S50000x64_0_1 : (⟨S1x64, .f32⟩ : BufTy).Contents (Elt F) → (⟨S50000x64, .f32⟩ : BufTy).Contents (Elt F)),
    binary main_v168 main_v170 main_v171 (addf : (⟨S50000x64, .f32⟩ : BufTy).Contents (Elt F) → (⟨S50000x64, .f32⟩ : BufTy).Contents (Elt F) → (⟨S50000x64, .f32⟩ : BufTy).Contents (Elt F)) ]

set_option maxHeartbeats 4000000 in
/-- Message-passing layer 3: operations %172 to %224 with their constants and the two inlined @relu calls. (62 operations.) -/
abbrev opsL3 : List (HloOp τ sig (Elt F)) :=
  [ nullary main_c_13 (constantI S_ 32 0#32),
    unary main_c_13 main_v172 (broadcastInDim S800000 ![] bcast_S_S800000 : (⟨S_, .i32⟩ : BufTy).Contents (Elt F) → (⟨S800000, .i32⟩ : BufTy).Contents (Elt F)),
    binary main_v3 main_v172 main_v173 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v174 (broadcastInDim S800000 ![] bcast_S_S800000 : (⟨S_, .i32⟩ : BufTy).Contents (Elt F) → (⟨S800000, .i32⟩ : BufTy).Contents (Elt F)),
    binary main_v3 main_v174 main_v175 (addi : (⟨S800000, .i32⟩ : BufTy).Contents (Elt F) → (⟨S800000, .i32⟩ : BufTy).Contents (Elt F) → (⟨S800000, .i32⟩ : BufTy).Contents (Elt F)),
    ternary main_v173 main_v175 main_v3 main_v176 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v176 main_v177 (broadcastInDim S800000x1 ![0] bcast_S800000_S800000x1_0 : (⟨S800000, .i32⟩ : BufTy).Contents (Elt F) → (⟨S800000x1, .i32⟩ : BufTy).Contents (Elt F)),
    binary main_v171 main_v177 main_v178 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_15 (constantI S_ 32 0#32),
    unary main_c_15 main_v179 (broadcastInDim S800000 ![] bcast_S_S800000 : (⟨S_, .i32⟩ : BufTy).Contents (Elt F) → (⟨S800000, .i32⟩ : BufTy).Contents (Elt F)),
    binary main_v1 main_v179 main_v180 (cmpi .slt : (⟨S800000, .i32⟩ : BufTy).Contents (Elt F) → (⟨S800000, .i32⟩ : BufTy).Contents (Elt F) → (⟨S800000, .i1⟩ : BufTy).Contents (Elt F)),
    nullary main_c_16 (constantI S_ 32 50000#32),
    unary main_c_16 main_v181 (broadcastInDim S800000 ![] bcast_S_S800000 : (⟨S_, .i32⟩ : BufTy).Contents (Elt F) → (⟨S800000, .i32⟩ : BufTy).Contents (Elt F)),
    binary main_v1 main_v181 main_v182 (addi : (⟨S800000, .i32⟩ : BufTy).Contents (Elt F) → (⟨S800000, .i32⟩ : BufTy).Contents (Elt F) → (⟨S800000, .i32⟩ : BufTy).Contents (Elt F)),
    ternary main_v180 main_v182 main_v1 main_v183 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v183 main_v184 (broadcastInDim S800000x1 ![0] bcast_S800000_S800000x1_0 : (⟨S800000, .i32⟩ : BufTy).Contents (Elt F) → (⟨S800000x1, .i32⟩ : BufTy).Contents (Elt F)),
    binary main_v171 main_v184 main_v185 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v178 main_v185 main_v186 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg6 main_v187 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v187 main_v188 rfl shapeCasts_S1x128x64_S128x64,
    unary main_arg7 main_v189 ((extractStridedSlice S1x64 ![3, 0] · slices_S4x64_S1x64_3_0) : (⟨S4x64, .f32⟩ : BufTy).Contents (Elt F) → (⟨S1x64, .f32⟩ : BufTy).Contents (Elt F)),
    reshape main_v189 main_v190 rfl shapeCasts_S1x64_S64,
    unary main_arg8 main_v191 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v191 main_v192 rfl shapeCasts_S1x64x64_S64x64,
    unary main_arg9 main_v193 ((extractStridedSlice S1x64 ![3, 0] · slices_S4x64_S1x64_3_0) : (⟨S4x64, .f32⟩ : BufTy).Contents (Elt F) → (⟨S1x64, .f32⟩ : BufTy).Contents (Elt F)),
    reshape main_v193 main_v194 rfl shapeCasts_S1x64_S64,
    binary main_v186 main_v188 main_v195 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_v190 main_v196 (broadcastInDim S1x64 ![1] bcast_S64_S1x64_1 : (⟨S64, .f32⟩ : BufTy).Contents (Elt F) → (⟨S1x64, .f32⟩ : BufTy).Contents (Elt F)),
    unary main_v196 main_v197 (broadcastInDim S800000x64 ![0, 1] bcast_S1x64_S800000x64_0_1 : (⟨S1x64, .f32⟩ : BufTy).Contents (Elt F) → (⟨S800000x64, .f32⟩ : BufTy).Contents (Elt F)),
    binary main_v195 main_v197 main_v198 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S800000x64, .f32⟩) main_call7_v0) (broadcastInDim S800000x64 ![] bcast_S_S800000x64),
    TRef.binary (TRef.of (T := ⟨S800000x64, .f32⟩) main_v198) (TRef.of (T := ⟨S800000x64, .f32⟩) main_call7_v0) (TRef.of (T := ⟨S800000x64, .f32⟩) main_v199) maximumf,
    binary main_v199 main_v192 main_v200 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_v194 main_v201 (broadcastInDim S1x64 ![1] bcast_S64_S1x64_1 : (⟨S64, .f32⟩ : BufTy).Contents (Elt F) → (⟨S1x64, .f32⟩ : BufTy).Contents (Elt F)),
    unary main_v201 main_v202 (broadcastInDim S800000x64 ![0, 1] bcast_S1x64_S800000x64_0_1 : (⟨S1x64, .f32⟩ : BufTy).Contents (Elt F) → (⟨S800000x64, .f32⟩ : BufTy).Contents (Elt F)),
    binary main_v200 main_v202 main_v203 (addf : (⟨S800000x64, .f32⟩ : BufTy).Contents (Elt F) → (⟨S800000x64, .f32⟩ : BufTy).Contents (Elt F) → (⟨S800000x64, .f32⟩ : BufTy).Contents (Elt F)),
    nullary main_cst_17 (constant S_ .f32 0x00000000#32),
    unary main_cst_17 main_v204 (broadcastInDim S50000x64 ![] bcast_S_S50000x64 : (⟨S_, .f32⟩ : BufTy).Contents (Elt F) → (⟨S50000x64, .f32⟩ : BufTy).Contents (Elt F)),
    unary main_v3 main_v205 (broadcastInDim S800000x1 ![0] bcast_S800000_S800000x1_0 : (⟨S800000, .i32⟩ : BufTy).Contents (Elt F) → (⟨S800000x1, .i32⟩ : BufTy).Contents (Elt F)),
    ternary main_v204 main_v205 main_v203 main_v206 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v171 main_v206 main_v207 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg10 main_v208 ((extractStridedSlice S1x128x64 ![3, 0, 0] · slices_S4x128x64_S1x128x64_3_0_0) : (⟨S4x128x64, .f32⟩ : BufTy).Contents (Elt F) → (⟨S1x128x64, .f32⟩ : BufTy).Contents (Elt F)),
    reshape main_v208 main_v209 rfl shapeCasts_S1x128x64_S128x64,
    unary main_arg11 main_v210 ((extractStridedSlice S1x64 ![3, 0] · slices_S4x64_S1x64_3_0) : (⟨S4x64, .f32⟩ : BufTy).Contents (Elt F) → (⟨S1x64, .f32⟩ : BufTy).Contents (Elt F)),
    reshape main_v210 main_v211 rfl shapeCasts_S1x64_S64,
    unary main_arg12 main_v212 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v212 main_v213 rfl shapeCasts_S1x64x64_S64x64,
    unary main_arg13 main_v214 ((extractStridedSlice S1x64 ![3, 0] · slices_S4x64_S1x64_3_0) : (⟨S4x64, .f32⟩ : BufTy).Contents (Elt F) → (⟨S1x64, .f32⟩ : BufTy).Contents (Elt F)),
    reshape main_v214 main_v215 rfl shapeCasts_S1x64_S64,
    binary main_v207 main_v209 main_v216 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v211 main_v217 (broadcastInDim S1x64 ![1] bcast_S64_S1x64_1 : (⟨S64, .f32⟩ : BufTy).Contents (Elt F) → (⟨S1x64, .f32⟩ : BufTy).Contents (Elt F)),
    unary main_v217 main_v218 (broadcastInDim S50000x64 ![0, 1] bcast_S1x64_S50000x64_0_1 : (⟨S1x64, .f32⟩ : BufTy).Contents (Elt F) → (⟨S50000x64, .f32⟩ : BufTy).Contents (Elt F)),
    binary main_v216 main_v218 main_v219 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x64, .f32⟩) main_call8_v0) (broadcastInDim S50000x64 ![] bcast_S_S50000x64),
    TRef.binary (TRef.of (T := ⟨S50000x64, .f32⟩) main_v219) (TRef.of (T := ⟨S50000x64, .f32⟩) main_call8_v0) (TRef.of (T := ⟨S50000x64, .f32⟩) main_v220) maximumf,
    binary main_v220 main_v213 main_v221 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v215 main_v222 (broadcastInDim S1x64 ![1] bcast_S64_S1x64_1 : (⟨S64, .f32⟩ : BufTy).Contents (Elt F) → (⟨S1x64, .f32⟩ : BufTy).Contents (Elt F)),
    unary main_v222 main_v223 (broadcastInDim S50000x64 ![0, 1] bcast_S1x64_S50000x64_0_1 : (⟨S1x64, .f32⟩ : BufTy).Contents (Elt F) → (⟨S50000x64, .f32⟩ : BufTy).Contents (Elt F)),
    binary main_v221 main_v223 main_v224 (addf : (⟨S50000x64, .f32⟩ : BufTy).Contents (Elt F) → (⟨S50000x64, .f32⟩ : BufTy).Contents (Elt F) → (⟨S50000x64, .f32⟩ : BufTy).Contents (Elt F)) ]

set_option maxHeartbeats 4000000 in
/-- The head perceptron: operations %225 to %233, the inlined @relu's three among them. (11 operations.) -/
abbrev opsHead : List (HloOp τ sig (Elt F)) :=
  [ binary main_v224 main_arg14 main_v225 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg15 main_v226 (broadcastInDim S1x64 ![1] bcast_S64_S1x64_1 : (⟨S64, .f32⟩ : BufTy).Contents (Elt F) → (⟨S1x64, .f32⟩ : BufTy).Contents (Elt F)),
    unary main_v226 main_v227 (broadcastInDim S50000x64 ![0, 1] bcast_S1x64_S50000x64_0_1 : (⟨S1x64, .f32⟩ : BufTy).Contents (Elt F) → (⟨S50000x64, .f32⟩ : BufTy).Contents (Elt F)),
    binary main_v225 main_v227 main_v228 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S50000x64, .f32⟩) main_call9_v0) (broadcastInDim S50000x64 ![] bcast_S_S50000x64),
    TRef.binary (TRef.of (T := ⟨S50000x64, .f32⟩) main_v228) (TRef.of (T := ⟨S50000x64, .f32⟩) main_call9_v0) (TRef.of (T := ⟨S50000x64, .f32⟩) main_v229) maximumf,
    binary main_v229 main_arg16 main_v230 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg17 main_v231 (broadcastInDim S1x64 ![1] bcast_S64_S1x64_1 : (⟨S64, .f32⟩ : BufTy).Contents (Elt F) → (⟨S1x64, .f32⟩ : BufTy).Contents (Elt F)),
    unary main_v231 main_v232 (broadcastInDim S50000x64 ![0, 1] bcast_S1x64_S50000x64_0_1 : (⟨S1x64, .f32⟩ : BufTy).Contents (Elt F) → (⟨S50000x64, .f32⟩ : BufTy).Contents (Elt F)),
    binary main_v230 main_v232 main_v233 (addf : (⟨S50000x64, .f32⟩ : BufTy).Contents (Elt F) → (⟨S50000x64, .f32⟩ : BufTy).Contents (Elt F) → (⟨S50000x64, .f32⟩ : BufTy).Contents (Elt F)) ]

/-- @main's 274 operations: the six stages in order. -/
abbrev opsAll : List (HloOp τ sig (Elt F)) := opsEmb ++ opsL0 ++ opsL1 ++ opsL2 ++ opsL3 ++ opsHead

end Cert.RefRun

end
-- ==== Proof.RefRunTables.lean ====
/- Per stage list of the reference's @main: the references it writes, and three tables with one row an operation: its
   buffers lie among the TensorCore's references; its writes lie among the list's written references; it allocates nothing. -/
import proofs.«419785_j6528350289988_1_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The references opsEmb writes, in order. -/
abbrev opsEmb_W : List (Ref sig .tc) := [main_v0, main_v1, main_v2, main_v3, main_v4, main_v5, main_v6, main_v7, main_call0_cst, main_call0_v0, main_v8, main_v9, main_v10, main_v11, main_v12]

set_option maxRecDepth 8192 in
theorem opsEmb_sub : (opsEmb : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
set_option maxHeartbeats 4000000 in
theorem opsEmb_writes : (opsEmb : List (HloOp τ sig (Elt F))).Forall fun op =>
    op.writes ⊆ (opsEmb_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
theorem opsEmb_fresh : ∀ op ∈ (opsEmb : List (HloOp τ sig (Elt F))), op.fresh = ∅ := by
  intro _ h; (repeat (cases h with | head => rfl | tail _ h => ?_)); exact nomatch h

/-- The references opsL0 writes, in order. -/
abbrev opsL0_W : List (Ref sig .tc) := [main_c, main_v13, main_v14, main_c_0, main_v15, main_v16, main_v17, main_v18, main_v19, main_c_1, main_v20, main_v21, main_c_2, main_v22, main_v23, main_v24, main_v25, main_v26, main_v27, main_v28, main_v29, main_v30, main_v31, main_v32, main_v33, main_v34, main_v35, main_v36, main_v37, main_v38, main_v39, main_call1_cst, main_call1_v0, main_v40, main_v41, main_v42, main_v43, main_v44, main_cst, main_v45, main_v46, main_v47, main_v48, main_v49, main_v50, main_v51, main_v52, main_v53, main_v54, main_v55, main_v56, main_v57, main_v58, main_v59, main_v60, main_call2_cst, main_call2_v0, main_v61, main_v62, main_v63, main_v64, main_v65]

set_option maxRecDepth 8192 in
theorem opsL0_sub : (opsL0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
set_option maxHeartbeats 4000000 in
theorem opsL0_writes : (opsL0 : List (HloOp τ sig (Elt F))).Forall fun op =>
    op.writes ⊆ (opsL0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
theorem opsL0_fresh : ∀ op ∈ (opsL0 : List (HloOp τ sig (Elt F))), op.fresh = ∅ := by
  intro _ h; (repeat (cases h with | head => rfl | tail _ h => ?_)); exact nomatch h

/-- The references opsL1 writes, in order. -/
abbrev opsL1_W : List (Ref sig .tc) := [main_c_3, main_v66, main_v67, main_c_4, main_v68, main_v69, main_v70, main_v71, main_v72, main_c_5, main_v73, main_v74, main_c_6, main_v75, main_v76, main_v77, main_v78, main_v79, main_v80, main_v81, main_v82, main_v83, main_v84, main_v85, main_v86, main_v87, main_v88, main_v89, main_v90, main_v91, main_v92, main_call3_cst, main_call3_v0, main_v93, main_v94, main_v95, main_v96, main_v97, main_cst_7, main_v98, main_v99, main_v100, main_v101, main_v102, main_v103, main_v104, main_v105, main_v106, main_v107, main_v108, main_v109, main_v110, main_v111, main_v112, main_v113, main_call4_cst, main_call4_v0, main_v114, main_v115, main_v116, main_v117, main_v118]

set_option maxRecDepth 8192 in
theorem opsL1_sub : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
set_option maxHeartbeats 4000000 in
theorem opsL1_writes : (opsL1 : List (HloOp τ sig (Elt F))).Forall fun op =>
    op.writes ⊆ (opsL1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
theorem opsL1_fresh : ∀ op ∈ (opsL1 : List (HloOp τ sig (Elt F))), op.fresh = ∅ := by
  intro _ h; (repeat (cases h with | head => rfl | tail _ h => ?_)); exact nomatch h

/-- The references opsL2 writes, in order. -/
abbrev opsL2_W : List (Ref sig .tc) := [main_c_8, main_v119, main_v120, main_c_9, main_v121, main_v122, main_v123, main_v124, main_v125, main_c_10, main_v126, main_v127, main_c_11, main_v128, main_v129, main_v130, main_v131, main_v132, main_v133, main_v134, main_v135, main_v136, main_v137, main_v138, main_v139, main_v140, main_v141, main_v142, main_v143, main_v144, main_v145, main_call5_cst, main_call5_v0, main_v146, main_v147, main_v148, main_v149, main_v150, main_cst_12, main_v151, main_v152, main_v153, main_v154, main_v155, main_v156, main_v157, main_v158, main_v159, main_v160, main_v161, main_v162, main_v163, main_v164, main_v165, main_v166, main_call6_cst, main_call6_v0, main_v167, main_v168, main_v169, main_v170, main_v171]

set_option maxRecDepth 8192 in
theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
set_option maxHeartbeats 4000000 in
theorem opsL2_writes : (opsL2 : List (HloOp τ sig (Elt F))).Forall fun op =>
    op.writes ⊆ (opsL2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
theorem opsL2_fresh : ∀ op ∈ (opsL2 : List (HloOp τ sig (Elt F))), op.fresh = ∅ := by
  intro _ h; (repeat (cases h with | head => rfl | tail _ h => ?_)); exact nomatch h

/-- The references opsL3 writes, in order. -/
abbrev opsL3_W : List (Ref sig .tc) := [main_c_13, main_v172, main_v173, main_c_14, main_v174, main_v175, main_v176, main_v177, main_v178, main_c_15, main_v179, main_v180, main_c_16, main_v181, main_v182, main_v183, main_v184, main_v185, main_v186, main_v187, main_v188, main_v189, main_v190, main_v191, main_v192, main_v193, main_v194, main_v195, main_v196, main_v197, main_v198, main_call7_cst, main_call7_v0, main_v199, main_v200, main_v201, main_v202, main_v203, main_cst_17, main_v204, main_v205, main_v206, main_v207, main_v208, main_v209, main_v210, main_v211, main_v212, main_v213, main_v214, main_v215, main_v216, main_v217, main_v218, main_v219, main_call8_cst, main_call8_v0, main_v220, main_v221, main_v222, main_v223, main_v224]

set_option maxRecDepth 8192 in
theorem opsL3_sub : (opsL3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
set_option maxHeartbeats 4000000 in
theorem opsL3_writes : (opsL3 : List (HloOp τ sig (Elt F))).Forall fun op =>
    op.writes ⊆ (opsL3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
theorem opsL3_fresh : ∀ op ∈ (opsL3 : List (HloOp τ sig (Elt F))), op.fresh = ∅ := by
  intro _ h; (repeat (cases h with | head => rfl | tail _ h => ?_)); exact nomatch h

/-- The references opsHead writes, in order. -/
abbrev opsHead_W : List (Ref sig .tc) := [main_v225, main_v226, main_v227, main_v228, main_call9_cst, main_call9_v0, main_v229, main_v230, main_v231, main_v232, main_v233]

set_option maxRecDepth 8192 in
theorem opsHead_sub : (opsHead : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
set_option maxHeartbeats 4000000 in
theorem opsHead_writes : (opsHead : List (HloOp τ sig (Elt F))).Forall fun op =>
    op.writes ⊆ (opsHead_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
set_option maxHeartbeats 4000000 in
theorem opsHead_fresh : ∀ op ∈ (opsHead : List (HloOp τ sig (Elt F))), op.fresh = ∅ := by
  intro _ h; (repeat (cases h with | head => rfl | tail _ h => ?_)); exact nomatch h

end Cert.RefRun

end
-- ==== Proof.RefRunMain.lean ====
/- The reference's @main is its 274 host operations run in order, window by window; so every weakly fair execution of it
   ends with each buffer at the fold of the operations' results over the launch contents. -/
import proofs.«419785_j6528350289988_1_alg».proof.Proof.RefOps
import proofs.«419785_j6528350289988_1_alg».proof.Proof.RefRunTables

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- A list cut at any place, with anything after it: the two parts and the rest append to the list and the rest. -/
theorem take_drop_append {α : Type} (n : Nat) (l X : List α) : l.take n ++ (l.drop n ++ X) = l ++ X := by
  rw [← List.append_assoc, List.take_append_drop]

/-- Six lists appended in order are five windows appended in order, the windows cut inside the middle four. -/
theorem regroup {α : Type} (E L0 L1 L2 L3 H : List α) (a b c d : Nat) :
    (E ++ L0.take a) ++ ((L0.drop a ++ L1.take b) ++ ((L1.drop b ++ L2.take c) ++ ((L2.drop c ++ L3.take d) ++ (L3.drop d ++ H))))
      = E ++ L0 ++ L1 ++ L2 ++ L3 ++ H := by
  simp only [List.append_assoc, take_drop_append]

/-! The printed @main runs five windows in turn. Window 0 is the embedding stage and the first 49 operations of layer 0;
    window 1 the rest of layer 0 and the first 51 of layer 1; window 2 the rest of layer 1 and the first 53 of layer 2;
    window 3 the rest of layer 2 and the first 55 of layer 3; window 4 the rest of layer 3 and the head stage. -/

set_option maxRecDepth 8192 in
set_option maxHeartbeats 4000000 in
theorem main_part0_eq (c : Dev nD) : main_part0 (F := F) c = seq (opsEmb ++ opsL0.take 49) := rfl

set_option maxRecDepth 8192 in
set_option maxHeartbeats 4000000 in
theorem main_part1_eq (c : Dev nD) : main_part1 (F := F) c = seq (opsL0.drop 49 ++ opsL1.take 51) := rfl

set_option maxRecDepth 8192 in
set_option maxHeartbeats 4000000 in
theorem main_part2_eq (c : Dev nD) : main_part2 (F := F) c = seq (opsL1.drop 51 ++ opsL2.take 53) := rfl

set_option maxRecDepth 8192 in
set_option maxHeartbeats 4000000 in
theorem main_part3_eq (c : Dev nD) : main_part3 (F := F) c = seq (opsL2.drop 53 ++ opsL3.take 55) := rfl

set_option maxRecDepth 8192 in
set_option maxHeartbeats 4000000 in
theorem main_part4_eq (c : Dev nD) : main_part4 (F := F) c = seq (opsL3.drop 55 ++ opsHead) := rfl

/-- The 274 operations, grouped by window. -/
theorem opsAll_windows :
    (opsAll : List (HloOp τ sig (Elt F)))
      = (opsEmb ++ opsL0.take 49) ++ ((opsL0.drop 49 ++ opsL1.take 51) ++ ((opsL1.drop 51 ++ opsL2.take 53)
          ++ ((opsL2.drop 53 ++ opsL3.take 55) ++ (opsL3.drop 55 ++ opsHead)))) :=
  (regroup opsEmb opsL0 opsL1 opsL2 opsL3 opsHead 49 51 53 55).symm

/-- @main is its 274 operations run in order. -/
theorem main_eq (c : Dev nD) : main (F := F) c = seq opsAll := by
  rw [opsAll_windows, seq_append (opsEmb ++ opsL0.take 49), seq_append (opsL0.drop 49 ++ opsL1.take 51),
    seq_append (opsL1.drop 51 ++ opsL2.take 53), seq_append (opsL2.drop 53 ++ opsL3.take 55),
    ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation's buffers lie among the TensorCore's references: stage by stage. -/
theorem opsAll_sub : (opsAll : List (HloOp τ sig (Elt F))).Forall fun op => op.bufs ⊆ tcRefs τ sig := by
  rw [List.forall_iff_forall_mem]
  intro op h
  simp only [opsAll, List.mem_append] at h
  rcases h with ((((h | h) | h) | h) | h) | h
  · exact List.forall_iff_forall_mem.1 opsEmb_sub op h
  · exact List.forall_iff_forall_mem.1 opsL0_sub op h
  · exact List.forall_iff_forall_mem.1 opsL1_sub op h
  · exact List.forall_iff_forall_mem.1 opsL2_sub op h
  · exact List.forall_iff_forall_mem.1 opsL3_sub op h
  · exact List.forall_iff_forall_mem.1 opsHead_sub op h

/-- No operation allocates: stage by stage. -/
theorem opsAll_fresh : ∀ op ∈ (opsAll : List (HloOp τ sig (Elt F))), op.fresh = ∅ := by
  intro op h
  simp only [opsAll, List.mem_append] at h
  rcases h with ((((h | h) | h) | h) | h) | h
  · exact opsEmb_fresh op h
  · exact opsL0_fresh op h
  · exact opsL1_fresh op h
  · exact opsL2_fresh op h
  · exact opsL3_fresh op h
  · exact opsHead_fresh op h

/-- On every device, for any float values, from any memory with zero counters: every weakly fair execution of @main
    terminates with each TensorCore buffer at the fold of the 274 operations' results over its launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after (opsAll (F := F)) (launchContents m c) (Proc.devRef .tc b) :=
  run_seq scopedRefs_eq scopedSems_eq defs main (fun _ => opsAll) main_eq (fun _ => opsAll_sub) m ρ (fun _ => opsAll_fresh)

end Cert.RefRun

end
-- ==== Proof.RefPass.lean ====
/- A reference that a stage of the reference's @main does not write keeps its contents through the stage; one that no
   operation of @main writes keeps its contents through all 274. -/
import proofs.«419785_j6528350289988_1_alg».proof.Proof.RefRunTables
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Through the embedding stage. -/
theorem pass_Emb (V : Valuation τ sig (Elt F)) (r : Ref sig .tc) (hr : r ∉ opsEmb_W) :
    after opsEmb V (Proc.devRef .tc r) = V (Proc.devRef .tc r) :=
  after_of_writes_sub opsEmb V opsEmb_writes hr

/-- Through layer 0. -/
theorem pass_L0 (V : Valuation τ sig (Elt F)) (r : Ref sig .tc) (hr : r ∉ opsL0_W) :
    after opsL0 V (Proc.devRef .tc r) = V (Proc.devRef .tc r) :=
  after_of_writes_sub opsL0 V opsL0_writes hr

/-- Through layer 1. -/
theorem pass_L1 (V : Valuation τ sig (Elt F)) (r : Ref sig .tc) (hr : r ∉ opsL1_W) :
    after opsL1 V (Proc.devRef .tc r) = V (Proc.devRef .tc r) :=
  after_of_writes_sub opsL1 V opsL1_writes hr

/-- Through layer 2. -/
theorem pass_L2 (V : Valuation τ sig (Elt F)) (r : Ref sig .tc) (hr : r ∉ opsL2_W) :
    after opsL2 V (Proc.devRef .tc r) = V (Proc.devRef .tc r) :=
  after_of_writes_sub opsL2 V opsL2_writes hr

/-- Through layer 3. -/
theorem pass_L3 (V : Valuation τ sig (Elt F)) (r : Ref sig .tc) (hr : r ∉ opsL3_W) :
    after opsL3 V (Proc.devRef .tc r) = V (Proc.devRef .tc r) :=
  after_of_writes_sub opsL3 V opsL3_writes hr

/-- Through the head stage. -/
theorem pass_Head (V : Valuation τ sig (Elt F)) (r : Ref sig .tc) (hr : r ∉ opsHead_W) :
    after opsHead V (Proc.devRef .tc r) = V (Proc.devRef .tc r) :=
  after_of_writes_sub opsHead V opsHead_writes hr

/-- Every reference @main writes: the stages' written references in order. -/
abbrev wrAll : List (Ref sig .tc) := opsEmb_W ++ opsL0_W ++ opsL1_W ++ opsL2_W ++ opsL3_W ++ opsHead_W

/-- A reference no operation of @main writes keeps its contents through all of @main: stage by stage. -/
theorem after_all_arg (V : Valuation τ sig (Elt F)) (r : Ref sig .tc) (hr : r ∉ wrAll) :
    after opsAll V (Proc.devRef .tc r) = V (Proc.devRef .tc r) := by
  simp only [wrAll, List.mem_append, not_or] at hr
  obtain ⟨⟨⟨⟨⟨h0, h1⟩, h2⟩, h3⟩, h4⟩, h5⟩ := hr
  simp only [opsAll, StableHlo.after_append]
  rw [pass_Head _ r h5, pass_L3 _ r h4, pass_L2 _ r h3, pass_L1 _ r h2, pass_L0 _ r h1, pass_Emb _ r h0]

end Cert.RefRun

end
-- ==== Proof.RefMlp.lean ====
/- The reference's perceptron stages, in the three array sizes its program has them, are the row-wise perceptron of the
   specification. -/
import proofs.«419785_j6528350289988_1_alg».proof.ReferenceIdeal
import proofs.«419785_j6528350289988_1_alg».proof.Proof.Spec
import Idealize.ShloMosaic.Lib.Pipeline.Value
import Idealize.ShloMosaic.Lib.ValueLayout

noncomputable section

namespace Cert.RefMlp

open Idealize.ShloMosaic Idealize.ShloMosaic.ValueIdx Cert.ReferenceIdeal Cert.Net

variable [Cert.ReferenceIdeal.Facts]
open Cert.ReferenceIdeal.Facts₀ Cert.ReferenceIdeal.Facts

/-- A length-64 vector broadcast to a [1,64] row and then down R rows, read at (p, q): its entry q. -/
theorem bcastBias_apply {R : ℕ} (b : (⟨1, ![64]⟩ : Shape).Idx → EReal)
    (h1 : (⟨1, ![64]⟩ : Shape).BroadcastsInDim ⟨2, ![1, 64]⟩ ![1]) (h2 : (⟨2, ![1, 64]⟩ : Shape).BroadcastsInDim ⟨2, ![R, 64]⟩ ![0, 1])
    (p : Fin R) (q : Fin 64) :
    broadcastInDim ⟨2, ![R, 64]⟩ ![0, 1] h2 (broadcastInDim ⟨2, ![1, 64]⟩ ![1] h1 b) (ix2 p q) = bias b q := by
  rw [broadcastInDim_apply ![0, 1] h2 _ (ix2 p q) (ix2 0 q) (fun a => by match a with | ⟨0, _⟩ => rfl | ⟨1, _⟩ => rfl)]
  exact broadcastInDim_apply ![1] h1 b (ix2 0 q) (ix1 q) (fun a => by match a with | ⟨0, _⟩ => rfl)

/-- The reference's perceptron stage on the node features (embedding and head), as its program spells it: two host matrix products, each bias broadcast
    to a row and down the rows, and `relu` as the maximum with a zero array. -/
def termN (x : FVec Ideal S50000x64 .f32) (w1 : FVec Ideal S64x64 .f32) (b1 : FVec Ideal S64 .f32) (w2 : FVec Ideal S64x64 .f32) (b2 : FVec Ideal S64 .f32) :
    FVec Ideal S50000x64 .f32 :=
  addf (Host.dotGeneral dot_S50000x64_S64x64_S50000x64_1_0_0_1_n_n none
        (maximumf (addf (Host.dotGeneral dot_S50000x64_S64x64_S50000x64_1_0_0_1_n_n none x w1)
                        (broadcastInDim S50000x64 ![0, 1] bcast_S1x64_S50000x64_0_1 (broadcastInDim S1x64 ![1] bcast_S64_S1x64_1 b1)))
                  (broadcastInDim S50000x64 ![] bcast_S_S50000x64 (constant S_ .f32 0x00000000#32))) w2)
       (broadcastInDim S50000x64 ![0, 1] bcast_S1x64_S50000x64_0_1 (broadcastInDim S1x64 ![1] bcast_S64_S1x64_1 b2))

/-- … is the row-wise perceptron: each product at an index is the sum over the contracted coordinate. -/
theorem termN_eq (x : FVec Ideal S50000x64 .f32) (w1 : FVec Ideal S64x64 .f32) (b1 : FVec Ideal S64 .f32) (w2 : FVec Ideal S64x64 .f32) (b2 : FVec Ideal S64 .f32) :
    termN x w1 b1 w2 b2 = mlp x w1 (bias b1) w2 (bias b2) := by
  funext j
  obtain ⟨p, q, rfl⟩ : ∃ (p : Fin 50000) (q : Fin 64), j = ix2 p q := ⟨j 0, j 1, eq_ix2 j⟩
  unfold termN
  rw [mlp_apply, addf_apply, bcastBias_apply]
  congr 1
  simp only [Host.dotGeneral]
  rw [show dot_S50000x64_S64x64_S50000x64_1_0_0_1_n_n = DotDims.plain 50000 64 64 from rfl, dotGeneral_plain_apply]
  refine Finset.sum_congr rfl fun k _ => ?_
  congr 1
  rw [maximumf_apply, addf_apply, bcastBias_apply, dotGeneral_plain_apply]
  congr 1
  rw [broadcastInDim_apply ![] bcast_S_S50000x64 _ (ix2 p k) ix0 (fun a => a.elim0)]
  exact Ideal.ofBits_zero_f32

/-- The reference's perceptron stage on the edge features (the message stage), as its program spells it: two host matrix products, each bias broadcast
    to a row and down the rows, and `relu` as the maximum with a zero array. -/
def termE (x : FVec Ideal S800000x128 .f32) (w1 : FVec Ideal S128x64 .f32) (b1 : FVec Ideal S64 .f32) (w2 : FVec Ideal S64x64 .f32) (b2 : FVec Ideal S64 .f32) :
    FVec Ideal S800000x64 .f32 :=
  addf (Host.dotGeneral dot_S800000x64_S64x64_S800000x64_1_0_0_1_n_n none
        (maximumf (addf (Host.dotGeneral dot_S800000x128_S128x64_S800000x64_1_0_0_1_n_n none x w1)
                        (broadcastInDim S800000x64 ![0, 1] bcast_S1x64_S800000x64_0_1 (broadcastInDim S1x64 ![1] bcast_S64_S1x64_1 b1)))
                  (broadcastInDim S800000x64 ![] bcast_S_S800000x64 (constant S_ .f32 0x00000000#32))) w2)
       (broadcastInDim S800000x64 ![0, 1] bcast_S1x64_S800000x64_0_1 (broadcastInDim S1x64 ![1] bcast_S64_S1x64_1 b2))

/-- … is the row-wise perceptron: each product at an index is the sum over the contracted coordinate. -/
theorem termE_eq (x : FVec Ideal S800000x128 .f32) (w1 : FVec Ideal S128x64 .f32) (b1 : FVec Ideal S64 .f32) (w2 : FVec Ideal S64x64 .f32) (b2 : FVec Ideal S64 .f32) :
    termE x w1 b1 w2 b2 = mlp x w1 (bias b1) w2 (bias b2) := by
  funext j
  obtain ⟨p, q, rfl⟩ : ∃ (p : Fin 800000) (q : Fin 64), j = ix2 p q := ⟨j 0, j 1, eq_ix2 j⟩
  unfold termE
  rw [mlp_apply, addf_apply, bcastBias_apply]
  congr 1
  simp only [Host.dotGeneral]
  rw [show dot_S800000x64_S64x64_S800000x64_1_0_0_1_n_n = DotDims.plain 800000 64 64 from rfl, dotGeneral_plain_apply]
  refine Finset.sum_congr rfl fun k _ => ?_
  congr 1
  rw [maximumf_apply, addf_apply, bcastBias_apply, show dot_S800000x128_S128x64_S800000x64_1_0_0_1_n_n = DotDims.plain 800000 128 64 from rfl, dotGeneral_plain_apply]
  congr 1
  rw [broadcastInDim_apply ![] bcast_S_S800000x64 _ (ix2 p k) ix0 (fun a => a.elim0)]
  exact Ideal.ofBits_zero_f32

/-- The reference's perceptron stage on a node's row beside its summed messages (the update stage), as its program spells it: two host matrix products, each bias broadcast
    to a row and down the rows, and `relu` as the maximum with a zero array. -/
def termU (x : FVec Ideal S50000x128 .f32) (w1 : FVec Ideal S128x64 .f32) (b1 : FVec Ideal S64 .f32) (w2 : FVec Ideal S64x64 .f32) (b2 : FVec Ideal S64 .f32) :
    FVec Ideal S50000x64 .f32 :=
  addf (Host.dotGeneral dot_S50000x64_S64x64_S50000x64_1_0_0_1_n_n none
        (maximumf (addf (Host.dotGeneral dot_S50000x128_S128x64_S50000x64_1_0_0_1_n_n none x w1)
                        (broadcastInDim S50000x64 ![0, 1] bcast_S1x64_S50000x64_0_1 (broadcastInDim S1x64 ![1] bcast_S64_S1x64_1 b1)))
                  (broadcastInDim S50000x64 ![] bcast_S_S50000x64 (constant S_ .f32 0x00000000#32))) w2)
       (broadcastInDim S50000x64 ![0, 1] bcast_S1x64_S50000x64_0_1 (broadcastInDim S1x64 ![1] bcast_S64_S1x64_1 b2))

/-- … is the row-wise perceptron: each product at an index is the sum over the contracted coordinate. -/
theorem termU_eq (x : FVec Ideal S50000x128 .f32) (w1 : FVec Ideal S128x64 .f32) (b1 : FVec Ideal S64 .f32) (w2 : FVec Ideal S64x64 .f32) (b2 : FVec Ideal S64 .f32) :
    termU x w1 b1 w2 b2 = mlp x w1 (bias b1) w2 (bias b2) := by
  funext j
  obtain ⟨p, q, rfl⟩ : ∃ (p : Fin 50000) (q : Fin 64), j = ix2 p q := ⟨j 0, j 1, eq_ix2 j⟩
  unfold termU
  rw [mlp_apply, addf_apply, bcastBias_apply]
  congr 1
  simp only [Host.dotGeneral]
  rw [show dot_S50000x64_S64x64_S50000x64_1_0_0_1_n_n = DotDims.plain 50000 64 64 from rfl, dotGeneral_plain_apply]
  refine Finset.sum_congr rfl fun k _ => ?_
  congr 1
  rw [maximumf_apply, addf_apply, bcastBias_apply, show dot_S50000x128_S128x64_S50000x64_1_0_0_1_n_n = DotDims.plain 50000 128 64 from rfl, dotGeneral_plain_apply]
  congr 1
  rw [broadcastInDim_apply ![] bcast_S_S50000x64 _ (ix2 p k) ix0 (fun a => a.elim0)]
  exact Ideal.ofBits_zero_f32

end Cert.RefMlp

end
-- ==== Proof.RefNet.lean ====
/- A message-passing layer as the reference spells it — both of its perceptrons written as chains of host operations —
   is the layer of the specification. -/
import proofs.«419785_j6528350289988_1_alg».proof.Proof.Net
import proofs.«419785_j6528350289988_1_alg».proof.Proof.RefMlp

noncomputable section

namespace Cert.RefNet

open Idealize.ShloMosaic Cert.ReferenceIdeal

variable [Cert.ReferenceIdeal.Facts]

/-- A message-passing layer with both of its perceptrons written as the chains of operations the reference has for them
    is the layer of the specification: each chain is the row-wise perceptron. -/
theorem layer_spelled (h : FVec Ideal S50000x64 .f32) (dst src : IVec S800000 32)
    (mw1 : FVec Ideal S128x64 .f32) (mb1 : FVec Ideal S64 .f32) (mw2 : FVec Ideal S64x64 .f32) (mb2 : FVec Ideal S64 .f32)
    (uw1 : FVec Ideal S128x64 .f32) (ub1 : FVec Ideal S64 .f32) (uw2 : FVec Ideal S64x64 .f32) (ub2 : FVec Ideal S64 .f32) :
    Cert.RefMlp.termU
        (Cert.Net.nodeIn h (Cert.Net.aggregate (Cert.RefMlp.termE (Cert.Net.edgeIn h dst src) mw1 mb1 mw2 mb2) dst))
        uw1 ub1 uw2 ub2
      = Cert.Net.layer h dst src mw1 mb1 mw2 mb2 uw1 ub1 uw2 ub2 := by
  unfold Cert.Net.layer
  rw [Cert.RefMlp.termE_eq, Cert.RefMlp.termU_eq]

end Cert.RefNet

end
-- ==== Proof.RefValEmb.lean ====
/- The reference's first stage, read as values: after its fifteen operations the embedded node array is the row-wise
   perceptron of the node features, and the two rows of the edge list stand as vectors. Over any contents the stage
   is entered with. -/
import proofs.«419785_j6528350289988_1_alg».proof.Proof.RefOps
import proofs.«419785_j6528350289988_1_alg».proof.Proof.Net
import proofs.«419785_j6528350289988_1_alg».proof.Proof.RefMlp
import proofs.«419785_j6528350289988_1_alg».proof.Proof.RefNet
import Idealize.ShloMosaic.Lib.StableHlo.Run

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (V : Valuation τ sig (Elt Ideal))

/-- After the stage the embedded node array is the row-wise perceptron of the node features. -/
theorem emb_v12 : StableHlo.after (opsEmb (F := Ideal)) V (Proc.devRef .tc main_v12)
    = Cert.Net.mlp (V (Proc.devRef .tc main_arg0)) (V (Proc.devRef .tc main_arg2)) (Cert.Net.bias (V (Proc.devRef .tc main_arg3)))
        (V (Proc.devRef .tc main_arg4)) (Cert.Net.bias (V (Proc.devRef .tc main_arg5))) := by
  dsimp only [opsEmb]
  after_results_simp
  refine Eq.trans ?_ (Cert.RefMlp.termN_eq _ _ _ _ _)
  rfl

/-- Row 0 of the edge list, as a vector: the sources. -/
theorem emb_v1 : StableHlo.after (opsEmb (F := Ideal)) V (Proc.devRef .tc main_v1) = Cert.Net.srcOf (V (Proc.devRef .tc main_arg1)) := by
  dsimp only [opsEmb]
  after_results_simp
  rfl

/-- Row 1 of the edge list, as a vector: the targets. -/
theorem emb_v3 : StableHlo.after (opsEmb (F := Ideal)) V (Proc.devRef .tc main_v3) = Cert.Net.dstOf (V (Proc.devRef .tc main_arg1)) := by
  dsimp only [opsEmb]
  after_results_simp
  rfl

end Cert.RefRun

end
-- ==== Proof.RefValL0.lean ====
/- The reference's message-passing layer 0, read as a value: after its sixty-two operations the new node array is
   layer 0 of the specification applied to the node array, the two rows of the edge list and the stacked weights as the
   stage found them. The operations' composed term is the layer with both perceptrons spelt as chains of host
   operations; each chain is the row-wise perceptron. -/
import proofs.«419785_j6528350289988_1_alg».proof.Proof.RefOps
import proofs.«419785_j6528350289988_1_alg».proof.Proof.Net
import proofs.«419785_j6528350289988_1_alg».proof.Proof.RefMlp
import proofs.«419785_j6528350289988_1_alg».proof.Proof.RefNet
import Idealize.ShloMosaic.Lib.StableHlo.Run

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (V : Valuation τ sig (Elt Ideal))

/-- After the stage the new node array is layer 0 of the specification. -/
theorem l0_val : StableHlo.after (opsL0 (F := Ideal)) V (Proc.devRef .tc main_v65)
    = Cert.Net.layer0 (V (Proc.devRef .tc main_v12)) (V (Proc.devRef .tc main_v3)) (V (Proc.devRef .tc main_v1))
        (V (Proc.devRef .tc main_arg6)) (V (Proc.devRef .tc main_arg7)) (V (Proc.devRef .tc main_arg8)) (V (Proc.devRef .tc main_arg9))
        (V (Proc.devRef .tc main_arg10)) (V (Proc.devRef .tc main_arg11)) (V (Proc.devRef .tc main_arg12)) (V (Proc.devRef .tc main_arg13)) := by
  dsimp only [opsL0]
  after_results_simp
  refine Eq.trans ?_ (Cert.RefNet.layer_spelled _ _ _ _ _ _ _ _ _ _ _)
  rfl

end Cert.RefRun

end
-- ==== Proof.RefValL1.lean ====
/- The reference's message-passing layer 1, read as a value: after its sixty-two operations the new node array is
   layer 1 of the specification applied to the node array, the two rows of the edge list and the stacked weights as the
   stage found them. The operations' composed term is the layer with both perceptrons spelt as chains of host
   operations; each chain is the row-wise perceptron. -/
import proofs.«419785_j6528350289988_1_alg».proof.Proof.RefOps
import proofs.«419785_j6528350289988_1_alg».proof.Proof.Net
import proofs.«419785_j6528350289988_1_alg».proof.Proof.RefMlp
import proofs.«419785_j6528350289988_1_alg».proof.Proof.RefNet
import Idealize.ShloMosaic.Lib.StableHlo.Run

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (V : Valuation τ sig (Elt Ideal))

/-- After the stage the new node array is layer 1 of the specification. -/
theorem l1_val : StableHlo.after (opsL1 (F := Ideal)) V (Proc.devRef .tc main_v118)
    = Cert.Net.layer1 (V (Proc.devRef .tc main_v65)) (V (Proc.devRef .tc main_v3)) (V (Proc.devRef .tc main_v1))
        (V (Proc.devRef .tc main_arg6)) (V (Proc.devRef .tc main_arg7)) (V (Proc.devRef .tc main_arg8)) (V (Proc.devRef .tc main_arg9))
        (V (Proc.devRef .tc main_arg10)) (V (Proc.devRef .tc main_arg11)) (V (Proc.devRef .tc main_arg12)) (V (Proc.devRef .tc main_arg13)) := by
  dsimp only [opsL1]
  after_results_simp
  refine Eq.trans ?_ (Cert.RefNet.layer_spelled _ _ _ _ _ _ _ _ _ _ _)
  rfl

end Cert.RefRun

end
-- ==== Proof.RefValL2.lean ====
/- The reference's message-passing layer 2, read as a value: after its sixty-two operations the new node array is
   layer 2 of the specification applied to the node array, the two rows of the edge list and the stacked weights as the
   stage found them. The operations' composed term is the layer with both perceptrons spelt as chains of host
   operations; each chain is the row-wise perceptron. -/
import proofs.«419785_j6528350289988_1_alg».proof.Proof.RefOps
import proofs.«419785_j6528350289988_1_alg».proof.Proof.Net
import proofs.«419785_j6528350289988_1_alg».proof.Proof.RefMlp
import proofs.«419785_j6528350289988_1_alg».proof.Proof.RefNet
import Idealize.ShloMosaic.Lib.StableHlo.Run

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (V : Valuation τ sig (Elt Ideal))

/-- After the stage the new node array is layer 2 of the specification. -/
theorem l2_val : StableHlo.after (opsL2 (F := Ideal)) V (Proc.devRef .tc main_v171)
    = Cert.Net.layer2 (V (Proc.devRef .tc main_v118)) (V (Proc.devRef .tc main_v3)) (V (Proc.devRef .tc main_v1))
        (V (Proc.devRef .tc main_arg6)) (V (Proc.devRef .tc main_arg7)) (V (Proc.devRef .tc main_arg8)) (V (Proc.devRef .tc main_arg9))
        (V (Proc.devRef .tc main_arg10)) (V (Proc.devRef .tc main_arg11)) (V (Proc.devRef .tc main_arg12)) (V (Proc.devRef .tc main_arg13)) := by
  dsimp only [opsL2]
  after_results_simp
  refine Eq.trans ?_ (Cert.RefNet.layer_spelled _ _ _ _ _ _ _ _ _ _ _)
  rfl

end Cert.RefRun

end
-- ==== Proof.RefValL3.lean ====
/- The reference's message-passing layer 3, read as a value: after its sixty-two operations the new node array is
   layer 3 of the specification applied to the node array, the two rows of the edge list and the stacked weights as the
   stage found them. The operations' composed term is the layer with both perceptrons spelt as chains of host
   operations; each chain is the row-wise perceptron. -/
import proofs.«419785_j6528350289988_1_alg».proof.Proof.RefOps
import proofs.«419785_j6528350289988_1_alg».proof.Proof.Net
import proofs.«419785_j6528350289988_1_alg».proof.Proof.RefMlp
import proofs.«419785_j6528350289988_1_alg».proof.Proof.RefNet
import Idealize.ShloMosaic.Lib.StableHlo.Run

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (V : Valuation τ sig (Elt Ideal))

/-- After the stage the new node array is layer 3 of the specification. -/
theorem l3_val : StableHlo.after (opsL3 (F := Ideal)) V (Proc.devRef .tc main_v224)
    = Cert.Net.layer3 (V (Proc.devRef .tc main_v171)) (V (Proc.devRef .tc main_v3)) (V (Proc.devRef .tc main_v1))
        (V (Proc.devRef .tc main_arg6)) (V (Proc.devRef .tc main_arg7)) (V (Proc.devRef .tc main_arg8)) (V (Proc.devRef .tc main_arg9))
        (V (Proc.devRef .tc main_arg10)) (V (Proc.devRef .tc main_arg11)) (V (Proc.devRef .tc main_arg12)) (V (Proc.devRef .tc main_arg13)) := by
  dsimp only [opsL3]
  after_results_simp
  refine Eq.trans ?_ (Cert.RefNet.layer_spelled _ _ _ _ _ _ _ _ _ _ _)
  rfl

end Cert.RefRun

end
-- ==== Proof.RefValHead.lean ====
/- The reference's last stage, read as a value: after its eleven operations the result array is the row-wise perceptron
   of the node array the last layer left, at the head's weights and biases. -/
import proofs.«419785_j6528350289988_1_alg».proof.Proof.RefOps
import proofs.«419785_j6528350289988_1_alg».proof.Proof.Net
import proofs.«419785_j6528350289988_1_alg».proof.Proof.RefMlp
import proofs.«419785_j6528350289988_1_alg».proof.Proof.RefNet
import Idealize.ShloMosaic.Lib.StableHlo.Run

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable (V : Valuation τ sig (Elt Ideal))

/-- After the stage the result array is the head perceptron of the node array. -/
theorem head_val : StableHlo.after (opsHead (F := Ideal)) V (Proc.devRef .tc main_v233)
    = Cert.Net.mlp (V (Proc.devRef .tc main_v224)) (V (Proc.devRef .tc main_arg14)) (Cert.Net.bias (V (Proc.devRef .tc main_arg15)))
        (V (Proc.devRef .tc main_arg16)) (Cert.Net.bias (V (Proc.devRef .tc main_arg17))) := by
  dsimp only [opsHead]
  after_results_simp
  refine Eq.trans ?_ (Cert.RefMlp.termN_eq _ _ _ _ _)
  rfl

end Cert.RefRun

end
-- ==== Proof.RefVal.lean ====
/- The reference's run read as a value. Its 274 operations are six stages run one after the other; each stage's result
   is a function of the specification applied to what the stage found; a buffer a stage does not write passes through
   it. Composed: the result buffer ends holding the network of the specification applied to the eighteen arguments. -/
import proofs.«419785_j6528350289988_1_alg».proof.Proof.RefPass
import proofs.«419785_j6528350289988_1_alg».proof.Proof.RefValEmb
import proofs.«419785_j6528350289988_1_alg».proof.Proof.RefValL0
import proofs.«419785_j6528350289988_1_alg».proof.Proof.RefValL1
import proofs.«419785_j6528350289988_1_alg».proof.Proof.RefValL2
import proofs.«419785_j6528350289988_1_alg».proof.Proof.RefValL3
import proofs.«419785_j6528350289988_1_alg».proof.Proof.RefValHead
import Idealize.ShloMosaic.Lib.Pipeline.Frame

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

/-- A reference outside the list of everything written is outside each stage's list. -/
theorem wrAll_parts {r : Ref sig .tc} (hr : r ∉ wrAll) :
    r ∉ opsEmb_W ∧ r ∉ opsL0_W ∧ r ∉ opsL1_W ∧ r ∉ opsL2_W ∧ r ∉ opsL3_W ∧ r ∉ opsHead_W :=
  ⟨fun h => hr (List.mem_append_left _ (List.mem_append_left _ (List.mem_append_left _ (List.mem_append_left _ (List.mem_append_left _ h))))),
   fun h => hr (List.mem_append_left _ (List.mem_append_left _ (List.mem_append_left _ (List.mem_append_left _ (List.mem_append_right _ h))))),
   fun h => hr (List.mem_append_left _ (List.mem_append_left _ (List.mem_append_left _ (List.mem_append_right _ h)))),
   fun h => hr (List.mem_append_left _ (List.mem_append_left _ (List.mem_append_right _ h))),
   fun h => hr (List.mem_append_left _ (List.mem_append_right _ h)),
   fun h => hr (List.mem_append_right _ h)⟩

/-- The whole program's operations run stage after stage. -/
theorem after_all_eq {F : FTy → Type} [FloatOps F] (V : Valuation τ sig (Elt F)) :
    StableHlo.after (opsAll (F := F)) V
      = StableHlo.after opsHead (StableHlo.after opsL3 (StableHlo.after opsL2 (StableHlo.after opsL1 (StableHlo.after opsL0 (StableHlo.after opsEmb V))))) := by
  show StableHlo.after (opsEmb ++ opsL0 ++ opsL1 ++ opsL2 ++ opsL3 ++ opsHead) V = _
  rw [after_append, after_append, after_append, after_append, after_append]

variable (V : Valuation τ sig (Elt Ideal))

/-! ## A buffer no stage writes, read after any number of stages -/

theorem thru1 (r : Ref sig .tc) (hr : r ∉ wrAll) :
    StableHlo.after opsEmb V (Proc.devRef .tc r) = V (Proc.devRef .tc r) :=
  (pass_Emb _ r (wrAll_parts hr).1)

theorem thru2 (r : Ref sig .tc) (hr : r ∉ wrAll) :
    StableHlo.after opsL0 (StableHlo.after opsEmb V) (Proc.devRef .tc r) = V (Proc.devRef .tc r) :=
  (pass_L0 _ r (wrAll_parts hr).2.1).trans (thru1 V r hr)

theorem thru3 (r : Ref sig .tc) (hr : r ∉ wrAll) :
    StableHlo.after opsL1 (StableHlo.after opsL0 (StableHlo.after opsEmb V)) (Proc.devRef .tc r) = V (Proc.devRef .tc r) :=
  (pass_L1 _ r (wrAll_parts hr).2.2.1).trans (thru2 V r hr)

theorem thru4 (r : Ref sig .tc) (hr : r ∉ wrAll) :
    StableHlo.after opsL2 (StableHlo.after opsL1 (StableHlo.after opsL0 (StableHlo.after opsEmb V))) (Proc.devRef .tc r) = V (Proc.devRef .tc r) :=
  (pass_L2 _ r (wrAll_parts hr).2.2.2.1).trans (thru3 V r hr)

theorem thru5 (r : Ref sig .tc) (hr : r ∉ wrAll) :
    StableHlo.after opsL3 (StableHlo.after opsL2 (StableHlo.after opsL1 (StableHlo.after opsL0 (StableHlo.after opsEmb V)))) (Proc.devRef .tc r) = V (Proc.devRef .tc r) :=
  (pass_L3 _ r (wrAll_parts hr).2.2.2.2.1).trans (thru4 V r hr)

/-! ## No stage writes an argument -/

theorem arg0_not_mem : main_arg0 ∉ wrAll := by decide
theorem arg1_not_mem : main_arg1 ∉ wrAll := by decide
theorem arg2_not_mem : main_arg2 ∉ wrAll := by decide
theorem arg3_not_mem : main_arg3 ∉ wrAll := by decide
theorem arg4_not_mem : main_arg4 ∉ wrAll := by decide
theorem arg5_not_mem : main_arg5 ∉ wrAll := by decide
theorem arg6_not_mem : main_arg6 ∉ wrAll := by decide
theorem arg7_not_mem : main_arg7 ∉ wrAll := by decide
theorem arg8_not_mem : main_arg8 ∉ wrAll := by decide
theorem arg9_not_mem : main_arg9 ∉ wrAll := by decide
theorem arg10_not_mem : main_arg10 ∉ wrAll := by decide
theorem arg11_not_mem : main_arg11 ∉ wrAll := by decide
theorem arg12_not_mem : main_arg12 ∉ wrAll := by decide
theorem arg13_not_mem : main_arg13 ∉ wrAll := by decide
theorem arg14_not_mem : main_arg14 ∉ wrAll := by decide
theorem arg15_not_mem : main_arg15 ∉ wrAll := by decide
theorem arg16_not_mem : main_arg16 ∉ wrAll := by decide
theorem arg17_not_mem : main_arg17 ∉ wrAll := by decide

/-! ## The two rows of the edge list, written by the first stage and read by every layer -/

theorem src1 : StableHlo.after opsEmb V (Proc.devRef .tc main_v1) = Cert.Net.srcOf (V (Proc.devRef .tc main_arg1)) := emb_v1 V
theorem dst1 : StableHlo.after opsEmb V (Proc.devRef .tc main_v3) = Cert.Net.dstOf (V (Proc.devRef .tc main_arg1)) := emb_v3 V
theorem src2 : StableHlo.after opsL0 (StableHlo.after opsEmb V) (Proc.devRef .tc main_v1) = Cert.Net.srcOf (V (Proc.devRef .tc main_arg1)) :=
  (pass_L0 _ main_v1 (by decide)).trans (src1 V)
theorem dst2 : StableHlo.after opsL0 (StableHlo.after opsEmb V) (Proc.devRef .tc main_v3) = Cert.Net.dstOf (V (Proc.devRef .tc main_arg1)) :=
  (pass_L0 _ main_v3 (by decide)).trans (dst1 V)
theorem src3 : StableHlo.after opsL1 (StableHlo.after opsL0 (StableHlo.after opsEmb V)) (Proc.devRef .tc main_v1) = Cert.Net.srcOf (V (Proc.devRef .tc main_arg1)) :=
  (pass_L1 _ main_v1 (by decide)).trans (src2 V)
theorem dst3 : StableHlo.after opsL1 (StableHlo.after opsL0 (StableHlo.after opsEmb V)) (Proc.devRef .tc main_v3) = Cert.Net.dstOf (V (Proc.devRef .tc main_arg1)) :=
  (pass_L1 _ main_v3 (by decide)).trans (dst2 V)
theorem src4 : StableHlo.after opsL2 (StableHlo.after opsL1 (StableHlo.after opsL0 (StableHlo.after opsEmb V))) (Proc.devRef .tc main_v1) = Cert.Net.srcOf (V (Proc.devRef .tc main_arg1)) :=
  (pass_L2 _ main_v1 (by decide)).trans (src3 V)
theorem dst4 : StableHlo.after opsL2 (StableHlo.after opsL1 (StableHlo.after opsL0 (StableHlo.after opsEmb V))) (Proc.devRef .tc main_v3) = Cert.Net.dstOf (V (Proc.devRef .tc main_arg1)) :=
  (pass_L2 _ main_v3 (by decide)).trans (dst3 V)

/-! ## The node array after each stage, as the specification's functions of the arguments -/

/-- The embedded node features. -/
abbrev node0 : FVec Ideal S50000x64 .f32 :=
  Cert.Net.mlp (V (Proc.devRef .tc main_arg0)) (V (Proc.devRef .tc main_arg2)) (Cert.Net.bias (V (Proc.devRef .tc main_arg3))) (V (Proc.devRef .tc main_arg4)) (Cert.Net.bias (V (Proc.devRef .tc main_arg5)))
/-- The node array after layer 0. -/
abbrev node1 : FVec Ideal S50000x64 .f32 :=
  Cert.Net.layer0 (node0 V) (Cert.Net.dstOf (V (Proc.devRef .tc main_arg1))) (Cert.Net.srcOf (V (Proc.devRef .tc main_arg1)))
    (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))
/-- The node array after layer 1. -/
abbrev node2 : FVec Ideal S50000x64 .f32 :=
  Cert.Net.layer1 (node1 V) (Cert.Net.dstOf (V (Proc.devRef .tc main_arg1))) (Cert.Net.srcOf (V (Proc.devRef .tc main_arg1)))
    (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))
/-- The node array after layer 2. -/
abbrev node3 : FVec Ideal S50000x64 .f32 :=
  Cert.Net.layer2 (node2 V) (Cert.Net.dstOf (V (Proc.devRef .tc main_arg1))) (Cert.Net.srcOf (V (Proc.devRef .tc main_arg1)))
    (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))
/-- The node array after layer 3. -/
abbrev node4 : FVec Ideal S50000x64 .f32 :=
  Cert.Net.layer3 (node3 V) (Cert.Net.dstOf (V (Proc.devRef .tc main_arg1))) (Cert.Net.srcOf (V (Proc.devRef .tc main_arg1)))
    (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13))

theorem node0_eq : StableHlo.after opsEmb V (Proc.devRef .tc main_v12) = node0 V := emb_v12 V
theorem node1_eq : StableHlo.after opsL0 (StableHlo.after opsEmb V) (Proc.devRef .tc main_v65) = node1 V := by
  rw [l0_val, node0_eq, dst1, src1, thru1 V main_arg6 arg6_not_mem, thru1 V main_arg7 arg7_not_mem, thru1 V main_arg8 arg8_not_mem, thru1 V main_arg9 arg9_not_mem,
    thru1 V main_arg10 arg10_not_mem, thru1 V main_arg11 arg11_not_mem, thru1 V main_arg12 arg12_not_mem, thru1 V main_arg13 arg13_not_mem]
theorem node2_eq : StableHlo.after opsL1 (StableHlo.after opsL0 (StableHlo.after opsEmb V)) (Proc.devRef .tc main_v118) = node2 V := by
  rw [l1_val, node1_eq, dst2, src2, thru2 V main_arg6 arg6_not_mem, thru2 V main_arg7 arg7_not_mem, thru2 V main_arg8 arg8_not_mem, thru2 V main_arg9 arg9_not_mem,
    thru2 V main_arg10 arg10_not_mem, thru2 V main_arg11 arg11_not_mem, thru2 V main_arg12 arg12_not_mem, thru2 V main_arg13 arg13_not_mem]
theorem node3_eq : StableHlo.after opsL2 (StableHlo.after opsL1 (StableHlo.after opsL0 (StableHlo.after opsEmb V))) (Proc.devRef .tc main_v171) = node3 V := by
  rw [l2_val, node2_eq, dst3, src3, thru3 V main_arg6 arg6_not_mem, thru3 V main_arg7 arg7_not_mem, thru3 V main_arg8 arg8_not_mem, thru3 V main_arg9 arg9_not_mem,
    thru3 V main_arg10 arg10_not_mem, thru3 V main_arg11 arg11_not_mem, thru3 V main_arg12 arg12_not_mem, thru3 V main_arg13 arg13_not_mem]
theorem node4_eq : StableHlo.after opsL3 (StableHlo.after opsL2 (StableHlo.after opsL1 (StableHlo.after opsL0 (StableHlo.after opsEmb V)))) (Proc.devRef .tc main_v224) = node4 V := by
  rw [l3_val, node3_eq, dst4, src4, thru4 V main_arg6 arg6_not_mem, thru4 V main_arg7 arg7_not_mem, thru4 V main_arg8 arg8_not_mem, thru4 V main_arg9 arg9_not_mem,
    thru4 V main_arg10 arg10_not_mem, thru4 V main_arg11 arg11_not_mem, thru4 V main_arg12 arg12_not_mem, thru4 V main_arg13 arg13_not_mem]

/-- THE REFERENCE'S RESULT: after all 274 operations the result buffer holds the network of the specification applied
    to the eighteen arguments. -/
theorem after_all : StableHlo.after (opsAll (F := Ideal)) V (Proc.devRef .tc main_v233)
    = Cert.Net.net (V (Proc.devRef .tc main_arg0)) (V (Proc.devRef .tc main_arg1)) (V (Proc.devRef .tc main_arg2)) (V (Proc.devRef .tc main_arg3)) (V (Proc.devRef .tc main_arg4)) (V (Proc.devRef .tc main_arg5))
        (V (Proc.devRef .tc main_arg6)) (V (Proc.devRef .tc main_arg7)) (V (Proc.devRef .tc main_arg8)) (V (Proc.devRef .tc main_arg9)) (V (Proc.devRef .tc main_arg10)) (V (Proc.devRef .tc main_arg11))
        (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [after_all_eq, head_val, node4_eq, thru5 V main_arg14 arg14_not_mem, thru5 V main_arg15 arg15_not_mem, thru5 V main_arg16 arg16_not_mem, thru5 V main_arg17 arg17_not_mem]
  rfl

end Cert.RefRun

end
-- ==== Proof.RefRun.lean ====
/- The reference's run with its result read back: every weakly fair execution of the reference program terminates with
   its result array holding the network of the specification applied to the argument arrays, and the arguments as
   launched. The run is the straight-line run of its operation list; the result is that list's value at the result
   array, read stage by stage; an argument is written by no operation. -/
import proofs.«419785_j6528350289988_1_alg».proof.Proof.RefRunMain
import proofs.«419785_j6528350289988_1_alg».proof.Proof.RefPass
import proofs.«419785_j6528350289988_1_alg».proof.Proof.RefVal

noncomputable section

namespace Cert.RefRun

open Idealize.ShloMosaic Idealize.ShloMosaic.TcCoe Idealize.SL.Sem Idealize.ShloMosaic.StableHlo
open Cert.ReferenceIdeal Cert.ReferenceIdeal.Gen

theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v233)
        = Cert.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run Cert.ReferenceIdeal.defs _ _).mono (fun r h c =>
    ⟨(h c main_v233).trans (after_all (launchContents m c)),
     (h c main_arg0).trans (after_all_arg _ main_arg0 (by decide)),
     (h c main_arg1).trans (after_all_arg _ main_arg1 (by decide)),
     (h c main_arg2).trans (after_all_arg _ main_arg2 (by decide)),
     (h c main_arg3).trans (after_all_arg _ main_arg3 (by decide)),
     (h c main_arg4).trans (after_all_arg _ main_arg4 (by decide)),
     (h c main_arg5).trans (after_all_arg _ main_arg5 (by decide)),
     (h c main_arg6).trans (after_all_arg _ main_arg6 (by decide)),
     (h c main_arg7).trans (after_all_arg _ main_arg7 (by decide)),
     (h c main_arg8).trans (after_all_arg _ main_arg8 (by decide)),
     (h c main_arg9).trans (after_all_arg _ main_arg9 (by decide)),
     (h c main_arg10).trans (after_all_arg _ main_arg10 (by decide)),
     (h c main_arg11).trans (after_all_arg _ main_arg11 (by decide)),
     (h c main_arg12).trans (after_all_arg _ main_arg12 (by decide)),
     (h c main_arg13).trans (after_all_arg _ main_arg13 (by decide)),
     (h c main_arg14).trans (after_all_arg _ main_arg14 (by decide)),
     (h c main_arg15).trans (after_all_arg _ main_arg15 (by decide)),
     (h c main_arg16).trans (after_all_arg _ main_arg16 (by decide)),
     (h c main_arg17).trans (after_all_arg _ main_arg17 (by decide))⟩)
    (run_after m ρ)

end Cert.RefRun

end
-- ==== Proof.lean ====
/- A four-layer message-passing network on a graph of 50000 nodes and 800000 edges: the kernel's program (ten Pallas
   perceptron regions among host gathers, concatenations and scatter-sums) against its jnp reference, over the extended
   reals. Both programs compute the same network: the embedding, message, update and head stages are one two-layer
   perceptron applied row by row (a block of rows of a region's output depends on the same rows of its input only, and
   a matrix product into a zero accumulator is the host's product: the same sum over the contracted coordinate); the
   kernel's narrowing of the edge features and weights to bf16 is the identity on the extended reals; and where every
   edge index lies in [0, 50000) — the stated domain — the kernel's filled gather keeps every gathered row, so it is the
   reference's plain gather. No law of the extended reals beyond these identities is used, and finiteness of the
   float inputs is not needed. The frames of the two kernel programs are the generated ones; the reference's frame is
   its run with the result dropped. -/
import proofs.«419785_j6528350289988_1_alg».proof.Defs
import proofs.«419785_j6528350289988_1_alg».proof.Proof.Gen.Kernel
import proofs.«419785_j6528350289988_1_alg».proof.Proof.Gen.Kernel.Frame
import proofs.«419785_j6528350289988_1_alg».proof.Proof.Gen.KernelIdeal
import proofs.«419785_j6528350289988_1_alg».proof.Proof.Gen.KernelIdeal.Frame
import proofs.«419785_j6528350289988_1_alg».proof.Proof.Gen.ReferenceIdeal
import proofs.«419785_j6528350289988_1_alg».proof.Proof.Gen.Pre_finite_inputs
import proofs.«419785_j6528350289988_1_alg».proof.Proof.RunAll
import proofs.«419785_j6528350289988_1_alg».proof.Proof.Chain
import proofs.«419785_j6528350289988_1_alg».proof.Proof.TakeEq
import proofs.«419785_j6528350289988_1_alg».proof.Proof.PreRange
import proofs.«419785_j6528350289988_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefRun.run m ρ)

/-- The two idealized programs end with the same result array: the network of the specification applied to the
    (agreeing) arguments. The kernel's side: its run with the result named, read through the segments down to the
    arguments, and the filled gather turned into the plain one by the index range the precondition states. The
    reference's side: its run read back stage by stage. -/
theorem algebraic : Cert.algebraic_KernelIdeal_ReferenceIdeal := by
  intro m ρ m' ρ' hpre hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run Cert.KernelIdeal.defs _ _).mono (fun r h c => ⟨(h c).1.trans ?_, (h c).2⟩)
      (Cert.KernelIdeal.RunAll.run_all (F := Ideal) m ρ)
    rw [Cert.KernelIdeal.Chain.kernel_value m ρ c]
    exact Cert.TakeEq.net_eq _ _ _ _ _ _ _ _ _ _ _ _ _ _ _ _ _ _ (fun j => Cert.PreRange.idx_range m hpre c j)
  · refine (θ_run Cert.ReferenceIdeal.defs _ _).mono (fun r h c => ⟨(h c).1.trans ?_, (h c).2⟩)
      (Cert.RefRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
